-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_16384_3125" .f32 0x40A7C5AC#32 ((16384 / 3125 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000 : Shape := ⟨1, ![2400000]⟩
abbrev S1200000 : Shape := ⟨1, ![1200000]⟩
abbrev S1000001 : Shape := ⟨1, ![1000001]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S2400000 .f32) (main_arg1 : FVec F S1200000 .f32) (main_arg2 : FVec F S1200000 .f32) (main_arg3 : IVec S1000001 32) : IVec S_ 1 :=
  let main_v0 : FVec F S2400000 .f32 := Host.absf main_arg0
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S1200000 .f32 := Host.absf main_arg1
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S1200000 .f32 := Host.absf main_arg2
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S2400000 : Shape := ⟨1, ![2400000]⟩
abbrev S1200000 : Shape := ⟨1, ![1200000]⟩
abbrev S1000001 : Shape := ⟨1, ![1000001]⟩
abbrev S1000000 : Shape := ⟨1, ![1000000]⟩
abbrev S_ : Shape := ⟨0, ![]⟩
abbrev S1000000x1 : Shape := ⟨2, ![1000000, 1]⟩
abbrev S5 : Shape := ⟨1, ![5]⟩
abbrev S1x5 : Shape := ⟨2, ![1, 5]⟩
abbrev S1000000x5 : Shape := ⟨2, ![1000000, 5]⟩
abbrev S1000448x5 : Shape := ⟨2, ![1000448, 5]⟩
abbrev S1000448x1 : Shape := ⟨2, ![1000448, 1]⟩
abbrev S512x512 : Shape := ⟨2, ![512, 512]⟩
abbrev S512x5 : Shape := ⟨2, ![512, 5]⟩
abbrev S512x1 : Shape := ⟨2, ![512, 1]⟩
abbrev S900000 : Shape := ⟨1, ![900000]⟩
abbrev S900000x1 : Shape := ⟨2, ![900000, 1]⟩
abbrev S900000x5 : Shape := ⟨2, ![900000, 5]⟩
abbrev S900096x5 : Shape := ⟨2, ![900096, 5]⟩
abbrev S900096x1 : Shape := ⟨2, ![900096, 1]⟩
abbrev S512 : Shape := ⟨1, ![512]⟩

abbrev nBuf : Space → Nat
  | .hbm => 308
  | .vmem => 23
  | .smem => 0
  | _ => 0

abbrev hbmTy0_0 (i : Nat) : BufTy := match i % 128 with
  | 0 => ⟨S2400000, .f32⟩
  | 1 => ⟨S1200000, .f32⟩
  | 2 => ⟨S1200000, .f32⟩
  | 3 => ⟨S1000001, .i32⟩
  | 4 => ⟨S1000000, .f32⟩
  | 5 => ⟨S1000000, .f32⟩
  | 6 => ⟨S_, .f32⟩
  | 7 => ⟨S1000000, .f32⟩
  | 8 => ⟨S1000000, .f32⟩
  | 9 => ⟨S_, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000, .f32⟩
  | 28 => ⟨S1000000, .i32⟩
  | 29 => ⟨S1000000, .i32⟩
  | 30 => ⟨S1000000, .i32⟩
  | 31 => ⟨S1000000, .f32⟩
  | 32 => ⟨S_, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S1000000, .f32⟩
  | 39 => ⟨S_, .f32⟩
  | 40 => ⟨S1000000, .f32⟩
  | 41 => ⟨S1000000, .f32⟩
  | 42 => ⟨S_, .f32⟩
  | 43 => ⟨S1000000, .f32⟩
  | 44 => ⟨S1000000, .f32⟩
  | 45 => ⟨S1000000, .f32⟩
  | 46 => ⟨S1000000, .i32⟩
  | 47 => ⟨S_, .i32⟩
  | 48 => ⟨S_, .i32⟩
  | 49 => ⟨S_, .i32⟩
  | 50 => ⟨S1000000, .i32⟩
  | 51 => ⟨S1000000, .i32⟩
  | 52 => ⟨S_, .i32⟩
  | 53 => ⟨S1000000, .i32⟩
  | 54 => ⟨S1000000, .i32⟩
  | 55 => ⟨S1000000x1, .i32⟩
  | 56 => ⟨S5, .i32⟩
  | 57 => ⟨S1x5, .i32⟩
  | 58 => ⟨S1000000x5, .i32⟩
  | 59 => ⟨S1000000x5, .i32⟩
  | 60 => ⟨S1000000x5, .i32⟩
  | 61 => ⟨S_, .i32⟩
  | 62 => ⟨S1000000x5, .i32⟩
  | 63 => ⟨S1000000x5, .i1⟩
  | 64 => ⟨S_, .i32⟩
  | 65 => ⟨S_, .i32⟩
  | 66 => ⟨S_, .i32⟩
  | 67 => ⟨S1000000x5, .i32⟩
  | 68 => ⟨S1000000x5, .i32⟩
  | 69 => ⟨S_, .i32⟩
  | 70 => ⟨S1000000x5, .i32⟩
  | 71 => ⟨S1000000x5, .i32⟩
  | 72 => ⟨S1000000x5, .f32⟩
  | 73 => ⟨S_, .f32⟩
  | 74 => ⟨S1000000x5, .f32⟩
  | 75 => ⟨S1000000x5, .f32⟩
  | 76 => ⟨S_, .f32⟩
  | 77 => ⟨S1000000x5, .f32⟩
  | 78 => ⟨S1000000x5, .f32⟩
  | 79 => ⟨S1000000x1, .f32⟩
  | 80 => ⟨S_, .f32⟩
  | 81 => ⟨S1000000x5, .f32⟩
  | 82 => ⟨S1000000x5, .f32⟩
  | 83 => ⟨S1000000x5, .f32⟩
  | 84 => ⟨S1000000x5, .f32⟩
  | 85 => ⟨S1000000x1, .f32⟩
  | 86 => ⟨S1000000x5, .f32⟩
  | 87 => ⟨S1000000x5, .f32⟩
  | 88 => ⟨S1000000x5, .f32⟩
  | 89 => ⟨S_, .f32⟩
  | 90 => ⟨S1000000x5, .f32⟩
  | 91 => ⟨S1000000x5, .f32⟩
  | 92 => ⟨S_, .f32⟩
  | 93 => ⟨S_, .f32⟩
  | 94 => ⟨S1000000x5, .f32⟩
  | 95 => ⟨S1000000x5, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S1000000, .f32⟩
  | 105 => ⟨S1000000, .i32⟩
  | 106 => ⟨S_, .i32⟩
  | 107 => ⟨S_, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i32⟩
  | 114 => ⟨S1000000x1, .i32⟩
  | 115 => ⟨S5, .i32⟩
  | 116 => ⟨S1x5, .i32⟩
  | 117 => ⟨S1000000x5, .i32⟩
  | 118 => ⟨S1000000x5, .i32⟩
  | 119 => ⟨S1000000x5, .i32⟩
  | 120 => ⟨S_, .i32⟩
  | 121 => ⟨S1000000x5, .i32⟩
  | 122 => ⟨S1000000x5, .i1⟩
  | 123 => ⟨S_, .i32⟩
  | 124 => ⟨S_, .i32⟩
  | 125 => ⟨S_, .i32⟩
  | 126 => ⟨S1000000x5, .i32⟩
  | 127 => ⟨S1000000x5, .i32⟩
  | _ => ⟨S2400000, .f32⟩

abbrev hbmTy0_1 (i : Nat) : BufTy := match i % 128 with
  | 0 => ⟨S_, .i32⟩
  | 1 => ⟨S1000000x5, .i32⟩
  | 2 => ⟨S1000000x5, .i32⟩
  | 3 => ⟨S1000000x5, .f32⟩
  | 4 => ⟨S_, .f32⟩
  | 5 => ⟨S1000000x5, .f32⟩
  | 6 => ⟨S1000000x5, .f32⟩
  | 7 => ⟨S_, .f32⟩
  | 8 => ⟨S1000000x5, .f32⟩
  | 9 => ⟨S1000000x5, .f32⟩
  | 10 => ⟨S1000000x1, .f32⟩
  | 11 => ⟨S_, .f32⟩
  | 12 => ⟨S1000000x5, .f32⟩
  | 13 => ⟨S1000000x5, .f32⟩
  | 14 => ⟨S1000000x5, .f32⟩
  | 15 => ⟨S1000000x5, .f32⟩
  | 16 => ⟨S1000000x1, .f32⟩
  | 17 => ⟨S1000000x5, .f32⟩
  | 18 => ⟨S1000000x5, .f32⟩
  | 19 => ⟨S1000000x5, .f32⟩
  | 20 => ⟨S_, .f32⟩
  | 21 => ⟨S1000000x5, .f32⟩
  | 22 => ⟨S1000000x5, .f32⟩
  | 23 => ⟨S_, .f32⟩
  | 24 => ⟨S_, .f32⟩
  | 25 => ⟨S1000000x5, .f32⟩
  | 26 => ⟨S1000000x5, .f32⟩
  | 27 => ⟨S_, .i32⟩
  | 28 => ⟨S_, .i32⟩
  | 29 => ⟨S1000448x5, .i32⟩
  | 30 => ⟨S_, .f32⟩
  | 31 => ⟨S_, .f32⟩
  | 32 => ⟨S1000448x5, .f32⟩
  | 33 => ⟨S_, .i32⟩
  | 34 => ⟨S_, .i32⟩
  | 35 => ⟨S1000448x5, .i32⟩
  | 36 => ⟨S_, .f32⟩
  | 37 => ⟨S_, .f32⟩
  | 38 => ⟨S1000448x5, .f32⟩
  | 39 => ⟨S1000000x1, .f32⟩
  | 40 => ⟨S_, .f32⟩
  | 41 => ⟨S_, .f32⟩
  | 42 => ⟨S1000448x1, .f32⟩
  | 43 => ⟨S512x512, .f32⟩
  | 44 => ⟨S512x512, .bf16⟩
  | 45 => ⟨S900000, .f32⟩
  | 46 => ⟨S900000, .f32⟩
  | 47 => ⟨S900000, .f32⟩
  | 48 => ⟨S900000, .f32⟩
  | 49 => ⟨S900000, .f32⟩
  | 50 => ⟨S900000, .f32⟩
  | 51 => ⟨S_, .f32⟩
  | 52 => ⟨S900000, .f32⟩
  | 53 => ⟨S900000, .f32⟩
  | 54 => ⟨S_, .f32⟩
  | 55 => ⟨S900000, .f32⟩
  | 56 => ⟨S900000, .f32⟩
  | 57 => ⟨S900000, .f32⟩
  | 58 => ⟨S900000, .i32⟩
  | 59 => ⟨S_, .i32⟩
  | 60 => ⟨S_, .i32⟩
  | 61 => ⟨S_, .i32⟩
  | 62 => ⟨S900000, .i32⟩
  | 63 => ⟨S900000, .i32⟩
  | 64 => ⟨S_, .i32⟩
  | 65 => ⟨S900000, .i32⟩
  | 66 => ⟨S900000, .i32⟩
  | 67 => ⟨S900000x1, .i32⟩
  | 68 => ⟨S5, .i32⟩
  | 69 => ⟨S1x5, .i32⟩
  | 70 => ⟨S900000x5, .i32⟩
  | 71 => ⟨S900000x5, .i32⟩
  | 72 => ⟨S900000x5, .i32⟩
  | 73 => ⟨S_, .i32⟩
  | 74 => ⟨S900000x5, .i32⟩
  | 75 => ⟨S900000x5, .i1⟩
  | 76 => ⟨S_, .i32⟩
  | 77 => ⟨S_, .i32⟩
  | 78 => ⟨S_, .i32⟩
  | 79 => ⟨S900000x5, .i32⟩
  | 80 => ⟨S900000x5, .i32⟩
  | 81 => ⟨S_, .i32⟩
  | 82 => ⟨S900000x5, .i32⟩
  | 83 => ⟨S900000x5, .i32⟩
  | 84 => ⟨S900000x5, .f32⟩
  | 85 => ⟨S_, .f32⟩
  | 86 => ⟨S900000x5, .f32⟩
  | 87 => ⟨S900000x5, .f32⟩
  | 88 => ⟨S_, .f32⟩
  | 89 => ⟨S900000x5, .f32⟩
  | 90 => ⟨S900000x5, .f32⟩
  | 91 => ⟨S900000x1, .f32⟩
  | 92 => ⟨S_, .f32⟩
  | 93 => ⟨S900000x5, .f32⟩
  | 94 => ⟨S900000x5, .f32⟩
  | 95 => ⟨S900000x5, .f32⟩
  | 96 => ⟨S900000x5, .f32⟩
  | 97 => ⟨S900000x1, .f32⟩
  | 98 => ⟨S900000x5, .f32⟩
  | 99 => ⟨S900000x5, .f32⟩
  | 100 => ⟨S900000x5, .f32⟩
  | 101 => ⟨S_, .f32⟩
  | 102 => ⟨S900000x5, .f32⟩
  | 103 => ⟨S900000x5, .f32⟩
  | 104 => ⟨S_, .f32⟩
  | 105 => ⟨S_, .f32⟩
  | 106 => ⟨S900000x5, .f32⟩
  | 107 => ⟨S900000x5, .f32⟩
  | 108 => ⟨S_, .f32⟩
  | 109 => ⟨S900000, .f32⟩
  | 110 => ⟨S900000, .f32⟩
  | 111 => ⟨S_, .f32⟩
  | 112 => ⟨S900000, .f32⟩
  | 113 => ⟨S900000, .f32⟩
  | 114 => ⟨S900000, .f32⟩
  | 115 => ⟨S900000, .i32⟩
  | 116 => ⟨S_, .i32⟩
  | 117 => ⟨S_, .i32⟩
  | 118 => ⟨S_, .i32⟩
  | 119 => ⟨S900000, .i32⟩
  | 120 => ⟨S900000, .i32⟩
  | 121 => ⟨S_, .i32⟩
  | 122 => ⟨S900000, .i32⟩
  | 123 => ⟨S900000, .i32⟩
  | 124 => ⟨S900000x1, .i32⟩
  | 125 => ⟨S5, .i32⟩
  | 126 => ⟨S1x5, .i32⟩
  | 127 => ⟨S900000x5, .i32⟩
  | _ => ⟨S2400000, .f32⟩

abbrev hbmTy0_2 (i : Nat) : BufTy := match i % 128 with
  | 0 => ⟨S900000x5, .i32⟩
  | 1 => ⟨S900000x5, .i32⟩
  | 2 => ⟨S_, .i32⟩
  | 3 => ⟨S900000x5, .i32⟩
  | 4 => ⟨S900000x5, .i1⟩
  | 5 => ⟨S_, .i32⟩
  | 6 => ⟨S_, .i32⟩
  | 7 => ⟨S_, .i32⟩
  | 8 => ⟨S900000x5, .i32⟩
  | 9 => ⟨S900000x5, .i32⟩
  | 10 => ⟨S_, .i32⟩
  | 11 => ⟨S900000x5, .i32⟩
  | 12 => ⟨S900000x5, .i32⟩
  | 13 => ⟨S900000x5, .f32⟩
  | 14 => ⟨S_, .f32⟩
  | 15 => ⟨S900000x5, .f32⟩
  | 16 => ⟨S900000x5, .f32⟩
  | 17 => ⟨S_, .f32⟩
  | 18 => ⟨S900000x5, .f32⟩
  | 19 => ⟨S900000x5, .f32⟩
  | 20 => ⟨S900000x1, .f32⟩
  | 21 => ⟨S_, .f32⟩
  | 22 => ⟨S900000x5, .f32⟩
  | 23 => ⟨S900000x5, .f32⟩
  | 24 => ⟨S900000x5, .f32⟩
  | 25 => ⟨S900000x5, .f32⟩
  | 26 => ⟨S900000x1, .f32⟩
  | 27 => ⟨S900000x5, .f32⟩
  | 28 => ⟨S900000x5, .f32⟩
  | 29 => ⟨S900000x5, .f32⟩
  | 30 => ⟨S_, .f32⟩
  | 31 => ⟨S900000x5, .f32⟩
  | 32 => ⟨S900000x5, .f32⟩
  | 33 => ⟨S_, .f32⟩
  | 34 => ⟨S_, .f32⟩
  | 35 => ⟨S900000x5, .f32⟩
  | 36 => ⟨S900000x5, .f32⟩
  | 37 => ⟨S_, .i32⟩
  | 38 => ⟨S_, .i32⟩
  | 39 => ⟨S900096x5, .i32⟩
  | 40 => ⟨S_, .f32⟩
  | 41 => ⟨S_, .f32⟩
  | 42 => ⟨S900096x5, .f32⟩
  | 43 => ⟨S_, .i32⟩
  | 44 => ⟨S_, .i32⟩
  | 45 => ⟨S900096x5, .i32⟩
  | 46 => ⟨S_, .f32⟩
  | 47 => ⟨S_, .f32⟩
  | 48 => ⟨S900096x5, .f32⟩
  | 49 => ⟨S900096x1, .f32⟩
  | 50 => ⟨S900000x1, .f32⟩
  | 51 => ⟨S900000, .f32⟩
  | _ => ⟨S2400000, .f32⟩

abbrev hbmTy (i : Nat) : BufTy := match i / 128 with
  | 0 => hbmTy0_0 i
  | 1 => hbmTy0_1 i
  | 2 => hbmTy0_2 i
  | _ => ⟨S2400000, .f32⟩

abbrev bufTy : (tb : Table) → Fin (tcTables nBuf tb) → BufTy
  | .hbm, ⟨i, _⟩ => hbmTy i
  | .local _ .vmem, ⟨0, _⟩ => ⟨S512x5, .i32⟩
  | .local _ .vmem, ⟨1, _⟩ => ⟨S512x5, .i32⟩
  | .local _ .vmem, ⟨2, _⟩ => ⟨S512x5, .f32⟩
  | .local _ .vmem, ⟨3, _⟩ => ⟨S512x5, .f32⟩
  | .local _ .vmem, ⟨4, _⟩ => ⟨S512x5, .i32⟩
  | .local _ .vmem, ⟨5, _⟩ => ⟨S512x5, .i32⟩
  | .local _ .vmem, ⟨6, _⟩ => ⟨S512x5, .f32⟩
  | .local _ .vmem, ⟨7, _⟩ => ⟨S512x5, .f32⟩
  | .local _ .vmem, ⟨8, _⟩ => ⟨S512x1, .f32⟩
  | .local _ .vmem, ⟨9, _⟩ => ⟨S512x1, .f32⟩
  | .local _ .vmem, ⟨10, _⟩ => ⟨S512x512, .f32⟩
  | .local _ .vmem, ⟨11, _⟩ => ⟨S512x512, .f32⟩
  | .local _ .vmem, ⟨12, _⟩ => ⟨S512x5, .i32⟩
  | .local _ .vmem, ⟨13, _⟩ => ⟨S512x5, .i32⟩
  | .local _ .vmem, ⟨14, _⟩ => ⟨S512x5, .f32⟩
  | .local _ .vmem, ⟨15, _⟩ => ⟨S512x5, .f32⟩
  | .local _ .vmem, ⟨16, _⟩ => ⟨S512x5, .i32⟩
  | .local _ .vmem, ⟨17, _⟩ => ⟨S512x5, .i32⟩
  | .local _ .vmem, ⟨18, _⟩ => ⟨S512x5, .f32⟩
  | .local _ .vmem, ⟨19, _⟩ => ⟨S512x5, .f32⟩
  | .local _ .vmem, ⟨20, _⟩ => ⟨S512x512, .bf16⟩
  | .local _ .vmem, ⟨21, _⟩ => ⟨S512x1, .f32⟩
  | .local _ .vmem, ⟨22, _⟩ => ⟨S512x1, .f32⟩
  | _, _ => ⟨S2400000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_c_8 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_c_11 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_cst_16 : Ref sig .tc := ⟨.hbm, 92, rfl⟩
abbrev main_call2_v0 : Ref sig .tc := ⟨.hbm, 93, rfl⟩
abbrev main_call2_v1 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_17 : Ref sig .tc := ⟨.hbm, 98, rfl⟩
abbrev main_v63 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_19 : Ref sig .tc := ⟨.hbm, 106, rfl⟩
abbrev main_c_20 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_21 : Ref sig .tc := ⟨.hbm, 120, rfl⟩
abbrev main_v76 : Ref sig .tc := ⟨.hbm, 121, rfl⟩
abbrev main_v77 : Ref sig .tc := ⟨.hbm, 122, rfl⟩
abbrev main_c_22 : Ref sig .tc := ⟨.hbm, 123, rfl⟩
abbrev main_c_23 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_v78 : Ref sig .tc := ⟨.hbm, 130, rfl⟩
abbrev main_v79 : Ref sig .tc := ⟨.hbm, 131, rfl⟩
abbrev main_cst_24 : Ref sig .tc := ⟨.hbm, 132, rfl⟩
abbrev main_v80 : Ref sig .tc := ⟨.hbm, 133, rfl⟩
abbrev main_v81 : Ref sig .tc := ⟨.hbm, 134, rfl⟩
abbrev main_cst_25 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_26 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_27 : Ref sig .tc := ⟨.hbm, 148, rfl⟩
abbrev main_v93 : Ref sig .tc := ⟨.hbm, 149, rfl⟩
abbrev main_v94 : Ref sig .tc := ⟨.hbm, 150, rfl⟩
abbrev main_cst_28 : Ref sig .tc := ⟨.hbm, 151, rfl⟩
abbrev main_call5_v0 : Ref sig .tc := ⟨.hbm, 152, rfl⟩
abbrev main_call5_v1 : Ref sig .tc := ⟨.hbm, 153, rfl⟩
abbrev main_v95 : Ref sig .tc := ⟨.hbm, 154, rfl⟩
abbrev main_c_29 : Ref sig .tc := ⟨.hbm, 155, rfl⟩
abbrev main_call6_v0 : Ref sig .tc := ⟨.hbm, 156, rfl⟩
abbrev main_v96 : Ref sig .tc := ⟨.hbm, 157, rfl⟩
abbrev main_cst_30 : Ref sig .tc := ⟨.hbm, 158, rfl⟩
abbrev main_call7_v0 : Ref sig .tc := ⟨.hbm, 159, rfl⟩
abbrev main_v97 : Ref sig .tc := ⟨.hbm, 160, rfl⟩
abbrev main_c_31 : Ref sig .tc := ⟨.hbm, 161, rfl⟩
abbrev main_call8_v0 : Ref sig .tc := ⟨.hbm, 162, rfl⟩
abbrev main_v98 : Ref sig .tc := ⟨.hbm, 163, rfl⟩
abbrev main_cst_32 : Ref sig .tc := ⟨.hbm, 164, rfl⟩
abbrev main_call9_v0 : Ref sig .tc := ⟨.hbm, 165, rfl⟩
abbrev main_v99 : Ref sig .tc := ⟨.hbm, 166, rfl⟩
abbrev main_v100 : Ref sig .tc := ⟨.hbm, 167, rfl⟩
abbrev main_cst_33 : Ref sig .tc := ⟨.hbm, 168, rfl⟩
abbrev main_call10_v0 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_34 : Ref sig .tc := ⟨.hbm, 179, rfl⟩
abbrev main_v110 : Ref sig .tc := ⟨.hbm, 180, rfl⟩
abbrev main_v111 : Ref sig .tc := ⟨.hbm, 181, rfl⟩
abbrev main_cst_35 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_36 : Ref sig .tc := ⟨.hbm, 187, rfl⟩
abbrev main_c_37 : Ref sig .tc := ⟨.hbm, 188, rfl⟩
abbrev main_call11_v0 : Ref sig .tc := ⟨.hbm, 189, rfl⟩
abbrev main_call11_v1 : Ref sig .tc := ⟨.hbm, 190, rfl⟩
abbrev main_call11_v2 : Ref sig .tc := ⟨.hbm, 191, rfl⟩
abbrev main_call11_v3 : Ref sig .tc := ⟨.hbm, 192, rfl⟩
abbrev main_call11_v4 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_c_38 : Ref sig .tc := ⟨.hbm, 201, rfl⟩
abbrev main_v123 : Ref sig .tc := ⟨.hbm, 202, rfl⟩
abbrev main_v124 : Ref sig .tc := ⟨.hbm, 203, rfl⟩
abbrev main_c_39 : Ref sig .tc := ⟨.hbm, 204, rfl⟩
abbrev main_c_40 : Ref sig .tc := ⟨.hbm, 205, rfl⟩
abbrev main_call12_v0 : Ref sig .tc := ⟨.hbm, 206, rfl⟩
abbrev main_call12_v1 : Ref sig .tc := ⟨.hbm, 207, rfl⟩
abbrev main_call12_v2 : Ref sig .tc := ⟨.hbm, 208, rfl⟩
abbrev main_call12_v3 : Ref sig .tc := ⟨.hbm, 209, rfl⟩
abbrev main_call12_v4 : Ref sig .tc := ⟨.hbm, 210, rfl⟩
abbrev main_v125 : Ref sig .tc := ⟨.hbm, 211, rfl⟩
abbrev main_v126 : Ref sig .tc := ⟨.hbm, 212, rfl⟩
abbrev main_cst_41 : Ref sig .tc := ⟨.hbm, 213, rfl⟩
abbrev main_v127 : Ref sig .tc := ⟨.hbm, 214, rfl⟩
abbrev main_v128 : Ref sig .tc := ⟨.hbm, 215, rfl⟩
abbrev main_cst_42 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_cst_43 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_cst_44 : Ref sig .tc := ⟨.hbm, 229, rfl⟩
abbrev main_v140 : Ref sig .tc := ⟨.hbm, 230, rfl⟩
abbrev main_v141 : Ref sig .tc := ⟨.hbm, 231, rfl⟩
abbrev main_cst_45 : Ref sig .tc := ⟨.hbm, 232, rfl⟩
abbrev main_call13_v0 : Ref sig .tc := ⟨.hbm, 233, rfl⟩
abbrev main_call13_v1 : Ref sig .tc := ⟨.hbm, 234, rfl⟩
abbrev main_v142 : Ref sig .tc := ⟨.hbm, 235, rfl⟩
abbrev main_cst_46 : Ref sig .tc := ⟨.hbm, 236, rfl⟩
abbrev main_v143 : Ref sig .tc := ⟨.hbm, 237, rfl⟩
abbrev main_v144 : Ref sig .tc := ⟨.hbm, 238, rfl⟩
abbrev main_cst_47 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_c_48 : Ref sig .tc := ⟨.hbm, 244, rfl⟩
abbrev main_c_49 : Ref sig .tc := ⟨.hbm, 245, rfl⟩
abbrev main_call14_v0 : Ref sig .tc := ⟨.hbm, 246, rfl⟩
abbrev main_call14_v1 : Ref sig .tc := ⟨.hbm, 247, rfl⟩
abbrev main_call14_v2 : Ref sig .tc := ⟨.hbm, 248, rfl⟩
abbrev main_call14_v3 : Ref sig .tc := ⟨.hbm, 249, rfl⟩
abbrev main_call14_v4 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_c_50 : Ref sig .tc := ⟨.hbm, 258, rfl⟩
abbrev main_v156 : Ref sig .tc := ⟨.hbm, 259, rfl⟩
abbrev main_v157 : Ref sig .tc := ⟨.hbm, 260, rfl⟩
abbrev main_c_51 : Ref sig .tc := ⟨.hbm, 261, rfl⟩
abbrev main_c_52 : Ref sig .tc := ⟨.hbm, 262, rfl⟩
abbrev main_call15_v0 : Ref sig .tc := ⟨.hbm, 263, rfl⟩
abbrev main_call15_v1 : Ref sig .tc := ⟨.hbm, 264, rfl⟩
abbrev main_call15_v2 : Ref sig .tc := ⟨.hbm, 265, rfl⟩
abbrev main_call15_v3 : Ref sig .tc := ⟨.hbm, 266, rfl⟩
abbrev main_call15_v4 : Ref sig .tc := ⟨.hbm, 267, rfl⟩
abbrev main_v158 : Ref sig .tc := ⟨.hbm, 268, rfl⟩
abbrev main_v159 : Ref sig .tc := ⟨.hbm, 269, rfl⟩
abbrev main_cst_53 : Ref sig .tc := ⟨.hbm, 270, rfl⟩
abbrev main_v160 : Ref sig .tc := ⟨.hbm, 271, rfl⟩
abbrev main_v161 : Ref sig .tc := ⟨.hbm, 272, rfl⟩
abbrev main_cst_54 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_cst_55 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_56 : Ref sig .tc := ⟨.hbm, 286, rfl⟩
abbrev main_v173 : Ref sig .tc := ⟨.hbm, 287, rfl⟩
abbrev main_v174 : Ref sig .tc := ⟨.hbm, 288, rfl⟩
abbrev main_cst_57 : Ref sig .tc := ⟨.hbm, 289, rfl⟩
abbrev main_call16_v0 : Ref sig .tc := ⟨.hbm, 290, rfl⟩
abbrev main_call16_v1 : Ref sig .tc := ⟨.hbm, 291, rfl⟩
abbrev main_v175 : Ref sig .tc := ⟨.hbm, 292, rfl⟩
abbrev main_c_58 : Ref sig .tc := ⟨.hbm, 293, rfl⟩
abbrev main_call17_v0 : Ref sig .tc := ⟨.hbm, 294, rfl⟩
abbrev main_v176 : Ref sig .tc := ⟨.hbm, 295, rfl⟩
abbrev main_cst_59 : Ref sig .tc := ⟨.hbm, 296, rfl⟩
abbrev main_call18_v0 : Ref sig .tc := ⟨.hbm, 297, rfl⟩
abbrev main_v177 : Ref sig .tc := ⟨.hbm, 298, rfl⟩
abbrev main_c_60 : Ref sig .tc := ⟨.hbm, 299, rfl⟩
abbrev main_call19_v0 : Ref sig .tc := ⟨.hbm, 300, rfl⟩
abbrev main_v178 : Ref sig .tc := ⟨.hbm, 301, rfl⟩
abbrev main_cst_61 : Ref sig .tc := ⟨.hbm, 302, rfl⟩
abbrev main_call20_v0 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![1954], ![false]⟩

def k0_cond2 (i : grid0.Coords) : BitVec 1 :=
  let arg0 : BitVec 32 := BitVec.ofNat 32 (i 0).val
  let c1953_i32 : BitVec 32 := 1953#32
  let v117 : BitVec 1 := Scalar.cmpi .eq arg0 c1953_i32
  let v118 : BitVec 32 := Scalar.extui v117
  let c0_i32_26 : BitVec 32 := 0#32
  let v119 : BitVec 1 := Scalar.cmpi .ne v118 c0_i32_26
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1758], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x5 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x5 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S1200000_S1000000_0 : S1200000.Slices ![0] S1000000
  bcast_S_S1000000 : S_.BroadcastsInDim S1000000 (![] : Fin 0 → Fin S1000000.rank)
  slices_S2400000_S1000000_0 : S2400000.Slices ![0] S1000000
  slices_S2400000_S1000000_1200000 : S2400000.Slices ![1200000] S1000000
  slices_S1000001_S1000000_1 : S1000001.Slices ![1] S1000000
  slices_S1000001_S1000000_0 : S1000001.Slices ![0] S1000000
  bcast_S1000000_S1000000x1_0 : S1000000.BroadcastsInDim S1000000x1 (![0] : Fin 1 → Fin S1000000x1.rank)
  bcast_S5_S1x5_1 : S5.BroadcastsInDim S1x5 (![1] : Fin 1 → Fin S1x5.rank)
  bcast_S1000000x1_S1000000x5_0_1 : S1000000x1.BroadcastsInDim S1000000x5 (![0, 1] : Fin 2 → Fin S1000000x5.rank)
  bcast_S1x5_S1000000x5_0_1 : S1x5.BroadcastsInDim S1000000x5 (![0, 1] : Fin 2 → Fin S1000000x5.rank)
  bcast_S_S1000000x5 : S_.BroadcastsInDim S1000000x5 (![] : Fin 0 → Fin S1000000x5.rank)
  pads_S1000000x5_S1000448x5_04480_000 : S1000000x5.Pads (![0, 0] : Fin 2 → Nat) ![448, 0] ![0, 0] S1000448x5
  h_S_ : 0 < S_.numel
  pads_S1000000x1_S1000448x1_04480_000 : S1000000x1.Pads (![0, 0] : Fin 2 → Nat) ![448, 0] ![0, 0] S1000448x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d1_w32 : S512x512.Iotas .tc 32 [1]
  slices_S512x5_o0_0_S512x1 : S512x5.Slices ![0, 0] S512x1
  broadcasts_S512x1_S512x512 : S512x1.Broadcasts S512x512
  slices_S512x5_o0_1_S512x1 : S512x5.Slices ![0, 1] S512x1
  slices_S512x5_o0_2_S512x1 : S512x5.Slices ![0, 2] S512x1
  slices_S512x5_o0_3_S512x1 : S512x5.Slices ![0, 3] S512x1
  slices_S512x5_o0_4_S512x1 : S512x5.Slices ![0, 4] S512x1
  bitsLt_bf16_f32 : FTy.bits .bf16 < FTy.bits .f32
  slices_S2400000_S900000_0 : S2400000.Slices ![0] S900000
  slices_S1200000_S900000_0 : S1200000.Slices ![0] S900000
  slices_S2400000_S900000_1200000 : S2400000.Slices ![1200000] S900000
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x5_0_1 : S900000x1.BroadcastsInDim S900000x5 (![0, 1] : Fin 2 → Fin S900000x5.rank)
  bcast_S1x5_S900000x5_0_1 : S1x5.BroadcastsInDim S900000x5 (![0, 1] : Fin 2 → Fin S900000x5.rank)
  bcast_S_S900000x5 : S_.BroadcastsInDim S900000x5 (![] : Fin 0 → Fin S900000x5.rank)
  pads_S900000x5_S900096x5_0960_000 : S900000x5.Pads (![0, 0] : Fin 2 → Nat) ![96, 0] ![0, 0] S900096x5
  reduces_S512x512_S512 : S512x512.Reduces [1] S512
  shapeCasts_S512_S512x1 : S512.ShapeCasts S512x1
  slices_S900096x1_S900000x1_0_0 : S900096x1.Slices ![0, 0] S900000x1
  shapeCasts_S900000x1_S900000 : S900000x1.ShapeCasts S900000
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5.size a ≤ S1000448x5.size a
  hwx0_0 : ∀ i : grid0.Coords, EltTy.bits .i32 = 32 ∨ (Rect.block (s := S1000448x5) S512x5.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S1000448x5.size a
  hwx0_1 : ∀ i : grid0.Coords, EltTy.bits .f32 = 32 ∨ (Rect.block (s := S1000448x5) S512x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x5.size a ≤ S1000448x5.size a
  hwx0_2 : ∀ i : grid0.Coords, EltTy.bits .i32 = 32 ∨ (Rect.block (s := S1000448x5) S512x5.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x5.size a ≤ S1000448x5.size a
  hwx0_3 : ∀ i : grid0.Coords, EltTy.bits .f32 = 32 ∨ (Rect.block (s := S1000448x5) S512x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S1000448x1.size a
  hwx0_4 : ∀ i : grid0.Coords, EltTy.bits .f32 = 32 ∨ (Rect.block (s := S1000448x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5.size a ≤ S900096x5.size a
  hwx1_0 : ∀ i : grid1.Coords, EltTy.bits .i32 = 32 ∨ (Rect.block (s := S900096x5) S512x5.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x5.size a ≤ S900096x5.size a
  hwx1_1 : ∀ i : grid1.Coords, EltTy.bits .f32 = 32 ∨ (Rect.block (s := S900096x5) S512x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x5.size a ≤ S900096x5.size a
  hwx1_2 : ∀ i : grid1.Coords, EltTy.bits .i32 = 32 ∨ (Rect.block (s := S900096x5) S512x5.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x5.size a ≤ S900096x5.size a
  hwx1_3 : ∀ i : grid1.Coords, EltTy.bits .f32 = 32 ∨ (Rect.block (s := S900096x5) S512x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S900096x1.size a
  hwx1_5 : ∀ i : grid1.Coords, EltTy.bits .f32 = 32 ∨ (Rect.block (s := S900096x1) S512x1.size (cc1_transform_5 i) (hinb1_5 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v96) S512x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S512x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S512x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v99) S512x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v101) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v102) S512x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v176) S512x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v177) S512x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v178) S512x5.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v179) S512x5.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v103) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v180) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2400000 : Shape := ⟨1, ![2400000]⟩
abbrev S1200000 : Shape := ⟨1, ![1200000]⟩
abbrev S1000001 : Shape := ⟨1, ![1000001]⟩
abbrev S1000000 : Shape := ⟨1, ![1000000]⟩
abbrev S_ : Shape := ⟨0, ![]⟩
abbrev S1000000x1 : Shape := ⟨2, ![1000000, 1]⟩
abbrev S5 : Shape := ⟨1, ![5]⟩
abbrev S1x5 : Shape := ⟨2, ![1, 5]⟩
abbrev S1000000x5 : Shape := ⟨2, ![1000000, 5]⟩
abbrev S1000000x5x1 : Shape := ⟨3, ![1000000, 5, 1]⟩
abbrev S1000000x1x5 : Shape := ⟨3, ![1000000, 1, 5]⟩
abbrev S1000000x5x5 : Shape := ⟨3, ![1000000, 5, 5]⟩
abbrev S1000000x1x1 : Shape := ⟨3, ![1000000, 1, 1]⟩
abbrev S25000000 : Shape := ⟨1, ![25000000]⟩
abbrev S262144 : Shape := ⟨1, ![262144]⟩
abbrev S25000000x1 : Shape := ⟨2, ![25000000, 1]⟩
abbrev S900000 : Shape := ⟨1, ![900000]⟩
abbrev S900000x1 : Shape := ⟨2, ![900000, 1]⟩
abbrev S900000x5 : Shape := ⟨2, ![900000, 5]⟩
abbrev S900000x5x1 : Shape := ⟨3, ![900000, 5, 1]⟩
abbrev S900000x1x5 : Shape := ⟨3, ![900000, 1, 5]⟩
abbrev S900000x5x5 : Shape := ⟨3, ![900000, 5, 5]⟩
abbrev S900000x5x5x1 : Shape := ⟨4, ![900000, 5, 5, 1]⟩

abbrev nBuf : Space → Nat
  | .hbm => 340
  | .vmem => 0
  | .smem => 0
  | _ => 0

abbrev hbmTy0_0 (i : Nat) : BufTy := match i % 128 with
  | 0 => ⟨S2400000, .f32⟩
  | 1 => ⟨S1200000, .f32⟩
  | 2 => ⟨S1200000, .f32⟩
  | 3 => ⟨S1000001, .i32⟩
  | 4 => ⟨S1000000, .f32⟩
  | 5 => ⟨S1000000, .f32⟩
  | 6 => ⟨S_, .f32⟩
  | 7 => ⟨S1000000, .f32⟩
  | 8 => ⟨S1000000, .f32⟩
  | 9 => ⟨S_, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000, .f32⟩
  | 28 => ⟨S1000000, .i32⟩
  | 29 => ⟨S1000000, .i32⟩
  | 30 => ⟨S1000000, .i32⟩
  | 31 => ⟨S1000000, .f32⟩
  | 32 => ⟨S_, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S1000000, .f32⟩
  | 39 => ⟨S_, .f32⟩
  | 40 => ⟨S1000000, .f32⟩
  | 41 => ⟨S1000000, .f32⟩
  | 42 => ⟨S_, .f32⟩
  | 43 => ⟨S1000000, .f32⟩
  | 44 => ⟨S1000000, .f32⟩
  | 45 => ⟨S1000000, .f32⟩
  | 46 => ⟨S1000000, .i32⟩
  | 47 => ⟨S_, .i32⟩
  | 48 => ⟨S_, .i32⟩
  | 49 => ⟨S_, .i32⟩
  | 50 => ⟨S1000000, .i32⟩
  | 51 => ⟨S1000000, .i32⟩
  | 52 => ⟨S_, .i32⟩
  | 53 => ⟨S1000000, .i32⟩
  | 54 => ⟨S1000000, .i32⟩
  | 55 => ⟨S1000000x1, .i32⟩
  | 56 => ⟨S5, .i32⟩
  | 57 => ⟨S1x5, .i32⟩
  | 58 => ⟨S1000000x5, .i32⟩
  | 59 => ⟨S1000000x5, .i32⟩
  | 60 => ⟨S1000000x5, .i32⟩
  | 61 => ⟨S_, .i32⟩
  | 62 => ⟨S1000000x5, .i32⟩
  | 63 => ⟨S1000000x5, .i1⟩
  | 64 => ⟨S_, .i32⟩
  | 65 => ⟨S_, .i32⟩
  | 66 => ⟨S_, .i32⟩
  | 67 => ⟨S1000000x5, .i32⟩
  | 68 => ⟨S1000000x5, .i32⟩
  | 69 => ⟨S_, .i32⟩
  | 70 => ⟨S1000000x5, .i32⟩
  | 71 => ⟨S1000000x5, .i32⟩
  | 72 => ⟨S1000000x5, .f32⟩
  | 73 => ⟨S_, .f32⟩
  | 74 => ⟨S1000000x5, .f32⟩
  | 75 => ⟨S1000000x5, .f32⟩
  | 76 => ⟨S_, .f32⟩
  | 77 => ⟨S1000000x5, .f32⟩
  | 78 => ⟨S1000000x5, .f32⟩
  | 79 => ⟨S1000000x1, .f32⟩
  | 80 => ⟨S_, .f32⟩
  | 81 => ⟨S1000000x5, .f32⟩
  | 82 => ⟨S1000000x5, .f32⟩
  | 83 => ⟨S1000000x5, .f32⟩
  | 84 => ⟨S1000000x5, .f32⟩
  | 85 => ⟨S1000000x1, .f32⟩
  | 86 => ⟨S1000000x5, .f32⟩
  | 87 => ⟨S1000000x5, .f32⟩
  | 88 => ⟨S1000000x5, .f32⟩
  | 89 => ⟨S_, .f32⟩
  | 90 => ⟨S1000000x5, .f32⟩
  | 91 => ⟨S1000000x5, .f32⟩
  | 92 => ⟨S_, .f32⟩
  | 93 => ⟨S_, .f32⟩
  | 94 => ⟨S1000000x5, .f32⟩
  | 95 => ⟨S1000000x5, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S1000000, .f32⟩
  | 105 => ⟨S1000000, .i32⟩
  | 106 => ⟨S_, .i32⟩
  | 107 => ⟨S_, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i32⟩
  | 114 => ⟨S1000000x1, .i32⟩
  | 115 => ⟨S5, .i32⟩
  | 116 => ⟨S1x5, .i32⟩
  | 117 => ⟨S1000000x5, .i32⟩
  | 118 => ⟨S1000000x5, .i32⟩
  | 119 => ⟨S1000000x5, .i32⟩
  | 120 => ⟨S_, .i32⟩
  | 121 => ⟨S1000000x5, .i32⟩
  | 122 => ⟨S1000000x5, .i1⟩
  | 123 => ⟨S_, .i32⟩
  | 124 => ⟨S_, .i32⟩
  | 125 => ⟨S_, .i32⟩
  | 126 => ⟨S1000000x5, .i32⟩
  | 127 => ⟨S1000000x5, .i32⟩
  | _ => ⟨S2400000, .f32⟩

abbrev hbmTy0_1 (i : Nat) : BufTy := match i % 128 with
  | 0 => ⟨S_, .i32⟩
  | 1 => ⟨S1000000x5, .i32⟩
  | 2 => ⟨S1000000x5, .i32⟩
  | 3 => ⟨S1000000x5, .f32⟩
  | 4 => ⟨S_, .f32⟩
  | 5 => ⟨S1000000x5, .f32⟩
  | 6 => ⟨S1000000x5, .f32⟩
  | 7 => ⟨S_, .f32⟩
  | 8 => ⟨S1000000x5, .f32⟩
  | 9 => ⟨S1000000x5, .f32⟩
  | 10 => ⟨S1000000x1, .f32⟩
  | 11 => ⟨S_, .f32⟩
  | 12 => ⟨S1000000x5, .f32⟩
  | 13 => ⟨S1000000x5, .f32⟩
  | 14 => ⟨S1000000x5, .f32⟩
  | 15 => ⟨S1000000x5, .f32⟩
  | 16 => ⟨S1000000x1, .f32⟩
  | 17 => ⟨S1000000x5, .f32⟩
  | 18 => ⟨S1000000x5, .f32⟩
  | 19 => ⟨S1000000x5, .f32⟩
  | 20 => ⟨S_, .f32⟩
  | 21 => ⟨S1000000x5, .f32⟩
  | 22 => ⟨S1000000x5, .f32⟩
  | 23 => ⟨S_, .f32⟩
  | 24 => ⟨S_, .f32⟩
  | 25 => ⟨S1000000x5, .f32⟩
  | 26 => ⟨S1000000x5, .f32⟩
  | 27 => ⟨S1000000x5x1, .f32⟩
  | 28 => ⟨S1000000x1x5, .f32⟩
  | 29 => ⟨S1000000x5x5, .f32⟩
  | 30 => ⟨S1000000x5x5, .f32⟩
  | 31 => ⟨S1000000x5x5, .f32⟩
  | 32 => ⟨S1000000x1x1, .f32⟩
  | 33 => ⟨S1000000x5x5, .f32⟩
  | 34 => ⟨S1000000x5x5, .f32⟩
  | 35 => ⟨S1000000x5x1, .i32⟩
  | 36 => ⟨S_, .i32⟩
  | 37 => ⟨S1000000x5x1, .i32⟩
  | 38 => ⟨S1000000x5x1, .i32⟩
  | 39 => ⟨S1000000x1x5, .i32⟩
  | 40 => ⟨S1000000x5x5, .i32⟩
  | 41 => ⟨S1000000x5x5, .i32⟩
  | 42 => ⟨S1000000x5x5, .i32⟩
  | 43 => ⟨S25000000, .i32⟩
  | 44 => ⟨S_, .f32⟩
  | 45 => ⟨S262144, .f32⟩
  | 46 => ⟨S25000000, .f32⟩
  | 47 => ⟨S_, .i32⟩
  | 48 => ⟨S25000000, .i32⟩
  | 49 => ⟨S25000000, .i1⟩
  | 50 => ⟨S_, .i32⟩
  | 51 => ⟨S25000000, .i32⟩
  | 52 => ⟨S25000000, .i32⟩
  | 53 => ⟨S25000000, .i32⟩
  | 54 => ⟨S25000000x1, .i32⟩
  | 55 => ⟨S262144, .f32⟩
  | 56 => ⟨S_, .f32⟩
  | 57 => ⟨S262144, .f32⟩
  | 58 => ⟨S262144, .f32⟩
  | 59 => ⟨S_, .f32⟩
  | 60 => ⟨S_, .f32⟩
  | 61 => ⟨S_, .f32⟩
  | 62 => ⟨S262144, .f32⟩
  | 63 => ⟨S262144, .f32⟩
  | 64 => ⟨S_, .f32⟩
  | 65 => ⟨S262144, .f32⟩
  | 66 => ⟨S262144, .f32⟩
  | 67 => ⟨S900000, .f32⟩
  | 68 => ⟨S900000, .f32⟩
  | 69 => ⟨S900000, .f32⟩
  | 70 => ⟨S900000, .f32⟩
  | 71 => ⟨S900000, .f32⟩
  | 72 => ⟨S900000, .f32⟩
  | 73 => ⟨S_, .f32⟩
  | 74 => ⟨S900000, .f32⟩
  | 75 => ⟨S900000, .f32⟩
  | 76 => ⟨S_, .f32⟩
  | 77 => ⟨S900000, .f32⟩
  | 78 => ⟨S900000, .f32⟩
  | 79 => ⟨S900000, .f32⟩
  | 80 => ⟨S900000, .i32⟩
  | 81 => ⟨S_, .i32⟩
  | 82 => ⟨S_, .i32⟩
  | 83 => ⟨S_, .i32⟩
  | 84 => ⟨S900000, .i32⟩
  | 85 => ⟨S900000, .i32⟩
  | 86 => ⟨S_, .i32⟩
  | 87 => ⟨S900000, .i32⟩
  | 88 => ⟨S900000, .i32⟩
  | 89 => ⟨S900000x1, .i32⟩
  | 90 => ⟨S5, .i32⟩
  | 91 => ⟨S1x5, .i32⟩
  | 92 => ⟨S900000x5, .i32⟩
  | 93 => ⟨S900000x5, .i32⟩
  | 94 => ⟨S900000x5, .i32⟩
  | 95 => ⟨S_, .i32⟩
  | 96 => ⟨S900000x5, .i32⟩
  | 97 => ⟨S900000x5, .i1⟩
  | 98 => ⟨S_, .i32⟩
  | 99 => ⟨S_, .i32⟩
  | 100 => ⟨S_, .i32⟩
  | 101 => ⟨S900000x5, .i32⟩
  | 102 => ⟨S900000x5, .i32⟩
  | 103 => ⟨S_, .i32⟩
  | 104 => ⟨S900000x5, .i32⟩
  | 105 => ⟨S900000x5, .i32⟩
  | 106 => ⟨S900000x5, .f32⟩
  | 107 => ⟨S_, .f32⟩
  | 108 => ⟨S900000x5, .f32⟩
  | 109 => ⟨S900000x5, .f32⟩
  | 110 => ⟨S_, .f32⟩
  | 111 => ⟨S900000x5, .f32⟩
  | 112 => ⟨S900000x5, .f32⟩
  | 113 => ⟨S900000x1, .f32⟩
  | 114 => ⟨S_, .f32⟩
  | 115 => ⟨S900000x5, .f32⟩
  | 116 => ⟨S900000x5, .f32⟩
  | 117 => ⟨S900000x5, .f32⟩
  | 118 => ⟨S900000x5, .f32⟩
  | 119 => ⟨S900000x1, .f32⟩
  | 120 => ⟨S900000x5, .f32⟩
  | 121 => ⟨S900000x5, .f32⟩
  | 122 => ⟨S900000x5, .f32⟩
  | 123 => ⟨S_, .f32⟩
  | 124 => ⟨S900000x5, .f32⟩
  | 125 => ⟨S900000x5, .f32⟩
  | 126 => ⟨S_, .f32⟩
  | 127 => ⟨S_, .f32⟩
  | _ => ⟨S2400000, .f32⟩

abbrev hbmTy0_2 (i : Nat) : BufTy := match i % 128 with
  | 0 => ⟨S900000x5, .f32⟩
  | 1 => ⟨S900000x5, .f32⟩
  | 2 => ⟨S_, .f32⟩
  | 3 => ⟨S900000, .f32⟩
  | 4 => ⟨S900000, .f32⟩
  | 5 => ⟨S_, .f32⟩
  | 6 => ⟨S900000, .f32⟩
  | 7 => ⟨S900000, .f32⟩
  | 8 => ⟨S900000, .f32⟩
  | 9 => ⟨S900000, .i32⟩
  | 10 => ⟨S_, .i32⟩
  | 11 => ⟨S_, .i32⟩
  | 12 => ⟨S_, .i32⟩
  | 13 => ⟨S900000, .i32⟩
  | 14 => ⟨S900000, .i32⟩
  | 15 => ⟨S_, .i32⟩
  | 16 => ⟨S900000, .i32⟩
  | 17 => ⟨S900000, .i32⟩
  | 18 => ⟨S900000x1, .i32⟩
  | 19 => ⟨S5, .i32⟩
  | 20 => ⟨S1x5, .i32⟩
  | 21 => ⟨S900000x5, .i32⟩
  | 22 => ⟨S900000x5, .i32⟩
  | 23 => ⟨S900000x5, .i32⟩
  | 24 => ⟨S_, .i32⟩
  | 25 => ⟨S900000x5, .i32⟩
  | 26 => ⟨S900000x5, .i1⟩
  | 27 => ⟨S_, .i32⟩
  | 28 => ⟨S_, .i32⟩
  | 29 => ⟨S_, .i32⟩
  | 30 => ⟨S900000x5, .i32⟩
  | 31 => ⟨S900000x5, .i32⟩
  | 32 => ⟨S_, .i32⟩
  | 33 => ⟨S900000x5, .i32⟩
  | 34 => ⟨S900000x5, .i32⟩
  | 35 => ⟨S900000x5, .f32⟩
  | 36 => ⟨S_, .f32⟩
  | 37 => ⟨S900000x5, .f32⟩
  | 38 => ⟨S900000x5, .f32⟩
  | 39 => ⟨S_, .f32⟩
  | 40 => ⟨S900000x5, .f32⟩
  | 41 => ⟨S900000x5, .f32⟩
  | 42 => ⟨S900000x1, .f32⟩
  | 43 => ⟨S_, .f32⟩
  | 44 => ⟨S900000x5, .f32⟩
  | 45 => ⟨S900000x5, .f32⟩
  | 46 => ⟨S900000x5, .f32⟩
  | 47 => ⟨S900000x5, .f32⟩
  | 48 => ⟨S900000x1, .f32⟩
  | 49 => ⟨S900000x5, .f32⟩
  | 50 => ⟨S900000x5, .f32⟩
  | 51 => ⟨S900000x5, .f32⟩
  | 52 => ⟨S_, .f32⟩
  | 53 => ⟨S900000x5, .f32⟩
  | 54 => ⟨S900000x5, .f32⟩
  | 55 => ⟨S_, .f32⟩
  | 56 => ⟨S_, .f32⟩
  | 57 => ⟨S900000x5, .f32⟩
  | 58 => ⟨S900000x5, .f32⟩
  | 59 => ⟨S900000x5x1, .i32⟩
  | 60 => ⟨S_, .i32⟩
  | 61 => ⟨S900000x5x1, .i32⟩
  | 62 => ⟨S900000x5x1, .i32⟩
  | 63 => ⟨S900000x1x5, .i32⟩
  | 64 => ⟨S900000x5x5, .i32⟩
  | 65 => ⟨S900000x5x5, .i32⟩
  | 66 => ⟨S900000x5x5, .i32⟩
  | 67 => ⟨S_, .i32⟩
  | 68 => ⟨S900000x5x5, .i32⟩
  | 69 => ⟨S900000x5x5, .i1⟩
  | 70 => ⟨S_, .i32⟩
  | 71 => ⟨S900000x5x5, .i32⟩
  | 72 => ⟨S900000x5x5, .i32⟩
  | 73 => ⟨S900000x5x5, .i32⟩
  | 74 => ⟨S900000x5x5x1, .i32⟩
  | 75 => ⟨S900000x5x5, .f32⟩
  | 76 => ⟨S900000x5x1, .f32⟩
  | 77 => ⟨S900000x1x5, .f32⟩
  | 78 => ⟨S900000x5x5, .f32⟩
  | 79 => ⟨S900000x5x5, .f32⟩
  | 80 => ⟨S900000x5x5, .f32⟩
  | 81 => ⟨S900000x5x5, .f32⟩
  | 82 => ⟨S_, .f32⟩
  | 83 => ⟨S900000, .f32⟩
  | _ => ⟨S2400000, .f32⟩

abbrev hbmTy (i : Nat) : BufTy := match i / 128 with
  | 0 => hbmTy0_0 i
  | 1 => hbmTy0_1 i
  | 2 => hbmTy0_2 i
  | _ => ⟨S2400000, .f32⟩

abbrev bufTy : (tb : Table) → Fin (tcTables nBuf tb) → BufTy
  | .hbm, ⟨i, _⟩ => hbmTy i
  | _, _ => ⟨S2400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_c_8 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_c_11 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_cst_16 : Ref sig .tc := ⟨.hbm, 92, rfl⟩
abbrev main_call2_v0 : Ref sig .tc := ⟨.hbm, 93, rfl⟩
abbrev main_call2_v1 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_17 : Ref sig .tc := ⟨.hbm, 98, rfl⟩
abbrev main_v63 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_19 : Ref sig .tc := ⟨.hbm, 106, rfl⟩
abbrev main_c_20 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_21 : Ref sig .tc := ⟨.hbm, 120, rfl⟩
abbrev main_v76 : Ref sig .tc := ⟨.hbm, 121, rfl⟩
abbrev main_v77 : Ref sig .tc := ⟨.hbm, 122, rfl⟩
abbrev main_c_22 : Ref sig .tc := ⟨.hbm, 123, rfl⟩
abbrev main_c_23 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_v78 : Ref sig .tc := ⟨.hbm, 130, rfl⟩
abbrev main_v79 : Ref sig .tc := ⟨.hbm, 131, rfl⟩
abbrev main_cst_24 : Ref sig .tc := ⟨.hbm, 132, rfl⟩
abbrev main_v80 : Ref sig .tc := ⟨.hbm, 133, rfl⟩
abbrev main_v81 : Ref sig .tc := ⟨.hbm, 134, rfl⟩
abbrev main_cst_25 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_26 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_27 : Ref sig .tc := ⟨.hbm, 148, rfl⟩
abbrev main_v93 : Ref sig .tc := ⟨.hbm, 149, rfl⟩
abbrev main_v94 : Ref sig .tc := ⟨.hbm, 150, rfl⟩
abbrev main_cst_28 : Ref sig .tc := ⟨.hbm, 151, rfl⟩
abbrev main_call5_v0 : Ref sig .tc := ⟨.hbm, 152, rfl⟩
abbrev main_call5_v1 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_29 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_cst_30 : Ref sig .tc := ⟨.hbm, 172, rfl⟩
abbrev main_v112 : Ref sig .tc := ⟨.hbm, 173, rfl⟩
abbrev main_v113 : Ref sig .tc := ⟨.hbm, 174, rfl⟩
abbrev main_c_31 : Ref sig .tc := ⟨.hbm, 175, rfl⟩
abbrev main_v114 : Ref sig .tc := ⟨.hbm, 176, rfl⟩
abbrev main_v115 : Ref sig .tc := ⟨.hbm, 177, rfl⟩
abbrev main_c_32 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_33 : Ref sig .tc := ⟨.hbm, 184, rfl⟩
abbrev main_v121 : Ref sig .tc := ⟨.hbm, 185, rfl⟩
abbrev main_v122 : Ref sig .tc := ⟨.hbm, 186, rfl⟩
abbrev main_cst_34 : Ref sig .tc := ⟨.hbm, 187, rfl⟩
abbrev main_cst_35 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_cst_36 : Ref sig .tc := ⟨.hbm, 201, rfl⟩
abbrev main_v130 : Ref sig .tc := ⟨.hbm, 202, rfl⟩
abbrev main_v131 : Ref sig .tc := ⟨.hbm, 203, rfl⟩
abbrev main_cst_37 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_38 : Ref sig .tc := ⟨.hbm, 209, rfl⟩
abbrev main_c_39 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_c_40 : Ref sig .tc := ⟨.hbm, 223, rfl⟩
abbrev main_v143 : Ref sig .tc := ⟨.hbm, 224, rfl⟩
abbrev main_v144 : Ref sig .tc := ⟨.hbm, 225, rfl⟩
abbrev main_c_41 : Ref sig .tc := ⟨.hbm, 226, rfl⟩
abbrev main_c_42 : Ref sig .tc := ⟨.hbm, 227, rfl⟩
abbrev main_call8_v0 : Ref sig .tc := ⟨.hbm, 228, rfl⟩
abbrev main_call8_v1 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_v145 : Ref sig .tc := ⟨.hbm, 233, rfl⟩
abbrev main_v146 : Ref sig .tc := ⟨.hbm, 234, rfl⟩
abbrev main_cst_43 : Ref sig .tc := ⟨.hbm, 235, rfl⟩
abbrev main_v147 : Ref sig .tc := ⟨.hbm, 236, rfl⟩
abbrev main_v148 : Ref sig .tc := ⟨.hbm, 237, rfl⟩
abbrev main_cst_44 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_cst_45 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_cst_46 : Ref sig .tc := ⟨.hbm, 251, rfl⟩
abbrev main_v160 : Ref sig .tc := ⟨.hbm, 252, rfl⟩
abbrev main_v161 : Ref sig .tc := ⟨.hbm, 253, rfl⟩
abbrev main_cst_47 : Ref sig .tc := ⟨.hbm, 254, rfl⟩
abbrev main_call9_v0 : Ref sig .tc := ⟨.hbm, 255, rfl⟩
abbrev main_call9_v1 : Ref sig .tc := ⟨.hbm, 256, rfl⟩
abbrev main_v162 : Ref sig .tc := ⟨.hbm, 257, rfl⟩
abbrev main_cst_48 : Ref sig .tc := ⟨.hbm, 258, rfl⟩
abbrev main_v163 : Ref sig .tc := ⟨.hbm, 259, rfl⟩
abbrev main_v164 : Ref sig .tc := ⟨.hbm, 260, rfl⟩
abbrev main_cst_49 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_c_50 : Ref sig .tc := ⟨.hbm, 266, rfl⟩
abbrev main_c_51 : Ref sig .tc := ⟨.hbm, 267, rfl⟩
abbrev main_call10_v0 : Ref sig .tc := ⟨.hbm, 268, rfl⟩
abbrev main_call10_v1 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_c_52 : Ref sig .tc := ⟨.hbm, 280, rfl⟩
abbrev main_v176 : Ref sig .tc := ⟨.hbm, 281, rfl⟩
abbrev main_v177 : Ref sig .tc := ⟨.hbm, 282, rfl⟩
abbrev main_c_53 : Ref sig .tc := ⟨.hbm, 283, rfl⟩
abbrev main_c_54 : Ref sig .tc := ⟨.hbm, 284, rfl⟩
abbrev main_call11_v0 : Ref sig .tc := ⟨.hbm, 285, rfl⟩
abbrev main_call11_v1 : Ref sig .tc := ⟨.hbm, 286, rfl⟩
abbrev main_call11_v2 : Ref sig .tc := ⟨.hbm, 287, rfl⟩
abbrev main_call11_v3 : Ref sig .tc := ⟨.hbm, 288, rfl⟩
abbrev main_call11_v4 : Ref sig .tc := ⟨.hbm, 289, rfl⟩
abbrev main_v178 : Ref sig .tc := ⟨.hbm, 290, rfl⟩
abbrev main_v179 : Ref sig .tc := ⟨.hbm, 291, rfl⟩
abbrev main_cst_55 : Ref sig .tc := ⟨.hbm, 292, rfl⟩
abbrev main_v180 : Ref sig .tc := ⟨.hbm, 293, rfl⟩
abbrev main_v181 : Ref sig .tc := ⟨.hbm, 294, rfl⟩
abbrev main_cst_56 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_cst_57 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_cst_58 : Ref sig .tc := ⟨.hbm, 308, rfl⟩
abbrev main_v193 : Ref sig .tc := ⟨.hbm, 309, rfl⟩
abbrev main_v194 : Ref sig .tc := ⟨.hbm, 310, rfl⟩
abbrev main_cst_59 : Ref sig .tc := ⟨.hbm, 311, rfl⟩
abbrev main_call12_v0 : Ref sig .tc := ⟨.hbm, 312, rfl⟩
abbrev main_call12_v1 : Ref sig .tc := ⟨.hbm, 313, rfl⟩
abbrev main_v195 : Ref sig .tc := ⟨.hbm, 314, rfl⟩
abbrev main_v196 : Ref sig .tc := ⟨.hbm, 315, rfl⟩
abbrev main_c_60 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_c_61 : Ref sig .tc := ⟨.hbm, 323, rfl⟩
abbrev main_v203 : Ref sig .tc := ⟨.hbm, 324, rfl⟩
abbrev main_v204 : Ref sig .tc := ⟨.hbm, 325, rfl⟩
abbrev main_c_62 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_cst_63 : Ref sig .tc := ⟨.hbm, 338, rfl⟩
abbrev main_v216 : Ref sig .tc := ⟨.hbm, 339, rfl⟩

abbrev nD : Nat := 1
abbrev τ : Topo := Topo.v7x

variable {F : FTy → Type} [FloatOps F]

class Facts₀ : Prop where
  slices_S1200000_S1000000_0 : S1200000.Slices ![0] S1000000
  bcast_S_S1000000 : S_.BroadcastsInDim S1000000 (![] : Fin 0 → Fin S1000000.rank)
  slices_S2400000_S1000000_0 : S2400000.Slices ![0] S1000000
  slices_S2400000_S1000000_1200000 : S2400000.Slices ![1200000] S1000000
  slices_S1000001_S1000000_1 : S1000001.Slices ![1] S1000000
  slices_S1000001_S1000000_0 : S1000001.Slices ![0] S1000000
  bcast_S1000000_S1000000x1_0 : S1000000.BroadcastsInDim S1000000x1 (![0] : Fin 1 → Fin S1000000x1.rank)
  bcast_S5_S1x5_1 : S5.BroadcastsInDim S1x5 (![1] : Fin 1 → Fin S1x5.rank)
  bcast_S1000000x1_S1000000x5_0_1 : S1000000x1.BroadcastsInDim S1000000x5 (![0, 1] : Fin 2 → Fin S1000000x5.rank)
  bcast_S1x5_S1000000x5_0_1 : S1x5.BroadcastsInDim S1000000x5 (![0, 1] : Fin 2 → Fin S1000000x5.rank)
  bcast_S_S1000000x5 : S_.BroadcastsInDim S1000000x5 (![] : Fin 0 → Fin S1000000x5.rank)
  bcast_S1000000x5_S1000000x5x1_0_1 : S1000000x5.BroadcastsInDim S1000000x5x1 (![0, 1] : Fin 2 → Fin S1000000x5x1.rank)
  bcast_S1000000x5_S1000000x1x5_0_2 : S1000000x5.BroadcastsInDim S1000000x1x5 (![0, 2] : Fin 2 → Fin S1000000x1x5.rank)
  bcast_S1000000x5x1_S1000000x5x5_0_1_2 : S1000000x5x1.BroadcastsInDim S1000000x5x5 (![0, 1, 2] : Fin 3 → Fin S1000000x5x5.rank)
  bcast_S1000000x1x5_S1000000x5x5_0_1_2 : S1000000x1x5.BroadcastsInDim S1000000x5x5 (![0, 1, 2] : Fin 3 → Fin S1000000x5x5.rank)
  bcast_S1000000_S1000000x1x1_0 : S1000000.BroadcastsInDim S1000000x1x1 (![0] : Fin 1 → Fin S1000000x1x1.rank)
  bcast_S1000000x1x1_S1000000x5x5_0_1_2 : S1000000x1x1.BroadcastsInDim S1000000x5x5 (![0, 1, 2] : Fin 3 → Fin S1000000x5x5.rank)
  bcast_S_S1000000x5x1 : S_.BroadcastsInDim S1000000x5x1 (![] : Fin 0 → Fin S1000000x5x1.rank)
  shapeCasts_S1000000x5x5_S25000000 : S1000000x5x5.ShapeCasts S25000000
  bcast_S_S262144 : S_.BroadcastsInDim S262144 (![] : Fin 0 → Fin S262144.rank)
  bcast_S_S25000000 : S_.BroadcastsInDim S25000000 (![] : Fin 0 → Fin S25000000.rank)
  bcast_S25000000_S25000000x1_0 : S25000000.BroadcastsInDim S25000000x1 (![0] : Fin 1 → Fin S25000000x1.rank)
  slices_S2400000_S900000_0 : S2400000.Slices ![0] S900000
  slices_S1200000_S900000_0 : S1200000.Slices ![0] S900000
  slices_S2400000_S900000_1200000 : S2400000.Slices ![1200000] S900000
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x5_0_1 : S900000x1.BroadcastsInDim S900000x5 (![0, 1] : Fin 2 → Fin S900000x5.rank)
  bcast_S1x5_S900000x5_0_1 : S1x5.BroadcastsInDim S900000x5 (![0, 1] : Fin 2 → Fin S900000x5.rank)
  bcast_S_S900000x5 : S_.BroadcastsInDim S900000x5 (![] : Fin 0 → Fin S900000x5.rank)
  bcast_S900000x5_S900000x5x1_0_1 : S900000x5.BroadcastsInDim S900000x5x1 (![0, 1] : Fin 2 → Fin S900000x5x1.rank)
  bcast_S_S900000x5x1 : S_.BroadcastsInDim S900000x5x1 (![] : Fin 0 → Fin S900000x5x1.rank)
  bcast_S900000x5_S900000x1x5_0_2 : S900000x5.BroadcastsInDim S900000x1x5 (![0, 2] : Fin 2 → Fin S900000x1x5.rank)
  bcast_S900000x5x1_S900000x5x5_0_1_2 : S900000x5x1.BroadcastsInDim S900000x5x5 (![0, 1, 2] : Fin 3 → Fin S900000x5x5.rank)
  bcast_S900000x1x5_S900000x5x5_0_1_2 : S900000x1x5.BroadcastsInDim S900000x5x5 (![0, 1, 2] : Fin 3 → Fin S900000x5x5.rank)
  bcast_S_S900000x5x5 : S_.BroadcastsInDim S900000x5x5 (![] : Fin 0 → Fin S900000x5x5.rank)
  bcast_S900000x5x5_S900000x5x5x1_0_1_2 : S900000x5x5.BroadcastsInDim S900000x5x5x1 (![0, 1, 2] : Fin 3 → Fin S900000x5x5x1.rank)
  reducesTo_S900000x5x5_S900000_d1_2 : S900000x5x5.ReducesTo [1, 2] S900000
  h_S_ : 0 < S_.numel
  scatter_S262144_S25000000x1_S25000000_n_0_0_1_wf : ScatterDims.WF S262144 S25000000x1 S25000000 [] [0] [0] 1
  gather_S262144_S900000x5x5x1_S900000x5x5_n_0_n_n_0_3_1_wf : GatherDims.WF S262144 S900000x5x5x1 S900000x5x5 [] [0] [] [0] [] 3 ![1]

variable [Facts₀]

def scatter_S262144_S25000000x1_S25000000_n_0_0_1 : ScatterDims S262144 S25000000x1 S25000000 where
  updateWindowDims := []
  insertedWindowDims := [0]
  scatterDimsToOperandDims := [0]
  indexVectorDim := 1
  wf := scatter_S262144_S25000000x1_S25000000_n_0_0_1_wf
def gather_S262144_S900000x5x5x1_S900000x5x5_n_0_n_n_0_3_1 : GatherDims S262144 S900000x5x5x1 S900000x5x5 where
  offsetDims := []
  collapsedSliceDims := [0]
  operandBatchingDims := []
  startIndicesBatchingDims := []
  startIndexMap := [0]
  indexVectorDim := 3
  sliceSizes := ![1]
  wf := gather_S262144_S900000x5x5x1_S900000x5x5_n_0_n_n_0_3_1_wf

class Facts : Prop extends Facts₀ where

variable [Facts]
-- ==== Proof.KBody.lean ====
/-
  The two kernel bodies of the kernel program as pure functions of the blocks they load.

  Region 0 (the bin-map accumulation). A grid point sees 512 physical nodes: for each node five x-bin indices
  with the overlap length the node's stretched box has with each of them, the same for y, and the node's pin
  density. `step0` is what the 512×512 accumulator holds after the point, given what it held before: the
  old contents plus, for every bin pair (bx, by), the sum over the point's nodes of (the node's x-overlap with
  bx, times its density) times its y-overlap with by. `zero0` is the accumulator's reset at the first point and
  `fin0` the utilisation the last point writes out: the accumulated map scaled and clamped.

  Region 1 (the per-node integral). A grid point sees 512 movable nodes (their five x-bins and y-bins with
  overlap lengths) and the whole 512×512 utilisation map; `body1` is the column of 512 results: for each node
  the sum over by of (the sum over bx of its x-overlap with bx times the map at (bx, by)) times its y-overlap
  with by.
-/
import proofs.«155432_j42700564857383_1_alg».proof.Proof.Gen.Kernel.Skeleton

noncomputable section

namespace Cert.Kernel.Hand

open Idealize.ShloMosaic Cert.Kernel Cert.Kernel.Gen

variable {F : FTy → Type} [FloatOps F]

/-- The bin number along a row of 512 bins, the same in every row. -/
abbrev binIds : IVec S512x512 32 := iota .tc S512x512 32 [1] iota_S512x512_d1_w32

/-- The accumulator after one grid point of region 0, from the point's five blocks and the accumulator before. -/
def step0 (x0 : Vec F S512x5 .i32) (x1 : Vec F S512x5 .f32) (x2 : Vec F S512x5 .i32) (x3 : Vec F S512x5 .f32)
    (x4 : Vec F S512x1 .f32) (base : Vec F S512x512 .f32) : Vec F S512x512 .f32 :=
  k0_pay1 (k0_pay6 x2) (k0_pay7 x3) (k0_pay8 x4)
    (k0_pay10 (k0_pay4 x0) (k0_pay5 x1) binIds (k0_pay9 x0 x1))
    binIds (k0_pay11 (k0_pay6 x2) (k0_pay7 x3)) (k0_pay12 (k0_pay6 x2)) (Scalar.ofBits .f32 0x00000000#32)
    (k0_pay13 (k0_pay7 x3)) base

/-- The accumulator's reset. -/
def zero0 : Vec F S512x512 .f32 := k0_pay3 (F := F)

/-- The utilisation map written out at the last grid point, from the final accumulator. -/
def fin0 (acc : Vec F S512x512 .f32) : Vec F S512x512 .f32 := k0_pay2 acc

/-- The 512 results of one grid point of region 1, from its four node blocks and the utilisation map. -/
def body1 (x0 : Vec F S512x5 .i32) (x1 : Vec F S512x5 .f32) (x2 : Vec F S512x5 .i32) (x3 : Vec F S512x5 .f32)
    (x4 : Vec F S512x512 .bf16) : Vec F S512x1 .f32 :=
  k1_pay1 (k1_pay5 x3) (k1_pay6 x4)
    (k1_pay10 (k1_pay2 x0) (k1_pay3 x1) binIds (k1_pay7 x0 x1) (k1_pay8 x0) (Scalar.ofBits .f32 0x00000000#32) (k1_pay9 x1))
    (k1_pay11 (k1_pay4 x2) (k1_pay5 x3)) (k1_pay12 (k1_pay4 x2))

end Cert.Kernel.Hand

end
-- ==== Proof.KReg0.lean ====
/-
  Region 0 of the kernel program: the bin-map accumulation over a grid of 1954 points.

  A 512×512 accumulator lives in a scratch buffer that the pipeline does not stage; the kernel body carries
  it from one grid point to the next. At the first point the body resets it and adds the point's
  contribution; at every later point it adds the point's contribution to what the point before left; at
  the last point it also writes the scaled and clamped accumulator into the output window, which the
  pipeline writes back at that point only.

  This module states what the accumulator holds after each point (`acc0`, by recursion on the point),
  the pipeline's proof data over a parameter `V` for the region-entry contents (`dat0`), the run of the
  body in each of the three cases, and the body obligation.
-/
import proofs.«155432_j42700564857383_1_alg».proof.Proof.Gen.Kernel.Launch
import proofs.«155432_j42700564857383_1_alg».proof.Proof.Gen.Kernel.Skeleton
import proofs.«155432_j42700564857383_1_alg».proof.Proof.Gen.Kernel.Points
import proofs.«155432_j42700564857383_1_alg».proof.Proof.KBody
import Idealize.ShloMosaic.Lib.Pipeline.FrameBody
import Idealize.ShloMosaic.Lib.Pipeline.FrameSuffix
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of core `c`'s TensorCore buffers when the region is entered: a parameter.
variable (V : (c : Dev nD) → (b : Ref sig .tc) → Buf (Elt F) ((c : Thread nD τ).loc b))

/-! ## The windows' blocks and the accumulator point by point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at point `n`: the point's contribution added to the reset
    value at the first point and to what the point before left at every later one. -/
def acc0 (c : Dev nD) : (n : ℕ) → n < cfg0.N → Vec F S512x512 .f32
  | 0, h => step0 (iblk0 V c 0 ⟨0, h⟩) (iblk0 V c 1 ⟨0, h⟩) (iblk0 V c 2 ⟨0, h⟩) (iblk0 V c 3 ⟨0, h⟩) (iblk0 V c 4 ⟨0, h⟩) zero0
  | n + 1, h => step0 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (acc0 c n (Nat.lt_of_succ_lt h))

/-! ## The scratch and the invariant -/

/-- The scratch operand: a whole scoped buffer of the kernel's own, passed beside the windows. -/
abbrev scM0 : Memref sig .tc .vmem S512x512 .f32 := Memref.whole cc0_scratch0

/-- The core's other scoped buffers that are no staging buffer of this region (the staging buffers of the
    second region), each whole at some contents: the body never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class's invariant with the scratch as a memref owned at some contents, the other scoped buffers
    and the generator register beside it. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point the class's (the scratch at
    anything); afterwards the scratch at what the point before left in it (`acc0`), the other scoped
    buffers at anything and the generator register at some state. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch at that point's accumulator. -/
theorem PhiS_succ (c : Dev nD) (n : ℕ) (hn : n < cfg0.N) :
    PhiS V c (n + 1) hn = iprop(iprop(owns (c : Thread nD τ) scM0 fullShare (acc0 V c n hn) ∗ rest0 (F := F) c) ∗ (∃ r, prngReg c r)) := rfl

/-- Before a point that is not the first: the scratch at what the point before left. -/
theorem PhiS_pos (c : Dev nD) (n : ℕ) (h : n ≤ cfg0.N) (hz : n ≠ 0) :
    PhiS V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of the region on core `c`: the arrays as the region finds them (`V`); after the body at
    point `t` each input's buffer at its block and the output's at the scaled and clamped accumulator of
    that point (consulted at the last point only, where the window is written back); the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => fin0 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = fin0 (acc0 V c t.val t.isLt) := by dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-! ## The body's branch conditions, in closed form over the grid -/

/-- The condition of the body's first `scf.if` (the reset), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second `scf.if` (the write-out), from the grid coordinate. -/
abbrev cond0_1 (i : grid0.Coords) : Prop := k0_cond2 i = 1#1
/-- It holds at the last point only — decided over the grid. -/
theorem hcond0_1 : ∀ t : Fin cfg0.N, cond0_1 (grid0.coords t) ↔ t.val = 1953 :=
  (by decide +kernel : ∀ t : Fin grid0.N, cond0_1 (grid0.coords t) ↔ t.val = 1953)

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Away from the last point the output window is idle: the body stores nothing into it, -/
theorem idleAt0_5 : ∀ t : Fin cfg0.N, ¬cond0_1 (grid0.coords t) → cfg0.idle 5 (grid0.coords t) = true := by decide +kernel
/-- and the pipeline does not write its block back. -/
theorem noFlush0_5 : ∀ t : Fin cfg0.N, ¬cond0_1 (grid0.coords t) → (cfg0.win 5).flush t = false := by decide +kernel
/-- At the last point the output window is live: the body stores into it. -/
theorem liveAt0_5 : ∀ t : Fin cfg0.N, cond0_1 (grid0.coords t) → cfg0.idle 5 (grid0.coords t) = false := by decide +kernel

/-! ## The kernel body on any staging memrefs, case by case

The body is run on memref variables, whole, the inputs' at their contents. Its stores go through the
whole-shape rectangle at zero offsets, so each leaves its payload, and a load through the same
rectangle reads the contents or, after a store of this run, that store's payload. What the scratch
holds afterwards is therefore `step0` of the five blocks over what it held (the reset value at the
first point), and at the last point the output's buffer holds `fin0` of that. -/

/-- The zero offsets of a rank-2 rectangle, however spelt. -/
theorem off2_zero : (![0, 0] : Fin 2 → ℕ) = fun _ => 0 := by funext a; fin_cases a <;> rfl

/-- A load through the whole-shape rectangle at zero offsets of a whole memref held at the contents that
    read `X` reads `X`. -/
theorem readAt_whole_unread {κ : Kind} {sp : Space} {s : Shape} {e : EltTy} {m : Memref sig κ sp s e} (h : m.IsWhole) (X : s.Idx → Elt F e)
    {off : Fin s.rank → ℕ} (hoff : off = fun _ => 0) {inb : ∀ a, off a + s.size a ≤ s.size a} :
    View.readAt (Elt F) m.view (Rect.unit off s.size inb).toLoadRect (h.unread X) = X := by
  rw [View.readAt_eq_ld, h.read_unread, View.ld_unit_zero hoff]

/-- What one store through the whole-shape rectangle at zero offsets leaves, whatever was stored before. -/
theorem read_writes_whole {κ : Kind} {sp : Space} (v : View sig κ sp S512x512 .f32) (f : v.ty.Contents (Elt F))
    (w : Vec F S512x512 .f32) (L : List (View.Piece (Elt F) S512x512 .f32)) :
    v.read (Elt F) (v.writes (Elt F) f ((⟨Rect.unit ![0, 0] ![512, 512] inb_S512x512_S512x512_0_0, w⟩ : View.Piece (Elt F) S512x512 .f32) :: L)) = w := by
  rw [View.read_writes_eq_canon _ _ _ (fun y => ⟨_, List.mem_cons_self, View.mem_set_unit_zero off2_zero inb_S512x512_S512x512_0_0 y⟩),
    View.canon_cons_unit_zero off2_zero inb_S512x512_S512x512_0_0]

set_option maxHeartbeats 1000000 in
theorem run0_A (c : Dev nD) (i : grid0.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x1 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x5 .i32) (x1 : Vec F S512x5 .f32) (x2 : Vec F S512x5 .i32) (x3 : Vec F S512x5 .f32) (x4 : Vec F S512x1 .f32) (xi5 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (step0 x0 x1 x2 x3 x4 zero0)) -∗ K ⟨⟩))
      ⊢ wp frame (wpE (defs₀ (F := F)) Variants.none c none) E (cc0__scatter_kernel i arg1 harg1 arg2 harg2 arg3 harg3 arg4 harg4 arg5 harg5 arg6 harg6 arg7 harg7) K := by
  simp only [cc0__scatter_kernel_eq_skeleton]; unfold cc0__scatter_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [read_writes_whole]
  rw [readAt_whole_unread harg1 x0 off2_zero, readAt_whole_unread harg2 x1 off2_zero, readAt_whole_unread harg3 x2 off2_zero,
    readAt_whole_unread harg4 x3 off2_zero, readAt_whole_unread harg5 x4 off2_zero,
    View.readCov_unit_zero _ off2_zero inb_S512x512_S512x512_0_0]
  rfl

set_option maxHeartbeats 1000000 in
theorem run0_B (c : Dev nD) (i : grid0.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x1 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x5 .i32) (x1 : Vec F S512x5 .f32) (x2 : Vec F S512x5 .i32) (x3 : Vec F S512x5 .f32) (x4 : Vec F S512x1 .f32) (xs0 : Vec F S512x512 .f32) (xi5 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (step0 x0 x1 x2 x3 x4 xs0)) -∗ K ⟨⟩))
      ⊢ wp frame (wpE (defs₀ (F := F)) Variants.none c none) E (cc0__scatter_kernel i arg1 harg1 arg2 harg2 arg3 harg3 arg4 harg4 arg5 harg5 arg6 harg6 arg7 harg7) K := by
  simp only [cc0__scatter_kernel_eq_skeleton]; unfold cc0__scatter_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [read_writes_whole]
  rw [readAt_whole_unread harg1 x0 off2_zero, readAt_whole_unread harg2 x1 off2_zero, readAt_whole_unread harg3 x2 off2_zero,
    readAt_whole_unread harg4 x3 off2_zero, readAt_whole_unread harg5 x4 off2_zero, readAt_whole_unread harg7 xs0 off2_zero]
  rfl

set_option maxHeartbeats 1000000 in
theorem run0_C (c : Dev nD) (i : grid0.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x1 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x5 .i32) (x1 : Vec F S512x5 .f32) (x2 : Vec F S512x5 .i32) (x3 : Vec F S512x5 .f32) (x4 : Vec F S512x1 .f32) (xs0 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fin0 (step0 x0 x1 x2 x3 x4 xs0)) ∗ owns (c : Thread nD τ) arg7 fullShare (step0 x0 x1 x2 x3 x4 xs0)) -∗ K ⟨⟩))
      ⊢ wp frame (wpE (defs₀ (F := F)) Variants.none c none) E (cc0__scatter_kernel i arg1 harg1 arg2 harg2 arg3 harg3 arg4 harg4 arg5 harg5 arg6 harg6 arg7 harg7) K := by
  simp only [cc0__scatter_kernel_eq_skeleton]; unfold cc0__scatter_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    rw [read_writes_whole]
    rw [View.readCov_unit_zero _ off2_zero inb_S512x512_S512x512_0_0]
    rw [readAt_whole_unread harg1 x0 off2_zero, readAt_whole_unread harg2 x1 off2_zero, readAt_whole_unread harg3 x2 off2_zero,
      readAt_whole_unread harg4 x3 off2_zero, readAt_whole_unread harg5 x4 off2_zero, readAt_whole_unread harg7 xs0 off2_zero]
    rfl
  iexists _; isplitr
  swap; · iexact HS0
  ipureintro
  sl_unfold_run_names
  rw [read_writes_whole]
  rw [readAt_whole_unread harg1 x0 off2_zero, readAt_whole_unread harg2 x1 off2_zero, readAt_whole_unread harg3 x2 off2_zero,
    readAt_whole_unread harg4 x3 off2_zero, readAt_whole_unread harg5 x4 off2_zero, readAt_whole_unread harg7 xs0 off2_zero]
  rfl

/-! ## What the accumulator holds, at a generic point -/

/-- At the first point: the point's contribution over the reset value. -/
theorem acc0_zero (c : Dev nD) (t : Fin cfg0.N) (h : t.val = 0) :
    acc0 V c t.val t.isLt = step0 (iblk0 V c 0 t) (iblk0 V c 1 t) (iblk0 V c 2 t) (iblk0 V c 3 t) (iblk0 V c 4 t) zero0 := by
  obtain ⟨n, hn⟩ := t
  cases n with
  | zero => rfl
  | succ n => exact absurd h (Nat.succ_ne_zero _)

/-- At a later point: the point's contribution over what the point before left. -/
theorem acc0_pos (c : Dev nD) (t : Fin cfg0.N) (h : t.val ≠ 0) :
    acc0 V c t.val t.isLt = step0 (iblk0 V c 0 t) (iblk0 V c 1 t) (iblk0 V c 2 t) (iblk0 V c 3 t) (iblk0 V c 4 t)
      (acc0 V c (t.val - 1) (Nat.lt_of_le_of_lt (Nat.sub_le _ _) t.isLt)) := by
  obtain ⟨n, hn⟩ := t
  cases n with
  | zero => exact absurd rfl h
  | succ n => rfl

/-! ## The inputs' staging buffers -/

/-- Each input's current staging buffer holds its block at every point, fetched there or not: the window
    is uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- Each window's current staging memref at point `t`, spelled as the pipeline passes it, and its wholeness. -/
abbrev ms0_0 (t : Fin cfg0.N) : Memref sig .tc .vmem S512x5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x5 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)

/-! ## The body obligation, at a generic point -/

/-- What the body is called with at point `t` (the obligation's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the closed forms say which case the point
    is in. At the first point the invariant hands the body the scratch at anything and the run leaves it at
    the point's contribution over the reset value; at a later point it hands it at what the point before
    left and the run leaves it at the point's contribution over that. Away from the last point the output's
    buffer is handed back untouched (the window is idle and not written back); at the last point the run
    leaves in it the scaled and clamped accumulator. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 1954 := lt_of_lt_of_eq t.isLt (show cfg0.N = 1954 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 5 t (idleAt0_5 t hc1) (noFlush0_5 t hc1)]
    rw [acc0_zero V c t h0]
    rw [PhiS_castSucc V c t, PhiS_zero V c _ _ h0, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ hc0 hc1 (iblk0 V c 0 t) (iblk0 V c 1 t) (iblk0 V c 2 t) (iblk0 V c 3 t) (iblk0 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 1953
    · have hc0 : ¬cond0_0 (grid0.coords t) := fun h => h0 ((hcond0_0 t).mp h)
      have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [acc0_pos V c t h0]
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 5 t (idleAt0_5 t hc1) (noFlush0_5 t hc1)]
      rw [acc0_pos V c t h0]
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ hc0 hc1 (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 1954 := N_0; omega)

end Cert.Kernel.Hand

end
-- ==== Proof.KReg1.lean ====
/-
  Region 1 of the kernel program (the per-node integral of the utilisation map), at the contents `V`
  the region finds in the TensorCore's buffers when it is entered.

  A grid point sees 512 movable nodes through four input windows (five x-bin numbers and overlap lengths, five
  y-bin numbers and overlap lengths per node) and, through a fifth, the whole 512×512 utilisation map, which the
  pipeline brings in at the first point only and which stays in place afterwards. The body reads the five blocks
  whole, computes one column of 512 results and stores it whole into the output window, which is written back at
  every point. So after the body every input's buffer still holds its block, and the output's holds `body1` of the
  five blocks: for each node the sum over y-bins of (the sum over x-bins of its x-overlap times the map there)
  times its y-overlap.

  The module gives each window's block at a point, the proof data of the pipeline with these contents, and the
  body's obligation at every point: the body's run on whole staging buffers, then its instance at the pipeline's
  staging buffers.
-/
import proofs.«155432_j42700564857383_1_alg».proof.Proof.Gen.Kernel.Launch
import proofs.«155432_j42700564857383_1_alg».proof.Proof.Gen.Kernel.Skeleton
import proofs.«155432_j42700564857383_1_alg».proof.Proof.Gen.Kernel.Points
import proofs.«155432_j42700564857383_1_alg».proof.Proof.KBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of 512 rows: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the 512 rows of its array that the point sees (for the map, all of it), read
    off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the movable nodes' five x-bin numbers): its current staging buffer holds its block at every point, whether the
    window was fetched there or not (unfetched, the block index has not moved), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (their overlap lengths with those x-bins): its current staging buffer holds its block at every point, whether the
    window was fetched there or not (unfetched, the block index has not moved), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the nodes' five y-bin numbers): its current staging buffer holds its block at every point, whether the
    window was fetched there or not (unfetched, the block index has not moved), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (their overlap lengths with those y-bins): its current staging buffer holds its block at every point, whether the
    window was fetched there or not (unfetched, the block index has not moved), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the whole 512×512 utilisation map): its current staging buffer holds its block at every point, whether the
    window was fetched there or not (unfetched, the block index has not moved), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

/-- A node block, whole: 512 rows of five entries from row 0, column 0. -/
abbrev nodeRect : Rect S512x5 := Rect.unit (s := S512x5) ![0, 0] S512x5.size inb_S512x5_S512x5_0_0
/-- The utilisation map, whole. -/
abbrev mapRect : Rect S512x512 := Rect.unit (s := S512x512) ![0, 0] S512x512.size inb_S512x512_S512x512_0_0
/-- The result column, whole: 512 rows of one entry. -/
abbrev colRect : Rect S512x1 := Rect.unit (s := S512x1) ![0, 0] S512x1.size inb_S512x1_S512x1_0_0

/-- The offsets of all three are zero on both axes. -/
theorem offsets_zero : (![0, 0] : Fin 2 → Nat) = fun _ => 0 := funext fun a => by fin_cases a <;> rfl

/-! ## What the body leaves in the output window's buffer -/

/-- The output buffer after the body, from the input buffers' contents: its one store, of `body1` of what the five
    loads read. -/
def out1_5 (x0 : Vec F S512x5 .i32) (x1 : Vec F S512x5 .f32) (x2 : Vec F S512x5 .i32) (x3 : Vec F S512x5 .f32) (x4 : Vec F S512x512 .bf16) : Vec F S512x1 .f32 :=
  View.canon [⟨colRect, body1 (View.ld x0 nodeRect) (View.ld x1 nodeRect) (View.ld x2 nodeRect) (View.ld x3 nodeRect) (View.ld x4 mapRect)⟩]

/-- The one store covers the buffer. -/
theorem cover1_5 (p0 : Vec F S512x1 .f32) (y : S512x1.Idx) :
    ∃ pc ∈ ([⟨colRect, p0⟩] : List (View.Piece (Elt F) S512x1 .f32)), y ∈ pc.1.set :=
  View.cover_of_tiled [⟨colRect, p0⟩] S512x1.size (by rfl) y

/-- Each load reads its buffer whole and the store fills the output whole, so the output holds `body1` of the five
    buffers' contents. -/
theorem out1_5_eq (x0 : Vec F S512x5 .i32) (x1 : Vec F S512x5 .f32) (x2 : Vec F S512x5 .i32) (x3 : Vec F S512x5 .f32) (x4 : Vec F S512x512 .bf16) : out1_5 x0 x1 x2 x3 x4 = body1 x0 x1 x2 x3 x4 := by
  unfold out1_5
  rw [View.canon_unit_zero offsets_zero]
  simp only [View.ld_unit_zero (S := S512x5) offsets_zero, View.ld_unit_zero (S := S512x512) offsets_zero]

/-! ## The body's triple -/

set_option maxHeartbeats 1000000 in
/-- The kernel body on whole staging buffers, the five inputs' at contents `x0 … x4` and the output's at anything,
    runs to the continuation with the inputs' as they were and the output's at `body1 x0 x1 x2 x3 x4`: its two
    parts load the five buffers whole and compute; the body then loads the output buffer (a value it never uses)
    and stores the result column over it. -/
theorem sound_kernel1 (c : Dev nD) (E : Set ℕ) (i : grid1.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x512 .bf16) (harg5 : arg5.IsWhole) (arg6 : Memref sig .tc .vmem S512x1 .f32) (harg6 : arg6.IsWhole)
    (x0 : Vec F S512x5 .i32) (x1 : Vec F S512x5 .f32) (x2 : Vec F S512x5 .i32) (x3 : Vec F S512x5 .f32) (x4 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (body1 x0 x1 x2 x3 x4)) -∗ K ⟨⟩))
      ⊢ wp frame (wpE (defs₀ (F := F)) Variants.none c none) E (cc1__gather_kernel i arg1 harg1 arg2 harg2 arg3 harg3 arg4 harg4 arg5 harg5 arg6 harg6) K := by
  simp only [cc1__gather_kernel_eq_skeleton]; unfold cc1__gather_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  refine (View.read_writes_eq_canon _ _ _ (cover1_5 _)).trans ?_
  exact out1_5_eq _ _ _ _ _

/-! ## The pipeline's proof data -/

/-- The proof data of the region's pipeline on core `c`: the arrays as the region finds them; after the body at
    point `t` each input's buffer at its block and the output's at `body1` of the five blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => body1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = body1 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, what the core owes, and the six windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies at the five blocks;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  the kernel program from its launch to its return, and what its buffers hold at the end.

  @main is forty-five items in a row: host stretches, the bin-map region, more host stretches, the node-integral
  region, a last stretch. Between two items a core holds every unscoped buffer whole at a known valuation: the
  launch memory, then each stretch's operations applied, and after a region the entry valuation with the region's
  result buffer replaced by what its write-backs leave (the proof data's fold over the grid). Each region enters
  from the valuation before it: its six arrays are split out of the unscoped buffers, the generator register and the
  scoped buffers go into the region's invariant, and at the exit the arrays are put back at their final contents.
  The launch composes the forty-five items; at the end every unscoped buffer is read off the last valuation. From
  that one statement come the frame (no item writes an argument array) and the run with @main's result named.
-/
import proofs.«155432_j42700564857383_1_alg».proof.Proof.KernelRegions
import proofs.«155432_j42700564857383_1_alg».proof.Proof.KBody
import proofs.«155432_j42700564857383_1_alg».proof.Proof.KReg0
import proofs.«155432_j42700564857383_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-- Region 1 keeps nothing between grid points: its invariant is the scoped rest and the generator register at every point. -/
theorem Phi1 (V : (c : Dev nD) → (b : Ref sig .tc) → Buf (Elt F) ((c : Thread nD τ).loc b)) (c : Dev nD) (t) :
    (dat1 V c).Φ t = Pipeline.ΦA spec1 c := rfl

variable (m : (ℓ : Loc nD τ sig) → Buf (Elt F) ℓ) (ρ : Dev nD → PrngReg)

/-! ## The buffers' contents around the two regions -/

/-- Core `c`'s buffers when region 0 is entered, read at the TensorCore's references. -/
abbrev E0 : (c : Dev nD) → (b : Ref sig .tc) → Buf (Elt F) ((c : Thread nD τ).loc b) := fun c b => V22 m c b

/-- After region 0: its arrays at what the write-backs leave, every other buffer as entered. -/
def X0 (c : Dev nD) : Valuation τ sig (Elt F) :=
  Pipeline.withArrays spec0 c (V22 m c) fun w => (dat0 (E0 m) c).arrAt w cfg0.N

/-- What the regions leave, as the unknowns of the valuations: region 0's bin map. -/
def outs0 : Outs (F := F) := fun _ r c => X0 m c r

/-- Core `c`'s buffers when region 1 is entered. -/
abbrev E1 : (c : Dev nD) → (b : Ref sig .tc) → Buf (Elt F) ((c : Thread nD τ).loc b) := fun c b => V43 m (outs0 m) c b

/-- After region 1: its arrays at what the write-backs leave, every other buffer as entered. -/
def X1 (c : Dev nD) : Valuation τ sig (Elt F) :=
  Pipeline.withArrays spec1 c (V43 m (outs0 m) c) fun w => (dat1 (E1 m) c).arrAt w cfg1.N

/-- Both regions' results: item 23's from region 0, item 44's from region 1. -/
def outsA : Outs (F := F) := fun J r c => if J = 23 then X0 m c r else X1 m c r

theorem V23_eq (c : Dev nD) : V23 m (outsA m) c = V23 m (outs0 m) c := rfl
theorem V43_eq (c : Dev nD) : V43 m (outsA m) c = V43 m (outs0 m) c := rfl

/-! ## What the exit valuations hold -/

theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = V22 m c (Proc.devRef .tc b) := by
  unfold X0; exact Pipeline.withArrays_of_ne spec0 c _ _ b hb
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = V43 m (outs0 m) c (Proc.devRef .tc b) := by
  unfold X1; exact Pipeline.withArrays_of_ne spec1 c _ _ b hb

/-- An input window's array is not changed by region 0. -/
theorem arrAt0_in (c : Dev nD) : ∀ w : Fin cfg0.W, w ≠ 5 → (dat0 (E0 m) c).arrAt w cfg0.N = V22 m c (Proc.devRef .tc (Pipeline.arrRef spec0 w))
  | ⟨0, _⟩, _ => ((dat0 (E0 m) c).arrAt_in 0 rfl _).trans (A_eq0 (E0 m) c 0)
  | ⟨1, _⟩, _ => ((dat0 (E0 m) c).arrAt_in 1 rfl _).trans (A_eq0 (E0 m) c 1)
  | ⟨2, _⟩, _ => ((dat0 (E0 m) c).arrAt_in 2 rfl _).trans (A_eq0 (E0 m) c 2)
  | ⟨3, _⟩, _ => ((dat0 (E0 m) c).arrAt_in 3 rfl _).trans (A_eq0 (E0 m) c 3)
  | ⟨4, _⟩, _ => ((dat0 (E0 m) c).arrAt_in 4 rfl _).trans (A_eq0 (E0 m) c 4)
  | ⟨5, _⟩, h => absurd rfl h
  | ⟨_ + 6, h⟩, _ => absurd h (Nat.not_lt.2 (Nat.le_add_left _ _))
theorem arrAt1_in (c : Dev nD) : ∀ w : Fin cfg1.W, w ≠ 5 → (dat1 (E1 m) c).arrAt w cfg1.N = V43 m (outs0 m) c (Proc.devRef .tc (Pipeline.arrRef spec1 w))
  | ⟨0, _⟩, _ => ((dat1 (E1 m) c).arrAt_in 0 rfl _).trans (A_eq1 (E1 m) c 0)
  | ⟨1, _⟩, _ => ((dat1 (E1 m) c).arrAt_in 1 rfl _).trans (A_eq1 (E1 m) c 1)
  | ⟨2, _⟩, _ => ((dat1 (E1 m) c).arrAt_in 2 rfl _).trans (A_eq1 (E1 m) c 2)
  | ⟨3, _⟩, _ => ((dat1 (E1 m) c).arrAt_in 3 rfl _).trans (A_eq1 (E1 m) c 3)
  | ⟨4, _⟩, _ => ((dat1 (E1 m) c).arrAt_in 4 rfl _).trans (A_eq1 (E1 m) c 4)
  | ⟨5, _⟩, h => absurd rfl h
  | ⟨_ + 6, h⟩, _ => absurd h (Nat.not_lt.2 (Nat.le_add_left _ _))

/-- After region 0 the buffers are the exit valuation: the bin map's buffer at what the region wrote back, every other as entered. -/
theorem V23_X0 (c : Dev nD) (b : Ref sig .tc) : V23 m (outsA m) c b = X0 m c b := by
  by_cases hb : b = main_v102
  · subst hb
    show Function.update (V22 m c) (Proc.devRef .tc main_v102) (X0 m c main_v102) (Proc.devRef .tc main_v102) = _
    exact Function.update_self ..
  · rw [V23_of m (outsA m) c b (by simpa using hb)]
    by_cases hw : ∃ w, Pipeline.arrRef spec0 w = b
    · obtain ⟨w, rfl⟩ := hw
      have h5 : w ≠ 5 := fun h => hb (by subst h; rfl)
      exact ((X0_arr m c w).trans (arrAt0_in m c w h5)).symm
    · exact (X0_of_ne m c b fun w h => hw ⟨w, h⟩).symm
theorem V44_X1 (c : Dev nD) (b : Ref sig .tc) : V44 m (outsA m) c b = X1 m c b := by
  by_cases hb : b = main_v180
  · subst hb
    show Function.update (V43 m (outsA m) c) (Proc.devRef .tc main_v180) (X1 m c main_v180) (Proc.devRef .tc main_v180) = _
    exact Function.update_self ..
  · rw [V44_of m (outsA m) c b (by simpa using hb)]
    by_cases hw : ∃ w, Pipeline.arrRef spec1 w = b
    · obtain ⟨w, rfl⟩ := hw
      have h5 : w ≠ 5 := fun h => hb (by subst h; rfl)
      exact ((X1_arr m c w).trans (arrAt1_in m c w h5)).symm
    · exact (X1_of_ne m c b fun w h => hw ⟨w, h⟩).symm

theorem hF0 (c : Dev nD) (w : Fin cfg0.W) : (dat0 (E0 m) c).arrAt w cfg0.N = V23 m (outsA m) c (Pipeline.arrRef spec0 w) :=
  ((V23_X0 m c _).trans (X0_arr m c w)).symm
theorem hrest0 (c : Dev nD) : ∀ b, b ∉ Finset.univ.image (Pipeline.arrRef spec0) → V23 m (outsA m) c b = E0 m c b :=
  fun b hb => (V23_X0 m c b).trans (X0_of_ne m c b fun w e => hb (Finset.mem_image.mpr ⟨w, Finset.mem_univ _, e⟩))
theorem hF1 (c : Dev nD) (w : Fin cfg1.W) : (dat1 (E1 m) c).arrAt w cfg1.N = V44 m (outsA m) c (Pipeline.arrRef spec1 w) :=
  ((V44_X1 m c _).trans (X1_arr m c w)).symm
theorem hrest1 (c : Dev nD) : ∀ b, b ∉ Finset.univ.image (Pipeline.arrRef spec1) → V44 m (outsA m) c b = E1 m c b :=
  fun b hb => (V44_X1 m c b).trans (X1_of_ne m c b fun w e => hb (Finset.mem_image.mpr ⟨w, Finset.mem_univ _, e⟩))

/-! ## The proof data family and the thread state -/

/-- Both pipelines' proof data, each at its region's entry contents: a literal match on the pipeline. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
theorem Rst_owes (c : Dev nD) : Rst (F := F) c ⊢ (iprop(∃ W, owes (c : Thread nD τ) (0 : CellTallies nD τ sig Unit) W) : sProp 𝕄) := by
  iintro ⟨-, H⟩; iexact H

-- the library's entry and exit lemmas are stated over the pinned configuration: unification may unfold plain definitions in a metavariable's type
set_option backward.isDefEq.respectTransparency.types false in
/-- Region 0 over the thread state: entered with every unscoped buffer at the contents before it, left with them at the contents
    after it; its arrays are split out of the unscoped buffers and put back at what the write-backs leave; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V22 m c) ∗ Rst c)
  post c := iprop(StableHlo.held (c : Thread nD τ) (Pipeline.ucRefs τ sig) (V23 m (outsA m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V23 m (outsA m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

-- the library's entry and exit lemmas are stated over the pinned configuration: unification may unfold plain definitions in a metavariable's type
set_option backward.isDefEq.respectTransparency.types false in
/-- Region 1 over the thread state: entered with every unscoped buffer at the contents before it, left with them at the contents
    after it; its arrays are split out of the unscoped buffers and put back at what the write-backs leave; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V43 m (outs0 m) c) ∗ Rst c)
  post c := iprop(StableHlo.held (c : Thread nD τ) (Pipeline.ucRefs τ sig) (V44 m (outsA m) c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (E1 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (E1 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V44 m (outsA m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## @main from the launch to the return -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain definitions in a metavariable's type
set_option backward.isDefEq.respectTransparency.types false in
/-- At the compiled mesh, from any memory with zero counters: every weakly fair execution of @main terminates, nothing faulting,
    and every final memory holds, in every unscoped buffer of every core, the last valuation: the host stretches' values
    folded through, the bin map at what region 0 wrote back and the node integrals at what region 1 wrote back. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V45 m (outsA m) c b) := by
  refine Pipeline.θ_run_regions_kit_dev (pcfgs (F := F)) adm (pdats m) () cellOf_inj emb₁ defs₀ 𝒱₀ L lv m ρ main
    (segs m (outsA m) 𝒱₀ L lv (fun _ => Rst) () (pdats m) (reg0 m) (reg1 m))
    (fun c Q => by
      rewrite [main_chain c, Seg.run_eq_chain,
        show (segs m (outsA m) 𝒱₀ L lv (fun _ => Rst) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          StableHlo.seq hostOps1_17,
          StableHlo.seq hostOps1_18,
          StableHlo.seq hostOps1_19,
          Prog.lift (.customCall (Pipeline.entry 1) ()),
          StableHlo.seq hostOps2 ] from rfl]
      with_reducible exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V45 m (outsA m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (Rst_owes c)⟩)
    (hinit := ?_)
    (QY := fun c s => ∀ b ∈ Pipeline.ucRefs τ sig, s.mem (((c : Thread nD τ)).1, b) = V45 m (outsA m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V45 m (outsA m) c) s')
    isplitl [Hh] <;> iassumption

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V45_main_arg0 m (outsA m) c),
     (h c _ (mem_uc main_arg1 (by decide))).trans (V45_main_arg1 m (outsA m) c),
     (h c _ (mem_uc main_arg2 (by decide))).trans (V45_main_arg2 m (outsA m) c),
     (h c _ (mem_uc main_arg3 (by decide))).trans (V45_main_arg3 m (outsA m) c)⟩) (run_all m ρ)

/-- The run with @main's result named: the node integrals' buffer at the last valuation, the arguments as launched. -/
theorem run_result : θ_run defs (onTc (τ := τ) (main (F := F))) ⟨m, fun _ => 0, ρ⟩ (fun r => ∀ c : Dev nD,
      r.2.mem ((c.tc : Thread nD τ).loc main_v182) = V45 m (outsA m) c main_v182
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v182 (by decide)),
     (h c _ (mem_uc main_arg0 (by decide))).trans (V45_main_arg0 m (outsA m) c),
     (h c _ (mem_uc main_arg1 (by decide))).trans (V45_main_arg1 m (outsA m) c),
     (h c _ (mem_uc main_arg2 (by decide))).trans (V45_main_arg2 m (outsA m) c),
     (h c _ (mem_uc main_arg3 (by decide))).trans (V45_main_arg3 m (outsA m) c)⟩) (run_all m ρ)

end Cert.Kernel.Hand

end
-- ==== Proof.KIBody.lean ====
/-
  The two kernel bodies of the idealized kernel program as pure functions of the blocks they load.

  Region 0 (the bin-map accumulation). A grid point sees 512 physical nodes: for each node five x-bin indices
  with the overlap length the node's stretched box has with each of them, the same for y, and the node's pin
  density. `step0` is what the 512×512 accumulator holds after the point, given what it held before: the
  old contents plus, for every bin pair (bx, by), the sum over the point's nodes of (the node's x-overlap with
  bx, times its density) times its y-overlap with by. `zero0` is the accumulator's reset at the first point and
  `fin0` the utilisation the last point writes out: the accumulated map scaled and clamped.

  Region 1 (the per-node integral). A grid point sees 512 movable nodes (their five x-bins and y-bins with
  overlap lengths) and the whole 512×512 utilisation map; `body1` is the column of 512 results: for each node
  the sum over by of (the sum over bx of its x-overlap with bx times the map at (bx, by)) times its y-overlap
  with by.
-/
import proofs.«155432_j42700564857383_1_alg».proof.Proof.Gen.KernelIdeal.Skeleton

noncomputable section

namespace Cert.KernelIdeal.Hand

open Idealize.ShloMosaic Cert.KernelIdeal Cert.KernelIdeal.Gen

variable {F : FTy → Type} [FloatOps F] [Named F]

/-- The bin number along a row of 512 bins, the same in every row. -/
abbrev binIds : IVec S512x512 32 := iota .tc S512x512 32 [1] iota_S512x512_d1_w32

/-- The accumulator after one grid point of region 0, from the point's five blocks and the accumulator before. -/
def step0 (x0 : Vec F S512x5 .i32) (x1 : Vec F S512x5 .f32) (x2 : Vec F S512x5 .i32) (x3 : Vec F S512x5 .f32)
    (x4 : Vec F S512x1 .f32) (base : Vec F S512x512 .f32) : Vec F S512x512 .f32 :=
  k0_pay1 (k0_pay6 x2) (k0_pay7 x3) (k0_pay8 x4)
    (k0_pay10 (k0_pay4 x0) (k0_pay5 x1) binIds (k0_pay9 x0 x1))
    binIds (k0_pay11 (k0_pay6 x2) (k0_pay7 x3)) (k0_pay12 (k0_pay6 x2)) (Scalar.ofBits .f32 0x00000000#32)
    (k0_pay13 (k0_pay7 x3)) base

/-- The accumulator's reset. -/
def zero0 : Vec F S512x512 .f32 := k0_pay3 (F := F)

/-- The utilisation map written out at the last grid point, from the final accumulator. -/
def fin0 (acc : Vec F S512x512 .f32) : Vec F S512x512 .f32 := k0_pay2 acc

/-- The 512 results of one grid point of region 1, from its four node blocks and the utilisation map. -/
def body1 (x0 : Vec F S512x5 .i32) (x1 : Vec F S512x5 .f32) (x2 : Vec F S512x5 .i32) (x3 : Vec F S512x5 .f32)
    (x4 : Vec F S512x512 .bf16) : Vec F S512x1 .f32 :=
  k1_pay1 (k1_pay5 x3) (k1_pay6 x4)
    (k1_pay10 (k1_pay2 x0) (k1_pay3 x1) binIds (k1_pay7 x0 x1) (k1_pay8 x0) (Scalar.ofBits .f32 0x00000000#32) (k1_pay9 x1))
    (k1_pay11 (k1_pay4 x2) (k1_pay5 x3)) (k1_pay12 (k1_pay4 x2))

end Cert.KernelIdeal.Hand

end
-- ==== Proof.KIReg0.lean ====
/-
  Region 0 of the idealized kernel program: the bin-map accumulation over a grid of 1954 points.

  A 512×512 accumulator lives in a scratch buffer that the pipeline does not stage; the kernel body carries
  it from one grid point to the next. At the first point the body resets it and adds the point's
  contribution; at every later point it adds the point's contribution to what the point before left; at
  the last point it also writes the scaled and clamped accumulator into the output window, which the
  pipeline writes back at that point only.

  This module states what the accumulator holds after each point (`acc0`, by recursion on the point),
  the pipeline's proof data over a parameter `V` for the region-entry contents (`dat0`), the run of the
  body in each of the three cases, and the body obligation.
-/
import proofs.«155432_j42700564857383_1_alg».proof.Proof.Gen.KernelIdeal.Launch
import proofs.«155432_j42700564857383_1_alg».proof.Proof.Gen.KernelIdeal.Skeleton
import proofs.«155432_j42700564857383_1_alg».proof.Proof.Gen.KernelIdeal.Points
import proofs.«155432_j42700564857383_1_alg».proof.Proof.KIBody
import Idealize.ShloMosaic.Lib.Pipeline.FrameBody
import Idealize.ShloMosaic.Lib.Pipeline.FrameSuffix
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- The contents of core `c`'s TensorCore buffers when the region is entered: a parameter.
variable (V : (c : Dev nD) → (b : Ref sig .tc) → Buf (Elt F) ((c : Thread nD τ).loc b))

/-! ## The windows' blocks and the accumulator point by point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at point `n`: the point's contribution added to the reset
    value at the first point and to what the point before left at every later one. -/
def acc0 (c : Dev nD) : (n : ℕ) → n < cfg0.N → Vec F S512x512 .f32
  | 0, h => step0 (iblk0 V c 0 ⟨0, h⟩) (iblk0 V c 1 ⟨0, h⟩) (iblk0 V c 2 ⟨0, h⟩) (iblk0 V c 3 ⟨0, h⟩) (iblk0 V c 4 ⟨0, h⟩) zero0
  | n + 1, h => step0 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (acc0 c n (Nat.lt_of_succ_lt h))

/-! ## The scratch and the invariant -/

/-- The scratch operand: a whole scoped buffer of the kernel's own, passed beside the windows. -/
abbrev scM0 : Memref sig .tc .vmem S512x512 .f32 := Memref.whole cc0_scratch0

/-- The core's other scoped buffers that are no staging buffer of this region (the staging buffers of the
    second region), each whole at some contents: the body never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class's invariant with the scratch as a memref owned at some contents, the other scoped buffers
    and the generator register beside it. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point the class's (the scratch at
    anything); afterwards the scratch at what the point before left in it (`acc0`), the other scoped
    buffers at anything and the generator register at some state. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch at that point's accumulator. -/
theorem PhiS_succ (c : Dev nD) (n : ℕ) (hn : n < cfg0.N) :
    PhiS V c (n + 1) hn = iprop(iprop(owns (c : Thread nD τ) scM0 fullShare (acc0 V c n hn) ∗ rest0 (F := F) c) ∗ (∃ r, prngReg c r)) := rfl

/-- Before a point that is not the first: the scratch at what the point before left. -/
theorem PhiS_pos (c : Dev nD) (n : ℕ) (h : n ≤ cfg0.N) (hz : n ≠ 0) :
    PhiS V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of the region on core `c`: the arrays as the region finds them (`V`); after the body at
    point `t` each input's buffer at its block and the output's at the scaled and clamped accumulator of
    that point (consulted at the last point only, where the window is written back); the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => fin0 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = fin0 (acc0 V c t.val t.isLt) := by dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-! ## The body's branch conditions, in closed form over the grid -/

/-- The condition of the body's first `scf.if` (the reset), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second `scf.if` (the write-out), from the grid coordinate. -/
abbrev cond0_1 (i : grid0.Coords) : Prop := k0_cond2 i = 1#1
/-- It holds at the last point only — decided over the grid. -/
theorem hcond0_1 : ∀ t : Fin cfg0.N, cond0_1 (grid0.coords t) ↔ t.val = 1953 :=
  (by decide +kernel : ∀ t : Fin grid0.N, cond0_1 (grid0.coords t) ↔ t.val = 1953)

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Away from the last point the output window is idle: the body stores nothing into it, -/
theorem idleAt0_5 : ∀ t : Fin cfg0.N, ¬cond0_1 (grid0.coords t) → cfg0.idle 5 (grid0.coords t) = true := by decide +kernel
/-- and the pipeline does not write its block back. -/
theorem noFlush0_5 : ∀ t : Fin cfg0.N, ¬cond0_1 (grid0.coords t) → (cfg0.win 5).flush t = false := by decide +kernel
/-- At the last point the output window is live: the body stores into it. -/
theorem liveAt0_5 : ∀ t : Fin cfg0.N, cond0_1 (grid0.coords t) → cfg0.idle 5 (grid0.coords t) = false := by decide +kernel

/-! ## The kernel body on any staging memrefs, case by case

The body is run on memref variables, whole, the inputs' at their contents. Its stores go through the
whole-shape rectangle at zero offsets, so each leaves its payload, and a load through the same
rectangle reads the contents or, after a store of this run, that store's payload. What the scratch
holds afterwards is therefore `step0` of the five blocks over what it held (the reset value at the
first point), and at the last point the output's buffer holds `fin0` of that. -/

/-- The zero offsets of a rank-2 rectangle, however spelt. -/
theorem off2_zero : (![0, 0] : Fin 2 → ℕ) = fun _ => 0 := by funext a; fin_cases a <;> rfl

/-- A load through the whole-shape rectangle at zero offsets of a whole memref held at the contents that
    read `X` reads `X`. -/
theorem readAt_whole_unread {κ : Kind} {sp : Space} {s : Shape} {e : EltTy} {m : Memref sig κ sp s e} (h : m.IsWhole) (X : s.Idx → Elt F e)
    {off : Fin s.rank → ℕ} (hoff : off = fun _ => 0) {inb : ∀ a, off a + s.size a ≤ s.size a} :
    View.readAt (Elt F) m.view (Rect.unit off s.size inb).toLoadRect (h.unread X) = X := by
  rw [View.readAt_eq_ld, h.read_unread, View.ld_unit_zero hoff]

/-- What one store through the whole-shape rectangle at zero offsets leaves, whatever was stored before. -/
theorem read_writes_whole {κ : Kind} {sp : Space} (v : View sig κ sp S512x512 .f32) (f : v.ty.Contents (Elt F))
    (w : Vec F S512x512 .f32) (L : List (View.Piece (Elt F) S512x512 .f32)) :
    v.read (Elt F) (v.writes (Elt F) f ((⟨Rect.unit ![0, 0] ![512, 512] inb_S512x512_S512x512_0_0, w⟩ : View.Piece (Elt F) S512x512 .f32) :: L)) = w := by
  rw [View.read_writes_eq_canon _ _ _ (fun y => ⟨_, List.mem_cons_self, View.mem_set_unit_zero off2_zero inb_S512x512_S512x512_0_0 y⟩),
    View.canon_cons_unit_zero off2_zero inb_S512x512_S512x512_0_0]

set_option maxHeartbeats 1000000 in
theorem run0_A (c : Dev nD) (i : grid0.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x1 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x5 .i32) (x1 : Vec F S512x5 .f32) (x2 : Vec F S512x5 .i32) (x3 : Vec F S512x5 .f32) (x4 : Vec F S512x1 .f32) (xi5 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (step0 x0 x1 x2 x3 x4 zero0)) -∗ K ⟨⟩))
      ⊢ wp frame (wpE (defs₀ (F := F)) Variants.none c none) E (cc0__scatter_kernel i arg1 harg1 arg2 harg2 arg3 harg3 arg4 harg4 arg5 harg5 arg6 harg6 arg7 harg7) K := by
  simp only [cc0__scatter_kernel_eq_skeleton]; unfold cc0__scatter_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [read_writes_whole]
  rw [readAt_whole_unread harg1 x0 off2_zero, readAt_whole_unread harg2 x1 off2_zero, readAt_whole_unread harg3 x2 off2_zero,
    readAt_whole_unread harg4 x3 off2_zero, readAt_whole_unread harg5 x4 off2_zero,
    View.readCov_unit_zero _ off2_zero inb_S512x512_S512x512_0_0]
  rfl

set_option maxHeartbeats 1000000 in
theorem run0_B (c : Dev nD) (i : grid0.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x1 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x5 .i32) (x1 : Vec F S512x5 .f32) (x2 : Vec F S512x5 .i32) (x3 : Vec F S512x5 .f32) (x4 : Vec F S512x1 .f32) (xs0 : Vec F S512x512 .f32) (xi5 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (step0 x0 x1 x2 x3 x4 xs0)) -∗ K ⟨⟩))
      ⊢ wp frame (wpE (defs₀ (F := F)) Variants.none c none) E (cc0__scatter_kernel i arg1 harg1 arg2 harg2 arg3 harg3 arg4 harg4 arg5 harg5 arg6 harg6 arg7 harg7) K := by
  simp only [cc0__scatter_kernel_eq_skeleton]; unfold cc0__scatter_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [read_writes_whole]
  rw [readAt_whole_unread harg1 x0 off2_zero, readAt_whole_unread harg2 x1 off2_zero, readAt_whole_unread harg3 x2 off2_zero,
    readAt_whole_unread harg4 x3 off2_zero, readAt_whole_unread harg5 x4 off2_zero, readAt_whole_unread harg7 xs0 off2_zero]
  rfl

set_option maxHeartbeats 1000000 in
theorem run0_C (c : Dev nD) (i : grid0.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x1 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x5 .i32) (x1 : Vec F S512x5 .f32) (x2 : Vec F S512x5 .i32) (x3 : Vec F S512x5 .f32) (x4 : Vec F S512x1 .f32) (xs0 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fin0 (step0 x0 x1 x2 x3 x4 xs0)) ∗ owns (c : Thread nD τ) arg7 fullShare (step0 x0 x1 x2 x3 x4 xs0)) -∗ K ⟨⟩))
      ⊢ wp frame (wpE (defs₀ (F := F)) Variants.none c none) E (cc0__scatter_kernel i arg1 harg1 arg2 harg2 arg3 harg3 arg4 harg4 arg5 harg5 arg6 harg6 arg7 harg7) K := by
  simp only [cc0__scatter_kernel_eq_skeleton]; unfold cc0__scatter_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    rw [read_writes_whole]
    rw [View.readCov_unit_zero _ off2_zero inb_S512x512_S512x512_0_0]
    rw [readAt_whole_unread harg1 x0 off2_zero, readAt_whole_unread harg2 x1 off2_zero, readAt_whole_unread harg3 x2 off2_zero,
      readAt_whole_unread harg4 x3 off2_zero, readAt_whole_unread harg5 x4 off2_zero, readAt_whole_unread harg7 xs0 off2_zero]
    rfl
  iexists _; isplitr
  swap; · iexact HS0
  ipureintro
  sl_unfold_run_names
  rw [read_writes_whole]
  rw [readAt_whole_unread harg1 x0 off2_zero, readAt_whole_unread harg2 x1 off2_zero, readAt_whole_unread harg3 x2 off2_zero,
    readAt_whole_unread harg4 x3 off2_zero, readAt_whole_unread harg5 x4 off2_zero, readAt_whole_unread harg7 xs0 off2_zero]
  rfl

/-! ## What the accumulator holds, at a generic point -/

/-- At the first point: the point's contribution over the reset value. -/
theorem acc0_zero (c : Dev nD) (t : Fin cfg0.N) (h : t.val = 0) :
    acc0 V c t.val t.isLt = step0 (iblk0 V c 0 t) (iblk0 V c 1 t) (iblk0 V c 2 t) (iblk0 V c 3 t) (iblk0 V c 4 t) zero0 := by
  obtain ⟨n, hn⟩ := t
  cases n with
  | zero => rfl
  | succ n => exact absurd h (Nat.succ_ne_zero _)

/-- At a later point: the point's contribution over what the point before left. -/
theorem acc0_pos (c : Dev nD) (t : Fin cfg0.N) (h : t.val ≠ 0) :
    acc0 V c t.val t.isLt = step0 (iblk0 V c 0 t) (iblk0 V c 1 t) (iblk0 V c 2 t) (iblk0 V c 3 t) (iblk0 V c 4 t)
      (acc0 V c (t.val - 1) (Nat.lt_of_le_of_lt (Nat.sub_le _ _) t.isLt)) := by
  obtain ⟨n, hn⟩ := t
  cases n with
  | zero => exact absurd rfl h
  | succ n => rfl

/-! ## The inputs' staging buffers -/

/-- Each input's current staging buffer holds its block at every point, fetched there or not: the window
    is uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- Each window's current staging memref at point `t`, spelled as the pipeline passes it, and its wholeness. -/
abbrev ms0_0 (t : Fin cfg0.N) : Memref sig .tc .vmem S512x5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x5 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)

/-! ## The body obligation, at a generic point -/

/-- What the body is called with at point `t` (the obligation's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the closed forms say which case the point
    is in. At the first point the invariant hands the body the scratch at anything and the run leaves it at
    the point's contribution over the reset value; at a later point it hands it at what the point before
    left and the run leaves it at the point's contribution over that. Away from the last point the output's
    buffer is handed back untouched (the window is idle and not written back); at the last point the run
    leaves in it the scaled and clamped accumulator. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 1954 := lt_of_lt_of_eq t.isLt (show cfg0.N = 1954 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 5 t (idleAt0_5 t hc1) (noFlush0_5 t hc1)]
    rw [acc0_zero V c t h0]
    rw [PhiS_castSucc V c t, PhiS_zero V c _ _ h0, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ hc0 hc1 (iblk0 V c 0 t) (iblk0 V c 1 t) (iblk0 V c 2 t) (iblk0 V c 3 t) (iblk0 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 1953
    · have hc0 : ¬cond0_0 (grid0.coords t) := fun h => h0 ((hcond0_0 t).mp h)
      have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [acc0_pos V c t h0]
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 5 t (idleAt0_5 t hc1) (noFlush0_5 t hc1)]
      rw [acc0_pos V c t h0]
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ hc0 hc1 (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 1954 := N_0; omega)

end Cert.KernelIdeal.Hand

end
-- ==== Proof.KIReg1.lean ====
/-
  Region 1 of the idealized kernel program (the per-node integral of the utilisation map), at the contents `V`
  the region finds in the TensorCore's buffers when it is entered.

  A grid point sees 512 movable nodes through four input windows (five x-bin numbers and overlap lengths, five
  y-bin numbers and overlap lengths per node) and, through a fifth, the whole 512×512 utilisation map, which the
  pipeline brings in at the first point only and which stays in place afterwards. The body reads the five blocks
  whole, computes one column of 512 results and stores it whole into the output window, which is written back at
  every point. So after the body every input's buffer still holds its block, and the output's holds `body1` of the
  five blocks: for each node the sum over y-bins of (the sum over x-bins of its x-overlap times the map there)
  times its y-overlap.

  The module gives each window's block at a point, the proof data of the pipeline with these contents, and the
  body's obligation at every point: the body's run on whole staging buffers, then its instance at the pipeline's
  staging buffers.
-/
import proofs.«155432_j42700564857383_1_alg».proof.Proof.Gen.KernelIdeal.Launch
import proofs.«155432_j42700564857383_1_alg».proof.Proof.Gen.KernelIdeal.Skeleton
import proofs.«155432_j42700564857383_1_alg».proof.Proof.Gen.KernelIdeal.Points
import proofs.«155432_j42700564857383_1_alg».proof.Proof.KIBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of 512 rows: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the 512 rows of its array that the point sees (for the map, all of it), read
    off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the movable nodes' five x-bin numbers): its current staging buffer holds its block at every point, whether the
    window was fetched there or not (unfetched, the block index has not moved), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (their overlap lengths with those x-bins): its current staging buffer holds its block at every point, whether the
    window was fetched there or not (unfetched, the block index has not moved), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the nodes' five y-bin numbers): its current staging buffer holds its block at every point, whether the
    window was fetched there or not (unfetched, the block index has not moved), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (their overlap lengths with those y-bins): its current staging buffer holds its block at every point, whether the
    window was fetched there or not (unfetched, the block index has not moved), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the whole 512×512 utilisation map): its current staging buffer holds its block at every point, whether the
    window was fetched there or not (unfetched, the block index has not moved), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

/-- A node block, whole: 512 rows of five entries from row 0, column 0. -/
abbrev nodeRect : Rect S512x5 := Rect.unit (s := S512x5) ![0, 0] S512x5.size inb_S512x5_S512x5_0_0
/-- The utilisation map, whole. -/
abbrev mapRect : Rect S512x512 := Rect.unit (s := S512x512) ![0, 0] S512x512.size inb_S512x512_S512x512_0_0
/-- The result column, whole: 512 rows of one entry. -/
abbrev colRect : Rect S512x1 := Rect.unit (s := S512x1) ![0, 0] S512x1.size inb_S512x1_S512x1_0_0

/-- The offsets of all three are zero on both axes. -/
theorem offsets_zero : (![0, 0] : Fin 2 → Nat) = fun _ => 0 := funext fun a => by fin_cases a <;> rfl

/-! ## What the body leaves in the output window's buffer -/

/-- The output buffer after the body, from the input buffers' contents: its one store, of `body1` of what the five
    loads read. -/
def out1_5 (x0 : Vec F S512x5 .i32) (x1 : Vec F S512x5 .f32) (x2 : Vec F S512x5 .i32) (x3 : Vec F S512x5 .f32) (x4 : Vec F S512x512 .bf16) : Vec F S512x1 .f32 :=
  View.canon [⟨colRect, body1 (View.ld x0 nodeRect) (View.ld x1 nodeRect) (View.ld x2 nodeRect) (View.ld x3 nodeRect) (View.ld x4 mapRect)⟩]

/-- The one store covers the buffer. -/
theorem cover1_5 (p0 : Vec F S512x1 .f32) (y : S512x1.Idx) :
    ∃ pc ∈ ([⟨colRect, p0⟩] : List (View.Piece (Elt F) S512x1 .f32)), y ∈ pc.1.set :=
  View.cover_of_tiled [⟨colRect, p0⟩] S512x1.size (by rfl) y

/-- Each load reads its buffer whole and the store fills the output whole, so the output holds `body1` of the five
    buffers' contents. -/
theorem out1_5_eq (x0 : Vec F S512x5 .i32) (x1 : Vec F S512x5 .f32) (x2 : Vec F S512x5 .i32) (x3 : Vec F S512x5 .f32) (x4 : Vec F S512x512 .bf16) : out1_5 x0 x1 x2 x3 x4 = body1 x0 x1 x2 x3 x4 := by
  unfold out1_5
  rw [View.canon_unit_zero offsets_zero]
  simp only [View.ld_unit_zero (S := S512x5) offsets_zero, View.ld_unit_zero (S := S512x512) offsets_zero]

/-! ## The body's triple -/

set_option maxHeartbeats 1000000 in
/-- The kernel body on whole staging buffers, the five inputs' at contents `x0 … x4` and the output's at anything,
    runs to the continuation with the inputs' as they were and the output's at `body1 x0 x1 x2 x3 x4`: its two
    parts load the five buffers whole and compute; the body then loads the output buffer (a value it never uses)
    and stores the result column over it. -/
theorem sound_kernel1 (c : Dev nD) (E : Set ℕ) (i : grid1.Coords) (arg1 : Memref sig .tc .vmem S512x5 .i32) (harg1 : arg1.IsWhole) (arg2 : Memref sig .tc .vmem S512x5 .f32) (harg2 : arg2.IsWhole) (arg3 : Memref sig .tc .vmem S512x5 .i32) (harg3 : arg3.IsWhole) (arg4 : Memref sig .tc .vmem S512x5 .f32) (harg4 : arg4.IsWhole) (arg5 : Memref sig .tc .vmem S512x512 .bf16) (harg5 : arg5.IsWhole) (arg6 : Memref sig .tc .vmem S512x1 .f32) (harg6 : arg6.IsWhole)
    (x0 : Vec F S512x5 .i32) (x1 : Vec F S512x5 .f32) (x2 : Vec F S512x5 .i32) (x3 : Vec F S512x5 .f32) (x4 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (body1 x0 x1 x2 x3 x4)) -∗ K ⟨⟩))
      ⊢ wp frame (wpE (defs₀ (F := F)) Variants.none c none) E (cc1__gather_kernel i arg1 harg1 arg2 harg2 arg3 harg3 arg4 harg4 arg5 harg5 arg6 harg6) K := by
  simp only [cc1__gather_kernel_eq_skeleton]; unfold cc1__gather_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  refine (View.read_writes_eq_canon _ _ _ (cover1_5 _)).trans ?_
  exact out1_5_eq _ _ _ _ _

/-! ## The pipeline's proof data -/

/-- The proof data of the region's pipeline on core `c`: the arrays as the region finds them; after the body at
    point `t` each input's buffer at its block and the output's at `body1` of the five blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => body1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = body1 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, what the core owes, and the six windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies at the five blocks;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The idealized kernel program from its launch to its return, and what its buffers hold at the end.

  @main is forty-five items in a row: host stretches, the bin-map region, more host stretches, the node-integral
  region, a last stretch. Between two items a core holds every unscoped buffer whole at a known valuation: the
  launch memory, then each stretch's operations applied, and after a region the entry valuation with the region's
  result buffer replaced by what its write-backs leave (the proof data's fold over the grid). Each region enters
  from the valuation before it: its six arrays are split out of the unscoped buffers, the generator register and the
  scoped buffers go into the region's invariant, and at the exit the arrays are put back at their final contents.
  The launch composes the forty-five items; at the end every unscoped buffer is read off the last valuation. From
  that one statement come the frame (no item writes an argument array) and the run with @main's result named.
-/
import proofs.«155432_j42700564857383_1_alg».proof.Proof.KernelIdealRegions
import proofs.«155432_j42700564857383_1_alg».proof.Proof.KIBody
import proofs.«155432_j42700564857383_1_alg».proof.Proof.KIReg0
import proofs.«155432_j42700564857383_1_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

/-- Region 1 keeps nothing between grid points: its invariant is the scoped rest and the generator register at every point. -/
theorem Phi1 (V : (c : Dev nD) → (b : Ref sig .tc) → Buf (Elt F) ((c : Thread nD τ).loc b)) (c : Dev nD) (t) :
    (dat1 V c).Φ t = Pipeline.ΦA spec1 c := rfl

variable (m : (ℓ : Loc nD τ sig) → Buf (Elt F) ℓ) (ρ : Dev nD → PrngReg)

/-! ## The buffers' contents around the two regions -/

/-- Core `c`'s buffers when region 0 is entered, read at the TensorCore's references. -/
abbrev E0 : (c : Dev nD) → (b : Ref sig .tc) → Buf (Elt F) ((c : Thread nD τ).loc b) := fun c b => V22 m c b

/-- After region 0: its arrays at what the write-backs leave, every other buffer as entered. -/
def X0 (c : Dev nD) : Valuation τ sig (Elt F) :=
  Pipeline.withArrays spec0 c (V22 m c) fun w => (dat0 (E0 m) c).arrAt w cfg0.N

/-- What the regions leave, as the unknowns of the valuations: region 0's bin map. -/
def outs0 : Outs (F := F) := fun _ r c => X0 m c r

/-- Core `c`'s buffers when region 1 is entered. -/
abbrev E1 : (c : Dev nD) → (b : Ref sig .tc) → Buf (Elt F) ((c : Thread nD τ).loc b) := fun c b => V43 m (outs0 m) c b

/-- After region 1: its arrays at what the write-backs leave, every other buffer as entered. -/
def X1 (c : Dev nD) : Valuation τ sig (Elt F) :=
  Pipeline.withArrays spec1 c (V43 m (outs0 m) c) fun w => (dat1 (E1 m) c).arrAt w cfg1.N

/-- Both regions' results: item 23's from region 0, item 44's from region 1. -/
def outsA : Outs (F := F) := fun J r c => if J = 23 then X0 m c r else X1 m c r

theorem V23_eq (c : Dev nD) : V23 m (outsA m) c = V23 m (outs0 m) c := rfl
theorem V43_eq (c : Dev nD) : V43 m (outsA m) c = V43 m (outs0 m) c := rfl

/-! ## What the exit valuations hold -/

theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = V22 m c (Proc.devRef .tc b) := by
  unfold X0; exact Pipeline.withArrays_of_ne spec0 c _ _ b hb
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = V43 m (outs0 m) c (Proc.devRef .tc b) := by
  unfold X1; exact Pipeline.withArrays_of_ne spec1 c _ _ b hb

/-- An input window's array is not changed by region 0. -/
theorem arrAt0_in (c : Dev nD) : ∀ w : Fin cfg0.W, w ≠ 5 → (dat0 (E0 m) c).arrAt w cfg0.N = V22 m c (Proc.devRef .tc (Pipeline.arrRef spec0 w))
  | ⟨0, _⟩, _ => ((dat0 (E0 m) c).arrAt_in 0 rfl _).trans (A_eq0 (E0 m) c 0)
  | ⟨1, _⟩, _ => ((dat0 (E0 m) c).arrAt_in 1 rfl _).trans (A_eq0 (E0 m) c 1)
  | ⟨2, _⟩, _ => ((dat0 (E0 m) c).arrAt_in 2 rfl _).trans (A_eq0 (E0 m) c 2)
  | ⟨3, _⟩, _ => ((dat0 (E0 m) c).arrAt_in 3 rfl _).trans (A_eq0 (E0 m) c 3)
  | ⟨4, _⟩, _ => ((dat0 (E0 m) c).arrAt_in 4 rfl _).trans (A_eq0 (E0 m) c 4)
  | ⟨5, _⟩, h => absurd rfl h
  | ⟨_ + 6, h⟩, _ => absurd h (Nat.not_lt.2 (Nat.le_add_left _ _))
theorem arrAt1_in (c : Dev nD) : ∀ w : Fin cfg1.W, w ≠ 5 → (dat1 (E1 m) c).arrAt w cfg1.N = V43 m (outs0 m) c (Proc.devRef .tc (Pipeline.arrRef spec1 w))
  | ⟨0, _⟩, _ => ((dat1 (E1 m) c).arrAt_in 0 rfl _).trans (A_eq1 (E1 m) c 0)
  | ⟨1, _⟩, _ => ((dat1 (E1 m) c).arrAt_in 1 rfl _).trans (A_eq1 (E1 m) c 1)
  | ⟨2, _⟩, _ => ((dat1 (E1 m) c).arrAt_in 2 rfl _).trans (A_eq1 (E1 m) c 2)
  | ⟨3, _⟩, _ => ((dat1 (E1 m) c).arrAt_in 3 rfl _).trans (A_eq1 (E1 m) c 3)
  | ⟨4, _⟩, _ => ((dat1 (E1 m) c).arrAt_in 4 rfl _).trans (A_eq1 (E1 m) c 4)
  | ⟨5, _⟩, h => absurd rfl h
  | ⟨_ + 6, h⟩, _ => absurd h (Nat.not_lt.2 (Nat.le_add_left _ _))

/-- After region 0 the buffers are the exit valuation: the bin map's buffer at what the region wrote back, every other as entered. -/
theorem V23_X0 (c : Dev nD) (b : Ref sig .tc) : V23 m (outsA m) c b = X0 m c b := by
  by_cases hb : b = main_v102
  · subst hb
    show Function.update (V22 m c) (Proc.devRef .tc main_v102) (X0 m c main_v102) (Proc.devRef .tc main_v102) = _
    exact Function.update_self ..
  · rw [V23_of m (outsA m) c b (by simpa using hb)]
    by_cases hw : ∃ w, Pipeline.arrRef spec0 w = b
    · obtain ⟨w, rfl⟩ := hw
      have h5 : w ≠ 5 := fun h => hb (by subst h; rfl)
      exact ((X0_arr m c w).trans (arrAt0_in m c w h5)).symm
    · exact (X0_of_ne m c b fun w h => hw ⟨w, h⟩).symm
theorem V44_X1 (c : Dev nD) (b : Ref sig .tc) : V44 m (outsA m) c b = X1 m c b := by
  by_cases hb : b = main_v180
  · subst hb
    show Function.update (V43 m (outsA m) c) (Proc.devRef .tc main_v180) (X1 m c main_v180) (Proc.devRef .tc main_v180) = _
    exact Function.update_self ..
  · rw [V44_of m (outsA m) c b (by simpa using hb)]
    by_cases hw : ∃ w, Pipeline.arrRef spec1 w = b
    · obtain ⟨w, rfl⟩ := hw
      have h5 : w ≠ 5 := fun h => hb (by subst h; rfl)
      exact ((X1_arr m c w).trans (arrAt1_in m c w h5)).symm
    · exact (X1_of_ne m c b fun w h => hw ⟨w, h⟩).symm

theorem hF0 (c : Dev nD) (w : Fin cfg0.W) : (dat0 (E0 m) c).arrAt w cfg0.N = V23 m (outsA m) c (Pipeline.arrRef spec0 w) :=
  ((V23_X0 m c _).trans (X0_arr m c w)).symm
theorem hrest0 (c : Dev nD) : ∀ b, b ∉ Finset.univ.image (Pipeline.arrRef spec0) → V23 m (outsA m) c b = E0 m c b :=
  fun b hb => (V23_X0 m c b).trans (X0_of_ne m c b fun w e => hb (Finset.mem_image.mpr ⟨w, Finset.mem_univ _, e⟩))
theorem hF1 (c : Dev nD) (w : Fin cfg1.W) : (dat1 (E1 m) c).arrAt w cfg1.N = V44 m (outsA m) c (Pipeline.arrRef spec1 w) :=
  ((V44_X1 m c _).trans (X1_arr m c w)).symm
theorem hrest1 (c : Dev nD) : ∀ b, b ∉ Finset.univ.image (Pipeline.arrRef spec1) → V44 m (outsA m) c b = E1 m c b :=
  fun b hb => (V44_X1 m c b).trans (X1_of_ne m c b fun w e => hb (Finset.mem_image.mpr ⟨w, Finset.mem_univ _, e⟩))

/-! ## The proof data family and the thread state -/

/-- Both pipelines' proof data, each at its region's entry contents: a literal match on the pipeline. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
theorem Rst_owes (c : Dev nD) : Rst (F := F) c ⊢ (iprop(∃ W, owes (c : Thread nD τ) (0 : CellTallies nD τ sig Unit) W) : sProp 𝕄) := by
  iintro ⟨-, H⟩; iexact H

-- the library's entry and exit lemmas are stated over the pinned configuration: unification may unfold plain definitions in a metavariable's type
set_option backward.isDefEq.respectTransparency.types false in
/-- Region 0 over the thread state: entered with every unscoped buffer at the contents before it, left with them at the contents
    after it; its arrays are split out of the unscoped buffers and put back at what the write-backs leave; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V22 m c) ∗ Rst c)
  post c := iprop(StableHlo.held (c : Thread nD τ) (Pipeline.ucRefs τ sig) (V23 m (outsA m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E0 m) c)
    unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V23 m (outsA m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

-- the library's entry and exit lemmas are stated over the pinned configuration: unification may unfold plain definitions in a metavariable's type
set_option backward.isDefEq.respectTransparency.types false in
/-- Region 1 over the thread state: entered with every unscoped buffer at the contents before it, left with them at the contents
    after it; its arrays are split out of the unscoped buffers and put back at what the write-backs leave; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V43 m (outs0 m) c) ∗ Rst c)
  post c := iprop(StableHlo.held (c : Thread nD τ) (Pipeline.ucRefs τ sig) (V44 m (outsA m) c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (E1 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (E1 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V44 m (outsA m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iexact HO

/-! ## @main from the launch to the return -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain definitions in a metavariable's type
set_option backward.isDefEq.respectTransparency.types false in
/-- At the compiled mesh, from any memory with zero counters: every weakly fair execution of @main terminates, nothing faulting,
    and every final memory holds, in every unscoped buffer of every core, the last valuation: the host stretches' values
    folded through, the bin map at what region 0 wrote back and the node integrals at what region 1 wrote back. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V45 m (outsA m) c b) := by
  refine Pipeline.θ_run_regions_kit_dev (pcfgs (F := F)) adm (pdats m) () cellOf_inj emb₁ defs₀ 𝒱₀ L lv m ρ main
    (segs m (outsA m) 𝒱₀ L lv (fun _ => Rst) () (pdats m) (reg0 m) (reg1 m))
    (fun c Q => by
      rewrite [main_chain c, Seg.run_eq_chain,
        show (segs m (outsA m) 𝒱₀ L lv (fun _ => Rst) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          StableHlo.seq hostOps1_17,
          StableHlo.seq hostOps1_18,
          StableHlo.seq hostOps1_19,
          Prog.lift (.customCall (Pipeline.entry 1) ()),
          StableHlo.seq hostOps2 ] from rfl]
      with_reducible exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V45 m (outsA m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (Rst_owes c)⟩)
    (hinit := ?_)
    (QY := fun c s => ∀ b ∈ Pipeline.ucRefs τ sig, s.mem (((c : Thread nD τ)).1, b) = V45 m (outsA m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V45 m (outsA m) c) s')
    isplitl [Hh] <;> iassumption

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V45_main_arg0 m (outsA m) c),
     (h c _ (mem_uc main_arg1 (by decide))).trans (V45_main_arg1 m (outsA m) c),
     (h c _ (mem_uc main_arg2 (by decide))).trans (V45_main_arg2 m (outsA m) c),
     (h c _ (mem_uc main_arg3 (by decide))).trans (V45_main_arg3 m (outsA m) c)⟩) (run_all m ρ)

/-- The run with @main's result named: the node integrals' buffer at the last valuation, the arguments as launched. -/
theorem run_result : θ_run defs (onTc (τ := τ) (main (F := F))) ⟨m, fun _ => 0, ρ⟩ (fun r => ∀ c : Dev nD,
      r.2.mem ((c.tc : Thread nD τ).loc main_v182) = V45 m (outsA m) c main_v182
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v182 (by decide)),
     (h c _ (mem_uc main_arg0 (by decide))).trans (V45_main_arg0 m (outsA m) c),
     (h c _ (mem_uc main_arg1 (by decide))).trans (V45_main_arg1 m (outsA m) c),
     (h c _ (mem_uc main_arg2 (by decide))).trans (V45_main_arg2 m (outsA m) c),
     (h c _ (mem_uc main_arg3 (by decide))).trans (V45_main_arg3 m (outsA m) c)⟩) (run_all m ρ)

end Cert.KernelIdeal.Hand

end
-- ==== Proof.RefRun01.lean ====
/- The reference's run, part 1 of 10: the half sizes, the centres and the density (operations 1 … 33). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The half sizes, the centres and the density (operations 1 … 33), in order (a called function's operations stand in its call's place). -/
abbrev opsGeom : List (HloOp τ sig (Elt F)) :=
  [ unary main_arg1 main_v0 ((extractStridedSlice S1000000 ![0] · slices_S1200000_S1000000_0) : (⟨S1200000, .f32⟩ : BufTy).Contents (Elt F) → (⟨S1000000, .f32⟩ : BufTy).Contents (Elt F)),
    unary main_arg2 main_v1 ((extractStridedSlice S1000000 ![0] · slices_S1200000_S1000000_0) : (⟨S1200000, .f32⟩ : BufTy).Contents (Elt F) → (⟨S1000000, .f32⟩ : BufTy).Contents (Elt F)),
    nullary main_cst (constant S_ .f32 0x4030C6D6#32),
    unary main_cst main_v2 (broadcastInDim S1000000 ![] bcast_S_S1000000 : (⟨S_, .f32⟩ : BufTy).Contents (Elt F) → (⟨S1000000, .f32⟩ : BufTy).Contents (Elt F)),
    binary main_v2 main_v0 main_v3 (maximumf : (⟨S1000000, .f32⟩ : BufTy).Contents (Elt F) → (⟨S1000000, .f32⟩ : BufTy).Contents (Elt F) → (⟨S1000000, .f32⟩ : BufTy).Contents (Elt F)),
    nullary main_cst_0 (constant S_ .f32 0x3F000000#32),
    unary main_cst_0 main_v4 (broadcastInDim S1000000 ![] bcast_S_S1000000 : (⟨S_, .f32⟩ : BufTy).Contents (Elt F) → (⟨S1000000, .f32⟩ : BufTy).Contents (Elt F)),
    binary main_v4 main_v3 main_v5 (mulf : (⟨S1000000, .f32⟩ : BufTy).Contents (Elt F) → (⟨S1000000, .f32⟩ : BufTy).Contents (Elt F) → (⟨S1000000, .f32⟩ : BufTy).Contents (Elt F)),
    nullary main_cst_1 (constant S_ .f32 0x4030C6D6#32),
    unary main_cst_1 main_v6 (broadcastInDim S1000000 ![] bcast_S_S1000000 : (⟨S_, .f32⟩ : BufTy).Contents (Elt F) → (⟨S1000000, .f32⟩ : BufTy).Contents (Elt F)),
    binary main_v6 main_v1 main_v7 (maximumf : (⟨S1000000, .f32⟩ : BufTy).Contents (Elt F) → (⟨S1000000, .f32⟩ : BufTy).Contents (Elt F) → (⟨S1000000, .f32⟩ : BufTy).Contents (Elt F)),
    nullary main_cst_2 (constant S_ .f32 0x3F000000#32),
    unary main_cst_2 main_v8 (broadcastInDim S1000000 ![] bcast_S_S1000000 : (⟨S_, .f32⟩ : BufTy).Contents (Elt F) → (⟨S1000000, .f32⟩ : BufTy).Contents (Elt F)),
    binary main_v8 main_v7 main_v9 (mulf : (⟨S1000000, .f32⟩ : BufTy).Contents (Elt F) → (⟨S1000000, .f32⟩ : BufTy).Contents (Elt F) → (⟨S1000000, .f32⟩ : BufTy).Contents (Elt F)),
    unary main_arg0 main_v10 ((extractStridedSlice S1000000 ![0] · slices_S2400000_S1000000_0) : (⟨S2400000, .f32⟩ : BufTy).Contents (Elt F) → (⟨S1000000, .f32⟩ : BufTy).Contents (Elt F)),
    nullary main_cst_3 (constant S_ .f32 0x3F000000#32),
    unary main_cst_3 main_v11 (broadcastInDim S1000000 ![] bcast_S_S1000000 : (⟨S_, .f32⟩ : BufTy).Contents (Elt F) → (⟨S1000000, .f32⟩ : BufTy).Contents (Elt F)),
    binary main_v11 main_v0 main_v12 (mulf : (⟨S1000000, .f32⟩ : BufTy).Contents (Elt F) → (⟨S1000000, .f32⟩ : BufTy).Contents (Elt F) → (⟨S1000000, .f32⟩ : BufTy).Contents (Elt F)),
    binary main_v10 main_v12 main_v13 (addf : (⟨S1000000, .f32⟩ : BufTy).Contents (Elt F) → (⟨S1000000, .f32⟩ : BufTy).Contents (Elt F) → (⟨S1000000, .f32⟩ : BufTy).Contents (Elt F)),
    unary main_arg0 main_v14 ((extractStridedSlice S1000000 ![1200000] · slices_S2400000_S1000000_1200000) : (⟨S2400000, .f32⟩ : BufTy).Contents (Elt F) → (⟨S1000000, .f32⟩ : BufTy).Contents (Elt F)),
    nullary main_cst_4 (constant S_ .f32 0x3F000000#32),
    unary main_cst_4 main_v15 (broadcastInDim S1000000 ![] bcast_S_S1000000 : (⟨S_, .f32⟩ : BufTy).Contents (Elt F) → (⟨S1000000, .f32⟩ : BufTy).Contents (Elt F)),
    binary main_v15 main_v1 main_v16 (mulf : (⟨S1000000, .f32⟩ : BufTy).Contents (Elt F) → (⟨S1000000, .f32⟩ : BufTy).Contents (Elt F) → (⟨S1000000, .f32⟩ : BufTy).Contents (Elt F)),
    binary main_v14 main_v16 main_v17 (addf : (⟨S1000000, .f32⟩ : BufTy).Contents (Elt F) → (⟨S1000000, .f32⟩ : BufTy).Contents (Elt F) → (⟨S1000000, .f32⟩ : BufTy).Contents (Elt F)),
    unary main_arg3 main_v18 ((extractStridedSlice S1000000 ![1] · slices_S1000001_S1000000_1) : (⟨S1000001, .i32⟩ : BufTy).Contents (Elt F) → (⟨S1000000, .i32⟩ : BufTy).Contents (Elt F)),
    unary main_arg3 main_v19 ((extractStridedSlice S1000000 ![0] · slices_S1000001_S1000000_0) : (⟨S1000001, .i32⟩ : BufTy).Contents (Elt F) → (⟨S1000000, .i32⟩ : BufTy).Contents (Elt F)),
    binary main_v18 main_v19 main_v20 (subi : (⟨S1000000, .i32⟩ : BufTy).Contents (Elt F) → (⟨S1000000, .i32⟩ : BufTy).Contents (Elt F) → (⟨S1000000, .i32⟩ : BufTy).Contents (Elt F)),
    unary main_v20 main_v21 (sitofp .f32 : (⟨S1000000, .i32⟩ : BufTy).Contents (Elt F) → (⟨S1000000, .f32⟩ : BufTy).Contents (Elt F)),
    nullary main_cst_5 (constant S_ .f32 0x40800000#32),
    unary main_cst_5 main_v22 (broadcastInDim S1000000 ![] bcast_S_S1000000 : (⟨S_, .f32⟩ : BufTy).Contents (Elt F) → (⟨S1000000, .f32⟩ : BufTy).Contents (Elt F)),
    binary main_v22 main_v5 main_v23 (mulf : (⟨S1000000, .f32⟩ : BufTy).Contents (Elt F) → (⟨S1000000, .f32⟩ : BufTy).Contents (Elt F) → (⟨S1000000, .f32⟩ : BufTy).Contents (Elt F)),
    binary main_v23 main_v9 main_v24 (mulf : (⟨S1000000, .f32⟩ : BufTy).Contents (Elt F) → (⟨S1000000, .f32⟩ : BufTy).Contents (Elt F) → (⟨S1000000, .f32⟩ : BufTy).Contents (Elt F)),
    binary main_v21 main_v24 main_v25 (Host.divf : (⟨S1000000, .f32⟩ : BufTy).Contents (Elt F) → (⟨S1000000, .f32⟩ : BufTy).Contents (Elt F) → (⟨S1000000, .f32⟩ : BufTy).Contents (Elt F)) ]

set_option maxRecDepth 8192 in
theorem opsGeom_sub : (opsGeom : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., binary_bufs_sub .., binary_bufs_sub ..⟩

set_option maxRecDepth 8192 in
set_option maxHeartbeats 4000000 in
/-- Every one of these operations determines its results. -/
theorem opsGeom_fresh : ∀ op ∈ (opsGeom : List (HloOp τ sig (Elt F))), op.fresh = ∅ := by
  intro _ h; (repeat (cases h with | head => rfl | tail _ h => ?_)); exact nomatch h

/-- The buffers these operations write. -/
abbrev opsGeom_W : List (Ref sig .tc) := [main_v0, main_v1, main_cst, main_v2, main_v3, main_cst_0, main_v4, main_v5, main_cst_1, main_v6, main_v7, main_cst_2, main_v8, main_v9, main_v10, main_cst_3, main_v11, main_v12, main_v13, main_v14, main_cst_4, main_v15, main_v16, main_v17, main_v18, main_v19, main_v20, main_v21, main_cst_5, main_v22, main_v23, main_v24, main_v25]
set_option maxRecDepth 8192 in
set_option maxHeartbeats 4000000 in
theorem opsGeom_writes : (opsGeom : List (HloOp τ sig (Elt F))).Forall fun op => op.writes ⊆ (opsGeom_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InGeom (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3

/-- What is needed afterwards: the arguments and the stages still to be read. -/
structure OutGeom (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v5 : V (no_index (Proc.devRef .tc main_v5)) = Read.val_main_v5 (F := F) x1
  main_v9 : V (no_index (Proc.devRef .tc main_v9)) = Read.val_main_v9 (F := F) x2
  main_v13 : V (no_index (Proc.devRef .tc main_v13)) = Read.val_main_v13 (F := F) x0 x1
  main_v17 : V (no_index (Proc.devRef .tc main_v17)) = Read.val_main_v17 (F := F) x0 x2
  main_v25 : V (no_index (Proc.devRef .tc main_v25)) = Read.val_main_v25 (F := F) x1 x2 x3

theorem Geom_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_arg0)) = x0 :=
  (after_of_writes_sub opsGeom V opsGeom_writes (by decide)).trans h.main_arg0

theorem Geom_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_arg1)) = x1 :=
  (after_of_writes_sub opsGeom V opsGeom_writes (by decide)).trans h.main_arg1

theorem Geom_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_arg2)) = x2 :=
  (after_of_writes_sub opsGeom V opsGeom_writes (by decide)).trans h.main_arg2

theorem Geom_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_arg3)) = x3 :=
  (after_of_writes_sub opsGeom V opsGeom_writes (by decide)).trans h.main_arg3

set_option maxRecDepth 8192 in
set_option maxHeartbeats 4000000 in
theorem Geom_main_v5 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_v5)) = Read.val_main_v5 (F := F) x1 := by
  simp only [opsGeom]
  after_results_simp
  simp only [h.main_arg1] <;> rfl

set_option maxRecDepth 8192 in
set_option maxHeartbeats 4000000 in
theorem Geom_main_v9 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_v9)) = Read.val_main_v9 (F := F) x2 := by
  simp only [opsGeom]
  after_results_simp
  simp only [h.main_arg2] <;> rfl

set_option maxRecDepth 8192 in
set_option maxHeartbeats 4000000 in
theorem Geom_main_v13 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_v13)) = Read.val_main_v13 (F := F) x0 x1 := by
  simp only [opsGeom]
  after_results_simp
  simp only [h.main_arg1, h.main_arg0] <;> rfl

set_option maxRecDepth 8192 in
set_option maxHeartbeats 4000000 in
theorem Geom_main_v17 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_v17)) = Read.val_main_v17 (F := F) x0 x2 := by
  simp only [opsGeom]
  after_results_simp
  simp only [h.main_arg2, h.main_arg0] <;> rfl

set_option maxRecDepth 8192 in
set_option maxHeartbeats 4000000 in
theorem Geom_main_v25 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) :
    after opsGeom V (no_index (Proc.devRef .tc main_v25)) = Read.val_main_v25 (F := F) x1 x2 x3 := by
  simp only [opsGeom]
  after_results_simp
  simp only [h.main_arg2, h.main_arg1, h.main_arg3] <;> rfl

/-- From contents that hold what is read, these operations leave contents that hold what is needed afterwards. -/
theorem stepGeom {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) : OutGeom (after opsGeom V) x0 x1 x2 x3 :=
  ⟨Geom_main_arg0 h, Geom_main_arg1 h, Geom_main_arg2 h, Geom_main_arg3 h, Geom_main_v5 h, Geom_main_v9 h, Geom_main_v13 h, Geom_main_v17 h, Geom_main_v25 h⟩

end Cert.ReferenceIdeal.Hand

end
-- ==== Proof.RefRun02.lean ====
/- The reference's run, part 2 of 10: the x edges and the x bin indices (operations 34 … 70). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The x edges and the x bin indices (operations 34 … 70), in order (a called function's operations stand in its call's place). -/
abbrev opsBinX : List (HloOp τ sig (Elt F)) :=
  [ binary main_v13 main_v5 main_v26 (subf : (⟨S1000000, .f32⟩ : BufTy).Contents (Elt F) → (⟨S1000000, .f32⟩ : BufTy).Contents (Elt F) → (⟨S1000000, .f32⟩ : BufTy).Contents (Elt F)),
    binary main_v13 main_v5 main_v27 (addf : (⟨S1000000, .f32⟩ : BufTy).Contents (Elt F) → (⟨S1000000, .f32⟩ : BufTy).Contents (Elt F) → (⟨S1000000, .f32⟩ : BufTy).Contents (Elt F)),
    nullary main_cst_6 (constant S_ .f32 0x00000000#32),
    unary main_cst_6 main_v28 (broadcastInDim S1000000 ![] bcast_S_S1000000 : (⟨S_, .f32⟩ : BufTy).Contents (Elt F) → (⟨S1000000, .f32⟩ : BufTy).Contents (Elt F)),
    binary main_v26 main_v28 main_v29 (subf : (⟨S1000000, .f32⟩ : BufTy).Contents (Elt F) → (⟨S1000000, .f32⟩ : BufTy).Contents (Elt F) → (⟨S1000000, .f32⟩ : BufTy).Contents (Elt F)),
    nullary main_cst_7 (constant S_ .f32 0x3FFA0000#32),
    unary main_cst_7 main_v30 (broadcastInDim S1000000 ![] bcast_S_S1000000 : (⟨S_, .f32⟩ : BufTy).Contents (Elt F) → (⟨S1000000, .f32⟩ : BufTy).Contents (Elt F)),
    binary main_v29 main_v30 main_v31 (Host.divf : (⟨S1000000, .f32⟩ : BufTy).Contents (Elt F) → (⟨S1000000, .f32⟩ : BufTy).Contents (Elt F) → (⟨S1000000, .f32⟩ : BufTy).Contents (Elt F)),
    unary main_v31 main_v32 (Host.floor : (⟨S1000000, .f32⟩ : BufTy).Contents (Elt F) → (⟨S1000000, .f32⟩ : BufTy).Contents (Elt F)),
    unary main_v32 main_v33 (fptosi 32 : (⟨S1000000, .f32⟩ : BufTy).Contents (Elt F) → (⟨S1000000, .i32⟩ : BufTy).Contents (Elt F)),
    nullary main_c (constantI S_ 32 0#32),
    nullary main_c_8 (constantI S_ 32 511#32),
    TRef.unary (TRef.of (T := ⟨S_, .i32⟩) main_c) (TRef.of (T := ⟨S_, .i32⟩) main_call0_v0) id,
    TRef.unary (TRef.of (T := ⟨S_, .i32⟩) main_call0_v0) (TRef.of (T := ⟨S1000000, .i32⟩) main_call0_v1) (broadcastInDim S1000000 ![] bcast_S_S1000000),
    TRef.binary (TRef.of (T := ⟨S1000000, .i32⟩) main_call0_v1) (TRef.of (T := ⟨S1000000, .i32⟩) main_v33) (TRef.of (T := ⟨S1000000, .i32⟩) main_call0_v2) maxsi,
    TRef.unary (TRef.of (T := ⟨S_, .i32⟩) main_c_8) (TRef.of (T := ⟨S_, .i32⟩) main_call0_v3) id,
    TRef.unary (TRef.of (T := ⟨S_, .i32⟩) main_call0_v3) (TRef.of (T := ⟨S1000000, .i32⟩) main_call0_v4) (broadcastInDim S1000000 ![] bcast_S_S1000000),
    TRef.binary (TRef.of (T := ⟨S1000000, .i32⟩) main_call0_v4) (TRef.of (T := ⟨S1000000, .i32⟩) main_call0_v2) (TRef.of (T := ⟨S1000000, .i32⟩) main_v34) minsi,
    unary main_v34 main_v35 (broadcastInDim S1000000x1 ![0] bcast_S1000000_S1000000x1_0 : (⟨S1000000, .i32⟩ : BufTy).Contents (Elt F) → (⟨S1000000x1, .i32⟩ : BufTy).Contents (Elt F)),
    nullary main_v36 (iotaInDim S5 32 0),
    unary main_v36 main_v37 (broadcastInDim S1x5 ![1] bcast_S5_S1x5_1 : (⟨S5, .i32⟩ : BufTy).Contents (Elt F) → (⟨S1x5, .i32⟩ : BufTy).Contents (Elt F)),
    unary main_v35 main_v38 (broadcastInDim S1000000x5 ![0, 1] bcast_S1000000x1_S1000000x5_0_1 : (⟨S1000000x1, .i32⟩ : BufTy).Contents (Elt F) → (⟨S1000000x5, .i32⟩ : BufTy).Contents (Elt F)),
    unary main_v37 main_v39 (broadcastInDim S1000000x5 ![0, 1] bcast_S1x5_S1000000x5_0_1 : (⟨S1x5, .i32⟩ : BufTy).Contents (Elt F) → (⟨S1000000x5, .i32⟩ : BufTy).Contents (Elt F)),
    binary main_v38 main_v39 main_v40 (addi : (⟨S1000000x5, .i32⟩ : BufTy).Contents (Elt F) → (⟨S1000000x5, .i32⟩ : BufTy).Contents (Elt F) → (⟨S1000000x5, .i32⟩ : BufTy).Contents (Elt F)),
    nullary main_c_9 (constantI S_ 32 512#32),
    unary main_c_9 main_v41 (broadcastInDim S1000000x5 ![] bcast_S_S1000000x5 : (⟨S_, .i32⟩ : BufTy).Contents (Elt F) → (⟨S1000000x5, .i32⟩ : BufTy).Contents (Elt F)),
    binary main_v40 main_v41 main_v42 (cmpi .slt : (⟨S1000000x5, .i32⟩ : BufTy).Contents (Elt F) → (⟨S1000000x5, .i32⟩ : BufTy).Contents (Elt F) → (⟨S1000000x5, .i1⟩ : BufTy).Contents (Elt F)),
    nullary main_c_10 (constantI S_ 32 0#32),
    nullary main_c_11 (constantI S_ 32 511#32),
    TRef.unary (TRef.of (T := ⟨S_, .i32⟩) main_c_10) (TRef.of (T := ⟨S_, .i32⟩) main_call1_v0) id,
    TRef.unary (TRef.of (T := ⟨S_, .i32⟩) main_call1_v0) (TRef.of (T := ⟨S1000000x5, .i32⟩) main_call1_v1) (broadcastInDim S1000000x5 ![] bcast_S_S1000000x5),
    TRef.binary (TRef.of (T := ⟨S1000000x5, .i32⟩) main_call1_v1) (TRef.of (T := ⟨S1000000x5, .i32⟩) main_v40) (TRef.of (T := ⟨S1000000x5, .i32⟩) main_call1_v2) maxsi,
    TRef.unary (TRef.of (T := ⟨S_, .i32⟩) main_c_11) (TRef.of (T := ⟨S_, .i32⟩) main_call1_v3) id,
    TRef.unary (TRef.of (T := ⟨S_, .i32⟩) main_call1_v3) (TRef.of (T := ⟨S1000000x5, .i32⟩) main_call1_v4) (broadcastInDim S1000000x5 ![] bcast_S_S1000000x5),
    TRef.binary (TRef.of (T := ⟨S1000000x5, .i32⟩) main_call1_v4) (TRef.of (T := ⟨S1000000x5, .i32⟩) main_call1_v2) (TRef.of (T := ⟨S1000000x5, .i32⟩) main_v43) minsi,
    unary main_v43 main_v44 (sitofp .f32 : (⟨S1000000x5, .i32⟩ : BufTy).Contents (Elt F) → (⟨S1000000x5, .f32⟩ : BufTy).Contents (Elt F)),
    nullary main_cst_12 (constant S_ .f32 0x3FFA0000#32) ]

set_option maxRecDepth 8192 in
theorem opsBinX_sub : (opsBinX : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub ..⟩

set_option maxRecDepth 8192 in
set_option maxHeartbeats 4000000 in
/-- Every one of these operations determines its results. -/
theorem opsBinX_fresh : ∀ op ∈ (opsBinX : List (HloOp τ sig (Elt F))), op.fresh = ∅ := by
  intro _ h; (repeat (cases h with | head => rfl | tail _ h => ?_)); exact nomatch h

/-- The buffers these operations write. -/
abbrev opsBinX_W : List (Ref sig .tc) := [main_v26, main_v27, main_cst_6, main_v28, main_v29, main_cst_7, main_v30, main_v31, main_v32, main_v33, main_c, main_c_8, main_call0_v0, main_call0_v1, main_call0_v2, main_call0_v3, main_call0_v4, main_v34, main_v35, main_v36, main_v37, main_v38, main_v39, main_v40, main_c_9, main_v41, main_v42, main_c_10, main_c_11, main_call1_v0, main_call1_v1, main_call1_v2, main_call1_v3, main_call1_v4, main_v43, main_v44, main_cst_12]
set_option maxRecDepth 8192 in
set_option maxHeartbeats 4000000 in
theorem opsBinX_writes : (opsBinX : List (HloOp τ sig (Elt F))).Forall fun op => op.writes ⊆ (opsBinX_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InBinX (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v5 : V (no_index (Proc.devRef .tc main_v5)) = Read.val_main_v5 (F := F) x1
  main_v9 : V (no_index (Proc.devRef .tc main_v9)) = Read.val_main_v9 (F := F) x2
  main_v13 : V (no_index (Proc.devRef .tc main_v13)) = Read.val_main_v13 (F := F) x0 x1
  main_v17 : V (no_index (Proc.devRef .tc main_v17)) = Read.val_main_v17 (F := F) x0 x2
  main_v25 : V (no_index (Proc.devRef .tc main_v25)) = Read.val_main_v25 (F := F) x1 x2 x3

/-- What is needed afterwards: the arguments and the stages still to be read. -/
structure OutBinX (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v9 : V (no_index (Proc.devRef .tc main_v9)) = Read.val_main_v9 (F := F) x2
  main_v17 : V (no_index (Proc.devRef .tc main_v17)) = Read.val_main_v17 (F := F) x0 x2
  main_v25 : V (no_index (Proc.devRef .tc main_v25)) = Read.val_main_v25 (F := F) x1 x2 x3
  main_v26 : V (no_index (Proc.devRef .tc main_v26)) = Read.val_main_v26 (F := F) x0 x1
  main_v27 : V (no_index (Proc.devRef .tc main_v27)) = Read.val_main_v27 (F := F) x0 x1
  main_v42 : V (no_index (Proc.devRef .tc main_v42)) = Read.val_main_v42 (F := F) x0 x1
  main_v43 : V (no_index (Proc.devRef .tc main_v43)) = Read.val_main_v43 (F := F) x0 x1
  main_v44 : V (no_index (Proc.devRef .tc main_v44)) = Read.val_main_v44 (F := F) x0 x1
  main_cst_12 : V (no_index (Proc.devRef .tc main_cst_12)) = Read.val_main_cst_12 (F := F)

theorem BinX_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_arg0)) = x0 :=
  (after_of_writes_sub opsBinX V opsBinX_writes (by decide)).trans h.main_arg0

theorem BinX_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_arg1)) = x1 :=
  (after_of_writes_sub opsBinX V opsBinX_writes (by decide)).trans h.main_arg1

theorem BinX_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_arg2)) = x2 :=
  (after_of_writes_sub opsBinX V opsBinX_writes (by decide)).trans h.main_arg2

theorem BinX_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_arg3)) = x3 :=
  (after_of_writes_sub opsBinX V opsBinX_writes (by decide)).trans h.main_arg3

theorem BinX_main_v9 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v9)) = Read.val_main_v9 (F := F) x2 :=
  (after_of_writes_sub opsBinX V opsBinX_writes (by decide)).trans h.main_v9

theorem BinX_main_v17 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v17)) = Read.val_main_v17 (F := F) x0 x2 :=
  (after_of_writes_sub opsBinX V opsBinX_writes (by decide)).trans h.main_v17

theorem BinX_main_v25 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v25)) = Read.val_main_v25 (F := F) x1 x2 x3 :=
  (after_of_writes_sub opsBinX V opsBinX_writes (by decide)).trans h.main_v25

set_option maxRecDepth 8192 in
set_option maxHeartbeats 4000000 in
theorem BinX_main_v26 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v26)) = Read.val_main_v26 (F := F) x0 x1 := by
  simp only [opsBinX]
  after_results_simp
  simp only [h.main_v5, h.main_v13] <;> rfl

set_option maxRecDepth 8192 in
set_option maxHeartbeats 4000000 in
theorem BinX_main_v27 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v27)) = Read.val_main_v27 (F := F) x0 x1 := by
  simp only [opsBinX]
  after_results_simp
  simp only [h.main_v5, h.main_v13] <;> rfl

set_option maxRecDepth 8192 in
set_option maxHeartbeats 4000000 in
theorem BinX_main_v42 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v42)) = Read.val_main_v42 (F := F) x0 x1 := by
  simp only [opsBinX]
  after_results_simp
  simp only [h.main_v5, h.main_v13] <;> rfl

set_option maxRecDepth 8192 in
set_option maxHeartbeats 4000000 in
theorem BinX_main_v43 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v43)) = Read.val_main_v43 (F := F) x0 x1 := by
  simp only [opsBinX]
  after_results_simp
  simp only [h.main_v5, h.main_v13] <;> rfl

set_option maxRecDepth 8192 in
set_option maxHeartbeats 4000000 in
theorem BinX_main_v44 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_v44)) = Read.val_main_v44 (F := F) x0 x1 := by
  simp only [opsBinX]
  after_results_simp
  simp only [h.main_v5, h.main_v13] <;> rfl

set_option maxRecDepth 8192 in
set_option maxHeartbeats 4000000 in
theorem BinX_main_cst_12 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) :
    after opsBinX V (no_index (Proc.devRef .tc main_cst_12)) = Read.val_main_cst_12 (F := F) := by
  simp only [opsBinX]
  after_results_simp
  all_goals rfl

/-- From contents that hold what is read, these operations leave contents that hold what is needed afterwards. -/
theorem stepBinX {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinX V x0 x1 x2 x3) : OutBinX (after opsBinX V) x0 x1 x2 x3 :=
  ⟨BinX_main_arg0 h, BinX_main_arg1 h, BinX_main_arg2 h, BinX_main_arg3 h, BinX_main_v9 h, BinX_main_v17 h, BinX_main_v25 h, BinX_main_v26 h, BinX_main_v27 h, BinX_main_v42 h, BinX_main_v43 h, BinX_main_v44 h, BinX_main_cst_12 h⟩

end Cert.ReferenceIdeal.Hand

end
-- ==== Proof.RefRun03.lean ====
/- The reference's run, part 3 of 10: the x overlap lengths (operations 71 … 92). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The x overlap lengths (operations 71 … 92), in order (a called function's operations stand in its call's place). -/
abbrev opsOvX : List (HloOp τ sig (Elt F)) :=
  [ unary main_cst_12 main_v45 (broadcastInDim S1000000x5 ![] bcast_S_S1000000x5 : (⟨S_, .f32⟩ : BufTy).Contents (Elt F) → (⟨S1000000x5, .f32⟩ : BufTy).Contents (Elt F)),
    binary main_v44 main_v45 main_v46 (mulf : (⟨S1000000x5, .f32⟩ : BufTy).Contents (Elt F) → (⟨S1000000x5, .f32⟩ : BufTy).Contents (Elt F) → (⟨S1000000x5, .f32⟩ : BufTy).Contents (Elt F)),
    nullary main_cst_13 (constant S_ .f32 0x00000000#32),
    unary main_cst_13 main_v47 (broadcastInDim S1000000x5 ![] bcast_S_S1000000x5 : (⟨S_, .f32⟩ : BufTy).Contents (Elt F) → (⟨S1000000x5, .f32⟩ : BufTy).Contents (Elt F)),
    binary main_v47 main_v46 main_v48 (addf : (⟨S1000000x5, .f32⟩ : BufTy).Contents (Elt F) → (⟨S1000000x5, .f32⟩ : BufTy).Contents (Elt F) → (⟨S1000000x5, .f32⟩ : BufTy).Contents (Elt F)),
    unary main_v27 main_v49 (broadcastInDim S1000000x1 ![0] bcast_S1000000_S1000000x1_0 : (⟨S1000000, .f32⟩ : BufTy).Contents (Elt F) → (⟨S1000000x1, .f32⟩ : BufTy).Contents (Elt F)),
    nullary main_cst_14 (constant S_ .f32 0x3FFA0000#32),
    unary main_cst_14 main_v50 (broadcastInDim S1000000x5 ![] bcast_S_S1000000x5 : (⟨S_, .f32⟩ : BufTy).Contents (Elt F) → (⟨S1000000x5, .f32⟩ : BufTy).Contents (Elt F)),
    binary main_v48 main_v50 main_v51 (addf : (⟨S1000000x5, .f32⟩ : BufTy).Contents (Elt F) → (⟨S1000000x5, .f32⟩ : BufTy).Contents (Elt F) → (⟨S1000000x5, .f32⟩ : BufTy).Contents (Elt F)),
    unary main_v49 main_v52 (broadcastInDim S1000000x5 ![0, 1] bcast_S1000000x1_S1000000x5_0_1 : (⟨S1000000x1, .f32⟩ : BufTy).Contents (Elt F) → (⟨S1000000x5, .f32⟩ : BufTy).Contents (Elt F)),
    binary main_v52 main_v51 main_v53 (minimumf : (⟨S1000000x5, .f32⟩ : BufTy).Contents (Elt F) → (⟨S1000000x5, .f32⟩ : BufTy).Contents (Elt F) → (⟨S1000000x5, .f32⟩ : BufTy).Contents (Elt F)),
    unary main_v26 main_v54 (broadcastInDim S1000000x1 ![0] bcast_S1000000_S1000000x1_0 : (⟨S1000000, .f32⟩ : BufTy).Contents (Elt F) → (⟨S1000000x1, .f32⟩ : BufTy).Contents (Elt F)),
    unary main_v54 main_v55 (broadcastInDim S1000000x5 ![0, 1] bcast_S1000000x1_S1000000x5_0_1 : (⟨S1000000x1, .f32⟩ : BufTy).Contents (Elt F) → (⟨S1000000x5, .f32⟩ : BufTy).Contents (Elt F)),
    binary main_v55 main_v48 main_v56 (maximumf : (⟨S1000000x5, .f32⟩ : BufTy).Contents (Elt F) → (⟨S1000000x5, .f32⟩ : BufTy).Contents (Elt F) → (⟨S1000000x5, .f32⟩ : BufTy).Contents (Elt F)),
    binary main_v53 main_v56 main_v57 (subf : (⟨S1000000x5, .f32⟩ : BufTy).Contents (Elt F) → (⟨S1000000x5, .f32⟩ : BufTy).Contents (Elt F) → (⟨S1000000x5, .f32⟩ : BufTy).Contents (Elt F)),
    nullary main_cst_15 (constant S_ .f32 0x00000000#32),
    unary main_cst_15 main_v58 (broadcastInDim S1000000x5 ![] bcast_S_S1000000x5 : (⟨S_, .f32⟩ : BufTy).Contents (Elt F) → (⟨S1000000x5, .f32⟩ : BufTy).Contents (Elt F)),
    binary main_v57 main_v58 main_v59 (maximumf : (⟨S1000000x5, .f32⟩ : BufTy).Contents (Elt F) → (⟨S1000000x5, .f32⟩ : BufTy).Contents (Elt F) → (⟨S1000000x5, .f32⟩ : BufTy).Contents (Elt F)),
    nullary main_cst_16 (constant S_ .f32 0x00000000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S1000000x5, .f32⟩) main_call2_v1) (broadcastInDim S1000000x5 ![] bcast_S_S1000000x5),
    TRef.ternary (TRef.of (T := ⟨S1000000x5, .i1⟩) main_v42) (TRef.of (T := ⟨S1000000x5, .f32⟩) main_v59) (TRef.of (T := ⟨S1000000x5, .f32⟩) main_call2_v1) (TRef.of (T := ⟨S1000000x5, .f32⟩) main_v60) select ]

set_option maxRecDepth 8192 in
theorem opsOvX_sub : (opsOvX : List (HloOp τ sig (Elt F))).Forall fun op => op.bufs ⊆ tcRefs τ sig :=
  ⟨unary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩

set_option maxRecDepth 8192 in
set_option maxHeartbeats 4000000 in
/-- Every one of these operations determines its results. -/
theorem opsOvX_fresh : ∀ op ∈ (opsOvX : List (HloOp τ sig (Elt F))), op.fresh = ∅ := by
  intro _ h; (repeat (cases h with | head => rfl | tail _ h => ?_)); exact nomatch h

/-- The buffers these operations write. -/
abbrev opsOvX_W : List (Ref sig .tc) := [main_v45, main_v46, main_cst_13, main_v47, main_v48, main_v49, main_cst_14, main_v50, main_v51, main_v52, main_v53, main_v54, main_v55, main_v56, main_v57, main_cst_15, main_v58, main_v59, main_cst_16, main_call2_v0, main_call2_v1, main_v60]
set_option maxRecDepth 8192 in
set_option maxHeartbeats 4000000 in
theorem opsOvX_writes : (opsOvX : List (HloOp τ sig (Elt F))).Forall fun op => op.writes ⊆ (opsOvX_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InOvX (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v9 : V (no_index (Proc.devRef .tc main_v9)) = Read.val_main_v9 (F := F) x2
  main_v17 : V (no_index (Proc.devRef .tc main_v17)) = Read.val_main_v17 (F := F) x0 x2
  main_v25 : V (no_index (Proc.devRef .tc main_v25)) = Read.val_main_v25 (F := F) x1 x2 x3
  main_v26 : V (no_index (Proc.devRef .tc main_v26)) = Read.val_main_v26 (F := F) x0 x1
  main_v27 : V (no_index (Proc.devRef .tc main_v27)) = Read.val_main_v27 (F := F) x0 x1
  main_v42 : V (no_index (Proc.devRef .tc main_v42)) = Read.val_main_v42 (F := F) x0 x1
  main_v43 : V (no_index (Proc.devRef .tc main_v43)) = Read.val_main_v43 (F := F) x0 x1
  main_v44 : V (no_index (Proc.devRef .tc main_v44)) = Read.val_main_v44 (F := F) x0 x1
  main_cst_12 : V (no_index (Proc.devRef .tc main_cst_12)) = Read.val_main_cst_12 (F := F)

/-- What is needed afterwards: the arguments and the stages still to be read. -/
structure OutOvX (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v9 : V (no_index (Proc.devRef .tc main_v9)) = Read.val_main_v9 (F := F) x2
  main_v17 : V (no_index (Proc.devRef .tc main_v17)) = Read.val_main_v17 (F := F) x0 x2
  main_v25 : V (no_index (Proc.devRef .tc main_v25)) = Read.val_main_v25 (F := F) x1 x2 x3
  main_v43 : V (no_index (Proc.devRef .tc main_v43)) = Read.val_main_v43 (F := F) x0 x1
  main_v60 : V (no_index (Proc.devRef .tc main_v60)) = Read.val_main_v60 (F := F) x0 x1

theorem OvX_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_arg0)) = x0 :=
  (after_of_writes_sub opsOvX V opsOvX_writes (by decide)).trans h.main_arg0

theorem OvX_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_arg1)) = x1 :=
  (after_of_writes_sub opsOvX V opsOvX_writes (by decide)).trans h.main_arg1

theorem OvX_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_arg2)) = x2 :=
  (after_of_writes_sub opsOvX V opsOvX_writes (by decide)).trans h.main_arg2

theorem OvX_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_arg3)) = x3 :=
  (after_of_writes_sub opsOvX V opsOvX_writes (by decide)).trans h.main_arg3

theorem OvX_main_v9 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_v9)) = Read.val_main_v9 (F := F) x2 :=
  (after_of_writes_sub opsOvX V opsOvX_writes (by decide)).trans h.main_v9

theorem OvX_main_v17 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_v17)) = Read.val_main_v17 (F := F) x0 x2 :=
  (after_of_writes_sub opsOvX V opsOvX_writes (by decide)).trans h.main_v17

theorem OvX_main_v25 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_v25)) = Read.val_main_v25 (F := F) x1 x2 x3 :=
  (after_of_writes_sub opsOvX V opsOvX_writes (by decide)).trans h.main_v25

theorem OvX_main_v43 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_v43)) = Read.val_main_v43 (F := F) x0 x1 :=
  (after_of_writes_sub opsOvX V opsOvX_writes (by decide)).trans h.main_v43

set_option maxRecDepth 8192 in
set_option maxHeartbeats 4000000 in
theorem OvX_main_v60 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) :
    after opsOvX V (no_index (Proc.devRef .tc main_v60)) = Read.val_main_v60 (F := F) x0 x1 := by
  simp only [opsOvX]
  after_results_simp
  simp only [h.main_cst_12, h.main_v44, h.main_v26, h.main_v27, h.main_v42] <;> rfl

/-- From contents that hold what is read, these operations leave contents that hold what is needed afterwards. -/
theorem stepOvX {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOvX V x0 x1 x2 x3) : OutOvX (after opsOvX V) x0 x1 x2 x3 :=
  ⟨OvX_main_arg0 h, OvX_main_arg1 h, OvX_main_arg2 h, OvX_main_arg3 h, OvX_main_v9 h, OvX_main_v17 h, OvX_main_v25 h, OvX_main_v43 h, OvX_main_v60 h⟩

end Cert.ReferenceIdeal.Hand

end
-- ==== Proof.RefRun04.lean ====
/- The reference's run, part 4 of 10: the y edges, the y bin indices and the first half of the y overlap lengths (operations 93 … 142). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The y edges, the y bin indices and the first half of the y overlap lengths (operations 93 … 142), in order (a called function's operations stand in its call's place). -/
abbrev opsBinY : List (HloOp τ sig (Elt F)) :=
  [ binary main_v17 main_v9 main_v61 (subf : (⟨S1000000, .f32⟩ : BufTy).Contents (Elt F) → (⟨S1000000, .f32⟩ : BufTy).Contents (Elt F) → (⟨S1000000, .f32⟩ : BufTy).Contents (Elt F)),
    binary main_v17 main_v9 main_v62 (addf : (⟨S1000000, .f32⟩ : BufTy).Contents (Elt F) → (⟨S1000000, .f32⟩ : BufTy).Contents (Elt F) → (⟨S1000000, .f32⟩ : BufTy).Contents (Elt F)),
    nullary main_cst_17 (constant S_ .f32 0x00000000#32),
    unary main_cst_17 main_v63 (broadcastInDim S1000000 ![] bcast_S_S1000000 : (⟨S_, .f32⟩ : BufTy).Contents (Elt F) → (⟨S1000000, .f32⟩ : BufTy).Contents (Elt F)),
    binary main_v61 main_v63 main_v64 (subf : (⟨S1000000, .f32⟩ : BufTy).Contents (Elt F) → (⟨S1000000, .f32⟩ : BufTy).Contents (Elt F) → (⟨S1000000, .f32⟩ : BufTy).Contents (Elt F)),
    nullary main_cst_18 (constant S_ .f32 0x3FFA0000#32),
    unary main_cst_18 main_v65 (broadcastInDim S1000000 ![] bcast_S_S1000000 : (⟨S_, .f32⟩ : BufTy).Contents (Elt F) → (⟨S1000000, .f32⟩ : BufTy).Contents (Elt F)),
    binary main_v64 main_v65 main_v66 (Host.divf : (⟨S1000000, .f32⟩ : BufTy).Contents (Elt F) → (⟨S1000000, .f32⟩ : BufTy).Contents (Elt F) → (⟨S1000000, .f32⟩ : BufTy).Contents (Elt F)),
    unary main_v66 main_v67 (Host.floor : (⟨S1000000, .f32⟩ : BufTy).Contents (Elt F) → (⟨S1000000, .f32⟩ : BufTy).Contents (Elt F)),
    unary main_v67 main_v68 (fptosi 32 : (⟨S1000000, .f32⟩ : BufTy).Contents (Elt F) → (⟨S1000000, .i32⟩ : BufTy).Contents (Elt F)),
    nullary main_c_19 (constantI S_ 32 0#32),
    nullary main_c_20 (constantI S_ 32 511#32),
    TRef.unary (TRef.of (T := ⟨S_, .i32⟩) main_c_19) (TRef.of (T := ⟨S_, .i32⟩) main_call3_v0) id,
    TRef.unary (TRef.of (T := ⟨S_, .i32⟩) main_call3_v0) (TRef.of (T := ⟨S1000000, .i32⟩) main_call3_v1) (broadcastInDim S1000000 ![] bcast_S_S1000000),
    TRef.binary (TRef.of (T := ⟨S1000000, .i32⟩) main_call3_v1) (TRef.of (T := ⟨S1000000, .i32⟩) main_v68) (TRef.of (T := ⟨S1000000, .i32⟩) main_call3_v2) maxsi,
    TRef.unary (TRef.of (T := ⟨S_, .i32⟩) main_c_20) (TRef.of (T := ⟨S_, .i32⟩) main_call3_v3) id,
    TRef.unary (TRef.of (T := ⟨S_, .i32⟩) main_call3_v3) (TRef.of (T := ⟨S1000000, .i32⟩) main_call3_v4) (broadcastInDim S1000000 ![] bcast_S_S1000000),
    TRef.binary (TRef.of (T := ⟨S1000000, .i32⟩) main_call3_v4) (TRef.of (T := ⟨S1000000, .i32⟩) main_call3_v2) (TRef.of (T := ⟨S1000000, .i32⟩) main_v69) minsi,
    unary main_v69 main_v70 (broadcastInDim S1000000x1 ![0] bcast_S1000000_S1000000x1_0 : (⟨S1000000, .i32⟩ : BufTy).Contents (Elt F) → (⟨S1000000x1, .i32⟩ : BufTy).Contents (Elt F)),
    nullary main_v71 (iotaInDim S5 32 0),
    unary main_v71 main_v72 (broadcastInDim S1x5 ![1] bcast_S5_S1x5_1 : (⟨S5, .i32⟩ : BufTy).Contents (Elt F) → (⟨S1x5, .i32⟩ : BufTy).Contents (Elt F)),
    unary main_v70 main_v73 (broadcastInDim S1000000x5 ![0, 1] bcast_S1000000x1_S1000000x5_0_1 : (⟨S1000000x1, .i32⟩ : BufTy).Contents (Elt F) → (⟨S1000000x5, .i32⟩ : BufTy).Contents (Elt F)),
    unary main_v72 main_v74 (broadcastInDim S1000000x5 ![0, 1] bcast_S1x5_S1000000x5_0_1 : (⟨S1x5, .i32⟩ : BufTy).Contents (Elt F) → (⟨S1000000x5, .i32⟩ : BufTy).Contents (Elt F)),
    binary main_v73 main_v74 main_v75 (addi : (⟨S1000000x5, .i32⟩ : BufTy).Contents (Elt F) → (⟨S1000000x5, .i32⟩ : BufTy).Contents (Elt F) → (⟨S1000000x5, .i32⟩ : BufTy).Contents (Elt F)),
    nullary main_c_21 (constantI S_ 32 512#32),
    unary main_c_21 main_v76 (broadcastInDim S1000000x5 ![] bcast_S_S1000000x5 : (⟨S_, .i32⟩ : BufTy).Contents (Elt F) → (⟨S1000000x5, .i32⟩ : BufTy).Contents (Elt F)),
    binary main_v75 main_v76 main_v77 (cmpi .slt : (⟨S1000000x5, .i32⟩ : BufTy).Contents (Elt F) → (⟨S1000000x5, .i32⟩ : BufTy).Contents (Elt F) → (⟨S1000000x5, .i1⟩ : BufTy).Contents (Elt F)),
    nullary main_c_22 (constantI S_ 32 0#32),
    nullary main_c_23 (constantI S_ 32 511#32),
    TRef.unary (TRef.of (T := ⟨S_, .i32⟩) main_c_22) (TRef.of (T := ⟨S_, .i32⟩) main_call4_v0) id,
    TRef.unary (TRef.of (T := ⟨S_, .i32⟩) main_call4_v0) (TRef.of (T := ⟨S1000000x5, .i32⟩) main_call4_v1) (broadcastInDim S1000000x5 ![] bcast_S_S1000000x5),
    TRef.binary (TRef.of (T := ⟨S1000000x5, .i32⟩) main_call4_v1) (TRef.of (T := ⟨S1000000x5, .i32⟩) main_v75) (TRef.of (T := ⟨S1000000x5, .i32⟩) main_call4_v2) maxsi,
    TRef.unary (TRef.of (T := ⟨S_, .i32⟩) main_c_23) (TRef.of (T := ⟨S_, .i32⟩) main_call4_v3) id,
    TRef.unary (TRef.of (T := ⟨S_, .i32⟩) main_call4_v3) (TRef.of (T := ⟨S1000000x5, .i32⟩) main_call4_v4) (broadcastInDim S1000000x5 ![] bcast_S_S1000000x5),
    TRef.binary (TRef.of (T := ⟨S1000000x5, .i32⟩) main_call4_v4) (TRef.of (T := ⟨S1000000x5, .i32⟩) main_call4_v2) (TRef.of (T := ⟨S1000000x5, .i32⟩) main_v78) minsi,
    unary main_v78 main_v79 (sitofp .f32 : (⟨S1000000x5, .i32⟩ : BufTy).Contents (Elt F) → (⟨S1000000x5, .f32⟩ : BufTy).Contents (Elt F)),
    nullary main_cst_24 (constant S_ .f32 0x3FFA0000#32),
    unary main_cst_24 main_v80 (broadcastInDim S1000000x5 ![] bcast_S_S1000000x5 : (⟨S_, .f32⟩ : BufTy).Contents (Elt F) → (⟨S1000000x5, .f32⟩ : BufTy).Contents (Elt F)),
    binary main_v79 main_v80 main_v81 (mulf : (⟨S1000000x5, .f32⟩ : BufTy).Contents (Elt F) → (⟨S1000000x5, .f32⟩ : BufTy).Contents (Elt F) → (⟨S1000000x5, .f32⟩ : BufTy).Contents (Elt F)),
    nullary main_cst_25 (constant S_ .f32 0x00000000#32),
    unary main_cst_25 main_v82 (broadcastInDim S1000000x5 ![] bcast_S_S1000000x5 : (⟨S_, .f32⟩ : BufTy).Contents (Elt F) → (⟨S1000000x5, .f32⟩ : BufTy).Contents (Elt F)),
    binary main_v82 main_v81 main_v83 (addf : (⟨S1000000x5, .f32⟩ : BufTy).Contents (Elt F) → (⟨S1000000x5, .f32⟩ : BufTy).Contents (Elt F) → (⟨S1000000x5, .f32⟩ : BufTy).Contents (Elt F)),
    unary main_v62 main_v84 (broadcastInDim S1000000x1 ![0] bcast_S1000000_S1000000x1_0 : (⟨S1000000, .f32⟩ : BufTy).Contents (Elt F) → (⟨S1000000x1, .f32⟩ : BufTy).Contents (Elt F)),
    nullary main_cst_26 (constant S_ .f32 0x3FFA0000#32),
    unary main_cst_26 main_v85 (broadcastInDim S1000000x5 ![] bcast_S_S1000000x5 : (⟨S_, .f32⟩ : BufTy).Contents (Elt F) → (⟨S1000000x5, .f32⟩ : BufTy).Contents (Elt F)),
    binary main_v83 main_v85 main_v86 (addf : (⟨S1000000x5, .f32⟩ : BufTy).Contents (Elt F) → (⟨S1000000x5, .f32⟩ : BufTy).Contents (Elt F) → (⟨S1000000x5, .f32⟩ : BufTy).Contents (Elt F)),
    unary main_v84 main_v87 (broadcastInDim S1000000x5 ![0, 1] bcast_S1000000x1_S1000000x5_0_1 : (⟨S1000000x1, .f32⟩ : BufTy).Contents (Elt F) → (⟨S1000000x5, .f32⟩ : BufTy).Contents (Elt F)),
    binary main_v87 main_v86 main_v88 (minimumf : (⟨S1000000x5, .f32⟩ : BufTy).Contents (Elt F) → (⟨S1000000x5, .f32⟩ : BufTy).Contents (Elt F) → (⟨S1000000x5, .f32⟩ : BufTy).Contents (Elt F)),
    unary main_v61 main_v89 (broadcastInDim S1000000x1 ![0] bcast_S1000000_S1000000x1_0 : (⟨S1000000, .f32⟩ : BufTy).Contents (Elt F) → (⟨S1000000x1, .f32⟩ : BufTy).Contents (Elt F)),
    unary main_v89 main_v90 (broadcastInDim S1000000x5 ![0, 1] bcast_S1000000x1_S1000000x5_0_1 : (⟨S1000000x1, .f32⟩ : BufTy).Contents (Elt F) → (⟨S1000000x5, .f32⟩ : BufTy).Contents (Elt F)) ]

set_option maxRecDepth 8192 in
theorem opsBinY_sub : (opsBinY : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., unary_bufs_sub ..⟩

set_option maxRecDepth 8192 in
set_option maxHeartbeats 4000000 in
/-- Every one of these operations determines its results. -/
theorem opsBinY_fresh : ∀ op ∈ (opsBinY : List (HloOp τ sig (Elt F))), op.fresh = ∅ := by
  intro _ h; (repeat (cases h with | head => rfl | tail _ h => ?_)); exact nomatch h

/-- The buffers these operations write. -/
abbrev opsBinY_W : List (Ref sig .tc) := [main_v61, main_v62, main_cst_17, main_v63, main_v64, main_cst_18, main_v65, main_v66, main_v67, main_v68, main_c_19, main_c_20, main_call3_v0, main_call3_v1, main_call3_v2, main_call3_v3, main_call3_v4, main_v69, main_v70, main_v71, main_v72, main_v73, main_v74, main_v75, main_c_21, main_v76, main_v77, main_c_22, main_c_23, main_call4_v0, main_call4_v1, main_call4_v2, main_call4_v3, main_call4_v4, main_v78, main_v79, main_cst_24, main_v80, main_v81, main_cst_25, main_v82, main_v83, main_v84, main_cst_26, main_v85, main_v86, main_v87, main_v88, main_v89, main_v90]
set_option maxRecDepth 8192 in
set_option maxHeartbeats 4000000 in
theorem opsBinY_writes : (opsBinY : List (HloOp τ sig (Elt F))).Forall fun op => op.writes ⊆ (opsBinY_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InBinY (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v9 : V (no_index (Proc.devRef .tc main_v9)) = Read.val_main_v9 (F := F) x2
  main_v17 : V (no_index (Proc.devRef .tc main_v17)) = Read.val_main_v17 (F := F) x0 x2
  main_v25 : V (no_index (Proc.devRef .tc main_v25)) = Read.val_main_v25 (F := F) x1 x2 x3
  main_v43 : V (no_index (Proc.devRef .tc main_v43)) = Read.val_main_v43 (F := F) x0 x1
  main_v60 : V (no_index (Proc.devRef .tc main_v60)) = Read.val_main_v60 (F := F) x0 x1

/-- What is needed afterwards: the arguments and the stages still to be read. -/
structure OutBinY (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v25 : V (no_index (Proc.devRef .tc main_v25)) = Read.val_main_v25 (F := F) x1 x2 x3
  main_v43 : V (no_index (Proc.devRef .tc main_v43)) = Read.val_main_v43 (F := F) x0 x1
  main_v60 : V (no_index (Proc.devRef .tc main_v60)) = Read.val_main_v60 (F := F) x0 x1
  main_v77 : V (no_index (Proc.devRef .tc main_v77)) = Read.val_main_v77 (F := F) x0 x2
  main_v78 : V (no_index (Proc.devRef .tc main_v78)) = Read.val_main_v78 (F := F) x0 x2
  main_v83 : V (no_index (Proc.devRef .tc main_v83)) = Read.val_main_v83 (F := F) x0 x2
  main_v88 : V (no_index (Proc.devRef .tc main_v88)) = Read.val_main_v88 (F := F) x0 x2
  main_v90 : V (no_index (Proc.devRef .tc main_v90)) = Read.val_main_v90 (F := F) x0 x2

theorem BinY_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_arg0)) = x0 :=
  (after_of_writes_sub opsBinY V opsBinY_writes (by decide)).trans h.main_arg0

theorem BinY_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_arg1)) = x1 :=
  (after_of_writes_sub opsBinY V opsBinY_writes (by decide)).trans h.main_arg1

theorem BinY_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_arg2)) = x2 :=
  (after_of_writes_sub opsBinY V opsBinY_writes (by decide)).trans h.main_arg2

theorem BinY_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_arg3)) = x3 :=
  (after_of_writes_sub opsBinY V opsBinY_writes (by decide)).trans h.main_arg3

theorem BinY_main_v25 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v25)) = Read.val_main_v25 (F := F) x1 x2 x3 :=
  (after_of_writes_sub opsBinY V opsBinY_writes (by decide)).trans h.main_v25

theorem BinY_main_v43 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v43)) = Read.val_main_v43 (F := F) x0 x1 :=
  (after_of_writes_sub opsBinY V opsBinY_writes (by decide)).trans h.main_v43

theorem BinY_main_v60 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v60)) = Read.val_main_v60 (F := F) x0 x1 :=
  (after_of_writes_sub opsBinY V opsBinY_writes (by decide)).trans h.main_v60

set_option maxRecDepth 8192 in
set_option maxHeartbeats 4000000 in
theorem BinY_main_v77 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v77)) = Read.val_main_v77 (F := F) x0 x2 := by
  simp only [opsBinY]
  after_results_simp
  simp only [h.main_v9, h.main_v17] <;> rfl

set_option maxRecDepth 8192 in
set_option maxHeartbeats 4000000 in
theorem BinY_main_v78 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v78)) = Read.val_main_v78 (F := F) x0 x2 := by
  simp only [opsBinY]
  after_results_simp
  simp only [h.main_v9, h.main_v17] <;> rfl

set_option maxRecDepth 8192 in
set_option maxHeartbeats 4000000 in
theorem BinY_main_v83 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v83)) = Read.val_main_v83 (F := F) x0 x2 := by
  simp only [opsBinY]
  after_results_simp
  simp only [h.main_v9, h.main_v17] <;> rfl

set_option maxRecDepth 8192 in
set_option maxHeartbeats 4000000 in
theorem BinY_main_v88 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v88)) = Read.val_main_v88 (F := F) x0 x2 := by
  simp only [opsBinY]
  after_results_simp
  simp only [h.main_v9, h.main_v17] <;> rfl

set_option maxRecDepth 8192 in
set_option maxHeartbeats 4000000 in
theorem BinY_main_v90 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) :
    after opsBinY V (no_index (Proc.devRef .tc main_v90)) = Read.val_main_v90 (F := F) x0 x2 := by
  simp only [opsBinY]
  after_results_simp
  simp only [h.main_v9, h.main_v17] <;> rfl

/-- From contents that hold what is read, these operations leave contents that hold what is needed afterwards. -/
theorem stepBinY {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InBinY V x0 x1 x2 x3) : OutBinY (after opsBinY V) x0 x1 x2 x3 :=
  ⟨BinY_main_arg0 h, BinY_main_arg1 h, BinY_main_arg2 h, BinY_main_arg3 h, BinY_main_v25 h, BinY_main_v43 h, BinY_main_v60 h, BinY_main_v77 h, BinY_main_v78 h, BinY_main_v83 h, BinY_main_v88 h, BinY_main_v90 h⟩

end Cert.ReferenceIdeal.Hand

end
-- ==== Proof.RefRun05.lean ====
/- The reference's run, part 5 of 10: the y overlap lengths, the products of overlaps with the density and the flat bin index (operations 143 … 179). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The y overlap lengths, the products of overlaps with the density and the flat bin index (operations 143 … 179), in order (a called function's operations stand in its call's place). -/
abbrev opsPinIdx : List (HloOp τ sig (Elt F)) :=
  [ binary main_v90 main_v83 main_v91 (maximumf : (⟨S1000000x5, .f32⟩ : BufTy).Contents (Elt F) → (⟨S1000000x5, .f32⟩ : BufTy).Contents (Elt F) → (⟨S1000000x5, .f32⟩ : BufTy).Contents (Elt F)),
    binary main_v88 main_v91 main_v92 (subf : (⟨S1000000x5, .f32⟩ : BufTy).Contents (Elt F) → (⟨S1000000x5, .f32⟩ : BufTy).Contents (Elt F) → (⟨S1000000x5, .f32⟩ : BufTy).Contents (Elt F)),
    nullary main_cst_27 (constant S_ .f32 0x00000000#32),
    unary main_cst_27 main_v93 (broadcastInDim S1000000x5 ![] bcast_S_S1000000x5 : (⟨S_, .f32⟩ : BufTy).Contents (Elt F) → (⟨S1000000x5, .f32⟩ : BufTy).Contents (Elt F)),
    binary main_v92 main_v93 main_v94 (maximumf : (⟨S1000000x5, .f32⟩ : BufTy).Contents (Elt F) → (⟨S1000000x5, .f32⟩ : BufTy).Contents (Elt F) → (⟨S1000000x5, .f32⟩ : BufTy).Contents (Elt F)),
    nullary main_cst_28 (constant S_ .f32 0x00000000#32),
    TRef.unary (TRef.of (T := ⟨S_, .f32⟩) main_cst_28) (TRef.of (T := ⟨S_, .f32⟩) main_call5_v0) id,
    TRef.unary (TRef.of (T := ⟨S_, .f32⟩) main_call5_v0) (TRef.of (T := ⟨S1000000x5, .f32⟩) main_call5_v1) (broadcastInDim S1000000x5 ![] bcast_S_S1000000x5),
    TRef.ternary (TRef.of (T := ⟨S1000000x5, .i1⟩) main_v77) (TRef.of (T := ⟨S1000000x5, .f32⟩) main_v94) (TRef.of (T := ⟨S1000000x5, .f32⟩) main_call5_v1) (TRef.of (T := ⟨S1000000x5, .f32⟩) main_v95) select,
    unary main_v60 main_v96 (broadcastInDim S1000000x5x1 ![0, 1] bcast_S1000000x5_S1000000x5x1_0_1 : (⟨S1000000x5, .f32⟩ : BufTy).Contents (Elt F) → (⟨S1000000x5x1, .f32⟩ : BufTy).Contents (Elt F)),
    unary main_v95 main_v97 (broadcastInDim S1000000x1x5 ![0, 2] bcast_S1000000x5_S1000000x1x5_0_2 : (⟨S1000000x5, .f32⟩ : BufTy).Contents (Elt F) → (⟨S1000000x1x5, .f32⟩ : BufTy).Contents (Elt F)),
    unary main_v96 main_v98 (broadcastInDim S1000000x5x5 ![0, 1, 2] bcast_S1000000x5x1_S1000000x5x5_0_1_2 : (⟨S1000000x5x1, .f32⟩ : BufTy).Contents (Elt F) → (⟨S1000000x5x5, .f32⟩ : BufTy).Contents (Elt F)),
    unary main_v97 main_v99 (broadcastInDim S1000000x5x5 ![0, 1, 2] bcast_S1000000x1x5_S1000000x5x5_0_1_2 : (⟨S1000000x1x5, .f32⟩ : BufTy).Contents (Elt F) → (⟨S1000000x5x5, .f32⟩ : BufTy).Contents (Elt F)),
    binary main_v98 main_v99 main_v100 (mulf : (⟨S1000000x5x5, .f32⟩ : BufTy).Contents (Elt F) → (⟨S1000000x5x5, .f32⟩ : BufTy).Contents (Elt F) → (⟨S1000000x5x5, .f32⟩ : BufTy).Contents (Elt F)),
    unary main_v25 main_v101 (broadcastInDim S1000000x1x1 ![0] bcast_S1000000_S1000000x1x1_0 : (⟨S1000000, .f32⟩ : BufTy).Contents (Elt F) → (⟨S1000000x1x1, .f32⟩ : BufTy).Contents (Elt F)),
    unary main_v101 main_v102 (broadcastInDim S1000000x5x5 ![0, 1, 2] bcast_S1000000x1x1_S1000000x5x5_0_1_2 : (⟨S1000000x1x1, .f32⟩ : BufTy).Contents (Elt F) → (⟨S1000000x5x5, .f32⟩ : BufTy).Contents (Elt F)),
    binary main_v100 main_v102 main_v103 (mulf : (⟨S1000000x5x5, .f32⟩ : BufTy).Contents (Elt F) → (⟨S1000000x5x5, .f32⟩ : BufTy).Contents (Elt F) → (⟨S1000000x5x5, .f32⟩ : BufTy).Contents (Elt F)),
    unary main_v43 main_v104 (broadcastInDim S1000000x5x1 ![0, 1] bcast_S1000000x5_S1000000x5x1_0_1 : (⟨S1000000x5, .i32⟩ : BufTy).Contents (Elt F) → (⟨S1000000x5x1, .i32⟩ : BufTy).Contents (Elt F)),
    nullary main_c_29 (constantI S_ 32 512#32),
    unary main_c_29 main_v105 (broadcastInDim S1000000x5x1 ![] bcast_S_S1000000x5x1 : (⟨S_, .i32⟩ : BufTy).Contents (Elt F) → (⟨S1000000x5x1, .i32⟩ : BufTy).Contents (Elt F)),
    binary main_v104 main_v105 main_v106 (muli : (⟨S1000000x5x1, .i32⟩ : BufTy).Contents (Elt F) → (⟨S1000000x5x1, .i32⟩ : BufTy).Contents (Elt F) → (⟨S1000000x5x1, .i32⟩ : BufTy).Contents (Elt F)),
    unary main_v78 main_v107 (broadcastInDim S1000000x1x5 ![0, 2] bcast_S1000000x5_S1000000x1x5_0_2 : (⟨S1000000x5, .i32⟩ : BufTy).Contents (Elt F) → (⟨S1000000x1x5, .i32⟩ : BufTy).Contents (Elt F)),
    unary main_v106 main_v108 (broadcastInDim S1000000x5x5 ![0, 1, 2] bcast_S1000000x5x1_S1000000x5x5_0_1_2 : (⟨S1000000x5x1, .i32⟩ : BufTy).Contents (Elt F) → (⟨S1000000x5x5, .i32⟩ : BufTy).Contents (Elt F)),
    unary main_v107 main_v109 (broadcastInDim S1000000x5x5 ![0, 1, 2] bcast_S1000000x1x5_S1000000x5x5_0_1_2 : (⟨S1000000x1x5, .i32⟩ : BufTy).Contents (Elt F) → (⟨S1000000x5x5, .i32⟩ : BufTy).Contents (Elt F)),
    binary main_v108 main_v109 main_v110 (addi : (⟨S1000000x5x5, .i32⟩ : BufTy).Contents (Elt F) → (⟨S1000000x5x5, .i32⟩ : BufTy).Contents (Elt F) → (⟨S1000000x5x5, .i32⟩ : BufTy).Contents (Elt F)),
    reshape main_v110 main_v111 rfl shapeCasts_S1000000x5x5_S25000000,
    nullary main_cst_30 (constant S_ .f32 0x00000000#32),
    unary main_cst_30 main_v112 (broadcastInDim S262144 ![] bcast_S_S262144 : (⟨S_, .f32⟩ : BufTy).Contents (Elt F) → (⟨S262144, .f32⟩ : BufTy).Contents (Elt F)),
    reshape main_v103 main_v113 rfl shapeCasts_S1000000x5x5_S25000000,
    nullary main_c_31 (constantI S_ 32 0#32),
    unary main_c_31 main_v114 (broadcastInDim S25000000 ![] bcast_S_S25000000 : (⟨S_, .i32⟩ : BufTy).Contents (Elt F) → (⟨S25000000, .i32⟩ : BufTy).Contents (Elt F)),
    binary main_v111 main_v114 main_v115 (cmpi .slt : (⟨S25000000, .i32⟩ : BufTy).Contents (Elt F) → (⟨S25000000, .i32⟩ : BufTy).Contents (Elt F) → (⟨S25000000, .i1⟩ : BufTy).Contents (Elt F)),
    nullary main_c_32 (constantI S_ 32 262144#32),
    unary main_c_32 main_v116 (broadcastInDim S25000000 ![] bcast_S_S25000000 : (⟨S_, .i32⟩ : BufTy).Contents (Elt F) → (⟨S25000000, .i32⟩ : BufTy).Contents (Elt F)),
    binary main_v111 main_v116 main_v117 (addi : (⟨S25000000, .i32⟩ : BufTy).Contents (Elt F) → (⟨S25000000, .i32⟩ : BufTy).Contents (Elt F) → (⟨S25000000, .i32⟩ : BufTy).Contents (Elt F)),
    ternary main_v115 main_v117 main_v111 main_v118 (select : (⟨S25000000, .i1⟩ : BufTy).Contents (Elt F) → (⟨S25000000, .i32⟩ : BufTy).Contents (Elt F) → (⟨S25000000, .i32⟩ : BufTy).Contents (Elt F) → (⟨S25000000, .i32⟩ : BufTy).Contents (Elt F)),
    unary main_v118 main_v119 (broadcastInDim S25000000x1 ![0] bcast_S25000000_S25000000x1_0 : (⟨S25000000, .i32⟩ : BufTy).Contents (Elt F) → (⟨S25000000x1, .i32⟩ : BufTy).Contents (Elt F)) ]

set_option maxRecDepth 8192 in
theorem opsPinIdx_sub : (opsPinIdx : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

set_option maxRecDepth 8192 in
set_option maxHeartbeats 4000000 in
/-- Every one of these operations determines its results. -/
theorem opsPinIdx_fresh : ∀ op ∈ (opsPinIdx : List (HloOp τ sig (Elt F))), op.fresh = ∅ := by
  intro _ h; (repeat (cases h with | head => rfl | tail _ h => ?_)); exact nomatch h

/-- The buffers these operations write. -/
abbrev opsPinIdx_W : List (Ref sig .tc) := [main_v91, main_v92, main_cst_27, main_v93, main_v94, main_cst_28, main_call5_v0, main_call5_v1, main_v95, main_v96, main_v97, main_v98, main_v99, main_v100, main_v101, main_v102, main_v103, main_v104, main_c_29, main_v105, main_v106, main_v107, main_v108, main_v109, main_v110, main_v111, main_cst_30, main_v112, main_v113, main_c_31, main_v114, main_v115, main_c_32, main_v116, main_v117, main_v118, main_v119]
set_option maxRecDepth 8192 in
set_option maxHeartbeats 4000000 in
theorem opsPinIdx_writes : (opsPinIdx : List (HloOp τ sig (Elt F))).Forall fun op => op.writes ⊆ (opsPinIdx_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InPinIdx (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v25 : V (no_index (Proc.devRef .tc main_v25)) = Read.val_main_v25 (F := F) x1 x2 x3
  main_v43 : V (no_index (Proc.devRef .tc main_v43)) = Read.val_main_v43 (F := F) x0 x1
  main_v60 : V (no_index (Proc.devRef .tc main_v60)) = Read.val_main_v60 (F := F) x0 x1
  main_v77 : V (no_index (Proc.devRef .tc main_v77)) = Read.val_main_v77 (F := F) x0 x2
  main_v78 : V (no_index (Proc.devRef .tc main_v78)) = Read.val_main_v78 (F := F) x0 x2
  main_v83 : V (no_index (Proc.devRef .tc main_v83)) = Read.val_main_v83 (F := F) x0 x2
  main_v88 : V (no_index (Proc.devRef .tc main_v88)) = Read.val_main_v88 (F := F) x0 x2
  main_v90 : V (no_index (Proc.devRef .tc main_v90)) = Read.val_main_v90 (F := F) x0 x2

/-- What is needed afterwards: the arguments and the stages still to be read. -/
structure OutPinIdx (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v112 : V (no_index (Proc.devRef .tc main_v112)) = Read.val_main_v112 (F := F)
  main_v113 : V (no_index (Proc.devRef .tc main_v113)) = Read.val_main_v113 (F := F) x0 x1 x2 x3
  main_v119 : V (no_index (Proc.devRef .tc main_v119)) = Read.val_main_v119 (F := F) x0 x1 x2

theorem PinIdx_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_arg0)) = x0 :=
  (after_of_writes_sub opsPinIdx V opsPinIdx_writes (by decide)).trans h.main_arg0

theorem PinIdx_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_arg1)) = x1 :=
  (after_of_writes_sub opsPinIdx V opsPinIdx_writes (by decide)).trans h.main_arg1

theorem PinIdx_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_arg2)) = x2 :=
  (after_of_writes_sub opsPinIdx V opsPinIdx_writes (by decide)).trans h.main_arg2

theorem PinIdx_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_arg3)) = x3 :=
  (after_of_writes_sub opsPinIdx V opsPinIdx_writes (by decide)).trans h.main_arg3

set_option maxRecDepth 8192 in
set_option maxHeartbeats 4000000 in
theorem PinIdx_main_v112 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_v112)) = Read.val_main_v112 (F := F) := by
  simp only [opsPinIdx]
  after_results_simp
  all_goals rfl

set_option maxRecDepth 8192 in
set_option maxHeartbeats 4000000 in
theorem PinIdx_main_v113 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_v113)) = Read.val_main_v113 (F := F) x0 x1 x2 x3 := by
  simp only [opsPinIdx]
  after_results_simp
  simp only [h.main_v25, h.main_v83, h.main_v90, h.main_v88, h.main_v77, h.main_v60] <;> rfl

set_option maxRecDepth 8192 in
set_option maxHeartbeats 4000000 in
theorem PinIdx_main_v119 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) :
    after opsPinIdx V (no_index (Proc.devRef .tc main_v119)) = Read.val_main_v119 (F := F) x0 x1 x2 := by
  simp only [opsPinIdx]
  after_results_simp
  simp only [h.main_v78, h.main_v43] <;> rfl

/-- From contents that hold what is read, these operations leave contents that hold what is needed afterwards. -/
theorem stepPinIdx {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinIdx V x0 x1 x2 x3) : OutPinIdx (after opsPinIdx V) x0 x1 x2 x3 :=
  ⟨PinIdx_main_arg0 h, PinIdx_main_arg1 h, PinIdx_main_arg2 h, PinIdx_main_arg3 h, PinIdx_main_v112 h, PinIdx_main_v113 h, PinIdx_main_v119 h⟩

end Cert.ReferenceIdeal.Hand

end
-- ==== Proof.RefRun06.lean ====
/- The reference's run, part 6 of 10: the scatter-add into the pin map, the clamped utilization and the movable nodes' edges (operations 180 … 214). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The scatter-add into the pin map, the clamped utilization and the movable nodes' edges (operations 180 … 214), in order (a called function's operations stand in its call's place). -/
abbrev opsPinUtil : List (HloOp τ sig (Elt F)) :=
  [ ternary main_v112 main_v119 main_v113 main_v120 ((fun x i u => Host.scatterAdd scatter_S262144_S25000000x1_S25000000_n_0_0_1 x i u) : (⟨S262144, .f32⟩ : BufTy).Contents (Elt F) → (⟨S25000000x1, .i32⟩ : BufTy).Contents (Elt F) → (⟨S25000000, .f32⟩ : BufTy).Contents (Elt F) → (⟨S262144, .f32⟩ : BufTy).Contents (Elt F)),
    nullary main_cst_33 (constant S_ .f32 0x3E435000#32),
    unary main_cst_33 main_v121 (broadcastInDim S262144 ![] bcast_S_S262144 : (⟨S_, .f32⟩ : BufTy).Contents (Elt F) → (⟨S262144, .f32⟩ : BufTy).Contents (Elt F)),
    binary main_v120 main_v121 main_v122 (Host.divf : (⟨S262144, .f32⟩ : BufTy).Contents (Elt F) → (⟨S262144, .f32⟩ : BufTy).Contents (Elt F) → (⟨S262144, .f32⟩ : BufTy).Contents (Elt F)),
    nullary main_cst_34 (constant S_ .f32 0x3F2AAAAB#32),
    nullary main_cst_35 (constant S_ .f32 0x3FC00000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S262144, .f32⟩) main_call6_v1) (broadcastInDim S262144 ![] bcast_S_S262144),
    TRef.binary (TRef.of (T := ⟨S262144, .f32⟩) main_call6_v1) (TRef.of (T := ⟨S262144, .f32⟩) main_v122) (TRef.of (T := ⟨S262144, .f32⟩) main_call6_v2) maximumf,
    TRef.unary (TRef.of (T := ⟨S_, .f32⟩) main_cst_35) (TRef.of (T := ⟨S_, .f32⟩) main_call6_v3) id,
    TRef.unary (TRef.of (T := ⟨S_, .f32⟩) main_call6_v3) (TRef.of (T := ⟨S262144, .f32⟩) main_call6_v4) (broadcastInDim S262144 ![] bcast_S_S262144),
    TRef.binary (TRef.of (T := ⟨S262144, .f32⟩) main_call6_v4) (TRef.of (T := ⟨S262144, .f32⟩) main_call6_v2) (TRef.of (T := ⟨S262144, .f32⟩) main_v123) minimumf,
    unary main_arg0 main_v124 ((extractStridedSlice S900000 ![0] · slices_S2400000_S900000_0) : (⟨S2400000, .f32⟩ : BufTy).Contents (Elt F) → (⟨S900000, .f32⟩ : BufTy).Contents (Elt F)),
    unary main_arg1 main_v125 ((extractStridedSlice S900000 ![0] · slices_S1200000_S900000_0) : (⟨S1200000, .f32⟩ : BufTy).Contents (Elt F) → (⟨S900000, .f32⟩ : BufTy).Contents (Elt F)),
    binary main_v124 main_v125 main_v126 (addf : (⟨S900000, .f32⟩ : BufTy).Contents (Elt F) → (⟨S900000, .f32⟩ : BufTy).Contents (Elt F) → (⟨S900000, .f32⟩ : BufTy).Contents (Elt F)),
    unary main_arg0 main_v127 ((extractStridedSlice S900000 ![1200000] · slices_S2400000_S900000_1200000) : (⟨S2400000, .f32⟩ : BufTy).Contents (Elt F) → (⟨S900000, .f32⟩ : BufTy).Contents (Elt F)),
    unary main_arg2 main_v128 ((extractStridedSlice S900000 ![0] · slices_S1200000_S900000_0) : (⟨S1200000, .f32⟩ : BufTy).Contents (Elt F) → (⟨S900000, .f32⟩ : BufTy).Contents (Elt F)),
    binary main_v127 main_v128 main_v129 (addf : (⟨S900000, .f32⟩ : BufTy).Contents (Elt F) → (⟨S900000, .f32⟩ : BufTy).Contents (Elt F) → (⟨S900000, .f32⟩ : BufTy).Contents (Elt F)),
    nullary main_cst_36 (constant S_ .f32 0x00000000#32),
    unary main_cst_36 main_v130 (broadcastInDim S900000 ![] bcast_S_S900000 : (⟨S_, .f32⟩ : BufTy).Contents (Elt F) → (⟨S900000, .f32⟩ : BufTy).Contents (Elt F)),
    binary main_v124 main_v130 main_v131 (subf : (⟨S900000, .f32⟩ : BufTy).Contents (Elt F) → (⟨S900000, .f32⟩ : BufTy).Contents (Elt F) → (⟨S900000, .f32⟩ : BufTy).Contents (Elt F)),
    nullary main_cst_37 (constant S_ .f32 0x3FFA0000#32),
    unary main_cst_37 main_v132 (broadcastInDim S900000 ![] bcast_S_S900000 : (⟨S_, .f32⟩ : BufTy).Contents (Elt F) → (⟨S900000, .f32⟩ : BufTy).Contents (Elt F)),
    binary main_v131 main_v132 main_v133 (Host.divf : (⟨S900000, .f32⟩ : BufTy).Contents (Elt F) → (⟨S900000, .f32⟩ : BufTy).Contents (Elt F) → (⟨S900000, .f32⟩ : BufTy).Contents (Elt F)),
    unary main_v133 main_v134 (Host.floor : (⟨S900000, .f32⟩ : BufTy).Contents (Elt F) → (⟨S900000, .f32⟩ : BufTy).Contents (Elt F)),
    unary main_v134 main_v135 (fptosi 32 : (⟨S900000, .f32⟩ : BufTy).Contents (Elt F) → (⟨S900000, .i32⟩ : BufTy).Contents (Elt F)),
    nullary main_c_38 (constantI S_ 32 0#32),
    nullary main_c_39 (constantI S_ 32 511#32),
    TRef.unary (TRef.of (T := ⟨S_, .i32⟩) main_c_38) (TRef.of (T := ⟨S_, .i32⟩) main_call7_v0) id,
    TRef.unary (TRef.of (T := ⟨S_, .i32⟩) main_call7_v0) (TRef.of (T := ⟨S900000, .i32⟩) main_call7_v1) (broadcastInDim S900000 ![] bcast_S_S900000),
    TRef.binary (TRef.of (T := ⟨S900000, .i32⟩) main_call7_v1) (TRef.of (T := ⟨S900000, .i32⟩) main_v135) (TRef.of (T := ⟨S900000, .i32⟩) main_call7_v2) maxsi,
    TRef.unary (TRef.of (T := ⟨S_, .i32⟩) main_c_39) (TRef.of (T := ⟨S_, .i32⟩) main_call7_v3) id,
    TRef.unary (TRef.of (T := ⟨S_, .i32⟩) main_call7_v3) (TRef.of (T := ⟨S900000, .i32⟩) main_call7_v4) (broadcastInDim S900000 ![] bcast_S_S900000),
    TRef.binary (TRef.of (T := ⟨S900000, .i32⟩) main_call7_v4) (TRef.of (T := ⟨S900000, .i32⟩) main_call7_v2) (TRef.of (T := ⟨S900000, .i32⟩) main_v136) minsi,
    unary main_v136 main_v137 (broadcastInDim S900000x1 ![0] bcast_S900000_S900000x1_0 : (⟨S900000, .i32⟩ : BufTy).Contents (Elt F) → (⟨S900000x1, .i32⟩ : BufTy).Contents (Elt F)) ]

set_option maxRecDepth 8192 in
theorem opsPinUtil_sub : (opsPinUtil : List (HloOp τ sig (Elt F))).Forall fun op => op.bufs ⊆ tcRefs τ sig :=
  ⟨ternary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
set_option maxHeartbeats 4000000 in
/-- Every one of these operations determines its results. -/
theorem opsPinUtil_fresh : ∀ op ∈ (opsPinUtil : List (HloOp τ sig (Elt F))), op.fresh = ∅ := by
  intro _ h; (repeat (cases h with | head => rfl | tail _ h => ?_)); exact nomatch h

/-- The buffers these operations write. -/
abbrev opsPinUtil_W : List (Ref sig .tc) := [main_v120, main_cst_33, main_v121, main_v122, main_cst_34, main_cst_35, main_call6_v0, main_call6_v1, main_call6_v2, main_call6_v3, main_call6_v4, main_v123, main_v124, main_v125, main_v126, main_v127, main_v128, main_v129, main_cst_36, main_v130, main_v131, main_cst_37, main_v132, main_v133, main_v134, main_v135, main_c_38, main_c_39, main_call7_v0, main_call7_v1, main_call7_v2, main_call7_v3, main_call7_v4, main_v136, main_v137]
set_option maxRecDepth 8192 in
set_option maxHeartbeats 4000000 in
theorem opsPinUtil_writes : (opsPinUtil : List (HloOp τ sig (Elt F))).Forall fun op => op.writes ⊆ (opsPinUtil_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InPinUtil (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v112 : V (no_index (Proc.devRef .tc main_v112)) = Read.val_main_v112 (F := F)
  main_v113 : V (no_index (Proc.devRef .tc main_v113)) = Read.val_main_v113 (F := F) x0 x1 x2 x3
  main_v119 : V (no_index (Proc.devRef .tc main_v119)) = Read.val_main_v119 (F := F) x0 x1 x2

/-- What is needed afterwards: the arguments and the stages still to be read. -/
structure OutPinUtil (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v124 : V (no_index (Proc.devRef .tc main_v124)) = Read.val_main_v124 (F := F) x0
  main_v126 : V (no_index (Proc.devRef .tc main_v126)) = Read.val_main_v126 (F := F) x0 x1
  main_v127 : V (no_index (Proc.devRef .tc main_v127)) = Read.val_main_v127 (F := F) x0
  main_v129 : V (no_index (Proc.devRef .tc main_v129)) = Read.val_main_v129 (F := F) x0 x2
  main_v137 : V (no_index (Proc.devRef .tc main_v137)) = Read.val_main_v137 (F := F) x0

theorem PinUtil_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_arg0)) = x0 :=
  (after_of_writes_sub opsPinUtil V opsPinUtil_writes (by decide)).trans h.main_arg0

theorem PinUtil_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_arg1)) = x1 :=
  (after_of_writes_sub opsPinUtil V opsPinUtil_writes (by decide)).trans h.main_arg1

theorem PinUtil_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_arg2)) = x2 :=
  (after_of_writes_sub opsPinUtil V opsPinUtil_writes (by decide)).trans h.main_arg2

theorem PinUtil_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_arg3)) = x3 :=
  (after_of_writes_sub opsPinUtil V opsPinUtil_writes (by decide)).trans h.main_arg3

set_option maxRecDepth 8192 in
set_option maxHeartbeats 4000000 in
theorem PinUtil_main_v123 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_v123)) = Read.val_main_v123 (F := F) x0 x1 x2 x3 := by
  simp only [opsPinUtil]
  after_results_simp
  simp only [h.main_v113, h.main_v119, h.main_v112] <;> rfl

set_option maxRecDepth 8192 in
set_option maxHeartbeats 4000000 in
theorem PinUtil_main_v124 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_v124)) = Read.val_main_v124 (F := F) x0 := by
  simp only [opsPinUtil]
  after_results_simp
  simp only [h.main_arg0] <;> rfl

set_option maxRecDepth 8192 in
set_option maxHeartbeats 4000000 in
theorem PinUtil_main_v126 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_v126)) = Read.val_main_v126 (F := F) x0 x1 := by
  simp only [opsPinUtil]
  after_results_simp
  simp only [h.main_arg1, h.main_arg0] <;> rfl

set_option maxRecDepth 8192 in
set_option maxHeartbeats 4000000 in
theorem PinUtil_main_v127 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_v127)) = Read.val_main_v127 (F := F) x0 := by
  simp only [opsPinUtil]
  after_results_simp
  simp only [h.main_arg0] <;> rfl

set_option maxRecDepth 8192 in
set_option maxHeartbeats 4000000 in
theorem PinUtil_main_v129 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_v129)) = Read.val_main_v129 (F := F) x0 x2 := by
  simp only [opsPinUtil]
  after_results_simp
  simp only [h.main_arg2, h.main_arg0] <;> rfl

set_option maxRecDepth 8192 in
set_option maxHeartbeats 4000000 in
theorem PinUtil_main_v137 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) :
    after opsPinUtil V (no_index (Proc.devRef .tc main_v137)) = Read.val_main_v137 (F := F) x0 := by
  simp only [opsPinUtil]
  after_results_simp
  simp only [h.main_arg0] <;> rfl

/-- From contents that hold what is read, these operations leave contents that hold what is needed afterwards. -/
theorem stepPinUtil {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InPinUtil V x0 x1 x2 x3) : OutPinUtil (after opsPinUtil V) x0 x1 x2 x3 :=
  ⟨PinUtil_main_arg0 h, PinUtil_main_arg1 h, PinUtil_main_arg2 h, PinUtil_main_arg3 h, PinUtil_main_v123 h, PinUtil_main_v124 h, PinUtil_main_v126 h, PinUtil_main_v127 h, PinUtil_main_v129 h, PinUtil_main_v137 h⟩

end Cert.ReferenceIdeal.Hand

end
-- ==== Proof.RefRun07.lean ====
/- The reference's run, part 7 of 10: the movable nodes' x bin indices and x overlap lengths (operations 215 … 254). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The movable nodes' x bin indices and x overlap lengths (operations 215 … 254), in order (a called function's operations stand in its call's place). -/
abbrev opsMovX : List (HloOp τ sig (Elt F)) :=
  [ nullary main_v138 (iotaInDim S5 32 0),
    unary main_v138 main_v139 (broadcastInDim S1x5 ![1] bcast_S5_S1x5_1 : (⟨S5, .i32⟩ : BufTy).Contents (Elt F) → (⟨S1x5, .i32⟩ : BufTy).Contents (Elt F)),
    unary main_v137 main_v140 (broadcastInDim S900000x5 ![0, 1] bcast_S900000x1_S900000x5_0_1 : (⟨S900000x1, .i32⟩ : BufTy).Contents (Elt F) → (⟨S900000x5, .i32⟩ : BufTy).Contents (Elt F)),
    unary main_v139 main_v141 (broadcastInDim S900000x5 ![0, 1] bcast_S1x5_S900000x5_0_1 : (⟨S1x5, .i32⟩ : BufTy).Contents (Elt F) → (⟨S900000x5, .i32⟩ : BufTy).Contents (Elt F)),
    binary main_v140 main_v141 main_v142 (addi : (⟨S900000x5, .i32⟩ : BufTy).Contents (Elt F) → (⟨S900000x5, .i32⟩ : BufTy).Contents (Elt F) → (⟨S900000x5, .i32⟩ : BufTy).Contents (Elt F)),
    nullary main_c_40 (constantI S_ 32 512#32),
    unary main_c_40 main_v143 (broadcastInDim S900000x5 ![] bcast_S_S900000x5 : (⟨S_, .i32⟩ : BufTy).Contents (Elt F) → (⟨S900000x5, .i32⟩ : BufTy).Contents (Elt F)),
    binary main_v142 main_v143 main_v144 (cmpi .slt : (⟨S900000x5, .i32⟩ : BufTy).Contents (Elt F) → (⟨S900000x5, .i32⟩ : BufTy).Contents (Elt F) → (⟨S900000x5, .i1⟩ : BufTy).Contents (Elt F)),
    nullary main_c_41 (constantI S_ 32 0#32),
    nullary main_c_42 (constantI S_ 32 511#32),
    TRef.unary (TRef.of (T := ⟨S_, .i32⟩) main_c_41) (TRef.of (T := ⟨S_, .i32⟩) main_call8_v0) id,
    TRef.unary (TRef.of (T := ⟨S_, .i32⟩) main_call8_v0) (TRef.of (T := ⟨S900000x5, .i32⟩) main_call8_v1) (broadcastInDim S900000x5 ![] bcast_S_S900000x5),
    TRef.binary (TRef.of (T := ⟨S900000x5, .i32⟩) main_call8_v1) (TRef.of (T := ⟨S900000x5, .i32⟩) main_v142) (TRef.of (T := ⟨S900000x5, .i32⟩) main_call8_v2) maxsi,
    TRef.unary (TRef.of (T := ⟨S_, .i32⟩) main_c_42) (TRef.of (T := ⟨S_, .i32⟩) main_call8_v3) id,
    TRef.unary (TRef.of (T := ⟨S_, .i32⟩) main_call8_v3) (TRef.of (T := ⟨S900000x5, .i32⟩) main_call8_v4) (broadcastInDim S900000x5 ![] bcast_S_S900000x5),
    TRef.binary (TRef.of (T := ⟨S900000x5, .i32⟩) main_call8_v4) (TRef.of (T := ⟨S900000x5, .i32⟩) main_call8_v2) (TRef.of (T := ⟨S900000x5, .i32⟩) main_v145) minsi,
    unary main_v145 main_v146 (sitofp .f32 : (⟨S900000x5, .i32⟩ : BufTy).Contents (Elt F) → (⟨S900000x5, .f32⟩ : BufTy).Contents (Elt F)),
    nullary main_cst_43 (constant S_ .f32 0x3FFA0000#32),
    unary main_cst_43 main_v147 (broadcastInDim S900000x5 ![] bcast_S_S900000x5 : (⟨S_, .f32⟩ : BufTy).Contents (Elt F) → (⟨S900000x5, .f32⟩ : BufTy).Contents (Elt F)),
    binary main_v146 main_v147 main_v148 (mulf : (⟨S900000x5, .f32⟩ : BufTy).Contents (Elt F) → (⟨S900000x5, .f32⟩ : BufTy).Contents (Elt F) → (⟨S900000x5, .f32⟩ : BufTy).Contents (Elt F)),
    nullary main_cst_44 (constant S_ .f32 0x00000000#32),
    unary main_cst_44 main_v149 (broadcastInDim S900000x5 ![] bcast_S_S900000x5 : (⟨S_, .f32⟩ : BufTy).Contents (Elt F) → (⟨S900000x5, .f32⟩ : BufTy).Contents (Elt F)),
    binary main_v149 main_v148 main_v150 (addf : (⟨S900000x5, .f32⟩ : BufTy).Contents (Elt F) → (⟨S900000x5, .f32⟩ : BufTy).Contents (Elt F) → (⟨S900000x5, .f32⟩ : BufTy).Contents (Elt F)),
    unary main_v126 main_v151 (broadcastInDim S900000x1 ![0] bcast_S900000_S900000x1_0 : (⟨S900000, .f32⟩ : BufTy).Contents (Elt F) → (⟨S900000x1, .f32⟩ : BufTy).Contents (Elt F)),
    nullary main_cst_45 (constant S_ .f32 0x3FFA0000#32),
    unary main_cst_45 main_v152 (broadcastInDim S900000x5 ![] bcast_S_S900000x5 : (⟨S_, .f32⟩ : BufTy).Contents (Elt F) → (⟨S900000x5, .f32⟩ : BufTy).Contents (Elt F)),
    binary main_v150 main_v152 main_v153 (addf : (⟨S900000x5, .f32⟩ : BufTy).Contents (Elt F) → (⟨S900000x5, .f32⟩ : BufTy).Contents (Elt F) → (⟨S900000x5, .f32⟩ : BufTy).Contents (Elt F)),
    unary main_v151 main_v154 (broadcastInDim S900000x5 ![0, 1] bcast_S900000x1_S900000x5_0_1 : (⟨S900000x1, .f32⟩ : BufTy).Contents (Elt F) → (⟨S900000x5, .f32⟩ : BufTy).Contents (Elt F)),
    binary main_v154 main_v153 main_v155 (minimumf : (⟨S900000x5, .f32⟩ : BufTy).Contents (Elt F) → (⟨S900000x5, .f32⟩ : BufTy).Contents (Elt F) → (⟨S900000x5, .f32⟩ : BufTy).Contents (Elt F)),
    unary main_v124 main_v156 (broadcastInDim S900000x1 ![0] bcast_S900000_S900000x1_0 : (⟨S900000, .f32⟩ : BufTy).Contents (Elt F) → (⟨S900000x1, .f32⟩ : BufTy).Contents (Elt F)),
    unary main_v156 main_v157 (broadcastInDim S900000x5 ![0, 1] bcast_S900000x1_S900000x5_0_1 : (⟨S900000x1, .f32⟩ : BufTy).Contents (Elt F) → (⟨S900000x5, .f32⟩ : BufTy).Contents (Elt F)),
    binary main_v157 main_v150 main_v158 (maximumf : (⟨S900000x5, .f32⟩ : BufTy).Contents (Elt F) → (⟨S900000x5, .f32⟩ : BufTy).Contents (Elt F) → (⟨S900000x5, .f32⟩ : BufTy).Contents (Elt F)),
    binary main_v155 main_v158 main_v159 (subf : (⟨S900000x5, .f32⟩ : BufTy).Contents (Elt F) → (⟨S900000x5, .f32⟩ : BufTy).Contents (Elt F) → (⟨S900000x5, .f32⟩ : BufTy).Contents (Elt F)),
    nullary main_cst_46 (constant S_ .f32 0x00000000#32),
    unary main_cst_46 main_v160 (broadcastInDim S900000x5 ![] bcast_S_S900000x5 : (⟨S_, .f32⟩ : BufTy).Contents (Elt F) → (⟨S900000x5, .f32⟩ : BufTy).Contents (Elt F)),
    binary main_v159 main_v160 main_v161 (maximumf : (⟨S900000x5, .f32⟩ : BufTy).Contents (Elt F) → (⟨S900000x5, .f32⟩ : BufTy).Contents (Elt F) → (⟨S900000x5, .f32⟩ : BufTy).Contents (Elt F)),
    nullary main_cst_47 (constant S_ .f32 0x00000000#32),
    TRef.unary (TRef.of (T := ⟨S_, .f32⟩) main_cst_47) (TRef.of (T := ⟨S_, .f32⟩) main_call9_v0) id,
    TRef.unary (TRef.of (T := ⟨S_, .f32⟩) main_call9_v0) (TRef.of (T := ⟨S900000x5, .f32⟩) main_call9_v1) (broadcastInDim S900000x5 ![] bcast_S_S900000x5),
    TRef.ternary (TRef.of (T := ⟨S900000x5, .i1⟩) main_v144) (TRef.of (T := ⟨S900000x5, .f32⟩) main_v161) (TRef.of (T := ⟨S900000x5, .f32⟩) main_call9_v1) (TRef.of (T := ⟨S900000x5, .f32⟩) main_v162) select ]

set_option maxRecDepth 8192 in
theorem opsMovX_sub : (opsMovX : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩

set_option maxRecDepth 8192 in
set_option maxHeartbeats 4000000 in
/-- Every one of these operations determines its results. -/
theorem opsMovX_fresh : ∀ op ∈ (opsMovX : List (HloOp τ sig (Elt F))), op.fresh = ∅ := by
  intro _ h; (repeat (cases h with | head => rfl | tail _ h => ?_)); exact nomatch h

/-- The buffers these operations write. -/
abbrev opsMovX_W : List (Ref sig .tc) := [main_v138, main_v139, main_v140, main_v141, main_v142, main_c_40, main_v143, main_v144, main_c_41, main_c_42, main_call8_v0, main_call8_v1, main_call8_v2, main_call8_v3, main_call8_v4, main_v145, main_v146, main_cst_43, main_v147, main_v148, main_cst_44, main_v149, main_v150, main_v151, main_cst_45, main_v152, main_v153, main_v154, main_v155, main_v156, main_v157, main_v158, main_v159, main_cst_46, main_v160, main_v161, main_cst_47, main_call9_v0, main_call9_v1, main_v162]
set_option maxRecDepth 8192 in
set_option maxHeartbeats 4000000 in
theorem opsMovX_writes : (opsMovX : List (HloOp τ sig (Elt F))).Forall fun op => op.writes ⊆ (opsMovX_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InMovX (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v124 : V (no_index (Proc.devRef .tc main_v124)) = Read.val_main_v124 (F := F) x0
  main_v126 : V (no_index (Proc.devRef .tc main_v126)) = Read.val_main_v126 (F := F) x0 x1
  main_v127 : V (no_index (Proc.devRef .tc main_v127)) = Read.val_main_v127 (F := F) x0
  main_v129 : V (no_index (Proc.devRef .tc main_v129)) = Read.val_main_v129 (F := F) x0 x2
  main_v137 : V (no_index (Proc.devRef .tc main_v137)) = Read.val_main_v137 (F := F) x0

/-- What is needed afterwards: the arguments and the stages still to be read. -/
structure OutMovX (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v127 : V (no_index (Proc.devRef .tc main_v127)) = Read.val_main_v127 (F := F) x0
  main_v129 : V (no_index (Proc.devRef .tc main_v129)) = Read.val_main_v129 (F := F) x0 x2
  main_v145 : V (no_index (Proc.devRef .tc main_v145)) = Read.val_main_v145 (F := F) x0
  main_v162 : V (no_index (Proc.devRef .tc main_v162)) = Read.val_main_v162 (F := F) x0 x1

theorem MovX_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_arg0)) = x0 :=
  (after_of_writes_sub opsMovX V opsMovX_writes (by decide)).trans h.main_arg0

theorem MovX_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_arg1)) = x1 :=
  (after_of_writes_sub opsMovX V opsMovX_writes (by decide)).trans h.main_arg1

theorem MovX_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_arg2)) = x2 :=
  (after_of_writes_sub opsMovX V opsMovX_writes (by decide)).trans h.main_arg2

theorem MovX_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_arg3)) = x3 :=
  (after_of_writes_sub opsMovX V opsMovX_writes (by decide)).trans h.main_arg3

theorem MovX_main_v123 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_v123)) = Read.val_main_v123 (F := F) x0 x1 x2 x3 :=
  (after_of_writes_sub opsMovX V opsMovX_writes (by decide)).trans h.main_v123

theorem MovX_main_v127 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_v127)) = Read.val_main_v127 (F := F) x0 :=
  (after_of_writes_sub opsMovX V opsMovX_writes (by decide)).trans h.main_v127

theorem MovX_main_v129 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_v129)) = Read.val_main_v129 (F := F) x0 x2 :=
  (after_of_writes_sub opsMovX V opsMovX_writes (by decide)).trans h.main_v129

set_option maxRecDepth 8192 in
set_option maxHeartbeats 4000000 in
theorem MovX_main_v145 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_v145)) = Read.val_main_v145 (F := F) x0 := by
  simp only [opsMovX]
  after_results_simp
  simp only [h.main_v137] <;> rfl

set_option maxRecDepth 8192 in
set_option maxHeartbeats 4000000 in
theorem MovX_main_v162 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) :
    after opsMovX V (no_index (Proc.devRef .tc main_v162)) = Read.val_main_v162 (F := F) x0 x1 := by
  simp only [opsMovX]
  after_results_simp
  simp only [h.main_v137, h.main_v124, h.main_v126] <;> rfl

/-- From contents that hold what is read, these operations leave contents that hold what is needed afterwards. -/
theorem stepMovX {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovX V x0 x1 x2 x3) : OutMovX (after opsMovX V) x0 x1 x2 x3 :=
  ⟨MovX_main_arg0 h, MovX_main_arg1 h, MovX_main_arg2 h, MovX_main_arg3 h, MovX_main_v123 h, MovX_main_v127 h, MovX_main_v129 h, MovX_main_v145 h, MovX_main_v162 h⟩

end Cert.ReferenceIdeal.Hand

end
-- ==== Proof.RefRun08.lean ====
/- The reference's run, part 8 of 10: the movable nodes' y bin indices and the first half of their y overlap lengths (operations 255 … 291). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The movable nodes' y bin indices and the first half of their y overlap lengths (operations 255 … 291), in order (a called function's operations stand in its call's place). -/
abbrev opsMovY : List (HloOp τ sig (Elt F)) :=
  [ nullary main_cst_48 (constant S_ .f32 0x00000000#32),
    unary main_cst_48 main_v163 (broadcastInDim S900000 ![] bcast_S_S900000 : (⟨S_, .f32⟩ : BufTy).Contents (Elt F) → (⟨S900000, .f32⟩ : BufTy).Contents (Elt F)),
    binary main_v127 main_v163 main_v164 (subf : (⟨S900000, .f32⟩ : BufTy).Contents (Elt F) → (⟨S900000, .f32⟩ : BufTy).Contents (Elt F) → (⟨S900000, .f32⟩ : BufTy).Contents (Elt F)),
    nullary main_cst_49 (constant S_ .f32 0x3FFA0000#32),
    unary main_cst_49 main_v165 (broadcastInDim S900000 ![] bcast_S_S900000 : (⟨S_, .f32⟩ : BufTy).Contents (Elt F) → (⟨S900000, .f32⟩ : BufTy).Contents (Elt F)),
    binary main_v164 main_v165 main_v166 (Host.divf : (⟨S900000, .f32⟩ : BufTy).Contents (Elt F) → (⟨S900000, .f32⟩ : BufTy).Contents (Elt F) → (⟨S900000, .f32⟩ : BufTy).Contents (Elt F)),
    unary main_v166 main_v167 (Host.floor : (⟨S900000, .f32⟩ : BufTy).Contents (Elt F) → (⟨S900000, .f32⟩ : BufTy).Contents (Elt F)),
    unary main_v167 main_v168 (fptosi 32 : (⟨S900000, .f32⟩ : BufTy).Contents (Elt F) → (⟨S900000, .i32⟩ : BufTy).Contents (Elt F)),
    nullary main_c_50 (constantI S_ 32 0#32),
    nullary main_c_51 (constantI S_ 32 511#32),
    TRef.unary (TRef.of (T := ⟨S_, .i32⟩) main_c_50) (TRef.of (T := ⟨S_, .i32⟩) main_call10_v0) id,
    TRef.unary (TRef.of (T := ⟨S_, .i32⟩) main_call10_v0) (TRef.of (T := ⟨S900000, .i32⟩) main_call10_v1) (broadcastInDim S900000 ![] bcast_S_S900000),
    TRef.binary (TRef.of (T := ⟨S900000, .i32⟩) main_call10_v1) (TRef.of (T := ⟨S900000, .i32⟩) main_v168) (TRef.of (T := ⟨S900000, .i32⟩) main_call10_v2) maxsi,
    TRef.unary (TRef.of (T := ⟨S_, .i32⟩) main_c_51) (TRef.of (T := ⟨S_, .i32⟩) main_call10_v3) id,
    TRef.unary (TRef.of (T := ⟨S_, .i32⟩) main_call10_v3) (TRef.of (T := ⟨S900000, .i32⟩) main_call10_v4) (broadcastInDim S900000 ![] bcast_S_S900000),
    TRef.binary (TRef.of (T := ⟨S900000, .i32⟩) main_call10_v4) (TRef.of (T := ⟨S900000, .i32⟩) main_call10_v2) (TRef.of (T := ⟨S900000, .i32⟩) main_v169) minsi,
    unary main_v169 main_v170 (broadcastInDim S900000x1 ![0] bcast_S900000_S900000x1_0 : (⟨S900000, .i32⟩ : BufTy).Contents (Elt F) → (⟨S900000x1, .i32⟩ : BufTy).Contents (Elt F)),
    nullary main_v171 (iotaInDim S5 32 0),
    unary main_v171 main_v172 (broadcastInDim S1x5 ![1] bcast_S5_S1x5_1 : (⟨S5, .i32⟩ : BufTy).Contents (Elt F) → (⟨S1x5, .i32⟩ : BufTy).Contents (Elt F)),
    unary main_v170 main_v173 (broadcastInDim S900000x5 ![0, 1] bcast_S900000x1_S900000x5_0_1 : (⟨S900000x1, .i32⟩ : BufTy).Contents (Elt F) → (⟨S900000x5, .i32⟩ : BufTy).Contents (Elt F)),
    unary main_v172 main_v174 (broadcastInDim S900000x5 ![0, 1] bcast_S1x5_S900000x5_0_1 : (⟨S1x5, .i32⟩ : BufTy).Contents (Elt F) → (⟨S900000x5, .i32⟩ : BufTy).Contents (Elt F)),
    binary main_v173 main_v174 main_v175 (addi : (⟨S900000x5, .i32⟩ : BufTy).Contents (Elt F) → (⟨S900000x5, .i32⟩ : BufTy).Contents (Elt F) → (⟨S900000x5, .i32⟩ : BufTy).Contents (Elt F)),
    nullary main_c_52 (constantI S_ 32 512#32),
    unary main_c_52 main_v176 (broadcastInDim S900000x5 ![] bcast_S_S900000x5 : (⟨S_, .i32⟩ : BufTy).Contents (Elt F) → (⟨S900000x5, .i32⟩ : BufTy).Contents (Elt F)),
    binary main_v175 main_v176 main_v177 (cmpi .slt : (⟨S900000x5, .i32⟩ : BufTy).Contents (Elt F) → (⟨S900000x5, .i32⟩ : BufTy).Contents (Elt F) → (⟨S900000x5, .i1⟩ : BufTy).Contents (Elt F)),
    nullary main_c_53 (constantI S_ 32 0#32),
    nullary main_c_54 (constantI S_ 32 511#32),
    TRef.unary (TRef.of (T := ⟨S_, .i32⟩) main_c_53) (TRef.of (T := ⟨S_, .i32⟩) main_call11_v0) id,
    TRef.unary (TRef.of (T := ⟨S_, .i32⟩) main_call11_v0) (TRef.of (T := ⟨S900000x5, .i32⟩) main_call11_v1) (broadcastInDim S900000x5 ![] bcast_S_S900000x5),
    TRef.binary (TRef.of (T := ⟨S900000x5, .i32⟩) main_call11_v1) (TRef.of (T := ⟨S900000x5, .i32⟩) main_v175) (TRef.of (T := ⟨S900000x5, .i32⟩) main_call11_v2) maxsi,
    TRef.unary (TRef.of (T := ⟨S_, .i32⟩) main_c_54) (TRef.of (T := ⟨S_, .i32⟩) main_call11_v3) id,
    TRef.unary (TRef.of (T := ⟨S_, .i32⟩) main_call11_v3) (TRef.of (T := ⟨S900000x5, .i32⟩) main_call11_v4) (broadcastInDim S900000x5 ![] bcast_S_S900000x5),
    TRef.binary (TRef.of (T := ⟨S900000x5, .i32⟩) main_call11_v4) (TRef.of (T := ⟨S900000x5, .i32⟩) main_call11_v2) (TRef.of (T := ⟨S900000x5, .i32⟩) main_v178) minsi,
    unary main_v178 main_v179 (sitofp .f32 : (⟨S900000x5, .i32⟩ : BufTy).Contents (Elt F) → (⟨S900000x5, .f32⟩ : BufTy).Contents (Elt F)),
    nullary main_cst_55 (constant S_ .f32 0x3FFA0000#32),
    unary main_cst_55 main_v180 (broadcastInDim S900000x5 ![] bcast_S_S900000x5 : (⟨S_, .f32⟩ : BufTy).Contents (Elt F) → (⟨S900000x5, .f32⟩ : BufTy).Contents (Elt F)),
    binary main_v179 main_v180 main_v181 (mulf : (⟨S900000x5, .f32⟩ : BufTy).Contents (Elt F) → (⟨S900000x5, .f32⟩ : BufTy).Contents (Elt F) → (⟨S900000x5, .f32⟩ : BufTy).Contents (Elt F)) ]

set_option maxRecDepth 8192 in
theorem opsMovY_sub : (opsMovY : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub ..⟩

set_option maxRecDepth 8192 in
set_option maxHeartbeats 4000000 in
/-- Every one of these operations determines its results. -/
theorem opsMovY_fresh : ∀ op ∈ (opsMovY : List (HloOp τ sig (Elt F))), op.fresh = ∅ := by
  intro _ h; (repeat (cases h with | head => rfl | tail _ h => ?_)); exact nomatch h

/-- The buffers these operations write. -/
abbrev opsMovY_W : List (Ref sig .tc) := [main_cst_48, main_v163, main_v164, main_cst_49, main_v165, main_v166, main_v167, main_v168, main_c_50, main_c_51, main_call10_v0, main_call10_v1, main_call10_v2, main_call10_v3, main_call10_v4, main_v169, main_v170, main_v171, main_v172, main_v173, main_v174, main_v175, main_c_52, main_v176, main_v177, main_c_53, main_c_54, main_call11_v0, main_call11_v1, main_call11_v2, main_call11_v3, main_call11_v4, main_v178, main_v179, main_cst_55, main_v180, main_v181]
set_option maxRecDepth 8192 in
set_option maxHeartbeats 4000000 in
theorem opsMovY_writes : (opsMovY : List (HloOp τ sig (Elt F))).Forall fun op => op.writes ⊆ (opsMovY_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InMovY (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v127 : V (no_index (Proc.devRef .tc main_v127)) = Read.val_main_v127 (F := F) x0
  main_v129 : V (no_index (Proc.devRef .tc main_v129)) = Read.val_main_v129 (F := F) x0 x2
  main_v145 : V (no_index (Proc.devRef .tc main_v145)) = Read.val_main_v145 (F := F) x0
  main_v162 : V (no_index (Proc.devRef .tc main_v162)) = Read.val_main_v162 (F := F) x0 x1

/-- What is needed afterwards: the arguments and the stages still to be read. -/
structure OutMovY (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v127 : V (no_index (Proc.devRef .tc main_v127)) = Read.val_main_v127 (F := F) x0
  main_v129 : V (no_index (Proc.devRef .tc main_v129)) = Read.val_main_v129 (F := F) x0 x2
  main_v145 : V (no_index (Proc.devRef .tc main_v145)) = Read.val_main_v145 (F := F) x0
  main_v162 : V (no_index (Proc.devRef .tc main_v162)) = Read.val_main_v162 (F := F) x0 x1
  main_v177 : V (no_index (Proc.devRef .tc main_v177)) = Read.val_main_v177 (F := F) x0
  main_v178 : V (no_index (Proc.devRef .tc main_v178)) = Read.val_main_v178 (F := F) x0
  main_v181 : V (no_index (Proc.devRef .tc main_v181)) = Read.val_main_v181 (F := F) x0

theorem MovY_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_arg0)) = x0 :=
  (after_of_writes_sub opsMovY V opsMovY_writes (by decide)).trans h.main_arg0

theorem MovY_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_arg1)) = x1 :=
  (after_of_writes_sub opsMovY V opsMovY_writes (by decide)).trans h.main_arg1

theorem MovY_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_arg2)) = x2 :=
  (after_of_writes_sub opsMovY V opsMovY_writes (by decide)).trans h.main_arg2

theorem MovY_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_arg3)) = x3 :=
  (after_of_writes_sub opsMovY V opsMovY_writes (by decide)).trans h.main_arg3

theorem MovY_main_v123 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v123)) = Read.val_main_v123 (F := F) x0 x1 x2 x3 :=
  (after_of_writes_sub opsMovY V opsMovY_writes (by decide)).trans h.main_v123

theorem MovY_main_v127 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v127)) = Read.val_main_v127 (F := F) x0 :=
  (after_of_writes_sub opsMovY V opsMovY_writes (by decide)).trans h.main_v127

theorem MovY_main_v129 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v129)) = Read.val_main_v129 (F := F) x0 x2 :=
  (after_of_writes_sub opsMovY V opsMovY_writes (by decide)).trans h.main_v129

theorem MovY_main_v145 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v145)) = Read.val_main_v145 (F := F) x0 :=
  (after_of_writes_sub opsMovY V opsMovY_writes (by decide)).trans h.main_v145

theorem MovY_main_v162 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v162)) = Read.val_main_v162 (F := F) x0 x1 :=
  (after_of_writes_sub opsMovY V opsMovY_writes (by decide)).trans h.main_v162

set_option maxRecDepth 8192 in
set_option maxHeartbeats 4000000 in
theorem MovY_main_v177 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v177)) = Read.val_main_v177 (F := F) x0 := by
  simp only [opsMovY]
  after_results_simp
  simp only [h.main_v127] <;> rfl

set_option maxRecDepth 8192 in
set_option maxHeartbeats 4000000 in
theorem MovY_main_v178 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v178)) = Read.val_main_v178 (F := F) x0 := by
  simp only [opsMovY]
  after_results_simp
  simp only [h.main_v127] <;> rfl

set_option maxRecDepth 8192 in
set_option maxHeartbeats 4000000 in
theorem MovY_main_v181 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) :
    after opsMovY V (no_index (Proc.devRef .tc main_v181)) = Read.val_main_v181 (F := F) x0 := by
  simp only [opsMovY]
  after_results_simp
  simp only [h.main_v127] <;> rfl

/-- From contents that hold what is read, these operations leave contents that hold what is needed afterwards. -/
theorem stepMovY {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovY V x0 x1 x2 x3) : OutMovY (after opsMovY V) x0 x1 x2 x3 :=
  ⟨MovY_main_arg0 h, MovY_main_arg1 h, MovY_main_arg2 h, MovY_main_arg3 h, MovY_main_v123 h, MovY_main_v127 h, MovY_main_v129 h, MovY_main_v145 h, MovY_main_v162 h, MovY_main_v177 h, MovY_main_v178 h, MovY_main_v181 h⟩

end Cert.ReferenceIdeal.Hand

end
-- ==== Proof.RefRun09.lean ====
/- The reference's run, part 9 of 10: the movable nodes' y overlap lengths and the flat index of the gather (operations 292 … 327). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The movable nodes' y overlap lengths and the flat index of the gather (operations 292 … 327), in order (a called function's operations stand in its call's place). -/
abbrev opsMovOvY : List (HloOp τ sig (Elt F)) :=
  [ nullary main_cst_56 (constant S_ .f32 0x00000000#32),
    unary main_cst_56 main_v182 (broadcastInDim S900000x5 ![] bcast_S_S900000x5 : (⟨S_, .f32⟩ : BufTy).Contents (Elt F) → (⟨S900000x5, .f32⟩ : BufTy).Contents (Elt F)),
    binary main_v182 main_v181 main_v183 (addf : (⟨S900000x5, .f32⟩ : BufTy).Contents (Elt F) → (⟨S900000x5, .f32⟩ : BufTy).Contents (Elt F) → (⟨S900000x5, .f32⟩ : BufTy).Contents (Elt F)),
    unary main_v129 main_v184 (broadcastInDim S900000x1 ![0] bcast_S900000_S900000x1_0 : (⟨S900000, .f32⟩ : BufTy).Contents (Elt F) → (⟨S900000x1, .f32⟩ : BufTy).Contents (Elt F)),
    nullary main_cst_57 (constant S_ .f32 0x3FFA0000#32),
    unary main_cst_57 main_v185 (broadcastInDim S900000x5 ![] bcast_S_S900000x5 : (⟨S_, .f32⟩ : BufTy).Contents (Elt F) → (⟨S900000x5, .f32⟩ : BufTy).Contents (Elt F)),
    binary main_v183 main_v185 main_v186 (addf : (⟨S900000x5, .f32⟩ : BufTy).Contents (Elt F) → (⟨S900000x5, .f32⟩ : BufTy).Contents (Elt F) → (⟨S900000x5, .f32⟩ : BufTy).Contents (Elt F)),
    unary main_v184 main_v187 (broadcastInDim S900000x5 ![0, 1] bcast_S900000x1_S900000x5_0_1 : (⟨S900000x1, .f32⟩ : BufTy).Contents (Elt F) → (⟨S900000x5, .f32⟩ : BufTy).Contents (Elt F)),
    binary main_v187 main_v186 main_v188 (minimumf : (⟨S900000x5, .f32⟩ : BufTy).Contents (Elt F) → (⟨S900000x5, .f32⟩ : BufTy).Contents (Elt F) → (⟨S900000x5, .f32⟩ : BufTy).Contents (Elt F)),
    unary main_v127 main_v189 (broadcastInDim S900000x1 ![0] bcast_S900000_S900000x1_0 : (⟨S900000, .f32⟩ : BufTy).Contents (Elt F) → (⟨S900000x1, .f32⟩ : BufTy).Contents (Elt F)),
    unary main_v189 main_v190 (broadcastInDim S900000x5 ![0, 1] bcast_S900000x1_S900000x5_0_1 : (⟨S900000x1, .f32⟩ : BufTy).Contents (Elt F) → (⟨S900000x5, .f32⟩ : BufTy).Contents (Elt F)),
    binary main_v190 main_v183 main_v191 (maximumf : (⟨S900000x5, .f32⟩ : BufTy).Contents (Elt F) → (⟨S900000x5, .f32⟩ : BufTy).Contents (Elt F) → (⟨S900000x5, .f32⟩ : BufTy).Contents (Elt F)),
    binary main_v188 main_v191 main_v192 (subf : (⟨S900000x5, .f32⟩ : BufTy).Contents (Elt F) → (⟨S900000x5, .f32⟩ : BufTy).Contents (Elt F) → (⟨S900000x5, .f32⟩ : BufTy).Contents (Elt F)),
    nullary main_cst_58 (constant S_ .f32 0x00000000#32),
    unary main_cst_58 main_v193 (broadcastInDim S900000x5 ![] bcast_S_S900000x5 : (⟨S_, .f32⟩ : BufTy).Contents (Elt F) → (⟨S900000x5, .f32⟩ : BufTy).Contents (Elt F)),
    binary main_v192 main_v193 main_v194 (maximumf : (⟨S900000x5, .f32⟩ : BufTy).Contents (Elt F) → (⟨S900000x5, .f32⟩ : BufTy).Contents (Elt F) → (⟨S900000x5, .f32⟩ : BufTy).Contents (Elt F)),
    nullary main_cst_59 (constant S_ .f32 0x00000000#32),
    TRef.unary (TRef.of (T := ⟨S_, .f32⟩) main_cst_59) (TRef.of (T := ⟨S_, .f32⟩) main_call12_v0) id,
    TRef.unary (TRef.of (T := ⟨S_, .f32⟩) main_call12_v0) (TRef.of (T := ⟨S900000x5, .f32⟩) main_call12_v1) (broadcastInDim S900000x5 ![] bcast_S_S900000x5),
    TRef.ternary (TRef.of (T := ⟨S900000x5, .i1⟩) main_v177) (TRef.of (T := ⟨S900000x5, .f32⟩) main_v194) (TRef.of (T := ⟨S900000x5, .f32⟩) main_call12_v1) (TRef.of (T := ⟨S900000x5, .f32⟩) main_v195) select,
    unary main_v145 main_v196 (broadcastInDim S900000x5x1 ![0, 1] bcast_S900000x5_S900000x5x1_0_1 : (⟨S900000x5, .i32⟩ : BufTy).Contents (Elt F) → (⟨S900000x5x1, .i32⟩ : BufTy).Contents (Elt F)),
    nullary main_c_60 (constantI S_ 32 512#32),
    unary main_c_60 main_v197 (broadcastInDim S900000x5x1 ![] bcast_S_S900000x5x1 : (⟨S_, .i32⟩ : BufTy).Contents (Elt F) → (⟨S900000x5x1, .i32⟩ : BufTy).Contents (Elt F)),
    binary main_v196 main_v197 main_v198 (muli : (⟨S900000x5x1, .i32⟩ : BufTy).Contents (Elt F) → (⟨S900000x5x1, .i32⟩ : BufTy).Contents (Elt F) → (⟨S900000x5x1, .i32⟩ : BufTy).Contents (Elt F)),
    unary main_v178 main_v199 (broadcastInDim S900000x1x5 ![0, 2] bcast_S900000x5_S900000x1x5_0_2 : (⟨S900000x5, .i32⟩ : BufTy).Contents (Elt F) → (⟨S900000x1x5, .i32⟩ : BufTy).Contents (Elt F)),
    unary main_v198 main_v200 (broadcastInDim S900000x5x5 ![0, 1, 2] bcast_S900000x5x1_S900000x5x5_0_1_2 : (⟨S900000x5x1, .i32⟩ : BufTy).Contents (Elt F) → (⟨S900000x5x5, .i32⟩ : BufTy).Contents (Elt F)),
    unary main_v199 main_v201 (broadcastInDim S900000x5x5 ![0, 1, 2] bcast_S900000x1x5_S900000x5x5_0_1_2 : (⟨S900000x1x5, .i32⟩ : BufTy).Contents (Elt F) → (⟨S900000x5x5, .i32⟩ : BufTy).Contents (Elt F)),
    binary main_v200 main_v201 main_v202 (addi : (⟨S900000x5x5, .i32⟩ : BufTy).Contents (Elt F) → (⟨S900000x5x5, .i32⟩ : BufTy).Contents (Elt F) → (⟨S900000x5x5, .i32⟩ : BufTy).Contents (Elt F)),
    nullary main_c_61 (constantI S_ 32 0#32),
    unary main_c_61 main_v203 (broadcastInDim S900000x5x5 ![] bcast_S_S900000x5x5 : (⟨S_, .i32⟩ : BufTy).Contents (Elt F) → (⟨S900000x5x5, .i32⟩ : BufTy).Contents (Elt F)),
    binary main_v202 main_v203 main_v204 (cmpi .slt : (⟨S900000x5x5, .i32⟩ : BufTy).Contents (Elt F) → (⟨S900000x5x5, .i32⟩ : BufTy).Contents (Elt F) → (⟨S900000x5x5, .i1⟩ : BufTy).Contents (Elt F)),
    nullary main_c_62 (constantI S_ 32 262144#32),
    unary main_c_62 main_v205 (broadcastInDim S900000x5x5 ![] bcast_S_S900000x5x5 : (⟨S_, .i32⟩ : BufTy).Contents (Elt F) → (⟨S900000x5x5, .i32⟩ : BufTy).Contents (Elt F)),
    binary main_v202 main_v205 main_v206 (addi : (⟨S900000x5x5, .i32⟩ : BufTy).Contents (Elt F) → (⟨S900000x5x5, .i32⟩ : BufTy).Contents (Elt F) → (⟨S900000x5x5, .i32⟩ : BufTy).Contents (Elt F)),
    ternary main_v204 main_v206 main_v202 main_v207 (select : (⟨S900000x5x5, .i1⟩ : BufTy).Contents (Elt F) → (⟨S900000x5x5, .i32⟩ : BufTy).Contents (Elt F) → (⟨S900000x5x5, .i32⟩ : BufTy).Contents (Elt F) → (⟨S900000x5x5, .i32⟩ : BufTy).Contents (Elt F)),
    unary main_v207 main_v208 (broadcastInDim S900000x5x5x1 ![0, 1, 2] bcast_S900000x5x5_S900000x5x5x1_0_1_2 : (⟨S900000x5x5, .i32⟩ : BufTy).Contents (Elt F) → (⟨S900000x5x5x1, .i32⟩ : BufTy).Contents (Elt F)) ]

set_option maxRecDepth 8192 in
theorem opsMovOvY_sub : (opsMovOvY : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
set_option maxHeartbeats 4000000 in
/-- Every one of these operations determines its results. -/
theorem opsMovOvY_fresh : ∀ op ∈ (opsMovOvY : List (HloOp τ sig (Elt F))), op.fresh = ∅ := by
  intro _ h; (repeat (cases h with | head => rfl | tail _ h => ?_)); exact nomatch h

/-- The buffers these operations write. -/
abbrev opsMovOvY_W : List (Ref sig .tc) := [main_cst_56, main_v182, main_v183, main_v184, main_cst_57, main_v185, main_v186, main_v187, main_v188, main_v189, main_v190, main_v191, main_v192, main_cst_58, main_v193, main_v194, main_cst_59, main_call12_v0, main_call12_v1, main_v195, main_v196, main_c_60, main_v197, main_v198, main_v199, main_v200, main_v201, main_v202, main_c_61, main_v203, main_v204, main_c_62, main_v205, main_v206, main_v207, main_v208]
set_option maxRecDepth 8192 in
set_option maxHeartbeats 4000000 in
theorem opsMovOvY_writes : (opsMovOvY : List (HloOp τ sig (Elt F))).Forall fun op => op.writes ⊆ (opsMovOvY_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InMovOvY (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v127 : V (no_index (Proc.devRef .tc main_v127)) = Read.val_main_v127 (F := F) x0
  main_v129 : V (no_index (Proc.devRef .tc main_v129)) = Read.val_main_v129 (F := F) x0 x2
  main_v145 : V (no_index (Proc.devRef .tc main_v145)) = Read.val_main_v145 (F := F) x0
  main_v162 : V (no_index (Proc.devRef .tc main_v162)) = Read.val_main_v162 (F := F) x0 x1
  main_v177 : V (no_index (Proc.devRef .tc main_v177)) = Read.val_main_v177 (F := F) x0
  main_v178 : V (no_index (Proc.devRef .tc main_v178)) = Read.val_main_v178 (F := F) x0
  main_v181 : V (no_index (Proc.devRef .tc main_v181)) = Read.val_main_v181 (F := F) x0

/-- What is needed afterwards: the arguments and the stages still to be read. -/
structure OutMovOvY (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v162 : V (no_index (Proc.devRef .tc main_v162)) = Read.val_main_v162 (F := F) x0 x1
  main_v195 : V (no_index (Proc.devRef .tc main_v195)) = Read.val_main_v195 (F := F) x0 x2
  main_v208 : V (no_index (Proc.devRef .tc main_v208)) = Read.val_main_v208 (F := F) x0

theorem MovOvY_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_arg0)) = x0 :=
  (after_of_writes_sub opsMovOvY V opsMovOvY_writes (by decide)).trans h.main_arg0

theorem MovOvY_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_arg1)) = x1 :=
  (after_of_writes_sub opsMovOvY V opsMovOvY_writes (by decide)).trans h.main_arg1

theorem MovOvY_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_arg2)) = x2 :=
  (after_of_writes_sub opsMovOvY V opsMovOvY_writes (by decide)).trans h.main_arg2

theorem MovOvY_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_arg3)) = x3 :=
  (after_of_writes_sub opsMovOvY V opsMovOvY_writes (by decide)).trans h.main_arg3

theorem MovOvY_main_v123 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_v123)) = Read.val_main_v123 (F := F) x0 x1 x2 x3 :=
  (after_of_writes_sub opsMovOvY V opsMovOvY_writes (by decide)).trans h.main_v123

theorem MovOvY_main_v162 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_v162)) = Read.val_main_v162 (F := F) x0 x1 :=
  (after_of_writes_sub opsMovOvY V opsMovOvY_writes (by decide)).trans h.main_v162

set_option maxRecDepth 8192 in
set_option maxHeartbeats 4000000 in
theorem MovOvY_main_v195 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_v195)) = Read.val_main_v195 (F := F) x0 x2 := by
  simp only [opsMovOvY]
  after_results_simp
  simp only [h.main_v181, h.main_v127, h.main_v129, h.main_v177] <;> rfl

set_option maxRecDepth 8192 in
set_option maxHeartbeats 4000000 in
theorem MovOvY_main_v208 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) :
    after opsMovOvY V (no_index (Proc.devRef .tc main_v208)) = Read.val_main_v208 (F := F) x0 := by
  simp only [opsMovOvY]
  after_results_simp
  simp only [h.main_v178, h.main_v145] <;> rfl

/-- From contents that hold what is read, these operations leave contents that hold what is needed afterwards. -/
theorem stepMovOvY {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InMovOvY V x0 x1 x2 x3) : OutMovOvY (after opsMovOvY V) x0 x1 x2 x3 :=
  ⟨MovOvY_main_arg0 h, MovOvY_main_arg1 h, MovOvY_main_arg2 h, MovOvY_main_arg3 h, MovOvY_main_v123 h, MovOvY_main_v162 h, MovOvY_main_v195 h, MovOvY_main_v208 h⟩

end Cert.ReferenceIdeal.Hand

end
-- ==== Proof.RefRun10.lean ====
/- The reference's run, part 10 of 10: the gather, the products and the sum over the two bin axes (operations 328 … 336). From buffer contents V that hold the earlier stages
   (as functions of the four arguments x0 … x3) the contents after these operations hold the later stages. -/
import proofs.«155432_j42700564857383_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The gather, the products and the sum over the two bin axes (operations 328 … 336), in order (a called function's operations stand in its call's place). -/
abbrev opsOut : List (HloOp τ sig (Elt F)) :=
  [ binary main_v123 main_v208 main_v209 ((fun x i => Host.gather gather_S262144_S900000x5x5x1_S900000x5x5_n_0_n_n_0_3_1 x i) : (⟨S262144, .f32⟩ : BufTy).Contents (Elt F) → (⟨S900000x5x5x1, .i32⟩ : BufTy).Contents (Elt F) → (⟨S900000x5x5, .f32⟩ : BufTy).Contents (Elt F)),
    unary main_v162 main_v210 (broadcastInDim S900000x5x1 ![0, 1] bcast_S900000x5_S900000x5x1_0_1 : (⟨S900000x5, .f32⟩ : BufTy).Contents (Elt F) → (⟨S900000x5x1, .f32⟩ : BufTy).Contents (Elt F)),
    unary main_v195 main_v211 (broadcastInDim S900000x1x5 ![0, 2] bcast_S900000x5_S900000x1x5_0_2 : (⟨S900000x5, .f32⟩ : BufTy).Contents (Elt F) → (⟨S900000x1x5, .f32⟩ : BufTy).Contents (Elt F)),
    unary main_v210 main_v212 (broadcastInDim S900000x5x5 ![0, 1, 2] bcast_S900000x5x1_S900000x5x5_0_1_2 : (⟨S900000x5x1, .f32⟩ : BufTy).Contents (Elt F) → (⟨S900000x5x5, .f32⟩ : BufTy).Contents (Elt F)),
    unary main_v211 main_v213 (broadcastInDim S900000x5x5 ![0, 1, 2] bcast_S900000x1x5_S900000x5x5_0_1_2 : (⟨S900000x1x5, .f32⟩ : BufTy).Contents (Elt F) → (⟨S900000x5x5, .f32⟩ : BufTy).Contents (Elt F)),
    binary main_v212 main_v213 main_v214 (mulf : (⟨S900000x5x5, .f32⟩ : BufTy).Contents (Elt F) → (⟨S900000x5x5, .f32⟩ : BufTy).Contents (Elt F) → (⟨S900000x5x5, .f32⟩ : BufTy).Contents (Elt F)),
    binary main_v214 main_v209 main_v215 (mulf : (⟨S900000x5x5, .f32⟩ : BufTy).Contents (Elt F) → (⟨S900000x5x5, .f32⟩ : BufTy).Contents (Elt F) → (⟨S900000x5x5, .f32⟩ : BufTy).Contents (Elt F)),
    nullary main_cst_63 (constant S_ .f32 0x00000000#32),
    binary main_v215 main_cst_63 main_v216 ((fun x v => Host.reduceAdd x v reducesTo_S900000x5x5_S900000_d1_2 h_S_) : (⟨S900000x5x5, .f32⟩ : BufTy).Contents (Elt F) → (⟨S_, .f32⟩ : BufTy).Contents (Elt F) → (⟨S900000, .f32⟩ : BufTy).Contents (Elt F)) ]

set_option maxRecDepth 8192 in
theorem opsOut_sub : (opsOut : List (HloOp τ sig (Elt F))).Forall fun op => op.bufs ⊆ tcRefs τ sig :=
  ⟨binary_bufs_sub .., unary_bufs_sub .., unary_bufs_sub .., unary_bufs_sub .., unary_bufs_sub .., binary_bufs_sub .., binary_bufs_sub .., nullary_bufs_sub .., binary_bufs_sub ..⟩

set_option maxRecDepth 8192 in
set_option maxHeartbeats 4000000 in
/-- Every one of these operations determines its results. -/
theorem opsOut_fresh : ∀ op ∈ (opsOut : List (HloOp τ sig (Elt F))), op.fresh = ∅ := by
  intro _ h; (repeat (cases h with | head => rfl | tail _ h => ?_)); exact nomatch h

/-- The buffers these operations write. -/
abbrev opsOut_W : List (Ref sig .tc) := [main_v209, main_v210, main_v211, main_v212, main_v213, main_v214, main_v215, main_cst_63, main_v216]
set_option maxRecDepth 8192 in
set_option maxHeartbeats 4000000 in
theorem opsOut_writes : (opsOut : List (HloOp τ sig (Elt F))).Forall fun op => op.writes ⊆ (opsOut_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- What these operations read of what came before: the arguments and the earlier stages still needed. -/
structure InOut (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v123 : V (no_index (Proc.devRef .tc main_v123)) = Read.val_main_v123 (F := F) x0 x1 x2 x3
  main_v162 : V (no_index (Proc.devRef .tc main_v162)) = Read.val_main_v162 (F := F) x0 x1
  main_v195 : V (no_index (Proc.devRef .tc main_v195)) = Read.val_main_v195 (F := F) x0 x2
  main_v208 : V (no_index (Proc.devRef .tc main_v208)) = Read.val_main_v208 (F := F) x0

/-- What is needed afterwards: the arguments and the stages still to be read. -/
structure OutOut (V : Valuation τ sig (Elt F)) (x0 : (⟨S2400000, .f32⟩ : BufTy).Contents (Elt F)) (x1 x2 : (⟨S1200000, .f32⟩ : BufTy).Contents (Elt F)) (x3 : (⟨S1000001, .i32⟩ : BufTy).Contents (Elt F)) : Prop where
  main_arg0 : V (no_index (Proc.devRef .tc main_arg0)) = x0
  main_arg1 : V (no_index (Proc.devRef .tc main_arg1)) = x1
  main_arg2 : V (no_index (Proc.devRef .tc main_arg2)) = x2
  main_arg3 : V (no_index (Proc.devRef .tc main_arg3)) = x3
  main_v216 : V (no_index (Proc.devRef .tc main_v216)) = Read.val_main_v216 (F := F) x0 x1 x2 x3

theorem Out_main_arg0 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOut V x0 x1 x2 x3) :
    after opsOut V (no_index (Proc.devRef .tc main_arg0)) = x0 :=
  (after_of_writes_sub opsOut V opsOut_writes (by decide)).trans h.main_arg0

theorem Out_main_arg1 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOut V x0 x1 x2 x3) :
    after opsOut V (no_index (Proc.devRef .tc main_arg1)) = x1 :=
  (after_of_writes_sub opsOut V opsOut_writes (by decide)).trans h.main_arg1

theorem Out_main_arg2 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOut V x0 x1 x2 x3) :
    after opsOut V (no_index (Proc.devRef .tc main_arg2)) = x2 :=
  (after_of_writes_sub opsOut V opsOut_writes (by decide)).trans h.main_arg2

theorem Out_main_arg3 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOut V x0 x1 x2 x3) :
    after opsOut V (no_index (Proc.devRef .tc main_arg3)) = x3 :=
  (after_of_writes_sub opsOut V opsOut_writes (by decide)).trans h.main_arg3

set_option maxRecDepth 8192 in
set_option maxHeartbeats 1800000 in
theorem Out_main_v216 {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOut V x0 x1 x2 x3) :
    after opsOut V (no_index (Proc.devRef .tc main_v216)) = Read.val_main_v216 (F := F) x0 x1 x2 x3 := by
  simp only [opsOut]
  after_results_simp
  simp only [h.main_v208, h.main_v123, h.main_v195, h.main_v162] <;> rfl

/-- From contents that hold what is read, these operations leave contents that hold what is needed afterwards. -/
theorem stepOut {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InOut V x0 x1 x2 x3) : OutOut (after opsOut V) x0 x1 x2 x3 :=
  ⟨Out_main_arg0 h, Out_main_arg1 h, Out_main_arg2 h, Out_main_arg3 h, Out_main_v216 h⟩

end Cert.ReferenceIdeal.Hand

end
-- ==== Proof.RefRun.lean ====
/- The reference's run: every weakly fair execution of the reference's @main terminates with the result buffer at the last stage,
   the sum over the two bin axes, as a function of the four arguments' launch contents, and with the arguments unchanged.
   The 336 host operations are cut into ten parts; each part's module reads the stages it writes off the stages before it,
   and here the parts are run one after the other. -/
import proofs.«155432_j42700564857383_1_alg».proof.Proof.RefRun01
import proofs.«155432_j42700564857383_1_alg».proof.Proof.RefRun02
import proofs.«155432_j42700564857383_1_alg».proof.Proof.RefRun03
import proofs.«155432_j42700564857383_1_alg».proof.Proof.RefRun04
import proofs.«155432_j42700564857383_1_alg».proof.Proof.RefRun05
import proofs.«155432_j42700564857383_1_alg».proof.Proof.RefRun06
import proofs.«155432_j42700564857383_1_alg».proof.Proof.RefRun07
import proofs.«155432_j42700564857383_1_alg».proof.Proof.RefRun08
import proofs.«155432_j42700564857383_1_alg».proof.Proof.RefRun09
import proofs.«155432_j42700564857383_1_alg».proof.Proof.RefRun10
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of the two in a row. -/
theorem forall_append_of {α : Type} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

theorem forall_mem_append_of {α : Type} {p : α → Prop} {l₁ l₂ : List α} (h₁ : ∀ a ∈ l₁, p a) (h₂ : ∀ a ∈ l₂, p a) : ∀ a ∈ l₁ ++ l₂, p a :=
  fun a ha => (List.mem_append.mp ha).elim (h₁ a) (h₂ a)

/-- The operations of @main's window 0: parts 1 and 2. -/
def opsWin0 : List (HloOp τ sig (Elt F)) := opsGeom ++ opsBinX
theorem opsWin0_eq : (opsWin0 : List (HloOp τ sig (Elt F))) = opsGeom ++ opsBinX := rfl
set_option maxRecDepth 8192 in
set_option maxHeartbeats 4000000 in
theorem main_part0_eq (c : Dev nD) : main_part0 (F := F) c = seq opsWin0 := rfl

/-- The operations of @main's window 1: parts 3 and 4. -/
def opsWin1 : List (HloOp τ sig (Elt F)) := opsOvX ++ opsBinY
theorem opsWin1_eq : (opsWin1 : List (HloOp τ sig (Elt F))) = opsOvX ++ opsBinY := rfl
set_option maxRecDepth 8192 in
set_option maxHeartbeats 4000000 in
theorem main_part1_eq (c : Dev nD) : main_part1 (F := F) c = seq opsWin1 := rfl

/-- The operations of @main's window 2: parts 5 and 6. -/
def opsWin2 : List (HloOp τ sig (Elt F)) := opsPinIdx ++ opsPinUtil
theorem opsWin2_eq : (opsWin2 : List (HloOp τ sig (Elt F))) = opsPinIdx ++ opsPinUtil := rfl
set_option maxRecDepth 8192 in
set_option maxHeartbeats 4000000 in
theorem main_part2_eq (c : Dev nD) : main_part2 (F := F) c = seq opsWin2 := rfl

/-- The operations of @main's window 3: parts 7 and 8. -/
def opsWin3 : List (HloOp τ sig (Elt F)) := opsMovX ++ opsMovY
theorem opsWin3_eq : (opsWin3 : List (HloOp τ sig (Elt F))) = opsMovX ++ opsMovY := rfl
set_option maxRecDepth 8192 in
set_option maxHeartbeats 4000000 in
theorem main_part3_eq (c : Dev nD) : main_part3 (F := F) c = seq opsWin3 := rfl

/-- The operations of @main's window 4: parts 9 and 10. -/
def opsWin4 : List (HloOp τ sig (Elt F)) := opsMovOvY ++ opsOut
theorem opsWin4_eq : (opsWin4 : List (HloOp τ sig (Elt F))) = opsMovOvY ++ opsOut := rfl
set_option maxRecDepth 8192 in
set_option maxHeartbeats 4000000 in
theorem main_part4_eq (c : Dev nD) : main_part4 (F := F) c = seq opsWin4 := rfl

/-- @main's 336 operations, in order. -/
abbrev ops : List (HloOp τ sig (Elt F)) := opsWin0 ++ (opsWin1 ++ (opsWin2 ++ (opsWin3 ++ opsWin4)))

set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append_of (forall_append_of opsGeom_sub opsBinX_sub)
    (forall_append_of (forall_append_of opsOvX_sub opsBinY_sub)
      (forall_append_of (forall_append_of opsPinIdx_sub opsPinUtil_sub)
        (forall_append_of (forall_append_of opsMovX_sub opsMovY_sub) (forall_append_of opsMovOvY_sub opsOut_sub))))

/-- Every operation of @main determines its results. -/
theorem ops_fresh : ∀ op ∈ (ops : List (HloOp τ sig (Elt F))), op.fresh = ∅ :=
  forall_mem_append_of (forall_mem_append_of opsGeom_fresh opsBinX_fresh)
    (forall_mem_append_of (forall_mem_append_of opsOvX_fresh opsBinY_fresh)
      (forall_mem_append_of (forall_mem_append_of opsPinIdx_fresh opsPinUtil_fresh)
        (forall_mem_append_of (forall_mem_append_of opsMovX_fresh opsMovY_fresh) (forall_mem_append_of opsMovOvY_fresh opsOut_fresh))))

/-- The contents after all of @main's operations: the ten parts one after the other. -/
theorem after_ops (V : Valuation τ sig (Elt F)) :
    after ops V = after opsOut (after opsMovOvY (after opsMovY (after opsMovX (after opsPinUtil (after opsPinIdx (after opsBinY (after opsOvX (after opsBinX (after opsGeom (V)))))))))) := by
  simp only [ops, opsWin0_eq, opsWin1_eq, opsWin2_eq, opsWin3_eq, opsWin4_eq, after_append]

/-! What one part leaves is what the next reads. -/
theorem toBinX {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutGeom V x0 x1 x2 x3) : InBinX V x0 x1 x2 x3 :=
  ⟨h.main_arg0, h.main_arg1, h.main_arg2, h.main_arg3, h.main_v5, h.main_v9, h.main_v13, h.main_v17, h.main_v25⟩
theorem toOvX {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutBinX V x0 x1 x2 x3) : InOvX V x0 x1 x2 x3 :=
  ⟨h.main_arg0, h.main_arg1, h.main_arg2, h.main_arg3, h.main_v9, h.main_v17, h.main_v25, h.main_v26, h.main_v27, h.main_v42, h.main_v43, h.main_v44, h.main_cst_12⟩
theorem toBinY {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutOvX V x0 x1 x2 x3) : InBinY V x0 x1 x2 x3 :=
  ⟨h.main_arg0, h.main_arg1, h.main_arg2, h.main_arg3, h.main_v9, h.main_v17, h.main_v25, h.main_v43, h.main_v60⟩
theorem toPinIdx {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutBinY V x0 x1 x2 x3) : InPinIdx V x0 x1 x2 x3 :=
  ⟨h.main_arg0, h.main_arg1, h.main_arg2, h.main_arg3, h.main_v25, h.main_v43, h.main_v60, h.main_v77, h.main_v78, h.main_v83, h.main_v88, h.main_v90⟩
theorem toPinUtil {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutPinIdx V x0 x1 x2 x3) : InPinUtil V x0 x1 x2 x3 :=
  ⟨h.main_arg0, h.main_arg1, h.main_arg2, h.main_arg3, h.main_v112, h.main_v113, h.main_v119⟩
theorem toMovX {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutPinUtil V x0 x1 x2 x3) : InMovX V x0 x1 x2 x3 :=
  ⟨h.main_arg0, h.main_arg1, h.main_arg2, h.main_arg3, h.main_v123, h.main_v124, h.main_v126, h.main_v127, h.main_v129, h.main_v137⟩
theorem toMovY {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutMovX V x0 x1 x2 x3) : InMovY V x0 x1 x2 x3 :=
  ⟨h.main_arg0, h.main_arg1, h.main_arg2, h.main_arg3, h.main_v123, h.main_v127, h.main_v129, h.main_v145, h.main_v162⟩
theorem toMovOvY {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutMovY V x0 x1 x2 x3) : InMovOvY V x0 x1 x2 x3 :=
  ⟨h.main_arg0, h.main_arg1, h.main_arg2, h.main_arg3, h.main_v123, h.main_v127, h.main_v129, h.main_v145, h.main_v162, h.main_v177, h.main_v178, h.main_v181⟩
theorem toOut {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : OutMovOvY V x0 x1 x2 x3) : InOut V x0 x1 x2 x3 :=
  ⟨h.main_arg0, h.main_arg1, h.main_arg2, h.main_arg3, h.main_v123, h.main_v162, h.main_v195, h.main_v208⟩

/-- From contents holding the four arguments, all of @main's operations leave the result buffer at the last stage and the arguments as they were. -/
theorem stages {V : Valuation τ sig (Elt F)} {x0 : (⟨S2400000, .f32⟩ : BufTy).Contents (Elt F)} {x1 x2 : (⟨S1200000, .f32⟩ : BufTy).Contents (Elt F)} {x3 : (⟨S1000001, .i32⟩ : BufTy).Contents (Elt F)} (h : InGeom V x0 x1 x2 x3) : OutOut (after ops V) x0 x1 x2 x3 := by
  rw [after_ops]
  exact stepOut (toOut (stepMovOvY (toMovOvY (stepMovY (toMovY (stepMovX (toMovX (stepPinUtil (toPinUtil (stepPinIdx (toPinIdx (stepBinY (toBinY (stepOvX (toOvX (stepBinX (toBinX (stepGeom h))))))))))))))))))

set_option maxRecDepth 8192 in
/-- On every device, for any float values, from any memory with zero counters: every weakly fair execution of the reference's
    @main terminates with the result buffer at the last stage (the sum over the two bin axes) of the arguments' launch contents,
    and with the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v216) = Read.val_main_v216 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      have H := stages (F := F) (V := launchContents m c) (x0 := m ((c.tc : Thread nD τ).loc main_arg0)) (x1 := m ((c.tc : Thread nD τ).loc main_arg1)) (x2 := m ((c.tc : Thread nD τ).loc main_arg2)) (x3 := m ((c.tc : Thread nD τ).loc main_arg3)) ⟨rfl, rfl, rfl, rfl⟩
      exact ⟨(h c main_v216).trans H.main_v216, (h c main_arg0).trans H.main_arg0, (h c main_arg1).trans H.main_arg1,
        (h c main_arg2).trans H.main_arg2, (h c main_arg3).trans H.main_arg3⟩)
    (run_seq scopedRefs_eq scopedSems_eq defs main (fun _ => ops) main_eq (fun _ => ops_sub) m ρ (fun _ => ops_fresh))

end Cert.ReferenceIdeal.Hand

end
-- ==== Proof.KIHost.lean ====
/-
  What the kernel program's host operations leave in the buffers its two regions read, and the program's result.

  Before each region the kernel program computes the node data on the host by the very operations the reference
  applies to the same four arguments: for the 1,000,000 physical nodes five x-bin indices with their overlap
  lengths, the same for y, and a pin density; for the 900,000 movable nodes the bins and overlap lengths again.
  Each is then padded below with rows of zeros up to a whole number of tiles of 512 rows. So a buffer a region
  reads holds, in a row that belongs to a node, the reference's stage of the same arguments, and zero in a
  padding row. The map region 1 reads is region 0's output narrowed to bf16, and the program's result is
  region 1's output column cut back to the 900,000 nodes.
-/
import proofs.«155432_j42700564857383_1_alg».proof.Proof.KernelIdealRegions
import proofs.«155432_j42700564857383_1_alg».proof.Proof.RefRead
import Idealize.ShloMosaic.Lib.KernelVsHost

-- memberships decided over the program's 331 references recurse past the default depth
set_option maxRecDepth 1836

noncomputable section

namespace Cert.KernelIdeal.Hand

open Idealize.ShloMosaic Idealize.ShloMosaic.TcCoe Idealize.ShloMosaic.ValueIdx
open Cert.KernelIdeal Cert.KernelIdeal.Gen
open Cert.ReferenceIdeal.Read

variable {F : FTy → Type} [FloatOps F] [Named F]
variable (m : (ℓ : Loc nD τ sig) → Buf (Elt F) ℓ) (outs : Outs (F := F)) (c : Dev nD)

/-! ## The arguments as launched -/

/-- The node positions (x then y) on core `c` at launch. -/
abbrev a0 : (⟨S2400000, .f32⟩ : BufTy).Contents (Elt F) := m ((c : Thread nD τ).loc main_arg0)
/-- The node widths on core `c` at launch. -/
abbrev a1 : (⟨S1200000, .f32⟩ : BufTy).Contents (Elt F) := m ((c : Thread nD τ).loc main_arg1)
/-- The node heights on core `c` at launch. -/
abbrev a2 : (⟨S1200000, .f32⟩ : BufTy).Contents (Elt F) := m ((c : Thread nD τ).loc main_arg2)
/-- The pin map's row starts on core `c` at launch. -/
abbrev a3 : (⟨S1000001, .i32⟩ : BufTy).Contents (Elt F) := m ((c : Thread nD τ).loc main_arg3)

/-! ## Rows of a padding value appended below a matrix -/

/-- A matrix with rows of the padding value appended below it: a row of the matrix reads the matrix, a later
    row reads the padding value. -/
theorem pad_rows_apply {α : Type} {n n' w : Nat} (hi : Fin 2 → Nat) (x : (⟨2, ![n, w]⟩ : Shape).Idx → α)
    {u : Shape} (v : u.Idx → α)
    (hp : (⟨2, ![n, w]⟩ : Shape).Pads (![0, 0] : Fin 2 → Nat) hi ![0, 0] ⟨2, ![n', w]⟩) (hu : 0 < u.numel)
    (p : Fin n') (k : Fin w) :
    pad ⟨2, ![n', w]⟩ ![0, 0] hi ![0, 0] x v hp hu (ix2 p k)
      = if h : p.val < n then x (ix2 ⟨p.val, h⟩ k) else v (Shape.Idx.first hu) := by
  by_cases h : p.val < n
  · rw [dif_pos h]
    exact pad_apply_of_inside _ _ _ x v hp hu _ (ix2 ⟨p.val, h⟩ k) (fun a => match a with
      | ⟨0, _⟩ => by show p.val = 0 + p.val * (0 + 1); omega
      | ⟨1, _⟩ => by show k.val = 0 + k.val * (0 + 1); omega)
  · rw [dif_neg h]
    exact pad_apply_of_not_inside _ _ _ x v hp hu _ (0 : Fin 2) (by
      intro hin
      have e : (p.val - 0) / (0 + 1) < n := hin.2.2
      rw [Nat.sub_zero, Nat.div_one] at e
      exact h e)

/-! ## Region 0's five inputs

Each padded buffer as ONE array: the reference's stage of the launch arguments with rows of zeros appended. Both sides
are the same operations applied to the same arguments, read off the host stretches at an arbitrary float type. -/

-- reading one buffer off the two hundred host operations before a region takes more than the default budget of steps
set_option maxHeartbeats 4000000 in
/-- The padded x-bin indices as one array. -/
theorem v96_eq : (V22 m c main_v96 : (⟨S1000448x5, .i32⟩ : BufTy).Contents (Elt F))
    = pad S1000448x5 ![0, 0] ![448, 0] ![0, 0] (val_main_v43 (a0 m c) (a1 m c))
        (constantI S_ 32 0#32 : (⟨S_, .i32⟩ : BufTy).Contents (Elt F)) pads_S1000000x5_S1000448x5_04480_000 h_S_ := by
  after_results_simp
  rfl

set_option maxHeartbeats 4000000 in
/-- The padded x-overlap lengths as one array. -/
theorem v97_eq : (V22 m c main_v97 : (⟨S1000448x5, .f32⟩ : BufTy).Contents (Elt F))
    = pad S1000448x5 ![0, 0] ![448, 0] ![0, 0] (val_main_v60 (a0 m c) (a1 m c))
        (constant S_ .f32 0x00000000#32 : (⟨S_, .f32⟩ : BufTy).Contents (Elt F)) pads_S1000000x5_S1000448x5_04480_000 h_S_ := by
  after_results_simp
  rfl

set_option maxHeartbeats 4000000 in
/-- The padded y-bin indices as one array. -/
theorem v98_eq : (V22 m c main_v98 : (⟨S1000448x5, .i32⟩ : BufTy).Contents (Elt F))
    = pad S1000448x5 ![0, 0] ![448, 0] ![0, 0] (val_main_v78 (a0 m c) (a2 m c))
        (constantI S_ 32 0#32 : (⟨S_, .i32⟩ : BufTy).Contents (Elt F)) pads_S1000000x5_S1000448x5_04480_000 h_S_ := by
  after_results_simp
  rfl

set_option maxHeartbeats 4000000 in
/-- The padded y-overlap lengths as one array. -/
theorem v99_eq : (V22 m c main_v99 : (⟨S1000448x5, .f32⟩ : BufTy).Contents (Elt F))
    = pad S1000448x5 ![0, 0] ![448, 0] ![0, 0] (val_main_v95 (a0 m c) (a2 m c))
        (constant S_ .f32 0x00000000#32 : (⟨S_, .f32⟩ : BufTy).Contents (Elt F)) pads_S1000000x5_S1000448x5_04480_000 h_S_ := by
  after_results_simp
  rfl

set_option maxHeartbeats 4000000 in
/-- The padded pin densities as one array of one column. -/
theorem v101_eq : (V22 m c main_v101 : (⟨S1000448x1, .f32⟩ : BufTy).Contents (Elt F))
    = pad S1000448x1 ![0, 0] ![448, 0] ![0, 0]
        (broadcastInDim S1000000x1 ![0] bcast_S1000000_S1000000x1_0 (val_main_v25 (a1 m c) (a2 m c) (a3 m c)))
        (constant S_ .f32 0x00000000#32 : (⟨S_, .f32⟩ : BufTy).Contents (Elt F)) pads_S1000000x1_S1000448x1_04480_000 h_S_ := by
  after_results_simp
  rfl

/-- The x-bin indices region 0 reads: the reference's, and zero in the padding rows. -/
theorem in0_ix (p : Fin 1000448) (k : Fin 5) :
    (V22 m c main_v96 : (⟨S1000448x5, .i32⟩ : BufTy).Contents (Elt F)) (ix2 p k)
      = if h : p.val < 1000000 then val_main_v43 (a0 m c) (a1 m c) (ix2 ⟨p.val, h⟩ k) else 0#32 := by
  rw [v96_eq]
  exact pad_rows_apply ![448, 0] _ _ pads_S1000000x5_S1000448x5_04480_000 h_S_ p k

/-- The x-overlap lengths region 0 reads. -/
theorem in0_ovx (p : Fin 1000448) (k : Fin 5) :
    (V22 m c main_v97 : (⟨S1000448x5, .f32⟩ : BufTy).Contents (Elt F)) (ix2 p k)
      = if h : p.val < 1000000 then val_main_v60 (a0 m c) (a1 m c) (ix2 ⟨p.val, h⟩ k) else FloatOps.ofBits .f32 0x00000000#32 := by
  rw [v97_eq]
  exact pad_rows_apply ![448, 0] _ _ pads_S1000000x5_S1000448x5_04480_000 h_S_ p k

/-- The y-bin indices region 0 reads. -/
theorem in0_iy (p : Fin 1000448) (k : Fin 5) :
    (V22 m c main_v98 : (⟨S1000448x5, .i32⟩ : BufTy).Contents (Elt F)) (ix2 p k)
      = if h : p.val < 1000000 then val_main_v78 (a0 m c) (a2 m c) (ix2 ⟨p.val, h⟩ k) else 0#32 := by
  rw [v98_eq]
  exact pad_rows_apply ![448, 0] _ _ pads_S1000000x5_S1000448x5_04480_000 h_S_ p k

/-- The y-overlap lengths region 0 reads. -/
theorem in0_ovy (p : Fin 1000448) (k : Fin 5) :
    (V22 m c main_v99 : (⟨S1000448x5, .f32⟩ : BufTy).Contents (Elt F)) (ix2 p k)
      = if h : p.val < 1000000 then val_main_v95 (a0 m c) (a2 m c) (ix2 ⟨p.val, h⟩ k) else FloatOps.ofBits .f32 0x00000000#32 := by
  rw [v99_eq]
  exact pad_rows_apply ![448, 0] _ _ pads_S1000000x5_S1000448x5_04480_000 h_S_ p k

/-- The pin densities region 0 reads, one column: a node's row holds the node's density. -/
theorem in0_d (p : Fin 1000448) :
    (V22 m c main_v101 : (⟨S1000448x1, .f32⟩ : BufTy).Contents (Elt F)) (ix2 p 0)
      = if h : p.val < 1000000 then val_main_v25 (a1 m c) (a2 m c) (a3 m c) (ix1 ⟨p.val, h⟩) else FloatOps.ofBits .f32 0x00000000#32 := by
  rw [v101_eq]
  refine (pad_rows_apply ![448, 0] _ _ pads_S1000000x1_S1000448x1_04480_000 h_S_ p 0).trans ?_
  by_cases h : p.val < 1000000
  · rw [dif_pos h, dif_pos h]
    exact broadcastInDim_apply _ bcast_S1000000_S1000000x1_0 _ (ix2 ⟨p.val, h⟩ 0) (ix1 ⟨p.val, h⟩) (fun a => match a with
      | ⟨0, _⟩ => by show p.val = if (1000000 : Nat) = 1 then 0 else p.val; rw [if_neg (by decide)])
  · rw [dif_neg h, dif_neg h]; rfl

/-! ## The arguments at region 1's host operations -/

/-- No host operation before region 0 writes the positions, and region 0 may change only its own output: they reach
    the host operations after it as launched. -/
theorem V23_arg0 : (V23 m outs c main_arg0 : (⟨S2400000, .f32⟩ : BufTy).Contents (Elt F)) = a0 m c := by
  rw [V23_of m outs c main_arg0 (by decide)]
  after_results_simp <;> rfl

/-- The widths likewise. -/
theorem V23_arg1 : (V23 m outs c main_arg1 : (⟨S1200000, .f32⟩ : BufTy).Contents (Elt F)) = a1 m c := by
  rw [V23_of m outs c main_arg1 (by decide)]
  after_results_simp <;> rfl

/-- The heights likewise. -/
theorem V23_arg2 : (V23 m outs c main_arg2 : (⟨S1200000, .f32⟩ : BufTy).Contents (Elt F)) = a2 m c := by
  rw [V23_of m outs c main_arg2 (by decide)]
  after_results_simp <;> rfl

/-! ## Region 1's five inputs -/

/-- The map region 1 reads is what region 0 left, narrowed to bf16. -/
theorem map_in :
    (V43 m outs c main_v103 : (⟨S512x512, .bf16⟩ : BufTy).Contents (Elt F))
      = truncf .bf16 (outs 23 main_v102 c : (⟨S512x512, .f32⟩ : BufTy).Contents (Elt F)) bitsLt_bf16_f32 := by
  after_results_simp
  simp only [V23, Function.update_self]

/-- At the exact reals narrowing changes nothing: the map region 1 reads is what region 0 left. -/
theorem map_in_ideal (m : (ℓ : Loc nD τ sig) → Buf (Elt Ideal) ℓ) (outs : Outs (F := Ideal)) (c : Dev nD) (i : S512x512.Idx) :
    ((V43 m outs c main_v103 : (⟨S512x512, .bf16⟩ : BufTy).Contents (Elt Ideal)) i : EReal)
      = ((outs 23 main_v102 c : (⟨S512x512, .f32⟩ : BufTy).Contents (Elt Ideal)) i : EReal) := by
  rw [map_in]; rfl

set_option maxHeartbeats 4000000 in
/-- The padded x-bin indices of the movable nodes as one array. -/
theorem v176_eq : (V43 m outs c main_v176 : (⟨S900096x5, .i32⟩ : BufTy).Contents (Elt F))
    = pad S900096x5 ![0, 0] ![96, 0] ![0, 0] (val_main_v145 (a0 m c))
        (constantI S_ 32 0#32 : (⟨S_, .i32⟩ : BufTy).Contents (Elt F)) pads_S900000x5_S900096x5_0960_000 h_S_ := by
  after_results_simp
  rw [V23_arg0]
  rfl

set_option maxHeartbeats 4000000 in
/-- The padded x-overlap lengths of the movable nodes as one array. -/
theorem v177_eq : (V43 m outs c main_v177 : (⟨S900096x5, .f32⟩ : BufTy).Contents (Elt F))
    = pad S900096x5 ![0, 0] ![96, 0] ![0, 0] (val_main_v162 (a0 m c) (a1 m c))
        (constant S_ .f32 0x00000000#32 : (⟨S_, .f32⟩ : BufTy).Contents (Elt F)) pads_S900000x5_S900096x5_0960_000 h_S_ := by
  after_results_simp
  rw [V23_arg0, V23_arg1]
  rfl

set_option maxHeartbeats 4000000 in
/-- The padded y-bin indices of the movable nodes as one array. -/
theorem v178_eq : (V43 m outs c main_v178 : (⟨S900096x5, .i32⟩ : BufTy).Contents (Elt F))
    = pad S900096x5 ![0, 0] ![96, 0] ![0, 0] (val_main_v178 (a0 m c))
        (constantI S_ 32 0#32 : (⟨S_, .i32⟩ : BufTy).Contents (Elt F)) pads_S900000x5_S900096x5_0960_000 h_S_ := by
  after_results_simp
  rw [V23_arg0]
  rfl

set_option maxHeartbeats 4000000 in
/-- The padded y-overlap lengths of the movable nodes as one array. -/
theorem v179_eq : (V43 m outs c main_v179 : (⟨S900096x5, .f32⟩ : BufTy).Contents (Elt F))
    = pad S900096x5 ![0, 0] ![96, 0] ![0, 0] (val_main_v195 (a0 m c) (a2 m c))
        (constant S_ .f32 0x00000000#32 : (⟨S_, .f32⟩ : BufTy).Contents (Elt F)) pads_S900000x5_S900096x5_0960_000 h_S_ := by
  after_results_simp
  rw [V23_arg0, V23_arg2]
  rfl

/-- The x-bin indices region 1 reads. -/
theorem in1_jx (p : Fin 900096) (k : Fin 5) :
    (V43 m outs c main_v176 : (⟨S900096x5, .i32⟩ : BufTy).Contents (Elt F)) (ix2 p k)
      = if h : p.val < 900000 then val_main_v145 (a0 m c) (ix2 ⟨p.val, h⟩ k) else 0#32 := by
  rw [v176_eq]
  exact pad_rows_apply ![96, 0] _ _ pads_S900000x5_S900096x5_0960_000 h_S_ p k

/-- The x-overlap lengths region 1 reads. -/
theorem in1_wx (p : Fin 900096) (k : Fin 5) :
    (V43 m outs c main_v177 : (⟨S900096x5, .f32⟩ : BufTy).Contents (Elt F)) (ix2 p k)
      = if h : p.val < 900000 then val_main_v162 (a0 m c) (a1 m c) (ix2 ⟨p.val, h⟩ k) else FloatOps.ofBits .f32 0x00000000#32 := by
  rw [v177_eq]
  exact pad_rows_apply ![96, 0] _ _ pads_S900000x5_S900096x5_0960_000 h_S_ p k

/-- The y-bin indices region 1 reads. -/
theorem in1_jy (p : Fin 900096) (k : Fin 5) :
    (V43 m outs c main_v178 : (⟨S900096x5, .i32⟩ : BufTy).Contents (Elt F)) (ix2 p k)
      = if h : p.val < 900000 then val_main_v178 (a0 m c) (ix2 ⟨p.val, h⟩ k) else 0#32 := by
  rw [v178_eq]
  exact pad_rows_apply ![96, 0] _ _ pads_S900000x5_S900096x5_0960_000 h_S_ p k

/-- The y-overlap lengths region 1 reads. -/
theorem in1_wy (p : Fin 900096) (k : Fin 5) :
    (V43 m outs c main_v179 : (⟨S900096x5, .f32⟩ : BufTy).Contents (Elt F)) (ix2 p k)
      = if h : p.val < 900000 then val_main_v195 (a0 m c) (a2 m c) (ix2 ⟨p.val, h⟩ k) else FloatOps.ofBits .f32 0x00000000#32 := by
  rw [v179_eq]
  exact pad_rows_apply ![96, 0] _ _ pads_S900000x5_S900096x5_0960_000 h_S_ p k

/-! ## The program's result -/

/-- The result as one array: region 1's output column cut back to the 900,000 nodes and read as a vector. -/
theorem v182_eq : (V45 m outs c main_v182 : (⟨S900000, .f32⟩ : BufTy).Contents (Elt F))
    = shapeCast S900000 (extractStridedSlice S900000x1 ![0, 0]
        (outs 44 main_v180 c : (⟨S900096x1, .f32⟩ : BufTy).Contents (Elt F)) slices_S900096x1_S900000x1_0_0)
        shapeCasts_S900000x1_S900000 := by
  after_results_simp
  simp only [V44, Function.update_self]
  rfl

/-- The result at node `i` is region 1's output column at row `i`. -/
theorem result_out (i : Fin 900000) :
    (V45 m outs c main_v182 : (⟨S900000, .f32⟩ : BufTy).Contents (Elt F)) (ix1 i)
      = (outs 44 main_v180 c : (⟨S900096x1, .f32⟩ : BufTy).Contents (Elt F)) (ix2 ⟨i.val, by have := i.isLt; omega⟩ 0) := by
  rw [v182_eq]
  refine (shapeCast_apply (s := S900000x1) (t := S900000) _ shapeCasts_S900000x1_S900000 (ix1 i) (ix2 i 0) (by
    rewrite [Shape.rowMajor_val_two, Shape.rowMajor_val_one]
    show i.val * 1 + 0 = i.val; omega)).trans ?_
  exact extractStridedSlice_apply (s := S900096x1) (t := S900000x1) ![0, 0]
    (outs 44 main_v180 c : (⟨S900096x1, .f32⟩ : BufTy).Contents (Elt F)) slices_S900096x1_S900000x1_0_0
    (ix2 i 0) (ix2 ⟨i.val, by have := i.isLt; omega⟩ 0) (fun a => match a with
    | ⟨0, _⟩ => by show i.val = 0 + i.val; omega
    | ⟨1, _⟩ => by show (0 : Nat) = 0 + 0; rfl)

end Cert.KernelIdeal.Hand

end
-- ==== Proof.Spec.lean ====
/-
  The mathematics of the pin-utilisation computation, free of any program: extended reals and 32-bit words only.

  A node touches at most five consecutive bins along an axis; it is described by five bin indices `i k` and
  five overlap lengths `w k`. `oh i w b` is the total length it puts on bin `b`.

  The bin map has two spellings. `pinK`: for a bin pair, the sum over nodes of (x-length on bx times density)
  times y-length on bz — a product of two five-term sums per node. `pinR`: the sum over nodes and over the 25
  pairs (k, k') of the product of lengths times density, kept only where the flattened index
  `ix k * 512 + iy k'` is the bin's. They agree when every index is below 512 and every length is non-negative
  (distributing a product over sums of non-negative extended reals).

  The node integral has the same two spellings: `outK` contracts the node's x-lengths with the map, then its
  y-lengths; `outR` sums the 25 products of lengths with the map read at the flattened index.
-/
import Mathlib.Data.EReal.Basic
import Mathlib.Algebra.BigOperators.Fin

noncomputable section

namespace Cert.Spec

open scoped BigOperators

/-- The length a node puts on bin `b` along one axis: its five lengths, each counted where its index is `b`. -/
def oh (i : Fin 5 → BitVec 32) (w : Fin 5 → EReal) (b : BitVec 32) : EReal :=
  ∑ k : Fin 5, if b = i k then w k else 0

/-- The bin `(bx, bz)` as a word. -/
abbrev bin (b : Fin 512) : BitVec 32 := BitVec.ofNat 32 b.val

/-- The flattened bin index of the pair `(bx, bz)` as a word. -/
abbrev flat (bx bz : Fin 512) : BitVec 32 := BitVec.ofNat 32 (bx.val * 512 + bz.val)

/-- The bin map at `(bx, bz)`, contracted node by node: (x-length on bx · density) · y-length on bz. -/
def pinK {n : ℕ} (ix : Fin n → Fin 5 → BitVec 32) (ovx : Fin n → Fin 5 → EReal) (iy : Fin n → Fin 5 → BitVec 32)
    (ovy : Fin n → Fin 5 → EReal) (d : Fin n → EReal) (bx bz : Fin 512) : EReal :=
  ∑ p : Fin n, (oh (ix p) (ovx p) (bin bx) * d p) * oh (iy p) (ovy p) (bin bz)

/-- The bin map at the flattened index `b`, scattered: every (node, k, k') whose flattened index is `b`
    contributes (x-length · y-length) · density. -/
def pinR {n : ℕ} (ix : Fin n → Fin 5 → BitVec 32) (ovx : Fin n → Fin 5 → EReal) (iy : Fin n → Fin 5 → BitVec 32)
    (ovy : Fin n → Fin 5 → EReal) (d : Fin n → EReal) (b : BitVec 32) : EReal :=
  ∑ p : Fin n, ∑ k : Fin 5, ∑ k' : Fin 5,
    if ix p k * 512#32 + iy p k' = b then (ovx p k * ovy p k') * d p else 0

/-- A node's integral of the map `u`, contracted: Σ_bz (Σ_bx x-length on bx · u bx bz) · y-length on bz. -/
def outK (jx : Fin 5 → BitVec 32) (wx : Fin 5 → EReal) (jy : Fin 5 → BitVec 32) (wy : Fin 5 → EReal)
    (u : Fin 512 → Fin 512 → EReal) : EReal :=
  ∑ bz : Fin 512, (∑ bx : Fin 512, oh jx wx (bin bx) * u bx bz) * oh jy wy (bin bz)

/-- A node's integral of the map `u` (read at a flattened word index), gathered: the 25 products. -/
def outR (jx : Fin 5 → BitVec 32) (wx : Fin 5 → EReal) (jy : Fin 5 → BitVec 32) (wy : Fin 5 → EReal)
    (u : BitVec 32 → EReal) : EReal :=
  ∑ k : Fin 5, ∑ k' : Fin 5, (wx k * wy k') * u (jx k * 512#32 + jy k')

end Cert.Spec

end
-- ==== Proof.SpecLaws.lean ====
/-
  Laws of the pin-utilisation mathematics of Spec.lean, free of any program.

  Everything rests on two facts about extended reals. A product distributes over a sum of NON-NEGATIVE terms
  whatever the other factor is (no finiteness is needed: 0 * x = 0 for every x, and non-negative terms never
  meet the undefined ⊤ + ⊥). And a sum against an indicator keeps one term. With them the contracted spelling of
  the bin map (a product of two five-term sums per node) is the scattered one (25 guarded products per node),
  and the contracted node integral is the gathered one; rows whose x-lengths vanish contribute nothing, and a
  sum over T * 512 nodes is the sum over T tiles of 512.
-/
import proofs.«155432_j42700564857383_1_alg».proof.Proof.Spec
import Mathlib.Data.EReal.Operations
import Mathlib.Data.EReal.Inv
import Mathlib.Algebra.BigOperators.Fin
import Mathlib.Algebra.BigOperators.Group.Finset.Basic
import Mathlib.Algebra.BigOperators.Group.Finset.Piecewise
import Mathlib.Algebra.BigOperators.Group.Finset.Sigma
import Mathlib.Algebra.Order.BigOperators.Group.Finset
import Mathlib.Logic.Equiv.Fin.Basic

noncomputable section

namespace Cert.Spec

open scoped BigOperators

/-! ### Products over sums of non-negative extended reals -/

/-- A factor on the left distributes over a finite sum of non-negative extended reals. -/
theorem mul_sum_nonneg {ι : Type*} (s : Finset ι) (f : ι → EReal) (hf : ∀ i ∈ s, 0 ≤ f i) (c : EReal) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- A factor on the right distributes over a finite sum of non-negative extended reals. -/
theorem sum_mul_nonneg {ι : Type*} (s : Finset ι) (f : ι → EReal) (hf : ∀ i ∈ s, 0 ≤ f i) (c : EReal) :
    (∑ i ∈ s, f i) * c = ∑ i ∈ s, f i * c := by
  rw [mul_comm, mul_sum_nonneg s f hf c]
  exact Finset.sum_congr rfl fun i _ => mul_comm _ _

/-- A guarded non-negative value is non-negative. -/
theorem ite_zero_nonneg {P : Prop} [Decidable P] {a : EReal} (ha : 0 ≤ a) : 0 ≤ if P then a else 0 := by
  split_ifs
  · exact ha
  · exact le_refl _

/-- The product of two guarded values is the product guarded by both conditions. -/
theorem ite_mul_ite {P Q : Prop} [Decidable P] [Decidable Q] (a b : EReal) :
    (if P then a else 0) * (if Q then b else 0) = if P ∧ Q then a * b else 0 := by
  by_cases hP : P <;> by_cases hQ : Q <;> simp [hP, hQ]

/-- A guarded value times a factor is the guarded product. -/
theorem ite_mul_right {P : Prop} [Decidable P] (a c : EReal) :
    (if P then a else 0) * c = if P then a * c else 0 := by
  by_cases hP : P <;> simp [hP]

/-! ### Words below 512 -/

/-- For words below 512 the flattened index decides both coordinates: no wrap-around, 511 * 512 + 511 < 2^32. -/
theorem flat_eq_iff {x y : BitVec 32} (hx : x.toNat < 512) (hy : y.toNat < 512) (bx bz : Fin 512) :
    x * 512#32 + y = flat bx bz ↔ bin bx = x ∧ bin bz = y := by
  have hbx := bx.isLt
  have hbz := bz.isLt
  simp only [BitVec.toNat_eq, BitVec.toNat_add, BitVec.toNat_mul, BitVec.toNat_ofNat]
  omega

/-- A bin's word is a given word below 512 exactly when the bin is that word's number. -/
theorem bin_eq_iff {x : BitVec 32} (hx : x.toNat < 512) (b : Fin 512) : bin b = x ↔ b = ⟨x.toNat, hx⟩ := by
  have hb := b.isLt
  simp only [BitVec.toNat_eq, BitVec.toNat_ofNat, Fin.ext_iff]
  omega

/-- The flattened index of the bins numbered by two words below 512. -/
theorem flat_toNat {x y : BitVec 32} (hx : x.toNat < 512) (hy : y.toNat < 512) :
    flat ⟨x.toNat, hx⟩ ⟨y.toNat, hy⟩ = x * 512#32 + y :=
  ((flat_eq_iff hx hy _ _).mpr ⟨(bin_eq_iff hx _).mpr rfl, (bin_eq_iff hy _).mpr rfl⟩).symm

/-! ### One-hot lengths -/

/-- A node's length on a bin is non-negative when its five lengths are. -/
theorem oh_nonneg {i : Fin 5 → BitVec 32} {w : Fin 5 → EReal} {b : BitVec 32} (hw : ∀ k, 0 ≤ w k) : 0 ≤ oh i w b :=
  Finset.sum_nonneg fun k _ => ite_zero_nonneg (hw k)

/-- Multiplying by 16384/3125 is dividing by 3125/16384. -/
theorem scale_eq (x : EReal) : x * ((16384 / 3125 : ℝ) : EReal) = x / ((3125 / 16384 : ℝ) : EReal) := by
  have h : ((3125 / 16384 : ℝ))⁻¹ = 16384 / 3125 := by norm_num
  rw [div_eq_mul_inv x ((3125 / 16384 : ℝ) : EReal), ← EReal.coe_inv, h]

/-- The same with the reciprocal written as a real quotient. -/
theorem scale_eq_one_div (x : EReal) :
    x * ((16384 / 3125 : ℝ) : EReal) = x * ((1 / (3125 / 16384) : ℝ) : EReal) := by
  have h : (1 / (3125 / 16384) : ℝ) = 16384 / 3125 := by norm_num
  rw [h]

/-! ### The bin map -/

/-- One node: (x-length on `x` · density) · y-length on `y` is the sum over the 25 pairs of the products of
    lengths times density, kept where both indices match. The density may be any extended real: the three
    factors are reordered so that only sums of non-negative terms are multiplied out. -/
theorem node_pin (i j : Fin 5 → BitVec 32) (a b : Fin 5 → EReal) (d : EReal) (ha : ∀ k, 0 ≤ a k)
    (hb : ∀ k, 0 ≤ b k) (x y : BitVec 32) :
    (oh i a x * d) * oh j b y = ∑ k : Fin 5, ∑ k' : Fin 5, if x = i k ∧ y = j k' then (a k * b k') * d else 0 := by
  have hf : ∀ k ∈ (Finset.univ : Finset (Fin 5)), 0 ≤ (if x = i k then a k else 0 : EReal) :=
    fun k _ => ite_zero_nonneg (ha k)
  have hg : ∀ k' ∈ (Finset.univ : Finset (Fin 5)), 0 ≤ (if y = j k' then b k' else 0 : EReal) :=
    fun k' _ => ite_zero_nonneg (hb k')
  have hfg : ∀ k k', 0 ≤ (if x = i k then a k else 0 : EReal) * (if y = j k' then b k' else 0) :=
    fun k k' => EReal.mul_nonneg (hf k (Finset.mem_univ k)) (hg k' (Finset.mem_univ k'))
  rw [mul_right_comm]
  unfold oh
  rw [sum_mul_nonneg _ _ hf, sum_mul_nonneg _ _ (fun k _ => EReal.mul_nonneg (hf k (Finset.mem_univ k)) (Finset.sum_nonneg hg))]
  refine Finset.sum_congr rfl fun k _ => ?_
  rw [mul_sum_nonneg _ _ hg, sum_mul_nonneg _ _ (fun k' _ => hfg k k')]
  refine Finset.sum_congr rfl fun k' _ => ?_
  rw [ite_mul_ite, ite_mul_right]

/-- The contracted bin map is the scattered one at the flattened index. -/
theorem pinK_eq_pinR {n : ℕ} (ix : Fin n → Fin 5 → BitVec 32) (ovx : Fin n → Fin 5 → EReal)
    (iy : Fin n → Fin 5 → BitVec 32) (ovy : Fin n → Fin 5 → EReal) (d : Fin n → EReal)
    (hix : ∀ p k, (ix p k).toNat < 512) (hiy : ∀ p k, (iy p k).toNat < 512)
    (hx : ∀ p k, 0 ≤ ovx p k) (hy : ∀ p k, 0 ≤ ovy p k) (bx bz : Fin 512) :
    pinK ix ovx iy ovy d bx bz = pinR ix ovx iy ovy d (flat bx bz) := by
  unfold pinK pinR
  refine Finset.sum_congr rfl fun p _ => ?_
  rw [node_pin (ix p) (iy p) (ovx p) (ovy p) (d p) (hx p) (hy p)]
  refine Finset.sum_congr rfl fun k _ => Finset.sum_congr rfl fun k' _ => ?_
  exact if_congr (flat_eq_iff (hix p k) (hiy p k') bx bz).symm rfl rfl

/-- Nodes whose x-lengths all vanish add nothing to the bin map. -/
theorem pinK_pad {n n' : ℕ} (h : n ≤ n') (ix : Fin n' → Fin 5 → BitVec 32) (ovx : Fin n' → Fin 5 → EReal)
    (iy : Fin n' → Fin 5 → BitVec 32) (ovy : Fin n' → Fin 5 → EReal) (d : Fin n' → EReal)
    (hz : ∀ p : Fin n', n ≤ p.val → ∀ k, ovx p k = 0) (bx bz : Fin 512) :
    pinK ix ovx iy ovy d bx bz
      = pinK (fun p => ix (Fin.castLE h p)) (fun p => ovx (Fin.castLE h p)) (fun p => iy (Fin.castLE h p))
          (fun p => ovy (Fin.castLE h p)) (fun p => d (Fin.castLE h p)) bx bz := by
  unfold pinK
  refine (Fintype.sum_of_injective (Fin.castLE h) (Fin.castLE_injective h) _ _ ?_ fun p => rfl).symm
  intro p hp
  have hp' : n ≤ p.val := by
    by_contra hlt
    exact hp ⟨⟨p.val, Nat.lt_of_not_le hlt⟩, Fin.ext rfl⟩
  have h0 : oh (ix p) (ovx p) (bin bx) = 0 := by
    unfold oh
    exact Finset.sum_eq_zero fun k _ => by rw [hz p hp' k, ite_self]
  rw [h0, zero_mul, zero_mul]

/-- Row `r` of tile `t` among `T` tiles of 512 rows. -/
def tileRow {T : ℕ} (t : Fin T) (r : Fin 512) : Fin (T * 512) :=
  ⟨t.val * 512 + r.val, by have := t.isLt; have := r.isLt; omega⟩

@[simp] theorem tileRow_val {T : ℕ} (t : Fin T) (r : Fin 512) : (tileRow t r).val = t.val * 512 + r.val := rfl

/-- A sum over `T * 512` rows is the sum over the tiles of the sums over a tile's rows. -/
theorem sum_tiles {T : ℕ} (f : Fin (T * 512) → EReal) :
    ∑ p : Fin (T * 512), f p = ∑ t : Fin T, ∑ r : Fin 512, f (tileRow t r) := by
  rw [← Equiv.sum_comp finProdFinEquiv f, Fintype.sum_prod_type]
  refine Finset.sum_congr rfl fun t _ => Finset.sum_congr rfl fun r _ => congrArg f (Fin.ext ?_)
  show r.val + 512 * t.val = t.val * 512 + r.val
  omega

/-- The bin map of `T * 512` nodes is the sum of the bin maps of the `T` tiles of 512 nodes. -/
theorem pinK_tiles (T : ℕ) (ix : Fin (T * 512) → Fin 5 → BitVec 32) (ovx : Fin (T * 512) → Fin 5 → EReal)
    (iy : Fin (T * 512) → Fin 5 → BitVec 32) (ovy : Fin (T * 512) → Fin 5 → EReal) (d : Fin (T * 512) → EReal)
    (bx bz : Fin 512) :
    pinK ix ovx iy ovy d bx bz
      = ∑ t : Fin T, pinK (fun r => ix (tileRow t r)) (fun r => ovx (tileRow t r)) (fun r => iy (tileRow t r))
          (fun r => ovy (tileRow t r)) (fun r => d (tileRow t r)) bx bz := by
  unfold pinK
  exact sum_tiles _

/-! ### The node integral -/

/-- Contracting a node's one-hot lengths against any function of the bin keeps the node's five bins. -/
theorem sum_oh_mul (j : Fin 5 → BitVec 32) (w : Fin 5 → EReal) (hj : ∀ k, (j k).toNat < 512)
    (hw : ∀ k, 0 ≤ w k) (g : Fin 512 → EReal) :
    ∑ b : Fin 512, oh j w (bin b) * g b = ∑ k : Fin 5, w k * g ⟨(j k).toNat, hj k⟩ := by
  have h1 : ∀ b : Fin 512, oh j w (bin b) * g b
      = ∑ k : Fin 5, if b = ⟨(j k).toNat, hj k⟩ then w k * g b else 0 := by
    intro b
    unfold oh
    rw [sum_mul_nonneg _ _ (fun k _ => ite_zero_nonneg (hw k))]
    refine Finset.sum_congr rfl fun k _ => ?_
    rw [ite_mul_right]
    exact if_congr (bin_eq_iff (hj k) b) rfl rfl
  rw [Finset.sum_congr rfl fun b _ => h1 b, Finset.sum_comm]
  refine Finset.sum_congr rfl fun k _ => ?_
  rw [Finset.sum_ite_eq' Finset.univ (⟨(j k).toNat, hj k⟩ : Fin 512) (fun b => w k * g b), if_pos (Finset.mem_univ _)]

/-- The contracted node integral is the gathered one, for a non-negative map read at the flattened index. -/
theorem outK_eq_outR (jx : Fin 5 → BitVec 32) (wx : Fin 5 → EReal) (jy : Fin 5 → BitVec 32) (wy : Fin 5 → EReal)
    (u : Fin 512 → Fin 512 → EReal) (u' : BitVec 32 → EReal) (hu : ∀ bx bz, u bx bz = u' (flat bx bz))
    (hjx : ∀ k, (jx k).toNat < 512) (hjy : ∀ k, (jy k).toNat < 512)
    (hwx : ∀ k, 0 ≤ wx k) (hwy : ∀ k, 0 ≤ wy k) (hu0 : ∀ bx bz, 0 ≤ u bx bz) :
    outK jx wx jy wy u = outR jx wx jy wy u' := by
  unfold outK outR
  calc ∑ bz : Fin 512, (∑ bx : Fin 512, oh jx wx (bin bx) * u bx bz) * oh jy wy (bin bz)
      = ∑ bz : Fin 512, oh jy wy (bin bz) * ∑ k : Fin 5, wx k * u ⟨(jx k).toNat, hjx k⟩ bz := by
        refine Finset.sum_congr rfl fun bz _ => ?_
        rw [sum_oh_mul jx wx hjx hwx (fun bx => u bx bz), mul_comm]
    _ = ∑ k' : Fin 5, wy k' * ∑ k : Fin 5, wx k * u ⟨(jx k).toNat, hjx k⟩ ⟨(jy k').toNat, hjy k'⟩ :=
        sum_oh_mul jy wy hjy hwy (fun bz => ∑ k : Fin 5, wx k * u ⟨(jx k).toNat, hjx k⟩ bz)
    _ = ∑ k' : Fin 5, ∑ k : Fin 5, (wx k * wy k') * u' (jx k * 512#32 + jy k') := by
        refine Finset.sum_congr rfl fun k' _ => ?_
        rw [mul_sum_nonneg _ _ (fun k _ => EReal.mul_nonneg (hwx k) (hu0 _ _))]
        refine Finset.sum_congr rfl fun k _ => ?_
        rw [hu, flat_toNat (hjx k) (hjy k'), mul_left_comm, ← mul_assoc]
    _ = ∑ k : Fin 5, ∑ k' : Fin 5, (wx k * wy k') * u' (jx k * 512#32 + jy k') := Finset.sum_comm

end Cert.Spec

end
-- ==== Proof.KIVal0.lean ====
/-
  Region 0 at the ideal values, read at one bin pair.

  One grid point sees 512 nodes. For a node r the kernel builds, by five compare-and-select steps against the
  bin numbers 0 … 511 along a row, the row of x-lengths r puts on every bin (`Cert.Spec.oh` of r's five indices and
  lengths), and likewise the row of y-lengths; it multiplies the x row by the node's density and contracts the two
  512 × 512 tables over the node axis. So the accumulator after the point is the accumulator before plus
  `Cert.Spec.pinK` of the point's 512 nodes. The reset is zero, and the value written out at the end is the
  accumulator times 16384/3125, clamped between two fixed words.

  Over the whole grid: point t sees rows 512 t … 512 t + 511 of the 1000448-row inputs, so the accumulator after
  point n is the sum of the first n + 1 tiles' bin maps, after the last point the bin map of all 1000448 rows; the one
  write-back, at the last point, covers the whole 512 × 512 output.
-/
import proofs.«155432_j42700564857383_1_alg».proof.Proof.KIBody
import proofs.«155432_j42700564857383_1_alg».proof.Proof.Spec
import proofs.«155432_j42700564857383_1_alg».proof.Proof.SpecLaws
import proofs.«155432_j42700564857383_1_alg».proof.Proof.KIReg0
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.ShloMosaic.TcCoe Cert.KernelIdeal Cert.KernelIdeal.Gen
open Idealize.SL Idealize.SL.Sem
open Idealize.ShloMosaic.Pipeline (Dat)
open scoped BigOperators

namespace Val0

/-! ## Small readings -/

/-- A select on the equality test of two words is the `if` on their equality. -/
theorem select_cmpi_eq {α : Type} {w : ℕ} (x y : BitVec w) (a b : α) :
    Scalar.select (IntOp.cmpi .eq x y) a b = if x = y then a else b := by
  have hc : IntOp.cmpi .eq x y = BitVec.ofBool (x == y) := rfl
  rw [hc]
  unfold Scalar.select
  by_cases h : x = y
  · subst h; simp
  · rw [if_neg h, (beq_eq_false_iff_ne).mpr h]
    exact if_neg (by decide)

/-- A vector comparison at an index compares the elements. -/
theorem cmpi_apply {s : Shape} {w : ℕ} (p : CmpIPredicate) (x y : IVec s w) (i : s.Idx) :
    cmpi p x y i = IntOp.cmpi p (x i) (y i) := rfl

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bin number along a row, read at `(r, c)`, is `c` as a word. -/
theorem binIds_apply (r c : Fin 512) : binIds (ix2 r c) = BitVec.ofNat 32 c.val := by
  unfold binIds
  rw [iota_single_apply]

/-- Column `k` of a `[512, 5]` table, spread along the rows of a `[512, 512]` table, reads at `(r, c)` the
    table at `(r, k)`. -/
theorem col_apply {α : Type} (o : ℕ) (k : Fin 5) (hk : k.val = o) (hs : S512x5.Slices ![0, o] S512x1)
    (v : S512x5.Idx → α) (r c : Fin 512) :
    broadcastTo S512x512 (extractStridedSlice S512x1 ![0, o] v hs) broadcasts_S512x1_S512x512 (ix2 r c)
      = v (ix2 r k) := by
  rw [broadcastTo_a1_ab_apply]
  exact slice2_axis1_apply o v hs r (0 : Fin 1) k (by rw [hk]; rfl)

/-- One compare-and-select step at `(r, c)`: the length `fv (r, k)` where bin `c` is the index `iv (r, k)`, else 0. -/
theorem ohTerm_apply (o : ℕ) (k : Fin 5) (hk : k.val = o) (hs : S512x5.Slices ![0, o] S512x1)
    (iv : IVec S512x5 32) (fv : FVec Ideal S512x5 .f32) (r c : Fin 512) :
    select (cmpi .eq binIds (broadcastTo S512x512 (extractStridedSlice S512x1 ![0, o] iv hs) broadcasts_S512x1_S512x512))
        (broadcastTo S512x512 (extractStridedSlice S512x1 ![0, o] fv hs) broadcasts_S512x1_S512x512)
        (broadcast S512x512 (Scalar.ofBits (F := Ideal) .f32 0x00000000#32)) (ix2 r c)
      = if BitVec.ofNat 32 c.val = iv (ix2 r k) then fv (ix2 r k) else 0 := by
  rw [select_apply, cmpi_apply, select_cmpi_eq, binIds_apply, col_apply o k hk, col_apply o k hk,
    broadcast_apply]
  show (if _ then _ else Ideal.ofBits .f32 0x00000000#32) = _
  rw [Ideal.ofBits_zero_f32]

/-! ## The two rows of lengths -/

/-- The x row at `(r, c)`: the total x-length node `r` puts on bin `c`. -/
theorem xrow_apply (x0 : Vec Ideal S512x5 .i32) (x1 : Vec Ideal S512x5 .f32) (r c : Fin 512) :
    k0_pay10 (k0_pay4 x0) (k0_pay5 x1) binIds (k0_pay9 x0 x1) (ix2 r c)
      = Cert.Spec.oh (fun k => x0 (ix2 r k)) (fun k => x1 (ix2 r k)) (BitVec.ofNat 32 c.val) := by
  unfold k0_pay10 k0_pay9 k0_pay4 k0_pay5
  simp only [shapeCast_self]
  rw [addf_apply, addf_apply, addf_apply, addf_apply, addf_apply]
  rw [ohTerm_apply 0 0 rfl, ohTerm_apply 1 1 rfl, ohTerm_apply 2 2 rfl, ohTerm_apply 3 3 rfl, ohTerm_apply 4 4 rfl]
  rw [broadcast_apply]
  show Ideal.ofBits .f32 0x00000000#32 + _ + _ + _ + _ + _ = _
  rw [Ideal.ofBits_zero_f32, zero_add]
  unfold Cert.Spec.oh
  rw [Fin.sum_univ_five]

/-- The y row at `(r, c)`: the total y-length node `r` puts on bin `c`, as the sum of its first three
    compare-and-select steps, the fourth step and the fifth step. -/
theorem yrow_apply (x2 : Vec Ideal S512x5 .i32) (x3 : Vec Ideal S512x5 .f32) (r c : Fin 512) :
    addf (addf (k0_pay11 (k0_pay6 x2) (k0_pay7 x3))
        (select (k0_pay12 (k0_pay6 x2)) (k0_pay13 (k0_pay7 x3))
          (broadcast S512x512 (Scalar.ofBits (F := Ideal) .f32 0x00000000#32))))
      (select (cmpi .eq binIds (broadcastTo S512x512
          (extractStridedSlice S512x1 ![0, 4] (k0_pay6 x2) slices_S512x5_o0_4_S512x1) broadcasts_S512x1_S512x512))
        (broadcastTo S512x512 (shapeCast S512x1
          (extractStridedSlice S512x1 ![0, 4] (k0_pay7 x3) slices_S512x5_o0_4_S512x1) shapeCasts_S512x1_S512x1)
          broadcasts_S512x1_S512x512)
        (broadcast S512x512 (Scalar.ofBits (F := Ideal) .f32 0x00000000#32))) (ix2 r c)
      = Cert.Spec.oh (fun k => x2 (ix2 r k)) (fun k => x3 (ix2 r k)) (BitVec.ofNat 32 c.val) := by
  unfold k0_pay11 k0_pay12 k0_pay13 k0_pay6 k0_pay7
  simp only [shapeCast_self]
  rw [addf_apply, addf_apply, addf_apply, addf_apply, addf_apply]
  rw [ohTerm_apply 0 0 rfl, ohTerm_apply 1 1 rfl, ohTerm_apply 2 2 rfl, ohTerm_apply 3 3 rfl, ohTerm_apply 4 4 rfl]
  rw [broadcast_apply]
  show Ideal.ofBits .f32 0x00000000#32 + _ + _ + _ + _ + _ = _
  rw [Ideal.ofBits_zero_f32, zero_add]
  unfold Cert.Spec.oh
  rw [Fin.sum_univ_five]

/-! ## The contraction over the node axis

The point's matmul contracts axis 0 of both tables: the result at `(bx, bz)` is the sum over the nodes `r` of the
left table at `(r, bx)` times the right table at `(r, bz)`. -/

/-- The left operand's index on its contracted axis is the contraction position. -/
theorem lhs_dot_0 (j : S512x512.Idx) (k : dot_S512x512_S512x512_S512x512_0_0_1_1_n_n.contr.Idx) :
    (dot_S512x512_S512x512_S512x512_0_0_1_1_n_n.lhsIdx j k 0).val = (k ⟨0, Nat.one_pos⟩).val :=
  dot_S512x512_S512x512_S512x512_0_0_1_1_n_n.lhsIdx_val_of_single (cl := 0) rfl j k

/-- The left operand's index on its free axis is the result's first coordinate. -/
theorem lhs_dot_1 (j : S512x512.Idx) (k : dot_S512x512_S512x512_S512x512_0_0_1_1_n_n.contr.Idx) :
    (dot_S512x512_S512x512_S512x512_0_0_1_1_n_n.lhsIdx j k 1).val = (j 0).val := by
  unfold DotDims.lhsIdx
  rw [dif_neg (show ¬(1 : Fin S512x512.rank) ∈ dot_S512x512_S512x512_S512x512_0_0_1_1_n_n.lhsBatch by decide),
    dif_pos (show (1 : Fin S512x512.rank) ∈ dot_S512x512_S512x512_S512x512_0_0_1_1_n_n.lhsNonContracting by decide)]
  rfl

/-- The right operand's index on its contracted axis is the contraction position. -/
theorem rhs_dot_0 (j : S512x512.Idx) (k : dot_S512x512_S512x512_S512x512_0_0_1_1_n_n.contr.Idx) :
    (dot_S512x512_S512x512_S512x512_0_0_1_1_n_n.rhsIdx j k 0).val = (k ⟨0, Nat.one_pos⟩).val :=
  dot_S512x512_S512x512_S512x512_0_0_1_1_n_n.rhsIdx_val_of_single (cr := 0) rfl j k

/-- The right operand's index on its free axis is the result's second coordinate. -/
theorem rhs_dot_1 (j : S512x512.Idx) (k : dot_S512x512_S512x512_S512x512_0_0_1_1_n_n.contr.Idx) :
    (dot_S512x512_S512x512_S512x512_0_0_1_1_n_n.rhsIdx j k 1).val = (j 1).val := by
  unfold DotDims.rhsIdx
  rw [dif_neg (show ¬(1 : Fin S512x512.rank) ∈ dot_S512x512_S512x512_S512x512_0_0_1_1_n_n.rhsBatch by decide),
    dif_pos (show (1 : Fin S512x512.rank) ∈ dot_S512x512_S512x512_S512x512_0_0_1_1_n_n.rhsNonContracting by decide)]
  rfl

/-- The contraction into a zero table, at `(bx, bz)`: the sum over the nodes of the products of the two columns. -/
theorem contract_apply (A B : FVec Ideal S512x512 .bf16) (bx bz : Fin 512) :
    matmul dot_S512x512_S512x512_S512x512_0_0_1_1_n_n none A B (constant S512x512 .f32 0x00000000#32) (ix2 bx bz)
      = ∑ r : Fin 512, A (ix2 r bx) * B (ix2 r bz) := by
  show FloatOps.matmul _ _ _ _ _ _ = _
  rw [Ideal.matmul_constant_zero_apply,
    ← Equiv.sum_comp (contrEquiv1 dot_S512x512_S512x512_S512x512_0_0_1_1_n_n 512 rfl rfl).symm]
  refine Finset.sum_congr rfl fun r _ => ?_
  have hl : dot_S512x512_S512x512_S512x512_0_0_1_1_n_n.lhsIdx (ix2 bx bz)
      ((contrEquiv1 dot_S512x512_S512x512_S512x512_0_0_1_1_n_n 512 rfl rfl).symm r) = ix2 r bx := by
    funext a; refine Fin.ext ?_
    match a with
    | ⟨0, _⟩ => exact (lhs_dot_0 _ _).trans (contrEquiv1_symm_val _ 512 rfl rfl r)
    | ⟨1, _⟩ => exact lhs_dot_1 _ _
  have hr : dot_S512x512_S512x512_S512x512_0_0_1_1_n_n.rhsIdx (ix2 bx bz)
      ((contrEquiv1 dot_S512x512_S512x512_S512x512_0_0_1_1_n_n 512 rfl rfl).symm r) = ix2 r bz := by
    funext a; refine Fin.ext ?_
    match a with
    | ⟨0, _⟩ => exact (rhs_dot_0 _ _).trans (contrEquiv1_symm_val _ 512 rfl rfl r)
    | ⟨1, _⟩ => exact rhs_dot_1 _ _
  rw [hl, hr]

end Val0

open Val0

/-! ## The point's body -/

/-- The accumulator's reset is zero everywhere. -/
theorem zero0_apply (i : S512x512.Idx) : zero0 (F := Ideal) i = 0 := by
  unfold zero0 k0_pay3
  simp only [shapeCast_self]
  rw [broadcast_apply]
  exact Ideal.ofBits_zero_f32

/-- The accumulator after one grid point, at the bin pair `(bx, bz)`: what it held, plus the point's 512 nodes'
    contributions. -/
theorem step0_apply (x0 : Vec Ideal S512x5 .i32) (x1 : Vec Ideal S512x5 .f32) (x2 : Vec Ideal S512x5 .i32)
    (x3 : Vec Ideal S512x5 .f32) (x4 : Vec Ideal S512x1 .f32) (base : Vec Ideal S512x512 .f32) (bx bz : Fin 512) :
    step0 (F := Ideal) x0 x1 x2 x3 x4 base (ValueIdx.ix2 bx bz)
      = base (ValueIdx.ix2 bx bz) + Cert.Spec.pinK (n := 512) (fun r k => x0 (ValueIdx.ix2 r k))
          (fun r k => x1 (ValueIdx.ix2 r k)) (fun r k => x2 (ValueIdx.ix2 r k)) (fun r k => x3 (ValueIdx.ix2 r k))
          (fun r => x4 (ValueIdx.ix2 r 0)) bx bz := by
  unfold step0 k0_pay1
  rw [shapeCast_self, addf_apply]
  refine congrArg (base (ix2 bx bz) + ·) ?_
  rw [contract_apply]
  unfold Cert.Spec.pinK
  refine Finset.sum_congr rfl fun r _ => ?_
  rw [truncf_apply, truncf_apply, mulf_apply, xrow_apply, broadcastTo_a1_ab_apply, yrow_apply]
  unfold k0_pay8
  rw [shapeCast_self]

/-- The scale of the utilisation is the rational 16384/3125. -/
theorem Val0.scale_const : Named.named (F := Ideal) κ "fold_c_16384_3125" (φ := .f32) 0x40A7C5AC#32 = ((16384 / 3125 : ℝ) : EReal) :=
  IdealRules.named_const.ideal_named_scalar _ _ _ _ rfl

/-- The utilisation written out at the end: the accumulator scaled by 16384/3125 and clamped between the two words. -/
theorem fin0_apply (acc : Vec Ideal S512x512 .f32) (i : S512x512.Idx) :
    fin0 (F := Ideal) acc i
      = min (Ideal.ofBits .f32 0x3FC00000#32) (max (Ideal.ofBits .f32 0x3F2AAAAB#32) (acc i * ((16384 / 3125 : ℝ) : EReal))) := by
  unfold fin0 k0_pay2
  rw [minimumf_apply, maximumf_apply, mulf_apply, broadcast_apply, broadcast_apply, broadcast_apply, scale_const]
  rfl

/-! ## The whole grid -/

namespace Val0

variable (V : (c : Dev nD) → (b : Ref sig .tc) → Buf (Elt Ideal) ((c : Thread nD τ).loc b))

/-- The grid has 1954 points. -/
theorem N0 : cfg0.N = 1954 := N_0

/-- The printed index maps over the grid: point `t` of an input window is block `(t, 0)`, of the output window
    block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- Row `r` of the tile point `u` sees, among the 1000448 rows. -/
def row (u : ℕ) (hu : u < 1954) (r : Fin 512) : Fin 1000448 := ⟨u * 512 + r.val, by have := r.isLt; omega⟩

/-- Window 0's block at point `t`, at `(r, k)`: the index array at row `512 t + r`. -/
theorem iblk0_0_apply (c : Dev nD) (t : Fin cfg0.N) (ht : t.val < 1954) (r : Fin 512) (k : Fin 5) :
    (iblk0 V c 0 t : Vec Ideal S512x5 .i32) (ix2 r k)
      = (V c main_v96 : Vec Ideal S1000448x5 .i32) (ix2 (row t.val ht r) k) := by
  obtain ⟨e0, e1, -⟩ := idx_facts0 t
  have h : ((cfg0.win 0).blk t).view.emb (ix2 r k) = ix2 (row t.val ht r) k := by
    funext a; apply Fin.ext
    match a with
    | ⟨0, _⟩ => show win0_0.index t (0 : Fin 2) * 512 + 1 * r.val = t.val * 512 + r.val; rw [e0]; omega
    | ⟨1, _⟩ => show win0_0.index t (1 : Fin 2) * 5 + 1 * k.val = k.val; rw [e1]; omega
  show V c main_v96 (((cfg0.win 0).blk t).view.emb (ix2 r k)) = _
  rw [h]

/-- Window 1's block at point `t`, at `(r, k)`: its array at row `512 t + r`. -/
theorem iblk0_1_apply (c : Dev nD) (t : Fin cfg0.N) (ht : t.val < 1954) (r : Fin 512) (k : Fin 5) :
    (iblk0 V c 1 t : Vec Ideal S512x5 .f32) (ix2 r k)
      = (V c main_v97 : Vec Ideal S1000448x5 .f32) (ix2 (row t.val ht r) k) := by
  obtain ⟨-, -, e0, e1, -⟩ := idx_facts0 t
  have h : ((cfg0.win 1).blk t).view.emb (ix2 r k) = ix2 (row t.val ht r) k := by
    funext a; apply Fin.ext
    match a with
    | ⟨0, _⟩ => show win0_1.index t (0 : Fin 2) * 512 + 1 * r.val = t.val * 512 + r.val; rw [e0]; omega
    | ⟨1, _⟩ => show win0_1.index t (1 : Fin 2) * 5 + 1 * k.val = k.val; rw [e1]; omega
  show V c main_v97 (((cfg0.win 1).blk t).view.emb (ix2 r k)) = _
  rw [h]

/-- Window 2's block at point `t`, at `(r, k)`: its array at row `512 t + r`. -/
theorem iblk0_2_apply (c : Dev nD) (t : Fin cfg0.N) (ht : t.val < 1954) (r : Fin 512) (k : Fin 5) :
    (iblk0 V c 2 t : Vec Ideal S512x5 .i32) (ix2 r k)
      = (V c main_v98 : Vec Ideal S1000448x5 .i32) (ix2 (row t.val ht r) k) := by
  obtain ⟨-, -, -, -, e0, e1, -⟩ := idx_facts0 t
  have h : ((cfg0.win 2).blk t).view.emb (ix2 r k) = ix2 (row t.val ht r) k := by
    funext a; apply Fin.ext
    match a with
    | ⟨0, _⟩ => show win0_2.index t (0 : Fin 2) * 512 + 1 * r.val = t.val * 512 + r.val; rw [e0]; omega
    | ⟨1, _⟩ => show win0_2.index t (1 : Fin 2) * 5 + 1 * k.val = k.val; rw [e1]; omega
  show V c main_v98 (((cfg0.win 2).blk t).view.emb (ix2 r k)) = _
  rw [h]

/-- Window 3's block at point `t`, at `(r, k)`: its array at row `512 t + r`. -/
theorem iblk0_3_apply (c : Dev nD) (t : Fin cfg0.N) (ht : t.val < 1954) (r : Fin 512) (k : Fin 5) :
    (iblk0 V c 3 t : Vec Ideal S512x5 .f32) (ix2 r k)
      = (V c main_v99 : Vec Ideal S1000448x5 .f32) (ix2 (row t.val ht r) k) := by
  obtain ⟨-, -, -, -, -, -, e0, e1, -⟩ := idx_facts0 t
  have h : ((cfg0.win 3).blk t).view.emb (ix2 r k) = ix2 (row t.val ht r) k := by
    funext a; apply Fin.ext
    match a with
    | ⟨0, _⟩ => show win0_3.index t (0 : Fin 2) * 512 + 1 * r.val = t.val * 512 + r.val; rw [e0]; omega
    | ⟨1, _⟩ => show win0_3.index t (1 : Fin 2) * 5 + 1 * k.val = k.val; rw [e1]; omega
  show V c main_v99 (((cfg0.win 3).blk t).view.emb (ix2 r k)) = _
  rw [h]

/-- Window 4's block at point `t`, at `(r, k)`: its array at row `512 t + r`. -/
theorem iblk0_4_apply (c : Dev nD) (t : Fin cfg0.N) (ht : t.val < 1954) (r : Fin 512) (k : Fin 1) :
    (iblk0 V c 4 t : Vec Ideal S512x1 .f32) (ix2 r k)
      = (V c main_v101 : Vec Ideal S1000448x1 .f32) (ix2 (row t.val ht r) k) := by
  obtain ⟨-, -, -, -, -, -, -, -, e0, e1, -⟩ := idx_facts0 t
  have h : ((cfg0.win 4).blk t).view.emb (ix2 r k) = ix2 (row t.val ht r) k := by
    funext a; apply Fin.ext
    match a with
    | ⟨0, _⟩ => show win0_4.index t (0 : Fin 2) * 512 + 1 * r.val = t.val * 512 + r.val; rw [e0]; omega
    | ⟨1, _⟩ => show win0_4.index t (1 : Fin 2) * 1 + 1 * k.val = k.val; rw [e1]; omega
  show V c main_v101 (((cfg0.win 4).blk t).view.emb (ix2 r k)) = _
  rw [h]

/-- The bin-map contribution of the tile point `u` sees, at `(bx, bz)` (zero past the grid). -/
def tileAt (c : Dev nD) (bx bz : Fin 512) (u : ℕ) : EReal :=
  if hu : u < 1954 then
    Cert.Spec.pinK (n := 512)
      (fun r k => (V c main_v96 : Vec Ideal S1000448x5 .i32) (ix2 (row u hu r) k))
      (fun r k => (V c main_v97 : Vec Ideal S1000448x5 .f32) (ix2 (row u hu r) k))
      (fun r k => (V c main_v98 : Vec Ideal S1000448x5 .i32) (ix2 (row u hu r) k))
      (fun r k => (V c main_v99 : Vec Ideal S1000448x5 .f32) (ix2 (row u hu r) k))
      (fun r => (V c main_v101 : Vec Ideal S1000448x1 .f32) (ix2 (row u hu r) 0)) bx bz
  else 0

/-- One step of the accumulator at point `t` adds the tile's contribution. -/
theorem step_tile (c : Dev nD) (t : Fin cfg0.N) (base : Vec Ideal S512x512 .f32) (bx bz : Fin 512) :
    step0 (F := Ideal) (iblk0 V c 0 t) (iblk0 V c 1 t) (iblk0 V c 2 t) (iblk0 V c 3 t) (iblk0 V c 4 t) base (ix2 bx bz)
      = base (ix2 bx bz) + tileAt V c bx bz t.val := by
  have ht : t.val < 1954 := lt_of_lt_of_eq t.isLt N0
  rw [step0_apply]
  unfold tileAt
  rw [dif_pos ht]
  simp only [iblk0_0_apply V c t ht, iblk0_1_apply V c t ht, iblk0_2_apply V c t ht, iblk0_3_apply V c t ht,
    iblk0_4_apply V c t ht]

/-- The accumulator after point `n`, at `(bx, bz)`: the sum of the contributions of the tiles up to `n`. -/
theorem acc0_apply (c : Dev nD) (bx bz : Fin 512) : ∀ (n : ℕ) (h : n < cfg0.N),
    acc0 V c n h (ix2 bx bz) = ∑ u ∈ Finset.range (n + 1), tileAt V c bx bz u
  | 0, h => by
    rw [acc0, step_tile V c ⟨0, h⟩, zero0_apply, zero_add, Finset.sum_range_one]
  | n + 1, h => by
    rw [acc0, step_tile V c ⟨n + 1, h⟩, acc0_apply c bx bz n (Nat.lt_of_succ_lt h), Finset.sum_range_succ _ (n + 1)]

/-- A sum over the 1000448 rows is the sum over the 1954 tiles of the sums over a tile's 512 rows. -/
theorem sum_rows (f : Fin 1000448 → EReal) :
    ∑ p : Fin 1000448, f p = ∑ t : Fin 1954, ∑ r : Fin 512, f (row t.val t.isLt r) :=
  Cert.Spec.sum_tiles (T := 1954) f

/-- After the last point the accumulator holds, at `(bx, bz)`, the bin map of all 1000448 rows. -/
theorem acc0_last (c : Dev nD) (bx bz : Fin 512) (h : 1953 < cfg0.N) :
    acc0 V c 1953 h (ix2 bx bz) = Cert.Spec.pinK (n := 1000448)
      (fun p k => (V c main_v96 : Vec Ideal S1000448x5 .i32) (ix2 p k))
      (fun p k => (V c main_v97 : Vec Ideal S1000448x5 .f32) (ix2 p k))
      (fun p k => (V c main_v98 : Vec Ideal S1000448x5 .i32) (ix2 p k))
      (fun p k => (V c main_v99 : Vec Ideal S1000448x5 .f32) (ix2 p k))
      (fun p => (V c main_v101 : Vec Ideal S1000448x1 .f32) (ix2 p 0)) bx bz := by
  rw [acc0_apply, Finset.sum_range]
  unfold Cert.Spec.pinK
  rw [sum_rows]
  refine Finset.sum_congr rfl fun t _ => ?_
  unfold tileAt
  rw [dif_pos t.isLt]
  rfl

/-- The accumulator at a point whose number is 1953 is the bin map of all rows. -/
theorem acc0_at (c : Dev nD) (bx bz : Fin 512) : ∀ (n : ℕ) (h : n < cfg0.N), n = 1953 →
    acc0 V c n h (ix2 bx bz) = Cert.Spec.pinK (n := 1000448)
      (fun p k => (V c main_v96 : Vec Ideal S1000448x5 .i32) (ix2 p k))
      (fun p k => (V c main_v97 : Vec Ideal S1000448x5 .f32) (ix2 p k))
      (fun p k => (V c main_v98 : Vec Ideal S1000448x5 .i32) (ix2 p k))
      (fun p k => (V c main_v99 : Vec Ideal S1000448x5 .f32) (ix2 p k))
      (fun p => (V c main_v101 : Vec Ideal S1000448x1 .f32) (ix2 p 0)) bx bz := by
  intro n h hn
  subst hn
  exact acc0_last V c bx bz h

/-- The utilisation map of all rows: the bin map scaled by 16384/3125 and clamped between the two words. -/
def util (c : Dev nD) : S512x512.Idx → EReal := fun i =>
  min (Ideal.ofBits .f32 0x3FC00000#32) (max (Ideal.ofBits .f32 0x3F2AAAAB#32)
    (Cert.Spec.pinK (n := 1000448)
      (fun p k => (V c main_v96 : Vec Ideal S1000448x5 .i32) (ix2 p k))
      (fun p k => (V c main_v97 : Vec Ideal S1000448x5 .f32) (ix2 p k))
      (fun p k => (V c main_v98 : Vec Ideal S1000448x5 .i32) (ix2 p k))
      (fun p k => (V c main_v99 : Vec Ideal S1000448x5 .f32) (ix2 p k))
      (fun p => (V c main_v101 : Vec Ideal S1000448x1 .f32) (ix2 p 0)) (i 0) (i 1) * ((16384 / 3125 : ℝ) : EReal)))

/-- The utilisation map at a bin pair. -/
theorem util_apply (c : Dev nD) (bx bz : Fin 512) :
    util V c (ix2 bx bz) = min (Ideal.ofBits .f32 0x3FC00000#32) (max (Ideal.ofBits .f32 0x3F2AAAAB#32)
      (Cert.Spec.pinK (n := 1000448)
      (fun p k => (V c main_v96 : Vec Ideal S1000448x5 .i32) (ix2 p k))
      (fun p k => (V c main_v97 : Vec Ideal S1000448x5 .f32) (ix2 p k))
      (fun p k => (V c main_v98 : Vec Ideal S1000448x5 .i32) (ix2 p k))
      (fun p k => (V c main_v99 : Vec Ideal S1000448x5 .f32) (ix2 p k))
      (fun p => (V c main_v101 : Vec Ideal S1000448x1 .f32) (ix2 p 0)) bx bz * ((16384 / 3125 : ℝ) : EReal))) := rfl

/-- The output window's one block is the whole array: an index of the block is the same index of the array. -/
theorem emb5 (t : Fin cfg0.N) (j : S512x512.Idx) : ((cfg0.win 5).blk t).view.emb j = j := by
  obtain ⟨-, -, -, -, -, -, -, -, -, -, e0, e1⟩ := idx_facts0 t
  funext a; apply Fin.ext
  match a with
  | ⟨0, _⟩ => show win0_5.index t (0 : Fin 2) * 512 + 1 * (j 0).val = (j 0).val; rw [e0]; omega
  | ⟨1, _⟩ => show win0_5.index t (1 : Fin 2) * 512 + 1 * (j 1).val = (j 1).val; rw [e1]; omega

/-- A write-back of window 5 at point `t`: contents `X` of the staging buffer that agree with `G` index by index are
    `G` read through the point's block (the block is the whole array). -/
theorem wb5 (t : Fin cfg0.N) (X G : S512x512.Idx → EReal) (h : ∀ j, X j = G j) :
    (cfg0.win 5).cut (grid0.coords t) X = ((cfg0.win 5).blk t).view.read (Elt Ideal) G := by
  funext j
  show X ((cfg0.win 5).xinj (grid0.coords t) j) = G (((cfg0.win 5).blk t).view.emb j)
  have hx : (cfg0.win 5).xinj (grid0.coords t) j = j := funext fun a => Fin.ext rfl
  rw [hx, emb5 t j]
  exact h j

/-- The value the last point leaves, index by index, is the utilisation map of all rows. -/
theorem fin_last (c : Dev nD) (n : ℕ) (h : n < cfg0.N) (hn : n = 1953) (j : S512x512.Idx) :
    fin0 (acc0 V c n h) j = util V c j := by
  obtain ⟨bx, bz, rfl⟩ : ∃ (bx bz : Fin 512), j = ix2 bx bz := ⟨j 0, j 1, eq_ix2 j⟩
  rw [fin0_apply, acc0_at V c bx bz n h hn, util_apply]

/-- What the one write-back writes is the utilisation map of all rows, read through the point's block. -/
theorem flushed5_eq (c : Dev nD) (t : Fin cfg0.N) (hf : (cfg0.win 5).flush t = true) :
    (dat0 V c).flushed 5 t = ((cfg0.win 5).blk t).view.read (Elt Ideal) (util V c) := by
  have ht : t.val = 1953 := by
    have h1 : t.val % 1954 = 1953 := (flush0_5 t).mp hf
    have h2 : t.val < 1954 := lt_of_lt_of_eq t.isLt N0
    omega
  show (cfg0.win 5).cut (grid0.coords t) ((dat0 V c).after 5 t) = _
  rw [after0_5]
  exact wb5 t _ _ (fin_last V c t.val t.isLt ht)

/-- Every index of the output array lies in the output window's block, at every point. -/
theorem mem5 (t : Fin cfg0.N) (i : S512x512.Idx) : i ∈ ((cfg0.win 5).blk t).view.set := by
  obtain ⟨-, -, -, -, -, -, -, -, -, -, e0, e1⟩ := idx_facts0 t
  show i ∈ ((View.whole main_v102).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    have hi : (i 0).val < 512 := (i 0).isLt
    rw [e0]; omega
  | ⟨1, _⟩ =>
    show win0_5.index t (1 : Fin 2) * 512 ≤ (i 1).val ∧ (i 1).val < win0_5.index t (1 : Fin 2) * 512 + 512
    have hi : (i 1).val < 512 := (i 1).isLt
    rw [e1]; omega

/-- The last point writes its block back, and that block covers the whole output array. -/
theorem cover5 (i : S512x512.Idx) :
    ∃ t : Fin cfg0.N, (cfg0.win 5).flush t = true ∧ i ∈ ((cfg0.win 5).blk t).view.set := by
  have hl : 1953 < cfg0.N := by rw [N0]; decide
  exact ⟨⟨1953, hl⟩, (flush0_5 ⟨1953, hl⟩).mpr (show (1953 : ℕ) % 1954 = 1953 by decide), mem5 _ i⟩

end Val0

/-- The output array after region 0, at the bin pair `(bx, bz)`: the bin map of all 1000448 rows, scaled by
    16384/3125 and clamped between the two words. -/
theorem final0 (V : (c : Dev nD) → (b : Ref sig .tc) → Buf (Elt Ideal) ((c : Thread nD τ).loc b)) (c : Dev nD)
    (bx bz : Fin 512) :
    (dat0 (F := Ideal) V c).arrAt 5 cfg0.N (ValueIdx.ix2 bx bz)
      = min (Ideal.ofBits .f32 0x3FC00000#32) (max (Ideal.ofBits .f32 0x3F2AAAAB#32)
          (Cert.Spec.pinK (n := 1000448) (fun p k => V c main_v96 (ValueIdx.ix2 p k))
            (fun p k => V c main_v97 (ValueIdx.ix2 p k)) (fun p k => V c main_v98 (ValueIdx.ix2 p k))
            (fun p k => V c main_v99 (ValueIdx.ix2 p k)) (fun p => V c main_v101 (ValueIdx.ix2 p 0)) bx bz
            * ((16384 / 3125 : ℝ) : EReal))) := by
  have h := (dat0 V c).arrAt_eq_of_cover 5 (util V c) (fun t hf => flushed5_eq V c t hf) cover5
  rw [h, util_apply]

end Cert.KernelIdeal.Hand

end
-- ==== Proof.KIVal1.lean ====
/-
  Region 1 of the idealized kernel, read as mathematics on the extended reals.

  A grid point of region 1 holds 512 movable nodes. Node r has five x-bin indices with five overlap lengths,
  five y-bin indices with five overlap lengths, and sees the whole 512 × 512 utilisation map u. The body builds,
  for every node and every bin number b along an axis, the total length the node puts on b — five selects
  "bin number = index k ? length k : 0" added up —, multiplies the matrix of x-lengths into the map, multiplies
  the result entrywise by the matrix of y-lengths and sums each row over the bins. At the exact extended reals the
  format changes are the identity, so row r of the result is
      Σ_bz (Σ_bx (x-length of node r on bx) · u bx bz) · (y-length of node r on bz),
  which is `Cert.Spec.outK` of the node's row.
-/
import proofs.«155432_j42700564857383_1_alg».proof.Proof.KIBody
import proofs.«155432_j42700564857383_1_alg».proof.Proof.Spec
import proofs.«155432_j42700564857383_1_alg».proof.Proof.KIReg1
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## One select of a one-hot row -/

/-- A select on "the two words are equal" is the `if` on their equality. -/
theorem select_cmpi_eq {α : Type} (a b : BitVec 32) (x y : α) :
    Scalar.select (IntOp.cmpi .eq a b) x y = if a = b then x else y := by
  by_cases h : a = b
  · rw [if_pos h, IntOp.cmpi_eq.mpr h, select_one]
  · rw [if_neg h, eq_zero_of_ne_one (fun hc => h (IntOp.cmpi_eq.mp hc)), select_zero]

/-- The bin number the iota along the second axis holds at column `b`. -/
theorem binIds_apply (r b : Fin 512) : binIds (ix2 r b) = BitVec.ofNat 32 b.val := by
  unfold binIds
  rw [iota_single_apply]

/-! ## Layout steps at an index -/

/-- Column `k` of a 512 × 5 block, cut out as a 512 × 1 column, holds at row `r` the block's entry (r, k). -/
theorem slice_col_apply {α : Type} (off : Fin 2 → Nat) (x : S512x5.Idx → α) (h : S512x5.Slices off S512x1) (k : Fin 5)
    (h0 : off 0 = 0) (h1 : off 1 = k.val) (r : Fin 512) (z : Fin 1) :
    extractStridedSlice S512x1 off x h (ix2 r z) = x (ix2 r k) :=
  extractStridedSlice_apply off x h (ix2 r z) (ix2 r k) (fun a => by
    match a with
    | ⟨0, _⟩ => show r.val = off 0 + r.val; omega
    | ⟨1, _⟩ => show k.val = off 1 + z.val; omega)

/-- A 512 × 1 column spread over 512 columns holds at (r, b) the column's entry at row `r`. -/
theorem bcast_col_apply {α : Type} (c : S512x1.Idx → α) (h : S512x1.Broadcasts S512x512) (r b : Fin 512) :
    broadcastTo S512x512 c h (ix2 r b) = c (ix2 r 0) :=
  broadcastTo_apply c h (ix2 r b) (ix2 r 0) (fun a => by
    match a with
    | ⟨0, _⟩ => rfl
    | ⟨1, _⟩ => rfl)

/-- One of the five selects of a one-hot row at (r, b): length `k` of node `r` where bin `b` is its index `k`, else zero. -/
theorem ohTerm_apply (ids : IVec S512x5 32) (ws : FVec Ideal S512x5 .f32) (off : Fin 2 → Nat)
    (hs : S512x5.Slices off S512x1) (k : Fin 5) (h0 : off 0 = 0) (h1 : off 1 = k.val) (r b : Fin 512) :
    select (cmpi .eq binIds (broadcastTo S512x512 (extractStridedSlice S512x1 off ids hs) broadcasts_S512x1_S512x512))
        (broadcastTo S512x512 (shapeCast S512x1 (extractStridedSlice S512x1 off ws hs) shapeCasts_S512x1_S512x1)
          broadcasts_S512x1_S512x512)
        (broadcast S512x512 (Scalar.ofBits .f32 0x00000000#32)) (ix2 r b)
      = if BitVec.ofNat 32 b.val = ids (ix2 r k) then ws (ix2 r k) else 0 := by
  rw [select_apply, shapeCast_self, bcast_col_apply, broadcast_apply]
  show Scalar.select (IntOp.cmpi .eq (binIds (ix2 r b)) (broadcastTo S512x512 (extractStridedSlice S512x1 off ids hs)
    broadcasts_S512x1_S512x512 (ix2 r b))) _ _ = _
  rw [binIds_apply, bcast_col_apply, slice_col_apply off ids hs k h0 h1, slice_col_apply off ws hs k h0 h1, select_cmpi_eq]
  show (if _ then _ else Ideal.ofBits .f32 0x00000000#32) = _
  rw [Ideal.ofBits_zero_f32]

/-! ## The one-hot rows -/

/-- The first three terms of the x-side one-hot row. -/
theorem k1_pay7_apply (x0 : Vec Ideal S512x5 .i32) (x1 : Vec Ideal S512x5 .f32) (r b : Fin 512) :
    k1_pay7 (F := Ideal) x0 x1 (ix2 r b)
      = (((0 : EReal) + (if BitVec.ofNat 32 b.val = x0 (ix2 r 0) then x1 (ix2 r 0) else 0))
          + (if BitVec.ofNat 32 b.val = x0 (ix2 r 1) then x1 (ix2 r 1) else 0))
          + (if BitVec.ofNat 32 b.val = x0 (ix2 r 2) then x1 (ix2 r 2) else 0) := by
  unfold k1_pay7 k1_pay2 k1_pay3
  dsimp only
  rw [addf_apply, addf_apply, addf_apply, broadcast_apply,
    ohTerm_apply _ _ _ _ 0 rfl rfl, ohTerm_apply _ _ _ _ 1 rfl rfl, ohTerm_apply _ _ _ _ 2 rfl rfl,
    shapeCast_self, shapeCast_self]
  show Ideal.ofBits .f32 0x00000000#32 + _ + _ + _ = _
  rw [Ideal.ofBits_zero_f32]

/-- The x-side one-hot row at (r, b): the length node `r` puts on bin `b`. -/
theorem xrow_apply (x0 : Vec Ideal S512x5 .i32) (x1 : Vec Ideal S512x5 .f32) (r b : Fin 512) :
    k1_pay10 (F := Ideal) (k1_pay2 x0) (k1_pay3 x1) binIds (k1_pay7 x0 x1) (k1_pay8 x0)
        (Scalar.ofBits .f32 0x00000000#32) (k1_pay9 x1) (ix2 r b)
      = Cert.Spec.oh (fun k => x0 (ix2 r k)) (fun k => x1 (ix2 r k)) (Cert.Spec.bin b) := by
  unfold k1_pay10 k1_pay8 k1_pay9
  dsimp only
  rw [addf_apply, addf_apply, k1_pay7_apply]
  unfold k1_pay2 k1_pay3
  dsimp only
  rw [ohTerm_apply _ _ _ _ 3 rfl rfl, ohTerm_apply _ _ _ _ 4 rfl rfl, shapeCast_self, shapeCast_self]
  unfold Cert.Spec.oh
  rw [Fin.sum_univ_five, zero_add]

/-- The first four terms of the y-side one-hot row. -/
theorem k1_pay11_apply (v5 : IVec S512x5 32) (v7 : FVec Ideal S512x5 .f32) (r b : Fin 512) :
    k1_pay11 (F := Ideal) v5 v7 (ix2 r b)
      = ((((0 : EReal) + (if BitVec.ofNat 32 b.val = v5 (ix2 r 0) then v7 (ix2 r 0) else 0))
          + (if BitVec.ofNat 32 b.val = v5 (ix2 r 1) then v7 (ix2 r 1) else 0))
          + (if BitVec.ofNat 32 b.val = v5 (ix2 r 2) then v7 (ix2 r 2) else 0))
          + (if BitVec.ofNat 32 b.val = v5 (ix2 r 3) then v7 (ix2 r 3) else 0) := by
  unfold k1_pay11
  dsimp only
  rw [addf_apply, addf_apply, addf_apply, addf_apply, broadcast_apply,
    ohTerm_apply _ _ _ _ 0 rfl rfl, ohTerm_apply _ _ _ _ 1 rfl rfl, ohTerm_apply _ _ _ _ 2 rfl rfl,
    ohTerm_apply _ _ _ _ 3 rfl rfl]
  show Ideal.ofBits .f32 0x00000000#32 + _ + _ + _ + _ = _
  rw [Ideal.ofBits_zero_f32]

/-! ## The lane sum, the column cast and the matrix product -/

/-- The sum along the second axis of a 512 × 512 block, at row `r`. -/
theorem laneSum_apply (src : FVec Ideal S512x512 .f32) (r : Fin 512) :
    multiReduction .add [1] S512 src 0x00000000#32 reduces_S512x512_S512 (.inl rfl) rfl (ix1 r)
      = ∑ bz : Fin 512, src (ix2 r bz) := by
  refine (Ideal.multiReduction_add_single src 0x00000000#32 reduces_S512x512_S512 (.inl rfl) rfl (ix1 r)).trans ?_
  refine Finset.sum_congr rfl fun bz _ => congrArg src (funext fun a => Fin.ext ?_)
  match a with
  | ⟨0, _⟩ => rfl
  | ⟨1, _⟩ => rfl

/-- A vector of 512 entries stood up as a 512 × 1 column holds entry `r` at row `r`. -/
theorem col_of_vec_apply {α : Type} (v : S512.Idx → α) (h : S512.ShapeCasts S512x1) (r : Fin 512) (z : Fin 1) :
    shapeCast S512x1 v h (ix2 r z) = v (ix1 r) :=
  shapeCast_apply v h (ix2 r z) (ix1 r) (by
    rw [Shape.rowMajor_val_one, Shape.rowMajor_val_two]
    show r.val = r.val * 1 + z.val
    omega)

/-- The product's operand indices, axis by axis: the left operand is read at (row of the output, contraction index),
    the right at (contraction index, column of the output). -/
theorem lhs_mm_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_mm_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_mm_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_mm_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product of two 512 × 512 matrices into a zero accumulator, at (r, bz): row `r` of the left against column `bz` of the right. -/
theorem mm_apply (A B : FVec Ideal S512x512 .bf16) (r bz : Fin 512) :
    matmul dot_S512x512_S512x512_S512x512_1_0_0_1_n_n none A B (constant (F := Ideal) S512x512 .f32 0x00000000#32) (ix2 r bz)
      = ∑ k : Fin 512, A (ix2 r k) * B (ix2 k bz) := by
  simp only [matmul]
  rw [Ideal.matmul_constant_zero_apply,
    ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r bz) ((ValueIdx.contrEquiv1 dot_S512x512_S512x512_S512x512_1_0_0_1_n_n 512 rfl rfl).symm k) = ix2 r k :=
    funext fun a => Fin.ext (by
      match a with
      | ⟨0, _⟩ => exact lhs_mm_0 _ _
      | ⟨1, _⟩ => exact (lhs_mm_1 _ _).trans hk)
  have er : dot_S512x512_S512x512_S512x512_1_0_0_1_n_n.rhsIdx (ix2 r bz) ((ValueIdx.contrEquiv1 dot_S512x512_S512x512_S512x512_1_0_0_1_n_n 512 rfl rfl).symm k) = ix2 k bz :=
    funext fun a => Fin.ext (by
      match a with
      | ⟨0, _⟩ => exact (rhs_mm_0 _ _).trans hk
      | ⟨1, _⟩ => exact rhs_mm_1 _ _)
  rw [el, er]

/-- The stored column at row `r`: the lane sum of (x-lengths · map) times the completed y-lengths. -/
theorem k1_pay1_apply (v7 : FVec Ideal S512x5 .f32) (v9 : FVec Ideal S512x512 .bf16) (v56 v94 : FVec Ideal S512x512 .f32)
    (v97 : IVec S512x512 1) (r : Fin 512) :
    k1_pay1 (F := Ideal) v7 v9 v56 v94 v97 (ix2 r 0)
      = ∑ bz : Fin 512, (∑ bx : Fin 512, v56 (ix2 r bx) * v9 (ix2 bx bz))
          * (v94 (ix2 r bz) + Scalar.select (v97 (ix2 r bz)) (v7 (ix2 r 4)) 0) := by
  unfold k1_pay1
  dsimp only
  rw [col_of_vec_apply, laneSum_apply]
  refine Finset.sum_congr rfl fun bz _ => ?_
  rw [mulf_apply, mm_apply, addf_apply, select_apply, bcast_col_apply, broadcast_apply, shapeCast_self,
    slice_col_apply _ v7 _ 4 rfl rfl]
  show (∑ k, v56 (ix2 r k) * v9 (ix2 k bz))
      * (v94 (ix2 r bz) + Scalar.select (v97 (ix2 r bz)) (v7 (ix2 r 4)) (Ideal.ofBits .f32 0x00000000#32)) = _
  rw [Ideal.ofBits_zero_f32]

/-- The y-side one-hot row at (r, b), its fifth term added where the stored column is formed. -/
theorem yrow_apply (x2 : Vec Ideal S512x5 .i32) (x3 : Vec Ideal S512x5 .f32) (r b : Fin 512) :
    k1_pay11 (F := Ideal) (k1_pay4 x2) (k1_pay5 x3) (ix2 r b)
        + Scalar.select (k1_pay12 (k1_pay4 x2) (ix2 r b)) (k1_pay5 x3 (ix2 r 4)) 0
      = Cert.Spec.oh (fun k => x2 (ix2 r k)) (fun k => x3 (ix2 r k)) (Cert.Spec.bin b) := by
  rw [k1_pay11_apply]
  unfold k1_pay12 k1_pay4 k1_pay5
  dsimp only
  show _ + Scalar.select (IntOp.cmpi .eq (binIds (ix2 r b)) (broadcastTo S512x512 (extractStridedSlice S512x1 ![0, 4]
    (shapeCast S512x5 x2 shapeCasts_S512x5_S512x5) slices_S512x5_o0_4_S512x1) broadcasts_S512x1_S512x512 (ix2 r b))) _ _ = _
  rw [binIds_apply, bcast_col_apply, slice_col_apply _ _ _ 4 rfl rfl, select_cmpi_eq, shapeCast_self, shapeCast_self]
  unfold Cert.Spec.oh
  rw [Fin.sum_univ_five, zero_add]

/-- Row `r` of region 1's result is the node integral of the map, contracted x-side first. -/
theorem body1_apply (x0 : Vec Ideal S512x5 .i32) (x1 : Vec Ideal S512x5 .f32) (x2 : Vec Ideal S512x5 .i32)
    (x3 : Vec Ideal S512x5 .f32) (x4 : Vec Ideal S512x512 .bf16) (r : Fin 512) :
    body1 (F := Ideal) x0 x1 x2 x3 x4 (ValueIdx.ix2 r 0)
      = Cert.Spec.outK (fun k => x0 (ValueIdx.ix2 r k)) (fun k => x1 (ValueIdx.ix2 r k))
          (fun k => x2 (ValueIdx.ix2 r k)) (fun k => x3 (ValueIdx.ix2 r k)) (fun bx bz => x4 (ValueIdx.ix2 bx bz)) := by
  unfold body1
  rw [k1_pay1_apply]
  unfold Cert.Spec.outK
  refine Finset.sum_congr rfl fun bz _ => ?_
  rw [yrow_apply]
  refine congrArg (· * _) (Finset.sum_congr rfl fun bx _ => ?_)
  rw [xrow_apply]
  unfold k1_pay6
  dsimp only
  rw [shapeCast_self]

/-! ## From the blocks to the array

Point `t` of the grid sees rows 512 t … 512 t + 511 of the four node arrays and of the result column, and the whole
map. So what point `t` writes back is rows 512 t … 512 t + 511 of ONE column over all 900096 padded rows: row `p`
holds the node integral of row `p` of the four node arrays against the map. Every row lies in the block of the
point `p / 512`, so after the last point the result array is that column. -/

section Blocks

open Idealize.ShloMosaic.TcCoe
open Idealize.ShloMosaic.Pipeline (Dat)

variable (V : (c : Dev nD) → (b : Ref sig .tc) → Buf (Elt Ideal) ((c : Thread nD τ).loc b))

/-- The result column over all padded rows, from the arrays as the region finds them. -/
def outArr (c : Dev nD) : S900096x1.Idx → EReal := fun i =>
  Cert.Spec.outK (fun k => (V c main_v176 : Vec Ideal S900096x5 .i32) (ix2 (i 0) k))
    (fun k => (V c main_v177 : Vec Ideal S900096x5 .f32) (ix2 (i 0) k))
    (fun k => (V c main_v178 : Vec Ideal S900096x5 .i32) (ix2 (i 0) k))
    (fun k => (V c main_v179 : Vec Ideal S900096x5 .f32) (ix2 (i 0) k))
    (fun bx bz => (V c main_v103 : Vec Ideal S512x512 .bf16) (ix2 bx bz))

/-- The block indices of the six windows at point `t`: the four node windows and the result move with the point
    along the rows, the map's block stays at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` (the nodes' x-bin indices): its entry (r, k) is the array's entry (512 t + r, k). -/
theorem iblk1_0_apply (c : Dev nD) (t : Fin cfg1.N) (r : Fin 512) (k : Fin 5) (h : t.val * 512 + r.val < 900096) :
    iblk1 (F := Ideal) V c 0 t (ix2 r k)
      = (V c main_v176 : Vec Ideal S900096x5 .i32) (ix2 ⟨t.val * 512 + r.val, h⟩ k) := by
  obtain ⟨e00, e01, e10, e11, e20, e21, e30, e31, -⟩ := idx_facts1 t
  show (V c main_v176 : Vec Ideal S900096x5 .i32) (((cfg1.win 0).blk t).view.emb (ix2 r k)) = _
  refine congrArg _ (funext fun a => Fin.ext ?_)
  match a with
  | ⟨0, _⟩ => show win1_0.index t (0 : Fin 2) * 512 + 1 * r.val = t.val * 512 + r.val; omega
  | ⟨1, _⟩ => show win1_0.index t (1 : Fin 2) * 5 + 1 * k.val = k.val; omega

/-- Window 1's block at point `t` (their x-overlap lengths): its entry (r, k) is the array's entry (512 t + r, k). -/
theorem iblk1_1_apply (c : Dev nD) (t : Fin cfg1.N) (r : Fin 512) (k : Fin 5) (h : t.val * 512 + r.val < 900096) :
    iblk1 (F := Ideal) V c 1 t (ix2 r k)
      = (V c main_v177 : Vec Ideal S900096x5 .f32) (ix2 ⟨t.val * 512 + r.val, h⟩ k) := by
  obtain ⟨e00, e01, e10, e11, e20, e21, e30, e31, -⟩ := idx_facts1 t
  show (V c main_v177 : Vec Ideal S900096x5 .f32) (((cfg1.win 1).blk t).view.emb (ix2 r k)) = _
  refine congrArg _ (funext fun a => Fin.ext ?_)
  match a with
  | ⟨0, _⟩ => show win1_1.index t (0 : Fin 2) * 512 + 1 * r.val = t.val * 512 + r.val; omega
  | ⟨1, _⟩ => show win1_1.index t (1 : Fin 2) * 5 + 1 * k.val = k.val; omega

/-- Window 2's block at point `t` (the nodes' y-bin indices): its entry (r, k) is the array's entry (512 t + r, k). -/
theorem iblk1_2_apply (c : Dev nD) (t : Fin cfg1.N) (r : Fin 512) (k : Fin 5) (h : t.val * 512 + r.val < 900096) :
    iblk1 (F := Ideal) V c 2 t (ix2 r k)
      = (V c main_v178 : Vec Ideal S900096x5 .i32) (ix2 ⟨t.val * 512 + r.val, h⟩ k) := by
  obtain ⟨e00, e01, e10, e11, e20, e21, e30, e31, -⟩ := idx_facts1 t
  show (V c main_v178 : Vec Ideal S900096x5 .i32) (((cfg1.win 2).blk t).view.emb (ix2 r k)) = _
  refine congrArg _ (funext fun a => Fin.ext ?_)
  match a with
  | ⟨0, _⟩ => show win1_2.index t (0 : Fin 2) * 512 + 1 * r.val = t.val * 512 + r.val; omega
  | ⟨1, _⟩ => show win1_2.index t (1 : Fin 2) * 5 + 1 * k.val = k.val; omega

/-- Window 3's block at point `t` (their y-overlap lengths): its entry (r, k) is the array's entry (512 t + r, k). -/
theorem iblk1_3_apply (c : Dev nD) (t : Fin cfg1.N) (r : Fin 512) (k : Fin 5) (h : t.val * 512 + r.val < 900096) :
    iblk1 (F := Ideal) V c 3 t (ix2 r k)
      = (V c main_v179 : Vec Ideal S900096x5 .f32) (ix2 ⟨t.val * 512 + r.val, h⟩ k) := by
  obtain ⟨e00, e01, e10, e11, e20, e21, e30, e31, -⟩ := idx_facts1 t
  show (V c main_v179 : Vec Ideal S900096x5 .f32) (((cfg1.win 3).blk t).view.emb (ix2 r k)) = _
  refine congrArg _ (funext fun a => Fin.ext ?_)
  match a with
  | ⟨0, _⟩ => show win1_3.index t (0 : Fin 2) * 512 + 1 * r.val = t.val * 512 + r.val; omega
  | ⟨1, _⟩ => show win1_3.index t (1 : Fin 2) * 5 + 1 * k.val = k.val; omega

/-- Window 4's block at every point is the whole map. -/
theorem iblk1_4_apply (c : Dev nD) (t : Fin cfg1.N) (bx bz : Fin 512) :
    iblk1 (F := Ideal) V c 4 t (ix2 bx bz) = (V c main_v103 : Vec Ideal S512x512 .bf16) (ix2 bx bz) := by
  obtain ⟨-, -, -, -, -, -, -, -, e40, e41, -⟩ := idx_facts1 t
  show (V c main_v103 : Vec Ideal S512x512 .bf16) (((cfg1.win 4).blk t).view.emb (ix2 bx bz)) = _
  refine congrArg _ (funext fun a => Fin.ext ?_)
  match a with
  | ⟨0, _⟩ => show win1_4.index t (0 : Fin 2) * 512 + 1 * bx.val = bx.val; omega
  | ⟨1, _⟩ => show win1_4.index t (1 : Fin 2) * 512 + 1 * bz.val = bz.val; omega

/-- Row `r` of the result window's block at point `t` sits at row 512 t + r of the result array. -/
theorem emb1_5 (t : Fin cfg1.N) (r : Fin 512) (z : Fin 1) (h : t.val * 512 + r.val < 900096) :
    ((cfg1.win 5).blk t).view.emb (ix2 r z) = (ix2 ⟨t.val * 512 + r.val, h⟩ 0 : S900096x1.Idx) := by
  obtain ⟨-, -, -, -, -, -, -, -, -, -, e50, e51⟩ := idx_facts1 t
  refine funext fun a => Fin.ext ?_
  match a with
  | ⟨0, _⟩ => show win1_5.index t (0 : Fin 2) * 512 + 1 * r.val = t.val * 512 + r.val; omega
  | ⟨1, _⟩ => show win1_5.index t (1 : Fin 2) * 1 + 1 * z.val = 0; omega

/-- A point's rows stay inside the padded array: 1758 points of 512 rows. -/
theorem row_lt (t : Fin cfg1.N) (r : Fin 512) : t.val * 512 + r.val < 900096 := by
  have hN : cfg1.N = 1758 := N_1
  have ht : t.val < cfg1.N := t.isLt
  have hr : r.val < 512 := r.isLt
  omega

/-- What point `t` writes back is its block of the result column. -/
theorem flushed1_eq (c : Dev nD) (t : Fin cfg1.N) :
    (dat1 (F := Ideal) V c).flushed 5 t = ((cfg1.win 5).blk t).view.read (Elt Ideal) (outArr V c) := by
  show (cfg1.win 5).cut (grid1.coords t) ((dat1 (F := Ideal) V c).after 5 t) = _
  rw [after1_5]
  funext j
  obtain ⟨r, z, rfl⟩ : ∃ (r : Fin 512) (z : Fin 1), j = ix2 r z := ⟨j 0, j 1, eq_ix2 j⟩
  obtain rfl : z = 0 := Subsingleton.elim _ _
  show body1 (F := Ideal) (iblk1 V c 0 t) (iblk1 V c 1 t) (iblk1 V c 2 t) (iblk1 V c 3 t) (iblk1 V c 4 t) (ix2 r 0)
    = outArr V c (((cfg1.win 5).blk t).view.emb (ix2 r 0))
  rw [body1_apply, emb1_5 t r 0 (row_lt t r)]
  unfold outArr
  simp only [iblk1_0_apply V c t r _ (row_lt t r), iblk1_1_apply V c t r _ (row_lt t r), iblk1_2_apply V c t r _ (row_lt t r),
    iblk1_3_apply V c t r _ (row_lt t r), iblk1_4_apply V c t]

/-- After the last point, row `p` of the result array holds the node integral of row `p` of the node arrays
    against the map. -/
theorem final1 (c : Dev nD) (p : Fin 900096) :
    (dat1 (F := Ideal) V c).arrAt 5 cfg1.N (ValueIdx.ix2 p 0)
      = Cert.Spec.outK (fun k => (V c main_v176 : Vec Ideal S900096x5 .i32) (ValueIdx.ix2 p k))
          (fun k => (V c main_v177 : Vec Ideal S900096x5 .f32) (ValueIdx.ix2 p k))
          (fun k => (V c main_v178 : Vec Ideal S900096x5 .i32) (ValueIdx.ix2 p k))
          (fun k => (V c main_v179 : Vec Ideal S900096x5 .f32) (ValueIdx.ix2 p k))
          (fun bx bz => (V c main_v103 : Vec Ideal S512x512 .bf16) (ValueIdx.ix2 bx bz)) := by
  have hN : cfg1.N = 1758 := N_1
  have hp : p.val < 900096 := p.isLt
  let t : Fin cfg1.N := ⟨p.val / 512, by omega⟩
  let r : Fin 512 := ⟨p.val % 512, Nat.mod_lt _ (by decide)⟩
  have hrow : (⟨t.val * 512 + r.val, row_lt t r⟩ : Fin 900096) = p := Fin.ext (by
    show p.val / 512 * 512 + p.val % 512 = p.val
    omega)
  have hmem : (ix2 p 0 : S900096x1.Idx) ∈ ((cfg1.win 5).blk t).view.set := by
    have h := ((cfg1.win 5).blk t).view.emb_mem_set (ix2 r 0)
    rw [emb1_5 t r 0 (row_lt t r), hrow] at h
    exact h
  exact (dat1 (F := Ideal) V c).arrAt_apply_of_mem 5 (outArr V c) (fun t _ => flushed1_eq V c t) cfg1.N t (ix2 p 0) t.isLt
    (flush1_5 t) hmem

end Blocks

end Cert.KernelIdeal.Hand

end
-- ==== Proof.RefTail.lean ====
/-
  The reference's last operations, read at an index, over extended reals.

  Along each axis a node touches five consecutive bins: five bin indices, each the result of a signed clamp to
  [0, 511], and five overlap lengths, each a maximum with zero kept or replaced by zero. Hence every index,
  read as a natural number, is below 512, and every length is non-negative.

  The bin map is a scatter-add into zeros: the update numbered 25 p + 5 k + k' carries
  (x-length k · y-length k') · density of node p to the flattened index ix[p,k] · 512 + iy[p,k'], which is
  non-negative and below 262144, so the wrap-around test on a negative index keeps it. The utilisation is the
  quotient by a constant clamped between two constants. The node integral gathers the utilisation at the 25
  flattened indices of a movable node and sums the 25 products over both axes.
-/
import proofs.«155432_j42700564857383_1_alg».proof.Proof.RefRead
import proofs.«155432_j42700564857383_1_alg».proof.Proof.Spec
import Idealize.ShloMosaic.Lib.ValueIdx
import Idealize.ShloMosaic.Lib.ValueIdxRank1
import Idealize.ShloMosaic.Lib.IdealHost
import Idealize.ShloMosaic.Lib.StableHlo.Predicate
import Idealize.ShloMosaic.PureOps.Ideal.Laws

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx Idealize.ShloMosaic.StableHlo.Predicate
open scoped BigOperators

/-- The node positions, the two node-size arrays and the pin offsets, as arrays of extended reals and words. -/
abbrev Pos := (⟨S2400000, .f32⟩ : BufTy).Contents (Elt Ideal)
abbrev Sz := (⟨S1200000, .f32⟩ : BufTy).Contents (Elt Ideal)
abbrev Pins := (⟨S1000001, .i32⟩ : BufTy).Contents (Elt Ideal)

/-! ## Words: a signed clamp to [0, 511] -/

/-- A word clamped (signed) below by 0 and above by 511 is, as a natural number, below 512. -/
theorem clamp_toNat_lt (a : BitVec 32) : (IntOp.minsi 511#32 (IntOp.maxsi 0#32 a)).toNat < 512 := by
  have h511 : (511#32 : BitVec 32).toInt = 511 := by decide
  have h0 : (0#32 : BitVec 32).toInt = 0 := by decide
  have hT := BitVec.toInt_eq_toNat_cond a
  have hlt := a.isLt
  unfold IntOp.minsi IntOp.maxsi
  by_cases h1 : a.slt 0#32
  · rw [if_pos h1]
    have : ¬ (511#32 : BitVec 32).slt 0#32 := by decide
    rw [if_neg this]; decide
  · rw [if_neg h1]
    simp only [BitVec.slt, h0, decide_eq_true_eq, not_lt] at h1
    by_cases h2 : (511#32 : BitVec 32).slt a
    · rw [if_pos h2]; decide
    · rw [if_neg h2]
      simp only [BitVec.slt, h511, decide_eq_true_eq, not_lt] at h2
      split at hT <;> omega

/-- Two indices below 512 flatten without wrapping. -/
theorem flat_toNat (a b : BitVec 32) (ha : a.toNat < 512) (hb : b.toNat < 512) :
    (IntOp.addi (IntOp.muli a 512#32) b).toNat = a.toNat * 512 + b.toNat := by
  have h512 : (512#32 : BitVec 32).toNat = 512 := by decide
  unfold IntOp.addi IntOp.muli
  rw [BitVec.toNat_add, BitVec.toNat_mul, h512]
  omega

/-- The flattened index of two indices below 512 is below 262144. -/
theorem flat_lt (a b : BitVec 32) (ha : a.toNat < 512) (hb : b.toNat < 512) :
    (IntOp.addi (IntOp.muli a 512#32) b).toNat < 262144 := by
  rw [flat_toNat a b ha hb]; omega

/-- The wrap-around of a negative index leaves an index below 262144 alone. -/
theorem wrap_keep (w : BitVec 32) (hw : w.toNat < 262144) :
    Scalar.select (IntOp.cmpi .slt w 0#32) (IntOp.addi w 262144#32) w = w := by
  have h : ¬ IntOp.cmpi .slt w 0#32 = 1#1 := by
    rw [slt_iff_toNat (by omega) (by decide)]
    exact Nat.not_lt_zero _
  unfold Scalar.select
  exact if_neg h

/-- A word below 262144, read signed and clamped into [0, 262143], is itself. -/
theorem clamp_keep (w : BitVec 32) (hw : w.toNat < 262144) : min w.toInt.toNat 262143 = w.toNat := by
  rw [toInt_eq_toNat_of_lt (by omega)]
  simp only [Int.toNat_natCast]
  omega

/-! ## Index ranges -/

theorem ix_range (x0 : Pos) (x1 : Sz) (i : S1000000x5.Idx) : (Read.val_main_v43 (F := Ideal) x0 x1 i).toNat < 512 := by
  rw [Read.val_main_v43_apply, Read.val_main_call1_v4_apply, Read.val_main_call1_v3_apply, Read.val_main_c_11_apply,
    Read.val_main_call1_v2_apply, Read.val_main_call1_v1_apply, Read.val_main_call1_v0_apply, Read.val_main_c_10_apply]
  exact clamp_toNat_lt _

theorem iy_range (x0 : Pos) (x2 : Sz) (i : S1000000x5.Idx) : (Read.val_main_v78 (F := Ideal) x0 x2 i).toNat < 512 := by
  rw [Read.val_main_v78_apply, Read.val_main_call4_v4_apply, Read.val_main_call4_v3_apply, Read.val_main_c_23_apply,
    Read.val_main_call4_v2_apply, Read.val_main_call4_v1_apply, Read.val_main_call4_v0_apply, Read.val_main_c_22_apply]
  exact clamp_toNat_lt _

theorem jx_range (x0 : Pos) (i : S900000x5.Idx) : (Read.val_main_v145 (F := Ideal) x0 i).toNat < 512 := by
  rw [Read.val_main_v145_apply, Read.val_main_call8_v4_apply, Read.val_main_call8_v3_apply, Read.val_main_c_42_apply,
    Read.val_main_call8_v2_apply, Read.val_main_call8_v1_apply, Read.val_main_call8_v0_apply, Read.val_main_c_41_apply]
  exact clamp_toNat_lt _

theorem jy_range (x0 : Pos) (i : S900000x5.Idx) : (Read.val_main_v178 (F := Ideal) x0 i).toNat < 512 := by
  rw [Read.val_main_v178_apply, Read.val_main_call11_v4_apply, Read.val_main_call11_v3_apply, Read.val_main_c_54_apply,
    Read.val_main_call11_v2_apply, Read.val_main_call11_v1_apply, Read.val_main_call11_v0_apply, Read.val_main_c_53_apply]
  exact clamp_toNat_lt _

/-! ## Non-negative lengths -/

/-- A maximum with zero, kept or replaced by zero, is non-negative. -/
theorem select_max_zero_nonneg (c : BitVec 1) (a : EReal) :
    0 ≤ Scalar.select c (max a (Ideal.ofBits .f32 0x00000000#32)) (Ideal.ofBits .f32 0x00000000#32) := by
  rw [Ideal.ofBits_zero_f32]
  unfold Scalar.select
  split
  · exact le_max_right _ _
  · exact le_refl _

theorem ovx_nonneg (x0 : Pos) (x1 : Sz) (i : S1000000x5.Idx) : 0 ≤ Read.val_main_v60 (F := Ideal) x0 x1 i := by
  rw [Read.val_main_v60_apply, Read.val_main_v59_apply, Read.val_main_v58_apply, Read.val_main_cst_15_apply,
    Read.val_main_call2_v1_apply, Read.val_main_call2_v0_apply, Read.val_main_cst_16_apply]
  exact select_max_zero_nonneg _ _

theorem ovy_nonneg (x0 : Pos) (x2 : Sz) (i : S1000000x5.Idx) : 0 ≤ Read.val_main_v95 (F := Ideal) x0 x2 i := by
  rw [Read.val_main_v95_apply, Read.val_main_v94_apply, Read.val_main_v93_apply, Read.val_main_cst_27_apply,
    Read.val_main_call5_v1_apply, Read.val_main_call5_v0_apply, Read.val_main_cst_28_apply]
  exact select_max_zero_nonneg _ _

theorem wx_nonneg (x0 : Pos) (x1 : Sz) (i : S900000x5.Idx) : 0 ≤ Read.val_main_v162 (F := Ideal) x0 x1 i := by
  rw [Read.val_main_v162_apply, Read.val_main_v161_apply, Read.val_main_v160_apply, Read.val_main_cst_46_apply,
    Read.val_main_call9_v1_apply, Read.val_main_call9_v0_apply, Read.val_main_cst_47_apply]
  exact select_max_zero_nonneg _ _

theorem wy_nonneg (x0 : Pos) (x2 : Sz) (i : S900000x5.Idx) : 0 ≤ Read.val_main_v195 (F := Ideal) x0 x2 i := by
  rw [Read.val_main_v195_apply, Read.val_main_v194_apply, Read.val_main_v193_apply, Read.val_main_cst_58_apply,
    Read.val_main_call12_v1_apply, Read.val_main_call12_v0_apply, Read.val_main_cst_59_apply]
  exact select_max_zero_nonneg _ _

/-! ## The three operations that are not read pointwise, as laws over any operands -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over axes 1 and 2 of a [900000, 5, 5] array at node i: the initial value plus the 25 entries of row i. -/
theorem reduce12_apply (x : FVec Ideal S900000x5x5 .f32) (init : S_.Idx → Ideal .f32) (i : Fin 900000) :
    Host.reduceAdd x init reducesTo_S900000x5x5_S900000_d1_2 h_S_ (ix1 i)
      = init (Shape.Idx.first h_S_) + ∑ k : Fin 5, ∑ k' : Fin 5, x (ix3 i k k') := by
  rw [hostReduceAdd_apply]
  unfold Ideal.hostReduceAdd
  refine congrArg (fun z => init (Shape.Idx.first h_S_) + z) ?_
  rw [Finset.sum_filter, sum_idx3]
  have hd : ∀ q : S900000x5x5.Idx, (reducesTo_S900000x5x5_S900000_d1_2.drop q = ix1 i) ↔ q 0 = i := by
    intro q
    have h0 : ((reducesTo_S900000x5x5_S900000_d1_2.drop q 0 : Fin _) : Nat) = q 0 :=
      Shape.ReducesTo.drop_apply_val_of_eq _ q 0 0
    constructor
    · intro h; apply Fin.ext; rw [← h0, h]
    · intro h; funext b
      obtain rfl : b = 0 := Subsingleton.elim _ _
      apply Fin.ext; rw [h0, h]
  rw [Finset.sum_eq_single i]
  · exact Finset.sum_congr rfl fun k _ => Finset.sum_congr rfl fun k' _ => if_pos ((hd _).mpr rfl)
  · intro a _ ha
    exact Finset.sum_eq_zero fun k _ => Finset.sum_eq_zero fun k' _ => if_neg fun h => ha ((hd _).mp h)
  · intro h; exact absurd (Finset.mem_univ i) h

/-- The gather of a flat array of 262144 entries at a [900000, 5, 5, 1] array of start indices, read at an index:
    the entry at the start index, read signed and clamped into [0, 262143]. -/
theorem gather_apply {α : Type} (x : S262144.Idx → α) (idx : IVec S900000x5x5x1 32) (y : S900000x5x5.Idx) :
    Host.gather gather_S262144_S900000x5x5x1_S900000x5x5_n_0_n_n_0_3_1 x idx y
      = x (ix1 ⟨min (idx (ix4 (y 0) (y 1) (y 2) 0)).toInt.toNat 262143, by omega⟩) := by
  unfold Host.gather
  congr 1
  funext a
  obtain rfl : a = 0 := Subsingleton.elim _ _
  refine Fin.ext ?_
  show gather_S262144_S900000x5x5x1_S900000x5x5_n_0_n_n_0_3_1.start y idx 0
      + gather_S262144_S900000x5x5x1_S900000x5x5_n_0_n_n_0_3_1.batchCoord y 0
      + gather_S262144_S900000x5x5x1_S900000x5x5_n_0_n_n_0_3_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S262144_S900000x5x5x1_S900000x5x5_n_0_n_n_0_3_1.startIndexMap from List.mem_singleton.mpr rfl)]
  have hsi : gather_S262144_S900000x5x5x1_S900000x5x5_n_0_n_n_0_3_1.siIdx y
      ⟨List.idxOf (0 : Fin 1) gather_S262144_S900000x5x5x1_S900000x5x5_n_0_n_n_0_3_1.startIndexMap,
      List.idxOf_lt_length_iff.2 (List.mem_singleton.mpr rfl)⟩ = ix4 (y 0) (y 1) (y 2) 0 := by
    funext b; refine Fin.ext ?_
    match b with
    | ⟨0, _⟩ => rfl
    | ⟨1, _⟩ => rfl
    | ⟨2, _⟩ => rfl
    | ⟨3, _⟩ => rfl
  rw [hsi]
  rfl

/-- The same at (i, k, k'), with a start index below 262144: the entry at that index. -/
theorem gather_apply_inb {α : Type} (x : S262144.Idx → α) (idx : IVec S900000x5x5x1 32) (i : Fin 900000) (k k' : Fin 5)
    (w : BitVec 32) (hidx : idx (ix4 i k k' 0) = w) (hw : w.toNat < 262144) :
    Host.gather gather_S262144_S900000x5x5x1_S900000x5x5_n_0_n_n_0_3_1 x idx (ix3 i k k') = x (ix1 ⟨w.toNat, hw⟩) := by
  rw [gather_apply]
  refine congrArg (fun t => x (ix1 t)) (Fin.ext ?_)
  show min (idx (ix4 i k k' 0)).toInt.toNat 262143 = w.toNat
  rw [hidx]
  exact clamp_keep w hw

/-- The scatter's start on the one operand axis for update j: the index word of row j, read signed. -/
theorem scatter_start (idx : IVec S25000000x1 32) (j : S25000000.Idx) (a : Fin S262144.rank) :
    scatter_S262144_S25000000x1_S25000000_n_0_0_1.start j idx a = (idx (ix2 (j 0) 0)).toInt := by
  obtain rfl : a = 0 := Subsingleton.elim _ _
  unfold ScatterDims.start
  rw [dif_pos (show (0 : Fin 1) ∈ scatter_S262144_S25000000x1_S25000000_n_0_0_1.scatterDimsToOperandDims from List.mem_singleton.mpr rfl)]
  have hsi : scatter_S262144_S25000000x1_S25000000_n_0_0_1.siIdx j
      ⟨List.idxOf (0 : Fin 1) scatter_S262144_S25000000x1_S25000000_n_0_0_1.scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter has no update window: the window coordinate is 0. -/
theorem scatter_window (j : S25000000.Idx) (a : Fin S262144.rank) :
    scatter_S262144_S25000000x1_S25000000_n_0_0_1.window j a = 0 := by
  obtain rfl : a = 0 := Subsingleton.elim _ _
  unfold ScatterDims.window
  rw [dif_neg]
  intro h
  have h' := (List.mem_filter.mp h).2
  have h'' : (0 : Fin S262144.rank) ∉ scatter_S262144_S25000000x1_S25000000_n_0_0_1.insertedWindowDims := by simpa using h'
  exact h'' (List.mem_singleton.mpr rfl)

/-- An update whose index word is below 262144 lands at that entry. -/
theorem scatter_resultIdx (idx : IVec S25000000x1 32) (j : S25000000.Idx) (h : (idx (ix2 (j 0) 0)).toNat < 262144) :
    scatter_S262144_S25000000x1_S25000000_n_0_0_1.resultIdx? j idx = some (ix1 ⟨(idx (ix2 (j 0) 0)).toNat, h⟩) := by
  have hti : (idx (ix2 (j 0) 0)).toInt = ((idx (ix2 (j 0) 0)).toNat : Int) := toInt_eq_toNat_of_lt (by omega)
  have hall : ∀ a, 0 ≤ scatter_S262144_S25000000x1_S25000000_n_0_0_1.start j idx a + scatter_S262144_S25000000x1_S25000000_n_0_0_1.window j a
      ∧ scatter_S262144_S25000000x1_S25000000_n_0_0_1.start j idx a + scatter_S262144_S25000000x1_S25000000_n_0_0_1.window j a < S262144.size a := by
    intro a
    rw [scatter_start, scatter_window, hti]
    obtain rfl : a = 0 := Subsingleton.elim _ _
    refine ⟨by omega, ?_⟩
    show ((idx (ix2 (j 0) 0)).toNat : Int) + ((0 : Nat) : Int) < ((262144 : Nat) : Int)
    omega
  unfold ScatterDims.resultIdx?
  rw [dif_pos hall]
  refine congrArg some (funext fun a => Fin.ext ?_)
  obtain rfl : a = 0 := Subsingleton.elim _ _
  show (scatter_S262144_S25000000x1_S25000000_n_0_0_1.start j idx 0 + scatter_S262144_S25000000x1_S25000000_n_0_0_1.window j 0).toNat = (idx (ix2 (j 0) 0)).toNat
  rw [scatter_start, scatter_window, hti]
  omega

/-- The scatter-add of 25,000,000 updates into a flat array of 262144 entries, every index word below 262144, at
    entry b: the entry plus the updates whose index word is b. -/
theorem scatter_apply (x : FVec Ideal S262144 .f32) (idx : IVec S25000000x1 32) (upd : FVec Ideal S25000000 .f32)
    (hidx : ∀ n : Fin 25000000, (idx (ix2 n 0)).toNat < 262144) (b : Fin 262144) :
    Host.scatterAdd scatter_S262144_S25000000x1_S25000000_n_0_0_1 x idx upd (ix1 b)
      = x (ix1 b) + ∑ n : Fin 25000000, if idx (ix2 n 0) = BitVec.ofNat 32 b.val then upd (ix1 n) else 0 := by
  show Ideal.hostScatterAdd scatter_S262144_S25000000x1_S25000000_n_0_0_1 x idx upd (ix1 b) = _
  unfold Ideal.hostScatterAdd
  refine congrArg (fun z => x (ix1 b) + z) ?_
  rw [Finset.sum_filter, ← Equiv.sum_comp (idxEquiv1 (n := 25000000)).symm]
  refine Finset.sum_congr rfl fun n _ => ?_
  show (if scatter_S262144_S25000000x1_S25000000_n_0_0_1.resultIdx? (ix1 n) idx = some (ix1 b) then upd (ix1 n) else 0) = _
  rw [scatter_resultIdx idx (ix1 n) (hidx n)]
  have hb := b.isLt
  by_cases hc : idx (ix2 n 0) = BitVec.ofNat 32 b.val
  · rw [if_pos hc, if_pos]
    refine congrArg some (congrArg ix1 (Fin.ext ?_))
    show (idx (ix2 n 0)).toNat = b.val
    rw [hc, BitVec.toNat_ofNat]; omega
  · rw [if_neg hc, if_neg]
    intro he
    apply hc
    have h1 : (idx (ix2 n 0)).toNat = b.val := by
      have := congrArg (fun o : Option S262144.Idx => o.map fun i => (i 0).val) he
      simpa using this
    apply BitVec.eq_of_toNat_eq
    rw [BitVec.toNat_ofNat, h1]; omega

/-! ## The updates' numbering -/

/-- The update carrying node p's pair (k, k'): number 25 p + 5 k + k'. -/
def upd (p : Fin 1000000) (k k' : Fin 5) : Fin 25000000 :=
  ⟨25 * p.val + 5 * k.val + k'.val, by have := p.isLt; have := k.isLt; have := k'.isLt; omega⟩

/-- Every update is exactly one (p, k, k'). -/
def updEquiv : Fin 1000000 × Fin 5 × Fin 5 ≃ Fin 25000000 where
  toFun t := upd t.1 t.2.1 t.2.2
  invFun n := (⟨n.val / 25, by have := n.isLt; omega⟩, ⟨n.val / 5 % 5, by omega⟩, ⟨n.val % 5, by omega⟩)
  left_inv t := by
    obtain ⟨p, k, k'⟩ := t
    have := p.isLt; have := k.isLt; have := k'.isLt
    refine Prod.ext (Fin.ext ?_) (Prod.ext (Fin.ext ?_) (Fin.ext ?_))
    · show (25 * p.val + 5 * k.val + k'.val) / 25 = p.val; omega
    · show (25 * p.val + 5 * k.val + k'.val) / 5 % 5 = k.val; omega
    · show (25 * p.val + 5 * k.val + k'.val) % 5 = k'.val; omega
  right_inv n := by
    refine Fin.ext ?_
    show 25 * (n.val / 25) + 5 * (n.val / 5 % 5) + n.val % 5 = n.val; omega

/-- A sum over the updates is the sum over nodes and pairs. -/
theorem sum_upd {M : Type*} [AddCommMonoid M] (f : Fin 25000000 → M) :
    ∑ n, f n = ∑ p : Fin 1000000, ∑ k : Fin 5, ∑ k' : Fin 5, f (upd p k k') := by
  rw [← Equiv.sum_comp updEquiv f, Fintype.sum_prod_type]
  refine Finset.sum_congr rfl fun p _ => ?_
  rw [Fintype.sum_prod_type]
  rfl

/-! ## The bin map, the utilisation, the node integral -/

/-- The scatter's index word of update (p, k, k') is the flattened word ix[p,k] · 512 + iy[p,k']. -/
theorem sidx_apply (x0 : Pos) (x1 x2 : Sz) (p : Fin 1000000) (k k' : Fin 5) :
    Read.val_main_v119 (F := Ideal) x0 x1 x2 (ix2 (upd p k k') 0)
      = Read.val_main_v43 (F := Ideal) x0 x1 (ix2 p k) * 512#32 + Read.val_main_v78 (F := Ideal) x0 x2 (ix2 p k') := by
  have hp := p.isLt; have hk := k.isLt; have hk' := k'.isLt
  have e1 : Read.idx_main_v104 (Read.idx_main_v108 (Read.idx_main_v111 (Read.idx_main_v119 (ix2 (upd p k k') 0)))) = ix2 p k :=
    funext fun a => Fin.ext (by
      match a with
      | ⟨0, _⟩ => show (25 * p.val + 5 * k.val + k'.val) / 25 = p.val; omega
      | ⟨1, _⟩ => show (25 * p.val + 5 * k.val + k'.val) / 5 % 5 = k.val; omega)
  have e2 : Read.idx_main_v107 (Read.idx_main_v109 (Read.idx_main_v111 (Read.idx_main_v119 (ix2 (upd p k k') 0)))) = ix2 p k' :=
    funext fun a => Fin.ext (by
      match a with
      | ⟨0, _⟩ => show (25 * p.val + 5 * k.val + k'.val) / 25 = p.val; omega
      | ⟨1, _⟩ => show (25 * p.val + 5 * k.val + k'.val) % 5 = k'.val; omega)
  rw [Read.val_main_v119_apply, Read.val_main_v118_apply, Read.val_main_v115_apply, Read.val_main_v114_apply,
    Read.val_main_c_31_apply, Read.val_main_v117_apply, Read.val_main_v116_apply, Read.val_main_c_32_apply,
    Read.val_main_v111_apply, Read.val_main_v110_apply, Read.val_main_v108_apply, Read.val_main_v106_apply,
    Read.val_main_v104_apply, Read.val_main_v105_apply, Read.val_main_c_29_apply, Read.val_main_v109_apply,
    Read.val_main_v107_apply, e1, e2]
  exact wrap_keep _ (flat_lt _ _ (ix_range x0 x1 _) (iy_range x0 x2 _))

/-- The contribution of update (p, k, k'): (x-length k · y-length k') · density of node p. -/
theorem supd_apply (x0 : Pos) (x1 x2 : Sz) (x3 : Pins) (p : Fin 1000000) (k k' : Fin 5) :
    Read.val_main_v113 (F := Ideal) x0 x1 x2 x3 (ix1 (upd p k k'))
      = (Read.val_main_v60 (F := Ideal) x0 x1 (ix2 p k) * Read.val_main_v95 (F := Ideal) x0 x2 (ix2 p k'))
          * Read.val_main_v25 (F := Ideal) x1 x2 x3 (ix1 p) := by
  have hp := p.isLt; have hk := k.isLt; have hk' := k'.isLt
  have e1 : Read.idx_main_v96 (Read.idx_main_v98 (Read.idx_main_v113 (ix1 (upd p k k')))) = ix2 p k :=
    funext fun a => Fin.ext (by
      match a with
      | ⟨0, _⟩ => show (25 * p.val + 5 * k.val + k'.val) / 25 = p.val; omega
      | ⟨1, _⟩ => show (25 * p.val + 5 * k.val + k'.val) / 5 % 5 = k.val; omega)
  have e2 : Read.idx_main_v97 (Read.idx_main_v99 (Read.idx_main_v113 (ix1 (upd p k k')))) = ix2 p k' :=
    funext fun a => Fin.ext (by
      match a with
      | ⟨0, _⟩ => show (25 * p.val + 5 * k.val + k'.val) / 25 = p.val; omega
      | ⟨1, _⟩ => show (25 * p.val + 5 * k.val + k'.val) % 5 = k'.val; omega)
  have e3 : Read.idx_main_v101 (Read.idx_main_v102 (Read.idx_main_v113 (ix1 (upd p k k')))) = ix1 p :=
    funext fun a => Fin.ext (by
      match a with
      | ⟨0, _⟩ => show (25 * p.val + 5 * k.val + k'.val) / 25 = p.val; omega)
  rw [Read.val_main_v113_apply, Read.val_main_v103_apply, Read.val_main_v100_apply, Read.val_main_v98_apply,
    Read.val_main_v96_apply, Read.val_main_v99_apply, Read.val_main_v97_apply, Read.val_main_v102_apply,
    Read.val_main_v101_apply, e1, e2, e3]
  rfl

/-- The gather's start index at (i, k, k') is the flattened word jx[i,k] · 512 + jy[i,k']. -/
theorem gidx_apply (x0 : Pos) (i : Fin 900000) (k k' : Fin 5) :
    Read.val_main_v208 (F := Ideal) x0 (ix4 i k k' 0)
      = Read.val_main_v145 (F := Ideal) x0 (ix2 i k) * 512#32 + Read.val_main_v178 (F := Ideal) x0 (ix2 i k') := by
  have e1 : Read.idx_main_v196 (Read.idx_main_v200 (Read.idx_main_v208 (ix4 i k k' 0))) = ix2 i k :=
    funext fun a => Fin.ext (by match a with | ⟨0, _⟩ => rfl | ⟨1, _⟩ => rfl)
  have e2 : Read.idx_main_v199 (Read.idx_main_v201 (Read.idx_main_v208 (ix4 i k k' 0))) = ix2 i k' :=
    funext fun a => Fin.ext (by match a with | ⟨0, _⟩ => rfl | ⟨1, _⟩ => rfl)
  rw [Read.val_main_v208_apply, Read.val_main_v207_apply, Read.val_main_v204_apply, Read.val_main_v203_apply,
    Read.val_main_c_61_apply, Read.val_main_v206_apply, Read.val_main_v205_apply, Read.val_main_c_62_apply,
    Read.val_main_v202_apply, Read.val_main_v200_apply, Read.val_main_v198_apply, Read.val_main_v196_apply,
    Read.val_main_v197_apply, Read.val_main_c_60_apply, Read.val_main_v201_apply, Read.val_main_v199_apply, e1, e2]
  exact wrap_keep _ (flat_lt _ _ (jx_range x0 _) (jy_range x0 _))

theorem ref_pin (x0 : Pos) (x1 x2 : Sz) (x3 : Pins) (b : Fin 262144) :
    Read.val_main_v120 (F := Ideal) x0 x1 x2 x3 (ix1 b)
      = Cert.Spec.pinR (n := 1000000) (fun p k => Read.val_main_v43 (F := Ideal) x0 x1 (ix2 p k))
          (fun p k => Read.val_main_v60 (F := Ideal) x0 x1 (ix2 p k))
          (fun p k => Read.val_main_v78 (F := Ideal) x0 x2 (ix2 p k))
          (fun p k => Read.val_main_v95 (F := Ideal) x0 x2 (ix2 p k))
          (fun p => Read.val_main_v25 (F := Ideal) x1 x2 x3 (ix1 p)) (BitVec.ofNat 32 b.val) := by
  have hidx : ∀ n : Fin 25000000, (Read.val_main_v119 (F := Ideal) x0 x1 x2 (ix2 n 0)).toNat < 262144 := by
    intro n
    obtain ⟨⟨p, k, k'⟩, rfl⟩ := updEquiv.surjective n
    show (Read.val_main_v119 (F := Ideal) x0 x1 x2 (ix2 (upd p k k') 0)).toNat < 262144
    rw [sidx_apply]
    exact flat_lt _ _ (ix_range x0 x1 _) (iy_range x0 x2 _)
  unfold Read.val_main_v120
  rw [scatter_apply _ _ _ hidx, Read.val_main_v112_apply, Read.val_main_cst_30_apply, Ideal.ofBits_def,
    Ideal.ofBits_zero_f32, zero_add, sum_upd]
  unfold Cert.Spec.pinR
  refine Finset.sum_congr rfl fun p _ => Finset.sum_congr rfl fun k _ => Finset.sum_congr rfl fun k' _ => ?_
  rw [sidx_apply, supd_apply]

theorem ref_util (x0 : Pos) (x1 x2 : Sz) (x3 : Pins) (b : Fin 262144) :
    Read.val_main_v123 (F := Ideal) x0 x1 x2 x3 (ix1 b)
      = min (Ideal.ofBits .f32 0x3FC00000#32) (max (Ideal.ofBits .f32 0x3F2AAAAB#32)
          (Ideal.div (Read.val_main_v120 (F := Ideal) x0 x1 x2 x3 (ix1 b)) (Ideal.ofBits .f32 0x3E435000#32))) := by
  rw [Read.val_main_v123_apply, Read.val_main_call6_v4_apply, Read.val_main_call6_v3_apply, Read.val_main_cst_35_apply,
    Read.val_main_call6_v2_apply, Read.val_main_call6_v1_apply, Read.val_main_call6_v0_apply, Read.val_main_cst_34_apply,
    Read.val_main_v122_apply, Read.val_main_v121_apply, Read.val_main_cst_33_apply]
  rfl

theorem ref_out (x0 : Pos) (x1 x2 : Sz) (x3 : Pins) (i : Fin 900000) :
    Read.val_main_v216 (F := Ideal) x0 x1 x2 x3 (ix1 i)
      = Cert.Spec.outR (fun k => Read.val_main_v145 (F := Ideal) x0 (ix2 i k))
          (fun k => Read.val_main_v162 (F := Ideal) x0 x1 (ix2 i k))
          (fun k => Read.val_main_v178 (F := Ideal) x0 (ix2 i k))
          (fun k => Read.val_main_v195 (F := Ideal) x0 x2 (ix2 i k))
          (fun w => if h : w.toNat < 262144 then Read.val_main_v123 (F := Ideal) x0 x1 x2 x3 (ix1 ⟨w.toNat, h⟩) else 0) := by
  have e1 : ∀ k k' : Fin 5, Read.idx_main_v210 (Read.idx_main_v212 (ix3 i k k')) = ix2 i k := fun k k' =>
    funext fun a => Fin.ext (by match a with | ⟨0, _⟩ => rfl | ⟨1, _⟩ => rfl)
  have e2 : ∀ k k' : Fin 5, Read.idx_main_v211 (Read.idx_main_v213 (ix3 i k k')) = ix2 i k' := fun k k' =>
    funext fun a => Fin.ext (by match a with | ⟨0, _⟩ => rfl | ⟨1, _⟩ => rfl)
  unfold Read.val_main_v216
  rw [reduce12_apply, Read.val_main_cst_63_apply, Ideal.ofBits_def, Ideal.ofBits_zero_f32, zero_add]
  unfold Cert.Spec.outR
  refine Finset.sum_congr rfl fun k _ => Finset.sum_congr rfl fun k' _ => ?_
  have hw : (Read.val_main_v145 (F := Ideal) x0 (ix2 i k) * 512#32 + Read.val_main_v178 (F := Ideal) x0 (ix2 i k')).toNat < 262144 :=
    flat_lt _ _ (jx_range x0 (ix2 i k)) (jy_range x0 (ix2 i k'))
  rw [Read.val_main_v215_apply, Read.val_main_v214_apply, Read.val_main_v212_apply, Read.val_main_v210_apply,
    Read.val_main_v213_apply, Read.val_main_v211_apply, e1, e2]
  unfold Read.val_main_v209
  rw [gather_apply_inb _ _ i k k' _ (gidx_apply x0 i k k') hw]
  beta_reduce
  rw [dif_pos hw]
  rfl

end Cert.ReferenceIdeal.Hand

end
-- ==== Proof.SpecGlue.lean ====
/-
  The whole chain at the level of Spec.lean: the node integral of the kernel's map is the node integral of the
  reference's map.

  The kernel's map at a bin pair is the bin map of the padded node list, scaled by 16384/3125 and clamped to
  [lo, hi]; the reference's map at a flattened index is the scattered bin map of the unpadded list, divided and
  clamped the same way. Padding rows have zero x-lengths and drop out; the contracted bin map is the scattered
  one at the flattened index; the clamped map is at least lo ≥ 0, so the contracted integral is the gathered one.
-/
import proofs.«155432_j42700564857383_1_alg».proof.Proof.Spec
import proofs.«155432_j42700564857383_1_alg».proof.Proof.SpecLaws

noncomputable section

namespace Cert.Spec

open scoped BigOperators

/-- The kernel's node integral over its clamped, scaled, padded bin map is the reference's gathered integral over
    its clamped, divided, scattered bin map. -/
theorem glue
    (ix : Fin 1000000 → Fin 5 → BitVec 32) (ovx : Fin 1000000 → Fin 5 → EReal)
    (iy : Fin 1000000 → Fin 5 → BitVec 32) (ovy : Fin 1000000 → Fin 5 → EReal) (d : Fin 1000000 → EReal)
    (ixp : Fin 1000448 → Fin 5 → BitVec 32) (ovxp : Fin 1000448 → Fin 5 → EReal)
    (iyp : Fin 1000448 → Fin 5 → BitVec 32) (ovyp : Fin 1000448 → Fin 5 → EReal) (dp : Fin 1000448 → EReal)
    (hixp : ∀ p k, ixp p k = if h : p.val < 1000000 then ix ⟨p.val, h⟩ k else 0#32)
    (hovxp : ∀ p k, ovxp p k = if h : p.val < 1000000 then ovx ⟨p.val, h⟩ k else 0)
    (hiyp : ∀ p k, iyp p k = if h : p.val < 1000000 then iy ⟨p.val, h⟩ k else 0#32)
    (hovyp : ∀ p k, ovyp p k = if h : p.val < 1000000 then ovy ⟨p.val, h⟩ k else 0)
    (hdp : ∀ p, dp p = if h : p.val < 1000000 then d ⟨p.val, h⟩ else 0)
    (hix : ∀ p k, (ix p k).toNat < 512) (hiy : ∀ p k, (iy p k).toNat < 512)
    (hx : ∀ p k, 0 ≤ ovx p k) (hy : ∀ p k, 0 ≤ ovy p k)
    (jx : Fin 5 → BitVec 32) (wx : Fin 5 → EReal) (jy : Fin 5 → BitVec 32) (wy : Fin 5 → EReal)
    (hjx : ∀ k, (jx k).toNat < 512) (hjy : ∀ k, (jy k).toNat < 512) (hwx : ∀ k, 0 ≤ wx k) (hwy : ∀ k, 0 ≤ wy k)
    (lo hi : EReal) (hlo : 0 ≤ lo) (hlohi : lo ≤ hi)
    (divD : EReal → EReal) (hD : ∀ x : EReal, x * ((16384 / 3125 : ℝ) : EReal) = divD x) :
    outK jx wx jy wy (fun bx bz => min hi (max lo (pinK ixp ovxp iyp ovyp dp bx bz * ((16384 / 3125 : ℝ) : EReal))))
      = outR jx wx jy wy (fun w => if h : w.toNat < 262144 then
          min hi (max lo (divD (pinR ix ovx iy ovy d (BitVec.ofNat 32 w.toNat)))) else 0) := by
  have h : 1000000 ≤ 1000448 := by norm_num
  -- padding rows have zero x-lengths
  have hz : ∀ p : Fin 1000448, 1000000 ≤ p.val → ∀ k, ovxp p k = 0 := fun p hp k => by
    rw [hovxp, dif_neg (Nat.not_lt.mpr hp)]
  -- on the first 1000000 rows the padded lists are the lists themselves
  have e1 : (fun p : Fin 1000000 => ixp (Fin.castLE h p)) = ix := by
    funext p k
    have := hixp (Fin.castLE h p) k
    rw [dif_pos (show (Fin.castLE h p).val < 1000000 from p.isLt)] at this
    exact this
  have e2 : (fun p : Fin 1000000 => ovxp (Fin.castLE h p)) = ovx := by
    funext p k
    have := hovxp (Fin.castLE h p) k
    rw [dif_pos (show (Fin.castLE h p).val < 1000000 from p.isLt)] at this
    exact this
  have e3 : (fun p : Fin 1000000 => iyp (Fin.castLE h p)) = iy := by
    funext p k
    have := hiyp (Fin.castLE h p) k
    rw [dif_pos (show (Fin.castLE h p).val < 1000000 from p.isLt)] at this
    exact this
  have e4 : (fun p : Fin 1000000 => ovyp (Fin.castLE h p)) = ovy := by
    funext p k
    have := hovyp (Fin.castLE h p) k
    rw [dif_pos (show (Fin.castLE h p).val < 1000000 from p.isLt)] at this
    exact this
  have e5 : (fun p : Fin 1000000 => dp (Fin.castLE h p)) = d := by
    funext p
    have := hdp (Fin.castLE h p)
    rw [dif_pos (show (Fin.castLE h p).val < 1000000 from p.isLt)] at this
    exact this
  -- the padded contracted bin map is the scattered bin map at the flattened index
  have hpin : ∀ bx bz : Fin 512, pinK ixp ovxp iyp ovyp dp bx bz = pinR ix ovx iy ovy d (flat bx bz) := fun bx bz => by
    rw [pinK_pad h ixp ovxp iyp ovyp dp hz bx bz, e1, e2, e3, e4, e5]
    exact pinK_eq_pinR ix ovx iy ovy d hix hiy hx hy bx bz
  refine outK_eq_outR jx wx jy wy _ _ ?_ hjx hjy hwx hwy ?_
  · intro bx bz
    have hbx := bx.isLt
    have hbz := bz.isLt
    -- a flattened index of two bins is below 512 * 512 and is the word of its own number
    have hlt : (flat bx bz).toNat < 262144 := by
      simp only [BitVec.toNat_ofNat]
      omega
    have hof : BitVec.ofNat 32 (flat bx bz).toNat = flat bx bz := by
      simp only [BitVec.toNat_eq, BitVec.toNat_ofNat]
      omega
    show min hi (max lo (pinK ixp ovxp iyp ovyp dp bx bz * ((16384 / 3125 : ℝ) : EReal)))
      = if h : (flat bx bz).toNat < 262144 then
          min hi (max lo (divD (pinR ix ovx iy ovy d (BitVec.ofNat 32 (flat bx bz).toNat)))) else 0
    rw [dif_pos hlt, hof, hpin, hD]
  · intro bx bz
    exact le_min (hlo.trans hlohi) (hlo.trans (le_max_left _ _))

end Cert.Spec

end
-- ==== Proof.SpecConsts.lean ====
/-
  The three binary32 words of this computation as the extended reals they denote: the divisor 3125/16384, and the
  clamp's bounds, about 2/3 (the word nearest to it from above) and 3/2. Multiplying by 16384/3125 is the
  division by the divisor's word.
-/
import Idealize.ShloMosaic.PureOps.Ideal

noncomputable section

namespace Cert.Spec

open Idealize.ShloMosaic

/-- The divisor's word: sign 0, exponent 124, fraction 4411392, that is 12800000 · 2⁻²⁶ = 3125/16384. -/
theorem ofBits_D : Ideal.ofBits .f32 0x3E435000#32 = ((3125 / 16384 : ℝ) : EReal) := by
  simp [Ideal.ofBits, Ideal.ieee, -EReal.coe_mul]; norm_num

/-- The lower bound's word: sign 0, exponent 126, fraction 2796203, that is 11184811 · 2⁻²⁴. -/
theorem ofBits_lo : Ideal.ofBits .f32 0x3F2AAAAB#32 = ((11184811 / 16777216 : ℝ) : EReal) := by
  simp [Ideal.ofBits, Ideal.ieee, -EReal.coe_mul]; norm_num

/-- The upper bound's word: sign 0, exponent 127, fraction 4194304, that is 3/2. -/
theorem ofBits_hi : Ideal.ofBits .f32 0x3FC00000#32 = ((3 / 2 : ℝ) : EReal) := by
  simp [Ideal.ofBits, Ideal.ieee, -EReal.coe_mul]; norm_num

/-- The lower bound's word is non-negative. -/
theorem ofBits_lo_nonneg : (0 : EReal) ≤ Ideal.ofBits .f32 0x3F2AAAAB#32 := by
  rw [ofBits_lo]
  exact EReal.coe_nonneg.mpr (by norm_num)

/-- The lower bound's word is below the upper bound's. -/
theorem ofBits_lo_le_hi : Ideal.ofBits .f32 0x3F2AAAAB#32 ≤ Ideal.ofBits .f32 0x3FC00000#32 := by
  rw [ofBits_lo, ofBits_hi]
  exact EReal.coe_le_coe_iff.mpr (by norm_num)

/-- Multiplying by 16384/3125 is dividing by the divisor's word. -/
theorem mul_c_eq_div (x : EReal) :
    x * ((16384 / 3125 : ℝ) : EReal) = Ideal.div x (Ideal.ofBits .f32 0x3E435000#32) := by
  have h : (1 / (3125 / 16384) : ℝ) = 16384 / 3125 := by norm_num
  rw [ofBits_D, Ideal.div_coe (by norm_num) x, h]

/-- The all-zero word denotes 0. -/
theorem ofBits_zero : Ideal.ofBits .f32 0x00000000#32 = 0 := by
  simp [Ideal.ofBits, Ideal.ieee]

end Cert.Spec

end
-- ==== Proof.ResultChain.lean ====
/-
  The value both programs compute for a movable node, from the four launched arguments.

  The reference's result at node j is the gathered node integral (25 products) of the node's bins and lengths
  against its utilisation map: the scattered bin map of the 1,000,000 physical nodes divided by the word of
  3125/16384 and clamped between two words. The kernel program's value at node j is the contracted node integral
  of the same bins and lengths against the map region 0 leaves: the contracted bin map of the 1,000,448 padded
  rows, multiplied by 16384/3125 and clamped between the same words. The padded rows are the reference's stages on
  the node rows and zero below; the bins are below 512 and the lengths non-negative; so the two agree.
-/
import proofs.«155432_j42700564857383_1_alg».proof.Proof.KIHost
import proofs.«155432_j42700564857383_1_alg».proof.Proof.RefTail
import proofs.«155432_j42700564857383_1_alg».proof.Proof.SpecGlue
import proofs.«155432_j42700564857383_1_alg».proof.Proof.SpecConsts

-- memberships decided over the program's 331 references recurse past the default depth
set_option maxRecDepth 1836

noncomputable section

namespace Cert.KernelIdeal.Hand

open Idealize.ShloMosaic Idealize.ShloMosaic.TcCoe Idealize.ShloMosaic.ValueIdx
open Cert.KernelIdeal Cert.KernelIdeal.Gen

/-- The float padding value, the all-zero word, is 0. -/
theorem pad_zero : (FloatOps.ofBits (F := Ideal) .f32 0x00000000#32 : EReal) = 0 := Cert.Spec.ofBits_zero

/-- A value defined on the node rows and padded with the all-zero word is padded with 0. -/
theorem dite_pad {P : Prop} [Decidable P] (A : P → EReal) :
    (if h : P then A h else FloatOps.ofBits (F := Ideal) .f32 0x00000000#32) = if h : P then A h else 0 := by
  rw [pad_zero]

/-- The reference's result at node `j`: the gathered integral against the scattered bin map, divided by the
    word of 3125/16384 and clamped between the two words. -/
theorem ref_result (x0 : Cert.ReferenceIdeal.Hand.Pos) (x1 x2 : Cert.ReferenceIdeal.Hand.Sz)
    (x3 : Cert.ReferenceIdeal.Hand.Pins) (j : Fin 900000) :
    Cert.ReferenceIdeal.Read.val_main_v216 (F := Ideal) x0 x1 x2 x3 (ix1 j)
      = Cert.Spec.outR (fun k => Cert.ReferenceIdeal.Read.val_main_v145 (F := Ideal) x0 (ix2 j k))
          (fun k => Cert.ReferenceIdeal.Read.val_main_v162 (F := Ideal) x0 x1 (ix2 j k))
          (fun k => Cert.ReferenceIdeal.Read.val_main_v178 (F := Ideal) x0 (ix2 j k))
          (fun k => Cert.ReferenceIdeal.Read.val_main_v195 (F := Ideal) x0 x2 (ix2 j k))
          (fun w => if h : w.toNat < 262144 then
            min (Ideal.ofBits .f32 0x3FC00000#32) (max (Ideal.ofBits .f32 0x3F2AAAAB#32)
              (Ideal.div (Cert.Spec.pinR (n := 1000000)
                  (fun p k => Cert.ReferenceIdeal.Read.val_main_v43 (F := Ideal) x0 x1 (ix2 p k))
                  (fun p k => Cert.ReferenceIdeal.Read.val_main_v60 (F := Ideal) x0 x1 (ix2 p k))
                  (fun p k => Cert.ReferenceIdeal.Read.val_main_v78 (F := Ideal) x0 x2 (ix2 p k))
                  (fun p k => Cert.ReferenceIdeal.Read.val_main_v95 (F := Ideal) x0 x2 (ix2 p k))
                  (fun p => Cert.ReferenceIdeal.Read.val_main_v25 (F := Ideal) x1 x2 x3 (ix1 p)) (BitVec.ofNat 32 w.toNat))
                (Ideal.ofBits .f32 0x3E435000#32))) else 0) := by
  rw [Cert.ReferenceIdeal.Hand.ref_out]
  refine congrArg (Cert.Spec.outR _ _ _ _) (funext fun w => ?_)
  by_cases h : w.toNat < 262144
  · rw [dif_pos h, dif_pos h, Cert.ReferenceIdeal.Hand.ref_util, Cert.ReferenceIdeal.Hand.ref_pin]
  · rw [dif_neg h, dif_neg h]

variable (m : (ℓ : Loc nD τ sig) → Buf (Elt Ideal) ℓ) (c : Dev nD)

/-- The contracted integral of node `j`'s bins and lengths against the clamped, scaled bin map of the padded rows
    region 0 reads is the reference's result at node `j`. -/
theorem chain (j : Fin 900000) :
    Cert.Spec.outK (fun k => Cert.ReferenceIdeal.Read.val_main_v145 (F := Ideal) (a0 m c) (ix2 j k))
        (fun k => Cert.ReferenceIdeal.Read.val_main_v162 (F := Ideal) (a0 m c) (a1 m c) (ix2 j k))
        (fun k => Cert.ReferenceIdeal.Read.val_main_v178 (F := Ideal) (a0 m c) (ix2 j k))
        (fun k => Cert.ReferenceIdeal.Read.val_main_v195 (F := Ideal) (a0 m c) (a2 m c) (ix2 j k))
        (fun bx bz => min (Ideal.ofBits .f32 0x3FC00000#32) (max (Ideal.ofBits .f32 0x3F2AAAAB#32)
          (Cert.Spec.pinK (n := 1000448)
            (fun p k => (V22 m c main_v96 : (⟨S1000448x5, .i32⟩ : BufTy).Contents (Elt Ideal)) (ix2 p k))
            (fun p k => (V22 m c main_v97 : (⟨S1000448x5, .f32⟩ : BufTy).Contents (Elt Ideal)) (ix2 p k))
            (fun p k => (V22 m c main_v98 : (⟨S1000448x5, .i32⟩ : BufTy).Contents (Elt Ideal)) (ix2 p k))
            (fun p k => (V22 m c main_v99 : (⟨S1000448x5, .f32⟩ : BufTy).Contents (Elt Ideal)) (ix2 p k))
            (fun p => (V22 m c main_v101 : (⟨S1000448x1, .f32⟩ : BufTy).Contents (Elt Ideal)) (ix2 p 0)) bx bz
            * ((16384 / 3125 : ℝ) : EReal))))
      = Cert.ReferenceIdeal.Read.val_main_v216 (F := Ideal) (a0 m c) (a1 m c) (a2 m c) (a3 m c) (ix1 j) := by
  rw [ref_result]
  exact Cert.Spec.glue
    (fun p k => Cert.ReferenceIdeal.Read.val_main_v43 (F := Ideal) (a0 m c) (a1 m c) (ix2 p k))
    (fun p k => Cert.ReferenceIdeal.Read.val_main_v60 (F := Ideal) (a0 m c) (a1 m c) (ix2 p k))
    (fun p k => Cert.ReferenceIdeal.Read.val_main_v78 (F := Ideal) (a0 m c) (a2 m c) (ix2 p k))
    (fun p k => Cert.ReferenceIdeal.Read.val_main_v95 (F := Ideal) (a0 m c) (a2 m c) (ix2 p k))
    (fun p => Cert.ReferenceIdeal.Read.val_main_v25 (F := Ideal) (a1 m c) (a2 m c) (a3 m c) (ix1 p))
    _ _ _ _ _
    (fun p k => in0_ix m c p k)
    (fun p k => (in0_ovx m c p k).trans (dite_pad _))
    (fun p k => in0_iy m c p k)
    (fun p k => (in0_ovy m c p k).trans (dite_pad _))
    (fun p => (in0_d m c p).trans (dite_pad _))
    (fun p k => Cert.ReferenceIdeal.Hand.ix_range (a0 m c) (a1 m c) (ix2 p k))
    (fun p k => Cert.ReferenceIdeal.Hand.iy_range (a0 m c) (a2 m c) (ix2 p k))
    (fun p k => Cert.ReferenceIdeal.Hand.ovx_nonneg (a0 m c) (a1 m c) (ix2 p k))
    (fun p k => Cert.ReferenceIdeal.Hand.ovy_nonneg (a0 m c) (a2 m c) (ix2 p k))
    _ _ _ _
    (fun k => Cert.ReferenceIdeal.Hand.jx_range (a0 m c) (ix2 j k))
    (fun k => Cert.ReferenceIdeal.Hand.jy_range (a0 m c) (ix2 j k))
    (fun k => Cert.ReferenceIdeal.Hand.wx_nonneg (a0 m c) (a1 m c) (ix2 j k))
    (fun k => Cert.ReferenceIdeal.Hand.wy_nonneg (a0 m c) (a2 m c) (ix2 j k))
    _ _ Cert.Spec.ofBits_lo_nonneg Cert.Spec.ofBits_lo_le_hi
    (fun x => Ideal.div x (Ideal.ofBits .f32 0x3E435000#32)) Cert.Spec.mul_c_eq_div

end Cert.KernelIdeal.Hand

end
-- ==== Proof.ResultEq.lean ====
/-
  The kernel program's result is the reference's.

  At the end of @main the result buffer holds, at node j, row j of what region 1 wrote back: the contracted node
  integral of the node rows region 1 read against the map it read. The node rows are the reference's stages at
  node j; the map is what region 0 wrote back (narrowing the float format changes nothing over the extended
  reals): the contracted bin map of the padded rows region 0 read, scaled and clamped. That value is the
  reference's result at node j.
-/
import proofs.«155432_j42700564857383_1_alg».proof.Proof.KIRun
import proofs.«155432_j42700564857383_1_alg».proof.Proof.KIHost
import proofs.«155432_j42700564857383_1_alg».proof.Proof.KIVal0
import proofs.«155432_j42700564857383_1_alg».proof.Proof.KIVal1
import proofs.«155432_j42700564857383_1_alg».proof.Proof.ResultChain

set_option maxRecDepth 16384

noncomputable section

namespace Cert.KernelIdeal.Hand

open Idealize.ShloMosaic Idealize.ShloMosaic.TcCoe Idealize.ShloMosaic.ValueIdx
open Cert.KernelIdeal Cert.KernelIdeal.Gen

/-- The contracted node integral depends only on the values of its five arguments. -/
theorem outK_congr {jx jx' : Fin 5 → BitVec 32} {wx wx' : Fin 5 → EReal} {jy jy' : Fin 5 → BitVec 32}
    {wy wy' : Fin 5 → EReal} {u u' : Fin 512 → Fin 512 → EReal} (h1 : ∀ k, jx k = jx' k) (h2 : ∀ k, wx k = wx' k)
    (h3 : ∀ k, jy k = jy' k) (h4 : ∀ k, wy k = wy' k) (h5 : ∀ bx bz, u bx bz = u' bx bz) :
    Cert.Spec.outK jx wx jy wy u = Cert.Spec.outK jx' wx' jy' wy' u' := by
  obtain rfl : jx = jx' := funext h1
  obtain rfl : wx = wx' := funext h2
  obtain rfl : jy = jy' := funext h3
  obtain rfl : wy = wy' := funext h4
  obtain rfl : u = u' := funext fun bx => funext fun bz => h5 bx bz
  rfl

variable (m : (ℓ : Loc nD τ sig) → Buf (Elt Ideal) ℓ) (c : Dev nD)

/-- The map region 1 reads, at a bin pair: the bin map of the padded rows region 0 read, scaled by 16384/3125
    and clamped between the two words. -/
theorem map_val (bx bz : Fin 512) :
    (V43 m (outs0 m) c main_v103 : (⟨S512x512, .bf16⟩ : BufTy).Contents (Elt Ideal)) (ix2 bx bz)
      = min (Ideal.ofBits .f32 0x3FC00000#32) (max (Ideal.ofBits .f32 0x3F2AAAAB#32)
          (Cert.Spec.pinK (n := 1000448)
            (fun p k => (V22 m c main_v96 : (⟨S1000448x5, .i32⟩ : BufTy).Contents (Elt Ideal)) (ix2 p k))
            (fun p k => (V22 m c main_v97 : (⟨S1000448x5, .f32⟩ : BufTy).Contents (Elt Ideal)) (ix2 p k))
            (fun p k => (V22 m c main_v98 : (⟨S1000448x5, .i32⟩ : BufTy).Contents (Elt Ideal)) (ix2 p k))
            (fun p k => (V22 m c main_v99 : (⟨S1000448x5, .f32⟩ : BufTy).Contents (Elt Ideal)) (ix2 p k))
            (fun p => (V22 m c main_v101 : (⟨S1000448x1, .f32⟩ : BufTy).Contents (Elt Ideal)) (ix2 p 0)) bx bz
            * ((16384 / 3125 : ℝ) : EReal))) := by
  rw [map_in m (outs0 m) c, truncf_apply]
  show X0 m c (Proc.devRef .tc (Pipeline.arrRef spec0 5)) (ix2 bx bz) = _
  rw [X0_arr m c 5]
  exact final0 (E0 m) c bx bz

/-- The result buffer at node `j`: the contracted integral of the reference's bins and lengths of node `j`
    against the map region 0 left. -/
theorem out_val (j : Fin 900000) :
    (V45 m (outsA m) c main_v182 : (⟨S900000, .f32⟩ : BufTy).Contents (Elt Ideal)) (ix1 j)
      = Cert.Spec.outK (fun k => Cert.ReferenceIdeal.Read.val_main_v145 (F := Ideal) (a0 m c) (ix2 j k))
          (fun k => Cert.ReferenceIdeal.Read.val_main_v162 (F := Ideal) (a0 m c) (a1 m c) (ix2 j k))
          (fun k => Cert.ReferenceIdeal.Read.val_main_v178 (F := Ideal) (a0 m c) (ix2 j k))
          (fun k => Cert.ReferenceIdeal.Read.val_main_v195 (F := Ideal) (a0 m c) (a2 m c) (ix2 j k))
          (fun bx bz => min (Ideal.ofBits .f32 0x3FC00000#32) (max (Ideal.ofBits .f32 0x3F2AAAAB#32)
            (Cert.Spec.pinK (n := 1000448)
              (fun p k => (V22 m c main_v96 : (⟨S1000448x5, .i32⟩ : BufTy).Contents (Elt Ideal)) (ix2 p k))
              (fun p k => (V22 m c main_v97 : (⟨S1000448x5, .f32⟩ : BufTy).Contents (Elt Ideal)) (ix2 p k))
              (fun p k => (V22 m c main_v98 : (⟨S1000448x5, .i32⟩ : BufTy).Contents (Elt Ideal)) (ix2 p k))
              (fun p k => (V22 m c main_v99 : (⟨S1000448x5, .f32⟩ : BufTy).Contents (Elt Ideal)) (ix2 p k))
              (fun p => (V22 m c main_v101 : (⟨S1000448x1, .f32⟩ : BufTy).Contents (Elt Ideal)) (ix2 p 0)) bx bz
              * ((16384 / 3125 : ℝ) : EReal)))) := by
  have hj : j.val < 900096 := by have := j.isLt; omega
  rw [result_out m (outsA m) c j]
  show X1 m c (Proc.devRef .tc (Pipeline.arrRef spec1 5)) (ix2 ⟨j.val, hj⟩ 0) = _
  rw [X1_arr m c 5, final1 (E1 m) c ⟨j.val, hj⟩]
  refine outK_congr (fun k => ?_) (fun k => ?_) (fun k => ?_) (fun k => ?_) (fun bx bz => map_val m c bx bz)
  · exact (in1_jx m (outs0 m) c ⟨j.val, hj⟩ k).trans (dif_pos j.isLt)
  · exact (in1_wx m (outs0 m) c ⟨j.val, hj⟩ k).trans (dif_pos j.isLt)
  · exact (in1_jy m (outs0 m) c ⟨j.val, hj⟩ k).trans (dif_pos j.isLt)
  · exact (in1_wy m (outs0 m) c ⟨j.val, hj⟩ k).trans (dif_pos j.isLt)

/-- The kernel program's result buffer at the end of @main is the reference's result of the launched arguments. -/
theorem result_eq (m : (ℓ : Loc nD τ sig) → Buf (Elt Ideal) ℓ) (c : Dev nD) :
    (V45 m (outsA m) c main_v182 : (⟨S900000, .f32⟩ : BufTy).Contents (Elt Ideal))
      = Cert.ReferenceIdeal.Read.val_main_v216 (F := Ideal) (a0 m c) (a1 m c) (a2 m c) (a3 m c) := by
  funext i
  obtain ⟨j, rfl⟩ : ∃ j, i = ix1 j := ⟨i 0, eq_ix1 i⟩
  exact (out_val m c j).trans (chain m c j)

end Cert.KernelIdeal.Hand

end
-- ==== Proof.lean ====
/-
  The certificate's claim for the pin-utilisation kernel, assembled.

  Both programs take a placement of 1,000,000 physical nodes, of which the first 900,000 are movable, and first
  compute, by the same host operations, for every physical node five consecutive x-bins and five y-bins of a
  512 × 512 grid with the lengths by which the node's stretched box overlaps each of them, and a pin density; and
  the same bins and lengths for every movable node.

  The reference scatters, for every node and every pair of its bins, (x-length · y-length) · density into the
  flattened bin map, divides the map by the bin capacity 3125/16384 and clamps it; then, for every movable node, it
  gathers the clamped map at the 25 flattened indices of its bin pairs and sums x-length · y-length · map over them.

  The kernel pads the node rows with zero rows to whole tiles of 512. Its first call accumulates, tile by tile, the
  product of the matrix of (x-lengths · density) per node and bin with the matrix of y-lengths per node and bin —
  each row a sum of five one-hot selects —, and at the last tile multiplies the sum by 16384/3125 and clamps it. Its
  second call multiplies, per tile, the movable nodes' x-length matrix into that map, multiplies the result entrywise
  by their y-length matrix and sums each row.

  On the extended reals the two agree. A bin index lies in 0 … 511, so a flattened index determines its pair and
  the scatter's and gather's conditions split into the two one-hot conditions; the lengths and the map are
  non-negative, so the products distribute over the five-term sums with no finiteness asked; the padded rows have
  zero lengths and add nothing; and multiplying by 16384/3125 is dividing by 3125/16384. The constant 16384/3125 is
  the one named constant of the idealized kernel: its word is the float 5.2428799, its value at the exact reals the
  rational.

  The five conjuncts: the word-level kernel, the idealized kernel and the idealized reference each run to the end
  with their arguments unchanged; the idealized kernel differs from the word-level one in that named constant only;
  and from memories that agree on the arguments the idealized kernel and the idealized reference end with the same
  result, element by element.
-/
import proofs.«155432_j42700564857383_1_alg».proof.Defs
import proofs.«155432_j42700564857383_1_alg».proof.Proof.Gen.Kernel
import proofs.«155432_j42700564857383_1_alg».proof.Proof.Gen.KernelIdeal
import proofs.«155432_j42700564857383_1_alg».proof.Proof.Gen.ReferenceIdeal
import proofs.«155432_j42700564857383_1_alg».proof.Proof.Gen.Pre_finite_inputs
import proofs.«155432_j42700564857383_1_alg».proof.Proof.KRun
import proofs.«155432_j42700564857383_1_alg».proof.Proof.KIRun
import proofs.«155432_j42700564857383_1_alg».proof.Proof.RefRun
import proofs.«155432_j42700564857383_1_alg».proof.Proof.ResultEq

noncomputable section

namespace Cert.Proof

open Idealize.ShloMosaic Idealize.ShloMosaic.TcCoe Idealize.SL.Sem

/-- The word-level kernel runs to the end and leaves its four arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the idealized reference: its run, with the result's equation dropped. -/
theorem frame_ri : Cert.frame_ReferenceIdeal := fun m ρ _ =>
  (θ_run Cert.ReferenceIdeal.defs _ _).mono (fun _ h c => (h c).2) (Cert.ReferenceIdeal.Hand.run (F := Ideal) m ρ)

/-- The one difference between the two kernels: the scale constant, whose word is the float 5.2428799,
    denotes the rational 16384/3125 at the exact reals. -/
theorem preserves : Cert.preserves_Kernel_KernelIdeal :=
  IdealRules.named_const.statement Cert.KernelIdeal.κ "fold_c_16384_3125" .f32 0x40A7C5AC#32 ((16384 / 3125 : ℝ) : EReal) rfl

/-- From memories that agree on the arguments, the idealized kernel ends with the node integrals it computes from
    its own map, the idealized reference with the gathered sums over its scattered map, and the two are one array. -/
theorem algebraic : Cert.algebraic_KernelIdeal_ReferenceIdeal := by
  intro m ρ m' ρ' _ hagree
  refine ⟨fun c => Cert.KernelIdeal.Gen.V45 m (Cert.KernelIdeal.Hand.outsA m) c Cert.KernelIdeal.main_v182,
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
